-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1195 : Shape := ⟨1, ![1195]⟩
abbrev S2x1048576 : Shape := ⟨2, ![2, 1048576]⟩
abbrev S805 : Shape := ⟨1, ![805]⟩
abbrev S2x4096 : Shape := ⟨2, ![2, 4096]⟩
abbrev S390 : Shape := ⟨1, ![390]⟩
abbrev S16384x390 : Shape := ⟨2, ![16384, 390]⟩
abbrev S1195x64 : Shape := ⟨2, ![1195, 64]⟩
abbrev S64x64 : Shape := ⟨2, ![64, 64]⟩
abbrev S64 : Shape := ⟨1, ![64]⟩
abbrev S_ : Shape := ⟨0, ![]⟩

class Facts : Prop where
  bcast_S_S16384x390 : S_.BroadcastsInDim S16384x390 (![] : Fin 0 → Fin S16384x390.rank)
  reducesTo_S16384x390_S_d0_1 : S16384x390.ReducesTo [0, 1] S_
  h_S_ : 0 < S_.numel
  bcast_S_S1195x64 : S_.BroadcastsInDim S1195x64 (![] : Fin 0 → Fin S1195x64.rank)
  reducesTo_S1195x64_S_d0_1 : S1195x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1195 : S_.BroadcastsInDim S1195 (![] : Fin 0 → Fin S1195.rank)
  reducesTo_S1195_S_d0 : S1195.ReducesTo [0] S_
  bcast_S_S2x1048576 : S_.BroadcastsInDim S2x1048576 (![] : Fin 0 → Fin S2x1048576.rank)
  reducesTo_S2x1048576_S_d0_1 : S2x1048576.ReducesTo [0, 1] S_

variable [Facts]

def fn_part3 {F : FTy → Type} [FloatOps F] (main_arg0 : IVec S1195 32) (main_arg1 : IVec S2x1048576 32) (main_v48 : IVec S_ 1) (main_v50 : IVec S1195 1) : IVec S_ 1 :=
  let main_c_19 : IVec S_ 1 := constantI S_ 1 1#1
  let main_v51 : IVec S_ 1 := (fun x v => Host.reduce IntOp.andi x v reducesTo_S1195_S_d0 h_S_) main_v50 main_c_19
  let main_v52 : IVec S_ 1 := andi main_v48 main_v51
  let main_c_20 : IVec S_ 32 := constantI S_ 32 1195#32
  let main_v53 : IVec S1195 32 := broadcastInDim S1195 ![] bcast_S_S1195 main_c_20
  let main_v54 : IVec S1195 1 := cmpi .slt main_arg0 main_v53
  let main_c_21 : IVec S_ 1 := constantI S_ 1 1#1
  let main_v55 : IVec S_ 1 := (fun x v => Host.reduce IntOp.andi x v reducesTo_S1195_S_d0 h_S_) main_v54 main_c_21
  let main_v56 : IVec S_ 1 := andi main_v52 main_v55
  let main_c_22 : IVec S_ 32 := constantI S_ 32 0#32
  let main_v57 : IVec S2x1048576 32 := broadcastInDim S2x1048576 ![] bcast_S_S2x1048576 main_c_22
  let main_v58 : IVec S2x1048576 1 := cmpi .sge main_arg1 main_v57
  let main_c_23 : IVec S_ 1 := constantI S_ 1 1#1
  let main_v59 : IVec S_ 1 := (fun x v => Host.reduce IntOp.andi x v reducesTo_S2x1048576_S_d0_1 h_S_) main_v58 main_c_23
  let main_v60 : IVec S_ 1 := andi main_v56 main_v59
  let main_c_24 : IVec S_ 32 := constantI S_ 32 1195#32
  let main_v61 : IVec S2x1048576 32 := broadcastInDim S2x1048576 ![] bcast_S_S2x1048576 main_c_24
  let main_v62 : IVec S2x1048576 1 := cmpi .slt main_arg1 main_v61
  let main_c_25 : IVec S_ 1 := constantI S_ 1 1#1
  let main_v63 : IVec S_ 1 := (fun x v => Host.reduce IntOp.andi x v reducesTo_S2x1048576_S_d0_1 h_S_) main_v62 main_c_25
  let main_v64 : IVec S_ 1 := andi main_v60 main_v63
  main_v64

def fn_part2 {F : FTy → Type} [FloatOps F] (main_arg0 : IVec S1195 32) (main_arg1 : IVec S2x1048576 32) (main_arg13 : FVec F S64 .f32) (main_arg14 : FVec F S64 .f32) (main_arg15 : FVec F S64 .f32) (main_v33 : IVec S_ 1) : IVec S_ 1 :=
  let main_v34 : FVec F S64 .f32 := Host.absf main_arg13
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg14
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg15
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S1195 32 := broadcastInDim S1195 ![] bcast_S_S1195 main_c_18
  let main_v50 : IVec S1195 1 := cmpi .sge main_arg0 main_v49
  fn_part3 (F := F) main_arg0 main_arg1 main_v48 main_v50

def fn_part1 {F : FTy → Type} [FloatOps F] (main_arg0 : IVec S1195 32) (main_arg1 : IVec S2x1048576 32) (main_arg10 : FVec F S64x64 .f32) (main_arg11 : FVec F S64 .f32) (main_arg12 : FVec F S64x64 .f32) (main_arg13 : FVec F S64 .f32) (main_arg14 : FVec F S64 .f32) (main_arg15 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg10
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg11
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg12
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg0 main_arg1 main_arg13 main_arg14 main_arg15 main_v33

def fn {F : FTy → Type} [FloatOps F] (main_arg0 : IVec S1195 32) (main_arg1 : IVec S2x1048576 32) (main_arg2 : IVec S805 32) (main_arg3 : IVec S2x4096 32) (main_arg4 : IVec S390 32) (main_arg5 : IVec S2x4096 32) (main_arg6 : FVec F S16384x390 .f32) (main_arg7 : FVec F S1195x64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) : IVec S_ 1 :=
  let main_v0 : FVec F S16384x390 .f32 := Host.absf main_arg6
  let main_cst : FVec F S_ .f32 := constant S_ .f32 0x7F800000#32
  let main_v1 : FVec F S16384x390 .f32 := broadcastInDim S16384x390 ![] bcast_S_S16384x390 main_cst
  let main_v2 : IVec S16384x390 1 := cmpf .olt main_v0 main_v1
  let main_c : IVec S_ 1 := constantI S_ 1 1#1
  let main_v3 : IVec S_ 1 := (fun x v => Host.reduce IntOp.andi x v reducesTo_S16384x390_S_d0_1 h_S_) main_v2 main_c
  let main_v4 : FVec F S1195x64 .f32 := Host.absf main_arg7
  let main_cst_0 : FVec F S_ .f32 := constant S_ .f32 0x7F800000#32
  let main_v5 : FVec F S1195x64 .f32 := broadcastInDim S1195x64 ![] bcast_S_S1195x64 main_cst_0
  let main_v6 : IVec S1195x64 1 := cmpf .olt main_v4 main_v5
  let main_c_1 : IVec S_ 1 := constantI S_ 1 1#1
  let main_v7 : IVec S_ 1 := (fun x v => Host.reduce IntOp.andi x v reducesTo_S1195x64_S_d0_1 h_S_) main_v6 main_c_1
  let main_v8 : IVec S_ 1 := andi main_v3 main_v7
  let main_v9 : FVec F S64x64 .f32 := Host.absf main_arg8
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg9
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg1 main_arg10 main_arg11 main_arg12 main_arg13 main_arg14 main_arg15 main_v13 main_v16
-- ==== Kernel.lean ====
abbrev S1195 : Shape := ⟨1, ![1195]⟩
abbrev S2x1048576 : Shape := ⟨2, ![2, 1048576]⟩
abbrev S805 : Shape := ⟨1, ![805]⟩
abbrev S2x4096 : Shape := ⟨2, ![2, 4096]⟩
abbrev S390 : Shape := ⟨1, ![390]⟩
abbrev S16384x390 : Shape := ⟨2, ![16384, 390]⟩
abbrev S1195x64 : Shape := ⟨2, ![1195, 64]⟩
abbrev S64x64 : Shape := ⟨2, ![64, 64]⟩
abbrev S64 : Shape := ⟨1, ![64]⟩
abbrev S_ : Shape := ⟨0, ![]⟩
abbrev S1195x1 : Shape := ⟨2, ![1195, 1]⟩
abbrev S1 : Shape := ⟨1, ![1]⟩
abbrev S1x1 : Shape := ⟨2, ![1, 1]⟩
abbrev S1x1048576 : Shape := ⟨2, ![1, 1048576]⟩
abbrev S1048576 : Shape := ⟨1, ![1048576]⟩
abbrev S1428025 : Shape := ⟨1, ![1428025]⟩
abbrev S1048576x1 : Shape := ⟨2, ![1048576, 1]⟩
abbrev S1195x1195 : Shape := ⟨2, ![1195, 1195]⟩
abbrev S1x64 : Shape := ⟨2, ![1, 64]⟩
abbrev S805x64 : Shape := ⟨2, ![805, 64]⟩
abbrev S390x64 : Shape := ⟨2, ![390, 64]⟩
abbrev S390x1 : Shape := ⟨2, ![390, 1]⟩
abbrev S805x1 : Shape := ⟨2, ![805, 1]⟩
abbrev S64x805 : Shape := ⟨2, ![64, 805]⟩
abbrev S16384x64 : Shape := ⟨2, ![16384, 64]⟩
abbrev S8x8x64 : Shape := ⟨3, ![8, 8, 64]⟩
abbrev S2048x390 : Shape := ⟨2, ![2048, 390]⟩
abbrev S2048x64 : Shape := ⟨2, ![2048, 64]⟩
abbrev S1x8x64 : Shape := ⟨3, ![1, 8, 64]⟩
abbrev S2048 : Shape := ⟨1, ![2048]⟩
abbrev S2048x1 : Shape := ⟨2, ![2048, 1]⟩
abbrev S8x64 : Shape := ⟨2, ![8, 64]⟩
abbrev S8x1x64 : Shape := ⟨3, ![8, 1, 64]⟩
abbrev S16384x805 : Shape := ⟨2, ![16384, 805]⟩
abbrev S2048x805 : Shape := ⟨2, ![2048, 805]⟩

abbrev nBuf : Space → Nat
  | .hbm => 162
  | .vmem => 16
  | .smem => 0
  | _ => 0

abbrev hbmTy0_0 (i : Nat) : BufTy := match i % 128 with
  | 0 => ⟨S1195, .i32⟩
  | 1 => ⟨S2x1048576, .i32⟩
  | 2 => ⟨S805, .i32⟩
  | 3 => ⟨S2x4096, .i32⟩
  | 4 => ⟨S390, .i32⟩
  | 5 => ⟨S2x4096, .i32⟩
  | 6 => ⟨S16384x390, .f32⟩
  | 7 => ⟨S1195x64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S_, .i32⟩
  | 17 => ⟨S1195, .i32⟩
  | 18 => ⟨S1195, .i1⟩
  | 19 => ⟨S_, .i32⟩
  | 20 => ⟨S1195, .i32⟩
  | 21 => ⟨S1195, .i32⟩
  | 22 => ⟨S1195, .i32⟩
  | 23 => ⟨S1195x1, .i32⟩
  | 24 => ⟨S1, .i32⟩
  | 25 => ⟨S_, .i32⟩
  | 26 => ⟨S1195x1, .i32⟩
  | 27 => ⟨S1195x1, .i1⟩
  | 28 => ⟨S1x1, .i32⟩
  | 29 => ⟨S1195x1, .i32⟩
  | 30 => ⟨S1195x1, .i1⟩
  | 31 => ⟨S1195x1, .i1⟩
  | 32 => ⟨S_, .i1⟩
  | 33 => ⟨S1195, .i1⟩
  | 34 => ⟨S1195x64, .f32⟩
  | 35 => ⟨S1195x64, .i1⟩
  | 36 => ⟨S_, .f32⟩
  | 37 => ⟨S1195x64, .f32⟩
  | 38 => ⟨S1195x64, .f32⟩
  | 39 => ⟨S1x1048576, .i32⟩
  | 40 => ⟨S1048576, .i32⟩
  | 41 => ⟨S1x1048576, .i32⟩
  | 42 => ⟨S1048576, .i32⟩
  | 43 => ⟨S_, .i32⟩
  | 44 => ⟨S1048576, .i32⟩
  | 45 => ⟨S1048576, .i32⟩
  | 46 => ⟨S1048576, .i32⟩
  | 47 => ⟨S_, .f32⟩
  | 48 => ⟨S1048576, .f32⟩
  | 49 => ⟨S_, .f32⟩
  | 50 => ⟨S1428025, .f32⟩
  | 51 => ⟨S1048576x1, .i32⟩
  | 52 => ⟨S1428025, .f32⟩
  | 53 => ⟨S1195x1195, .f32⟩
  | 54 => ⟨S_, .f32⟩
  | 55 => ⟨S1195, .f32⟩
  | 56 => ⟨S64x64, .f32⟩
  | 57 => ⟨S1195x64, .f32⟩
  | 58 => ⟨S1x64, .f32⟩
  | 59 => ⟨S1195x64, .f32⟩
  | 60 => ⟨S1195x64, .f32⟩
  | 61 => ⟨S1195x64, .f32⟩
  | 62 => ⟨S_, .f32⟩
  | 63 => ⟨S1195, .f32⟩
  | 64 => ⟨S1195, .f32⟩
  | 65 => ⟨S1195x1, .f32⟩
  | 66 => ⟨S1195x64, .f32⟩
  | 67 => ⟨S1195x64, .f32⟩
  | 68 => ⟨S1195x64, .f32⟩
  | 69 => ⟨S64x64, .f32⟩
  | 70 => ⟨S1195x64, .f32⟩
  | 71 => ⟨S1x64, .f32⟩
  | 72 => ⟨S1195x64, .f32⟩
  | 73 => ⟨S1195x64, .f32⟩
  | 74 => ⟨S1195x64, .f32⟩
  | 75 => ⟨S_, .f32⟩
  | 76 => ⟨S1195, .f32⟩
  | 77 => ⟨S1195, .f32⟩
  | 78 => ⟨S1195x1, .f32⟩
  | 79 => ⟨S1195x64, .f32⟩
  | 80 => ⟨S1195x64, .f32⟩
  | 81 => ⟨S1195x64, .f32⟩
  | 82 => ⟨S805x64, .f32⟩
  | 83 => ⟨S390x64, .f32⟩
  | 84 => ⟨S805x64, .f32⟩
  | 85 => ⟨S390x64, .f32⟩
  | 86 => ⟨S390x64, .f32⟩
  | 87 => ⟨S_, .f32⟩
  | 88 => ⟨S390, .f32⟩
  | 89 => ⟨S390x1, .f32⟩
  | 90 => ⟨S390x1, .f32⟩
  | 91 => ⟨S_, .f32⟩
  | 92 => ⟨S390x1, .f32⟩
  | 93 => ⟨S390x1, .f32⟩
  | 94 => ⟨S390x64, .f32⟩
  | 95 => ⟨S390x64, .f32⟩
  | 96 => ⟨S390x64, .f32⟩
  | 97 => ⟨S_, .f32⟩
  | 98 => ⟨S64, .f32⟩
  | 99 => ⟨S1x64, .f32⟩
  | 100 => ⟨S1x64, .f32⟩
  | 101 => ⟨S_, .f32⟩
  | 102 => ⟨S1x64, .f32⟩
  | 103 => ⟨S1x64, .f32⟩
  | 104 => ⟨S390x64, .f32⟩
  | 105 => ⟨S390x64, .f32⟩
  | 106 => ⟨S390x64, .f32⟩
  | 107 => ⟨S805x64, .f32⟩
  | 108 => ⟨S_, .f32⟩
  | 109 => ⟨S805, .f32⟩
  | 110 => ⟨S805x1, .f32⟩
  | 111 => ⟨S805x1, .f32⟩
  | 112 => ⟨S_, .f32⟩
  | 113 => ⟨S805x1, .f32⟩
  | 114 => ⟨S805x1, .f32⟩
  | 115 => ⟨S805x64, .f32⟩
  | 116 => ⟨S805x64, .f32⟩
  | 117 => ⟨S805x64, .f32⟩
  | 118 => ⟨S_, .f32⟩
  | 119 => ⟨S64, .f32⟩
  | 120 => ⟨S1x64, .f32⟩
  | 121 => ⟨S1x64, .f32⟩
  | 122 => ⟨S_, .f32⟩
  | 123 => ⟨S1x64, .f32⟩
  | 124 => ⟨S1x64, .f32⟩
  | 125 => ⟨S805x64, .f32⟩
  | 126 => ⟨S805x64, .f32⟩
  | 127 => ⟨S805x64, .f32⟩
  | _ => ⟨S1195, .i32⟩

abbrev hbmTy0_1 (i : Nat) : BufTy := match i % 128 with
  | 0 => ⟨S390x64, .bf16⟩
  | 1 => ⟨S64x64, .f32⟩
  | 2 => ⟨S64x64, .bf16⟩
  | 3 => ⟨S64x805, .f32⟩
  | 4 => ⟨S64x805, .bf16⟩
  | 5 => ⟨S16384x64, .f32⟩
  | 6 => ⟨S8x8x64, .f32⟩
  | 7 => ⟨S8x1x64, .f32⟩
  | 8 => ⟨S8x64, .f32⟩
  | 9 => ⟨S_, .f32⟩
  | 10 => ⟨S64, .f32⟩
  | 11 => ⟨S8x1x64, .f32⟩
  | 12 => ⟨S8x64, .f32⟩
  | 13 => ⟨S_, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S64, .f32⟩
  | 22 => ⟨S64, .f32⟩
  | 23 => ⟨S_, .f32⟩
  | 24 => ⟨S64, .f32⟩
  | 25 => ⟨S64, .f32⟩
  | 26 => ⟨S64, .f32⟩
  | 27 => ⟨S_, .f32⟩
  | 28 => ⟨S64, .f32⟩
  | 29 => ⟨S64, .f32⟩
  | 30 => ⟨S64, .f32⟩
  | 31 => ⟨S64, .f32⟩
  | 32 => ⟨S64, .f32⟩
  | 33 => ⟨S16384x805, .f32⟩
  | _ => ⟨S1195, .i32⟩

abbrev hbmTy (i : Nat) : BufTy := match i / 128 with
  | 0 => hbmTy0_0 i
  | 1 => hbmTy0_1 i
  | _ => ⟨S1195, .i32⟩

abbrev bufTy : (tb : Table) → Fin (tcTables nBuf tb) → BufTy
  | .hbm, ⟨i, _⟩ => hbmTy i
  | .local _ .vmem, ⟨0, _⟩ => ⟨S2048x390, .f32⟩
  | .local _ .vmem, ⟨1, _⟩ => ⟨S2048x390, .f32⟩
  | .local _ .vmem, ⟨2, _⟩ => ⟨S390x64, .bf16⟩
  | .local _ .vmem, ⟨3, _⟩ => ⟨S64x64, .bf16⟩
  | .local _ .vmem, ⟨4, _⟩ => ⟨S64, .f32⟩
  | .local _ .vmem, ⟨5, _⟩ => ⟨S2048x64, .f32⟩
  | .local _ .vmem, ⟨6, _⟩ => ⟨S2048x64, .f32⟩
  | .local _ .vmem, ⟨7, _⟩ => ⟨S1x8x64, .f32⟩
  | .local _ .vmem, ⟨8, _⟩ => ⟨S1x8x64, .f32⟩
  | .local _ .vmem, ⟨9, _⟩ => ⟨S2048x64, .f32⟩
  | .local _ .vmem, ⟨10, _⟩ => ⟨S2048x64, .f32⟩
  | .local _ .vmem, ⟨11, _⟩ => ⟨S64, .f32⟩
  | .local _ .vmem, ⟨12, _⟩ => ⟨S64, .f32⟩
  | .local _ .vmem, ⟨13, _⟩ => ⟨S64x805, .bf16⟩
  | .local _ .vmem, ⟨14, _⟩ => ⟨S2048x805, .f32⟩
  | .local _ .vmem, ⟨15, _⟩ => ⟨S2048x805, .f32⟩
  | _, _ => ⟨S1195, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_c : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst : Ref sig .tc := ⟨.hbm, 47, rfl⟩
abbrev main_v8 : Ref sig .tc := ⟨.hbm, 48, rfl⟩
abbrev main_cst_0 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_cst_1 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_cst_2 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_3 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_4 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_5 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_6 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_7 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_8 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_9 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst_10 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_11 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81_0 : Ref sig .tc := ⟨.hbm, 133, rfl⟩
abbrev main_v81_1 : Ref sig .tc := ⟨.hbm, 134, rfl⟩
abbrev main_v82 : Ref sig .tc := ⟨.hbm, 135, rfl⟩
abbrev main_v83 : Ref sig .tc := ⟨.hbm, 136, rfl⟩
abbrev main_cst_12 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_13 : Ref sig .tc := ⟨.hbm, 141, rfl⟩
abbrev main_v87 : Ref sig .tc := ⟨.hbm, 142, rfl⟩
abbrev main_cst_14 : Ref sig .tc := ⟨.hbm, 143, rfl⟩
abbrev main_v88 : Ref sig .tc := ⟨.hbm, 144, rfl⟩
abbrev main_v89 : Ref sig .tc := ⟨.hbm, 145, rfl⟩
abbrev main_cst_15 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_16 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_cst_17 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x390 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S390x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x805 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x805 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1195 : S_.BroadcastsInDim S1195 (![] : Fin 0 → Fin S1195.rank)
  bcast_S1195_S1195x1_0 : S1195.BroadcastsInDim S1195x1 (![0] : Fin 1 → Fin S1195x1.rank)
  bcast_S_S1195x1 : S_.BroadcastsInDim S1195x1 (![] : Fin 0 → Fin S1195x1.rank)
  bcast_S1_S1x1_1 : S1.BroadcastsInDim S1x1 (![1] : Fin 1 → Fin S1x1.rank)
  bcast_S1x1_S1195x1_0_1 : S1x1.BroadcastsInDim S1195x1 (![0, 1] : Fin 2 → Fin S1195x1.rank)
  reducesTo_S1195x1_S1195_d1 : S1195x1.ReducesTo [1] S1195
  h_S_ : 0 < S_.numel
  bcast_S1195_S1195x64_0 : S1195.BroadcastsInDim S1195x64 (![0] : Fin 1 → Fin S1195x64.rank)
  bcast_S_S1195x64 : S_.BroadcastsInDim S1195x64 (![] : Fin 0 → Fin S1195x64.rank)
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S_S1428025 : S_.BroadcastsInDim S1428025 (![] : Fin 0 → Fin S1428025.rank)
  bcast_S1048576_S1048576x1_0 : S1048576.BroadcastsInDim S1048576x1 (![0] : Fin 1 → Fin S1048576x1.rank)
  shapeCasts_S1428025_S1195x1195 : S1428025.ShapeCasts S1195x1195
  reducesTo_S1195x1195_S1195_d1 : S1195x1195.ReducesTo [1] S1195
  transposes_S64x64_S64x64_1_0 : S64x64.Transposes [1, 0] S64x64
  bcast_S64_S1x64_1 : S64.BroadcastsInDim S1x64 (![1] : Fin 1 → Fin S1x64.rank)
  bcast_S1x64_S1195x64_0_1 : S1x64.BroadcastsInDim S1195x64 (![0, 1] : Fin 2 → Fin S1195x64.rank)
  bcast_S1195x1_S1195x64_0_1 : S1195x1.BroadcastsInDim S1195x64 (![0, 1] : Fin 2 → Fin S1195x64.rank)
  slices_S1195x64_S805x64_0_0 : S1195x64.Slices ![0, 0] S805x64
  slices_S1195x64_S390x64_805_0 : S1195x64.Slices ![805, 0] S390x64
  reducesTo_S390x64_S390_d1 : S390x64.ReducesTo [1] S390
  bcast_S390_S390x1_0 : S390.BroadcastsInDim S390x1 (![0] : Fin 1 → Fin S390x1.rank)
  bcast_S_S390x1 : S_.BroadcastsInDim S390x1 (![] : Fin 0 → Fin S390x1.rank)
  bcast_S390x1_S390x64_0_1 : S390x1.BroadcastsInDim S390x64 (![0, 1] : Fin 2 → Fin S390x64.rank)
  reducesTo_S390x64_S64_d0 : S390x64.ReducesTo [0] S64
  bcast_S_S1x64 : S_.BroadcastsInDim S1x64 (![] : Fin 0 → Fin S1x64.rank)
  bcast_S1x64_S390x64_0_1 : S1x64.BroadcastsInDim S390x64 (![0, 1] : Fin 2 → Fin S390x64.rank)
  reducesTo_S805x64_S805_d1 : S805x64.ReducesTo [1] S805
  bcast_S805_S805x1_0 : S805.BroadcastsInDim S805x1 (![0] : Fin 1 → Fin S805x1.rank)
  bcast_S_S805x1 : S_.BroadcastsInDim S805x1 (![] : Fin 0 → Fin S805x1.rank)
  bcast_S805x1_S805x64_0_1 : S805x1.BroadcastsInDim S805x64 (![0, 1] : Fin 2 → Fin S805x64.rank)
  reducesTo_S805x64_S64_d0 : S805x64.ReducesTo [0] S64
  bcast_S1x64_S805x64_0_1 : S1x64.BroadcastsInDim S805x64 (![0, 1] : Fin 2 → Fin S805x64.rank)
  bitsLt_bf16_f32 : FTy.bits .bf16 < FTy.bits .f32
  transposes_S805x64_S64x805_1_0 : S805x64.Transposes [1, 0] S64x805
  inb_S2048x390_S2048x390_0_0 : ∀ a, (![0, 0] : Fin 2 → Nat) a + S2048x390.size a ≤ S2048x390.size a
  h_S2048x390 : 0 < S2048x390.numel
  inb_S390x64_S390x64_0_0 : ∀ a, (![0, 0] : Fin 2 → Nat) a + S390x64.size a ≤ S390x64.size a
  h_S390x64 : 0 < S390x64.numel
  shapeCasts_S390x64_S390x64 : S390x64.ShapeCasts S390x64
  reduces_S2048x390_S2048 : S2048x390.Reduces [1] S2048
  shapeCasts_S2048_S2048x1 : S2048.ShapeCasts S2048x1
  broadcasts_S2048x1_S2048x64 : S2048x1.Broadcasts S2048x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  reduces_S2048x64_S64 : S2048x64.Reduces [0] S64
  iota_S8x64_d0_w32 : S8x64.Iotas .tc 32 [0]
  shapeCasts_S1x64_S1x64 : S1x64.ShapeCasts S1x64
  broadcasts_S1x64_S8x64 : S1x64.Broadcasts S8x64
  inb_S1x8x64_S1x8x64_0_0_0 : ∀ a, (![0, 0, 0] : Fin 3 → Nat) a + S1x8x64.size a ≤ S1x8x64.size a
  h_S1x8x64 : 0 < S1x8x64.numel
  shapeCasts_S1x8x64_S8x64 : S1x8x64.ShapeCasts S8x64
  shapeCasts_S8x64_S1x8x64 : S8x64.ShapeCasts S1x8x64
  slices_S8x8x64_S8x1x64_0_0_0 : S8x8x64.Slices ![0, 0, 0] S8x1x64
  shapeCasts_S8x1x64_S8x64 : S8x1x64.ShapeCasts S8x64
  reducesTo_S8x64_S64_d0 : S8x64.ReducesTo [0] S64
  slices_S8x8x64_S8x1x64_0_1_0 : S8x8x64.Slices ![0, 1, 0] S8x1x64
  bcast_S_S64 : S_.BroadcastsInDim S64 (![] : Fin 0 → Fin S64.rank)
  shapeCasts_S2048x64_S2048x64 : S2048x64.ShapeCasts S2048x64
  shapeCasts_S64_S64 : S64.ShapeCasts S64
  inb_S64x805_S64x805_0_0 : ∀ a, (![0, 0] : Fin 2 → Nat) a + S64x805.size a ≤ S64x805.size a
  h_S64x805 : 0 < S64x805.numel
  shapeCasts_S64x805_S64x805 : S64x805.ShapeCasts S64x805
  inb_S2048x805_S2048x805_0_0 : ∀ a, (![0, 0] : Fin 2 → Nat) a + S2048x805.size a ≤ S2048x805.size a
  h_S2048x805 : 0 < S2048x805.numel
  gather_S1195x64_S1195x1_S1195x64_1_0_n_n_0_1_164_wf : GatherDims.WF S1195x64 S1195x1 S1195x64 [1] [0] [] [0] [] 1 ![1, 64]
  scatter_S1428025_S1048576x1_S1048576_n_0_0_1_wf : ScatterDims.WF S1428025 S1048576x1 S1048576 [] [0] [0] 1
  dot_S1195x64_S64x64_S1195x64_1_0_0_1_n_n_wf : DotDims.WF S1195x64 S64x64 S1195x64 [1] [0] [0] [1] [] []
  dot_S1195x1195_S1195x64_S1195x64_1_0_0_1_n_n_wf : DotDims.WF S1195x1195 S1195x64 S1195x64 [1] [0] [0] [1] [] []
  dot_S2048x390_S390x64_S2048x64_1_0_0_1_n_n_wf : DotDims.WF S2048x390 S390x64 S2048x64 [1] [0] [0] [1] [] []
  dot_S2048x64_S64x64_S2048x64_1_0_0_1_n_n_wf : DotDims.WF S2048x64 S64x64 S2048x64 [1] [0] [0] [1] [] []
  dot_S2048x64_S64x805_S2048x805_1_0_0_1_n_n_wf : DotDims.WF S2048x64 S64x805 S2048x805 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x390.size a ≤ S16384x390.size a
  hwx0_0 : ∀ i : grid0.Coords, EltTy.bits .f32 = 32 ∨ (Rect.block (s := S16384x390) S2048x390.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S390x64.size a ≤ S390x64.size a
  hwx0_1 : ∀ i : grid0.Coords, EltTy.bits .bf16 = 32 ∨ (Rect.block (s := S390x64) S390x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S16384x64.size a
  hwx0_4 : ∀ i : grid0.Coords, EltTy.bits .f32 = 32 ∨ (Rect.block (s := S16384x64) S2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x64.size a ≤ S8x8x64.size a
  hwx0_5 : ∀ i : grid0.Coords, EltTy.bits .f32 = 32 ∨ (Rect.block (s := S8x8x64) S1x8x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x805.size a ≤ S64x805.size a
  hwx1_3 : ∀ i : grid1.Coords, EltTy.bits .bf16 = 32 ∨ (Rect.block (s := S64x805) S64x805.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x805.size a ≤ S16384x805.size a
  hwx1_4 : ∀ i : grid1.Coords, EltTy.bits .f32 = 32 ∨ (Rect.block (s := S16384x805) S2048x805.size (cc1_transform_4 i) (hinb1_4 i)).WholeWords (EltTy.packing .f32)

variable [Facts₀]

def gather_S1195x64_S1195x1_S1195x64_1_0_n_n_0_1_164 : GatherDims S1195x64 S1195x1 S1195x64 where
  offsetDims := [1]
  collapsedSliceDims := [0]
  operandBatchingDims := []
  startIndicesBatchingDims := []
  startIndexMap := [0]
  indexVectorDim := 1
  sliceSizes := ![1, 64]
  wf := gather_S1195x64_S1195x1_S1195x64_1_0_n_n_0_1_164_wf
def scatter_S1428025_S1048576x1_S1048576_n_0_0_1 : ScatterDims S1428025 S1048576x1 S1048576 where
  updateWindowDims := []
  insertedWindowDims := [0]
  scatterDimsToOperandDims := [0]
  indexVectorDim := 1
  wf := scatter_S1428025_S1048576x1_S1048576_n_0_0_1_wf
def dot_S1195x64_S64x64_S1195x64_1_0_0_1_n_n : DotDims S1195x64 S64x64 S1195x64 where
  lhsContracting := [1]
  rhsContracting := [0]
  lhsNonContracting := [0]
  rhsNonContracting := [1]
  lhsBatch := []
  rhsBatch := []
  wf := dot_S1195x64_S64x64_S1195x64_1_0_0_1_n_n_wf
def dot_S1195x1195_S1195x64_S1195x64_1_0_0_1_n_n : DotDims S1195x1195 S1195x64 S1195x64 where
  lhsContracting := [1]
  rhsContracting := [0]
  lhsNonContracting := [0]
  rhsNonContracting := [1]
  lhsBatch := []
  rhsBatch := []
  wf := dot_S1195x1195_S1195x64_S1195x64_1_0_0_1_n_n_wf
def dot_S2048x390_S390x64_S2048x64_1_0_0_1_n_n : DotDims S2048x390 S390x64 S2048x64 where
  lhsContracting := [1]
  rhsContracting := [0]
  lhsNonContracting := [0]
  rhsNonContracting := [1]
  lhsBatch := []
  rhsBatch := []
  wf := dot_S2048x390_S390x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x805_S2048x805_1_0_0_1_n_n : DotDims S2048x64 S64x805 S2048x805 where
  lhsContracting := [1]
  rhsContracting := [0]
  lhsNonContracting := [0]
  rhsNonContracting := [1]
  lhsBatch := []
  rhsBatch := []
  wf := dot_S2048x64_S64x805_S2048x805_1_0_0_1_n_n_wf

abbrev win0_0 : Pipeline.Window sig grid0 :=
  Pipeline.Window.ofSpec (Memref.whole main_arg6) S2048x390.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v76) S390x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v78) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg13) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v81_0) S2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v81_1) S1x8x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v81_0) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v99) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v101) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v80) S64x805.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v102) S2048x805.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1195 : Shape := ⟨1, ![1195]⟩
abbrev S2x1048576 : Shape := ⟨2, ![2, 1048576]⟩
abbrev S805 : Shape := ⟨1, ![805]⟩
abbrev S2x4096 : Shape := ⟨2, ![2, 4096]⟩
abbrev S390 : Shape := ⟨1, ![390]⟩
abbrev S16384x390 : Shape := ⟨2, ![16384, 390]⟩
abbrev S1195x64 : Shape := ⟨2, ![1195, 64]⟩
abbrev S64x64 : Shape := ⟨2, ![64, 64]⟩
abbrev S64 : Shape := ⟨1, ![64]⟩
abbrev S_ : Shape := ⟨0, ![]⟩
abbrev S1195x1 : Shape := ⟨2, ![1195, 1]⟩
abbrev S1x1048576 : Shape := ⟨2, ![1, 1048576]⟩
abbrev S1048576 : Shape := ⟨1, ![1048576]⟩
abbrev S1048576x1 : Shape := ⟨2, ![1048576, 1]⟩
abbrev S1048576x64 : Shape := ⟨2, ![1048576, 64]⟩
abbrev S1x64 : Shape := ⟨2, ![1, 64]⟩
abbrev S805x64 : Shape := ⟨2, ![805, 64]⟩
abbrev S390x64 : Shape := ⟨2, ![390, 64]⟩
abbrev S390x1 : Shape := ⟨2, ![390, 1]⟩
abbrev S805x1 : Shape := ⟨2, ![805, 1]⟩
abbrev S16384x64 : Shape := ⟨2, ![16384, 64]⟩
abbrev S16384 : Shape := ⟨1, ![16384]⟩
abbrev S16384x1 : Shape := ⟨2, ![16384, 1]⟩
abbrev S64x805 : Shape := ⟨2, ![64, 805]⟩
abbrev S16384x805 : Shape := ⟨2, ![16384, 805]⟩

abbrev nBuf : Space → Nat
  | .hbm => 201
  | .vmem => 0
  | .smem => 0
  | _ => 0

abbrev hbmTy0_0 (i : Nat) : BufTy := match i % 128 with
  | 0 => ⟨S1195, .i32⟩
  | 1 => ⟨S2x1048576, .i32⟩
  | 2 => ⟨S805, .i32⟩
  | 3 => ⟨S2x4096, .i32⟩
  | 4 => ⟨S390, .i32⟩
  | 5 => ⟨S2x4096, .i32⟩
  | 6 => ⟨S16384x390, .f32⟩
  | 7 => ⟨S1195x64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S_, .i32⟩
  | 17 => ⟨S1195, .i32⟩
  | 18 => ⟨S1195, .i1⟩
  | 19 => ⟨S_, .i32⟩
  | 20 => ⟨S1195, .i32⟩
  | 21 => ⟨S1195, .i32⟩
  | 22 => ⟨S1195, .i32⟩
  | 23 => ⟨S1195x1, .i32⟩
  | 24 => ⟨S1195x64, .f32⟩
  | 25 => ⟨S1x1048576, .i32⟩
  | 26 => ⟨S1048576, .i32⟩
  | 27 => ⟨S1x1048576, .i32⟩
  | 28 => ⟨S1048576, .i32⟩
  | 29 => ⟨S_, .i32⟩
  | 30 => ⟨S1048576, .i32⟩
  | 31 => ⟨S1048576, .i1⟩
  | 32 => ⟨S_, .i32⟩
  | 33 => ⟨S1048576, .i32⟩
  | 34 => ⟨S1048576, .i32⟩
  | 35 => ⟨S1048576, .i32⟩
  | 36 => ⟨S1048576x1, .i32⟩
  | 37 => ⟨S1048576x64, .f32⟩
  | 38 => ⟨S64x64, .f32⟩
  | 39 => ⟨S1048576x64, .f32⟩
  | 40 => ⟨S1x64, .f32⟩
  | 41 => ⟨S1048576x64, .f32⟩
  | 42 => ⟨S1048576x64, .f32⟩
  | 43 => ⟨S_, .f32⟩
  | 44 => ⟨S1195x64, .f32⟩
  | 45 => ⟨S1048576x1, .i32⟩
  | 46 => ⟨S1195x64, .f32⟩
  | 47 => ⟨S_, .f32⟩
  | 48 => ⟨S1048576, .f32⟩
  | 49 => ⟨S_, .f32⟩
  | 50 => ⟨S1195, .f32⟩
  | 51 => ⟨S1048576x1, .i32⟩
  | 52 => ⟨S1195, .f32⟩
  | 53 => ⟨S_, .f32⟩
  | 54 => ⟨S1195, .f32⟩
  | 55 => ⟨S1195, .f32⟩
  | 56 => ⟨S1195x1, .f32⟩
  | 57 => ⟨S1195x64, .f32⟩
  | 58 => ⟨S1195x64, .f32⟩
  | 59 => ⟨S1195x64, .f32⟩
  | 60 => ⟨S1x1048576, .i32⟩
  | 61 => ⟨S1048576, .i32⟩
  | 62 => ⟨S1x1048576, .i32⟩
  | 63 => ⟨S1048576, .i32⟩
  | 64 => ⟨S_, .i32⟩
  | 65 => ⟨S1048576, .i32⟩
  | 66 => ⟨S1048576, .i1⟩
  | 67 => ⟨S_, .i32⟩
  | 68 => ⟨S1048576, .i32⟩
  | 69 => ⟨S1048576, .i32⟩
  | 70 => ⟨S1048576, .i32⟩
  | 71 => ⟨S1048576x1, .i32⟩
  | 72 => ⟨S1048576x64, .f32⟩
  | 73 => ⟨S64x64, .f32⟩
  | 74 => ⟨S1048576x64, .f32⟩
  | 75 => ⟨S1x64, .f32⟩
  | 76 => ⟨S1048576x64, .f32⟩
  | 77 => ⟨S1048576x64, .f32⟩
  | 78 => ⟨S_, .f32⟩
  | 79 => ⟨S1195x64, .f32⟩
  | 80 => ⟨S1048576x1, .i32⟩
  | 81 => ⟨S1195x64, .f32⟩
  | 82 => ⟨S_, .f32⟩
  | 83 => ⟨S1048576, .f32⟩
  | 84 => ⟨S_, .f32⟩
  | 85 => ⟨S1195, .f32⟩
  | 86 => ⟨S1048576x1, .i32⟩
  | 87 => ⟨S1195, .f32⟩
  | 88 => ⟨S_, .f32⟩
  | 89 => ⟨S1195, .f32⟩
  | 90 => ⟨S1195, .f32⟩
  | 91 => ⟨S1195x1, .f32⟩
  | 92 => ⟨S1195x64, .f32⟩
  | 93 => ⟨S1195x64, .f32⟩
  | 94 => ⟨S1195x64, .f32⟩
  | 95 => ⟨S805x64, .f32⟩
  | 96 => ⟨S390x64, .f32⟩
  | 97 => ⟨S805x64, .f32⟩
  | 98 => ⟨S390x64, .f32⟩
  | 99 => ⟨S390x64, .f32⟩
  | 100 => ⟨S_, .f32⟩
  | 101 => ⟨S390, .f32⟩
  | 102 => ⟨S390x1, .f32⟩
  | 103 => ⟨S390x1, .f32⟩
  | 104 => ⟨S_, .f32⟩
  | 105 => ⟨S390x1, .f32⟩
  | 106 => ⟨S390x1, .f32⟩
  | 107 => ⟨S390x64, .f32⟩
  | 108 => ⟨S390x64, .f32⟩
  | 109 => ⟨S390x64, .f32⟩
  | 110 => ⟨S_, .f32⟩
  | 111 => ⟨S64, .f32⟩
  | 112 => ⟨S1x64, .f32⟩
  | 113 => ⟨S1x64, .f32⟩
  | 114 => ⟨S_, .f32⟩
  | 115 => ⟨S1x64, .f32⟩
  | 116 => ⟨S1x64, .f32⟩
  | 117 => ⟨S390x64, .f32⟩
  | 118 => ⟨S390x64, .f32⟩
  | 119 => ⟨S390x64, .f32⟩
  | 120 => ⟨S805x64, .f32⟩
  | 121 => ⟨S_, .f32⟩
  | 122 => ⟨S805, .f32⟩
  | 123 => ⟨S805x1, .f32⟩
  | 124 => ⟨S805x1, .f32⟩
  | 125 => ⟨S_, .f32⟩
  | 126 => ⟨S805x1, .f32⟩
  | 127 => ⟨S805x1, .f32⟩
  | _ => ⟨S1195, .i32⟩

abbrev hbmTy0_1 (i : Nat) : BufTy := match i % 128 with
  | 0 => ⟨S805x64, .f32⟩
  | 1 => ⟨S805x64, .f32⟩
  | 2 => ⟨S805x64, .f32⟩
  | 3 => ⟨S_, .f32⟩
  | 4 => ⟨S64, .f32⟩
  | 5 => ⟨S1x64, .f32⟩
  | 6 => ⟨S1x64, .f32⟩
  | 7 => ⟨S_, .f32⟩
  | 8 => ⟨S1x64, .f32⟩
  | 9 => ⟨S1x64, .f32⟩
  | 10 => ⟨S805x64, .f32⟩
  | 11 => ⟨S805x64, .f32⟩
  | 12 => ⟨S805x64, .f32⟩
  | 13 => ⟨S16384x64, .f32⟩
  | 14 => ⟨S_, .f32⟩
  | 15 => ⟨S16384, .f32⟩
  | 16 => ⟨S16384x1, .f32⟩
  | 17 => ⟨S16384x64, .f32⟩
  | 18 => ⟨S16384x64, .f32⟩
  | 19 => ⟨S64x64, .f32⟩
  | 20 => ⟨S16384x64, .f32⟩
  | 21 => ⟨S1x64, .f32⟩
  | 22 => ⟨S16384x64, .f32⟩
  | 23 => ⟨S16384x64, .f32⟩
  | 24 => ⟨S_, .f32⟩
  | 25 => ⟨S64, .f32⟩
  | 26 => ⟨S_, .f32⟩
  | 27 => ⟨S64, .f32⟩
  | 28 => ⟨S64, .f32⟩
  | 29 => ⟨S_, .i32⟩
  | 30 => ⟨S_, .f32⟩
  | 31 => ⟨S64, .f32⟩
  | 32 => ⟨S1x64, .f32⟩
  | 33 => ⟨S_, .f32⟩
  | 34 => ⟨S1x64, .f32⟩
  | 35 => ⟨S1x64, .f32⟩
  | 36 => ⟨S16384x64, .f32⟩
  | 37 => ⟨S16384x64, .f32⟩
  | 38 => ⟨S16384x64, .f32⟩
  | 39 => ⟨S_, .f32⟩
  | 40 => ⟨S_, .f32⟩
  | 41 => ⟨S_, .f32⟩
  | 42 => ⟨S_, .f32⟩
  | 43 => ⟨S64, .f32⟩
  | 44 => ⟨S64, .f32⟩
  | 45 => ⟨S64, .f32⟩
  | 46 => ⟨S_, .f32⟩
  | 47 => ⟨S_, .i1⟩
  | 48 => ⟨S_, .f32⟩
  | 49 => ⟨S_, .f32⟩
  | 50 => ⟨S64, .f32⟩
  | 51 => ⟨S64, .f32⟩
  | 52 => ⟨S1x64, .f32⟩
  | 53 => ⟨S16384x64, .f32⟩
  | 54 => ⟨S16384x64, .f32⟩
  | 55 => ⟨S_, .f32⟩
  | 56 => ⟨S64, .f32⟩
  | 57 => ⟨S64, .f32⟩
  | 58 => ⟨S64, .f32⟩
  | 59 => ⟨S1x64, .f32⟩
  | 60 => ⟨S16384x64, .f32⟩
  | 61 => ⟨S16384x64, .f32⟩
  | 62 => ⟨S1x64, .f32⟩
  | 63 => ⟨S16384x64, .f32⟩
  | 64 => ⟨S16384x64, .f32⟩
  | 65 => ⟨S1x64, .f32⟩
  | 66 => ⟨S16384x64, .f32⟩
  | 67 => ⟨S16384x64, .f32⟩
  | 68 => ⟨S_, .f32⟩
  | 69 => ⟨S16384x64, .f32⟩
  | 70 => ⟨S16384x64, .f32⟩
  | 71 => ⟨S64x805, .f32⟩
  | 72 => ⟨S16384x805, .f32⟩
  | _ => ⟨S1195, .i32⟩

abbrev hbmTy (i : Nat) : BufTy := match i / 128 with
  | 0 => hbmTy0_0 i
  | 1 => hbmTy0_1 i
  | _ => ⟨S1195, .i32⟩

abbrev bufTy : (tb : Table) → Fin (tcTables nBuf tb) → BufTy
  | .hbm, ⟨i, _⟩ => hbmTy i
  | _, _ => ⟨S1195, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_6 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_12 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_13 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_15 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_16 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_17 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_18 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_19 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_20 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_21 : Ref sig .tc := ⟨.hbm, 152, rfl⟩
abbrev main_v113 : Ref sig .tc := ⟨.hbm, 153, rfl⟩
abbrev main_cst_22 : Ref sig .tc := ⟨.hbm, 154, rfl⟩
abbrev main_v114 : Ref sig .tc := ⟨.hbm, 155, rfl⟩
abbrev main_v115 : Ref sig .tc := ⟨.hbm, 156, rfl⟩
abbrev main_c_23 : Ref sig .tc := ⟨.hbm, 157, rfl⟩
abbrev main_call0_cst : Ref sig .tc := ⟨.hbm, 158, rfl⟩
abbrev main_call0_v0 : Ref sig .tc := ⟨.hbm, 159, rfl⟩
abbrev main_call0_v1 : Ref sig .tc := ⟨.hbm, 160, rfl⟩
abbrev main_call0_cst_0 : Ref sig .tc := ⟨.hbm, 161, rfl⟩
abbrev main_call0_v2 : Ref sig .tc := ⟨.hbm, 162, rfl⟩
abbrev main_call0_v3 : Ref sig .tc := ⟨.hbm, 163, rfl⟩
abbrev main_call0_v4 : Ref sig .tc := ⟨.hbm, 164, rfl⟩
abbrev main_call0_v5 : Ref sig .tc := ⟨.hbm, 165, rfl⟩
abbrev main_call0_v6 : Ref sig .tc := ⟨.hbm, 166, rfl⟩
abbrev main_call0_v7 : Ref sig .tc := ⟨.hbm, 167, rfl⟩
abbrev main_call0_cst_1 : Ref sig .tc := ⟨.hbm, 168, rfl⟩
abbrev main_call0_v8 : Ref sig .tc := ⟨.hbm, 169, rfl⟩
abbrev main_call0_cst_2 : Ref sig .tc := ⟨.hbm, 170, rfl⟩
abbrev main_call0_v9 : Ref sig .tc := ⟨.hbm, 171, rfl⟩
abbrev main_call0_v10 : Ref sig .tc := ⟨.hbm, 172, rfl⟩
abbrev main_call0_v11 : Ref sig .tc := ⟨.hbm, 173, rfl⟩
abbrev main_call0_cst_3 : Ref sig .tc := ⟨.hbm, 174, rfl⟩
abbrev main_call0_v12 : Ref sig .tc := ⟨.hbm, 175, rfl⟩
abbrev main_call0_cst_4 : Ref sig .tc := ⟨.hbm, 176, rfl⟩
abbrev main_call0_call0_v0 : Ref sig .tc := ⟨.hbm, 177, rfl⟩
abbrev main_call0_call0_v1 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_cst_24 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_call1_cst : Ref sig .tc := ⟨.hbm, 196, rfl⟩
abbrev main_call1_v0 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩

abbrev nD : Nat := 1
abbrev τ : Topo := Topo.v7x

variable {F : FTy → Type} [FloatOps F]

class Facts₀ : Prop where
  bcast_S_S1195 : S_.BroadcastsInDim S1195 (![] : Fin 0 → Fin S1195.rank)
  bcast_S1195_S1195x1_0 : S1195.BroadcastsInDim S1195x1 (![0] : Fin 1 → Fin S1195x1.rank)
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  transposes_S64x64_S64x64_1_0 : S64x64.Transposes [1, 0] S64x64
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1195x64 : S_.BroadcastsInDim S1195x64 (![] : Fin 0 → Fin S1195x64.rank)
  bcast_S1195x1_S1195x64_0_1 : S1195x1.BroadcastsInDim S1195x64 (![0, 1] : Fin 2 → Fin S1195x64.rank)
  slices_S1195x64_S805x64_0_0 : S1195x64.Slices ![0, 0] S805x64
  slices_S1195x64_S390x64_805_0 : S1195x64.Slices ![805, 0] S390x64
  reducesTo_S390x64_S390_d1 : S390x64.ReducesTo [1] S390
  h_S_ : 0 < S_.numel
  bcast_S390_S390x1_0 : S390.BroadcastsInDim S390x1 (![0] : Fin 1 → Fin S390x1.rank)
  bcast_S_S390x1 : S_.BroadcastsInDim S390x1 (![] : Fin 0 → Fin S390x1.rank)
  bcast_S390x1_S390x64_0_1 : S390x1.BroadcastsInDim S390x64 (![0, 1] : Fin 2 → Fin S390x64.rank)
  reducesTo_S390x64_S64_d0 : S390x64.ReducesTo [0] S64
  bcast_S_S1x64 : S_.BroadcastsInDim S1x64 (![] : Fin 0 → Fin S1x64.rank)
  bcast_S1x64_S390x64_0_1 : S1x64.BroadcastsInDim S390x64 (![0, 1] : Fin 2 → Fin S390x64.rank)
  reducesTo_S805x64_S805_d1 : S805x64.ReducesTo [1] S805
  bcast_S805_S805x1_0 : S805.BroadcastsInDim S805x1 (![0] : Fin 1 → Fin S805x1.rank)
  bcast_S_S805x1 : S_.BroadcastsInDim S805x1 (![] : Fin 0 → Fin S805x1.rank)
  bcast_S805x1_S805x64_0_1 : S805x1.BroadcastsInDim S805x64 (![0, 1] : Fin 2 → Fin S805x64.rank)
  reducesTo_S805x64_S64_d0 : S805x64.ReducesTo [0] S64
  bcast_S1x64_S805x64_0_1 : S1x64.BroadcastsInDim S805x64 (![0, 1] : Fin 2 → Fin S805x64.rank)
  reducesTo_S16384x390_S16384_d1 : S16384x390.ReducesTo [1] S16384
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  reducesTo_S16384x64_S64_d0 : S16384x64.ReducesTo [0] S64
  bcast_S_S64 : S_.BroadcastsInDim S64 (![] : Fin 0 → Fin S64.rank)
  bcast_S_S16384x64 : S_.BroadcastsInDim S16384x64 (![] : Fin 0 → Fin S16384x64.rank)
  transposes_S805x64_S64x805_1_0 : S805x64.Transposes [1, 0] S64x805
  gather_S1195x64_S1195x1_S1195x64_1_0_n_n_0_1_164_wf : GatherDims.WF S1195x64 S1195x1 S1195x64 [1] [0] [] [0] [] 1 ![1, 64]
  gather_S1195x64_S1048576x1_S1048576x64_1_0_n_n_0_1_164_wf : GatherDims.WF S1195x64 S1048576x1 S1048576x64 [1] [0] [] [0] [] 1 ![1, 64]
  dot_S1048576x64_S64x64_S1048576x64_1_0_0_1_n_n_wf : DotDims.WF S1048576x64 S64x64 S1048576x64 [1] [0] [0] [1] [] []
  scatter_S1195x64_S1048576x1_S1048576x64_1_0_0_1_wf : ScatterDims.WF S1195x64 S1048576x1 S1048576x64 [1] [0] [0] 1
  scatter_S1195_S1048576x1_S1048576_n_0_0_1_wf : ScatterDims.WF S1195 S1048576x1 S1048576 [] [0] [0] 1
  dot_S16384x390_S390x64_S16384x64_1_0_0_1_n_n_wf : DotDims.WF S16384x390 S390x64 S16384x64 [1] [0] [0] [1] [] []
  dot_S16384x64_S64x64_S16384x64_1_0_0_1_n_n_wf : DotDims.WF S16384x64 S64x64 S16384x64 [1] [0] [0] [1] [] []
  dot_S16384x64_S64x805_S16384x805_1_0_0_1_n_n_wf : DotDims.WF S16384x64 S64x805 S16384x805 [1] [0] [0] [1] [] []

variable [Facts₀]

def gather_S1195x64_S1195x1_S1195x64_1_0_n_n_0_1_164 : GatherDims S1195x64 S1195x1 S1195x64 where
  offsetDims := [1]
  collapsedSliceDims := [0]
  operandBatchingDims := []
  startIndicesBatchingDims := []
  startIndexMap := [0]
  indexVectorDim := 1
  sliceSizes := ![1, 64]
  wf := gather_S1195x64_S1195x1_S1195x64_1_0_n_n_0_1_164_wf
def gather_S1195x64_S1048576x1_S1048576x64_1_0_n_n_0_1_164 : GatherDims S1195x64 S1048576x1 S1048576x64 where
  offsetDims := [1]
  collapsedSliceDims := [0]
  operandBatchingDims := []
  startIndicesBatchingDims := []
  startIndexMap := [0]
  indexVectorDim := 1
  sliceSizes := ![1, 64]
  wf := gather_S1195x64_S1048576x1_S1048576x64_1_0_n_n_0_1_164_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def scatter_S1195x64_S1048576x1_S1048576x64_1_0_0_1 : ScatterDims S1195x64 S1048576x1 S1048576x64 where
  updateWindowDims := [1]
  insertedWindowDims := [0]
  scatterDimsToOperandDims := [0]
  indexVectorDim := 1
  wf := scatter_S1195x64_S1048576x1_S1048576x64_1_0_0_1_wf
def scatter_S1195_S1048576x1_S1048576_n_0_0_1 : ScatterDims S1195 S1048576x1 S1048576 where
  updateWindowDims := []
  insertedWindowDims := [0]
  scatterDimsToOperandDims := [0]
  indexVectorDim := 1
  wf := scatter_S1195_S1048576x1_S1048576_n_0_0_1_wf
def dot_S16384x390_S390x64_S16384x64_1_0_0_1_n_n : DotDims S16384x390 S390x64 S16384x64 where
  lhsContracting := [1]
  rhsContracting := [0]
  lhsNonContracting := [0]
  rhsNonContracting := [1]
  lhsBatch := []
  rhsBatch := []
  wf := dot_S16384x390_S390x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x805_S16384x805_1_0_0_1_n_n : DotDims S16384x64 S64x805 S16384x805 where
  lhsContracting := [1]
  rhsContracting := [0]
  lhsNonContracting := [0]
  rhsNonContracting := [1]
  lhsBatch := []
  rhsBatch := []
  wf := dot_S16384x64_S64x805_S16384x805_1_0_0_1_n_n_wf

class Facts : Prop extends Facts₀ where

variable [Facts]
-- ==== Proof.RefRun.lean ====
import proofs.«406313_j19000935318034_3_alg».proof.Proof.Gen.ReferenceIdeal
import Idealize.ShloMosaic.Lib.StableHlo.Run

/-!
# The reference program's run

The reference's @main is a straight line of host operations, two of them calls: @_var (which itself
calls @_where) and @relu. A call executes the callee's body on the operands, each value of the body in a
buffer of its own, so @main is the one list `ops` of its operations in order, every call replaced by its
callee's operations over that call's buffers. From any memory the run ends with every buffer at the
fold of the operations' results over the launch contents (`run_all`); no operation writes an argument,
so each argument's buffer keeps its contents (`kept_main_arg0` … `kept_main_arg15`).
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- @main's 185 host operations, in order: its own 160, and in the place of `%116 = call @_var` the 19 of @_var followed by the 3 of the @_where it calls, in the place of `%132 = call @relu` the 3 of @relu, each over its call's buffers. -/
abbrev ops : List (HloOp τ sig (Elt F)) :=
  ( StableHlo.nullary main_c (constantI S_ 32 0#32)
  :: StableHlo.unary main_c main_v0 (broadcastInDim S1195 ![] bcast_S_S1195 : (⟨S_, .i32⟩ : BufTy).Contents (Elt F) → (⟨S1195, .i32⟩ : BufTy).Contents (Elt F))
  :: StableHlo.binary main_arg0 main_v0 main_v1 (cmpi .slt : (⟨S1195, .i32⟩ : BufTy).Contents (Elt F) → (⟨S1195, .i32⟩ : BufTy).Contents (Elt F) → (⟨S1195, .i1⟩ : BufTy).Contents (Elt F))
  :: StableHlo.nullary main_c_0 (constantI S_ 32 1195#32)
  :: StableHlo.unary main_c_0 main_v2 (broadcastInDim S1195 ![] bcast_S_S1195 : (⟨S_, .i32⟩ : BufTy).Contents (Elt F) → (⟨S1195, .i32⟩ : BufTy).Contents (Elt F))
  :: StableHlo.binary main_arg0 main_v2 main_v3 (addi : (⟨S1195, .i32⟩ : BufTy).Contents (Elt F) → (⟨S1195, .i32⟩ : BufTy).Contents (Elt F) → (⟨S1195, .i32⟩ : BufTy).Contents (Elt F))
  :: StableHlo.ternary main_v1 main_v3 main_arg0 main_v4 (select : (⟨S1195, .i1⟩ : BufTy).Contents (Elt F) → (⟨S1195, .i32⟩ : BufTy).Contents (Elt F) → (⟨S1195, .i32⟩ : BufTy).Contents (Elt F) → (⟨S1195, .i32⟩ : BufTy).Contents (Elt F))
  :: StableHlo.unary main_v4 main_v5 (broadcastInDim S1195x1 ![0] bcast_S1195_S1195x1_0 : (⟨S1195, .i32⟩ : BufTy).Contents (Elt F) → (⟨S1195x1, .i32⟩ : BufTy).Contents (Elt F))
  :: StableHlo.binary main_arg7 main_v5 main_v6 ((fun x i => Host.gather gather_S1195x64_S1195x1_S1195x64_1_0_n_n_0_1_164 x i) : (⟨S1195x64, .f32⟩ : BufTy).Contents (Elt F) → (⟨S1195x1, .i32⟩ : BufTy).Contents (Elt F) → (⟨S1195x64, .f32⟩ : BufTy).Contents (Elt F))
  :: StableHlo.unary main_arg1 main_v7 ((extractStridedSlice S1x1048576 ![0, 0] · slices_S2x1048576_S1x1048576_0_0) : (⟨S2x1048576, .i32⟩ : BufTy).Contents (Elt F) → (⟨S1x1048576, .i32⟩ : BufTy).Contents (Elt F))
  :: StableHlo.reshape main_v7 main_v8 rfl shapeCasts_S1x1048576_S1048576
  :: StableHlo.unary main_arg1 main_v9 ((extractStridedSlice S1x1048576 ![1, 0] · slices_S2x1048576_S1x1048576_1_0) : (⟨S2x1048576, .i32⟩ : BufTy).Contents (Elt F) → (⟨S1x1048576, .i32⟩ : BufTy).Contents (Elt F))
  :: StableHlo.reshape main_v9 main_v10 rfl shapeCasts_S1x1048576_S1048576
  :: StableHlo.nullary main_c_1 (constantI S_ 32 0#32)
  :: StableHlo.unary main_c_1 main_v11 (broadcastInDim S1048576 ![] bcast_S_S1048576 : (⟨S_, .i32⟩ : BufTy).Contents (Elt F) → (⟨S1048576, .i32⟩ : BufTy).Contents (Elt F))
  :: StableHlo.binary main_v8 main_v11 main_v12 (cmpi .slt : (⟨S1048576, .i32⟩ : BufTy).Contents (Elt F) → (⟨S1048576, .i32⟩ : BufTy).Contents (Elt F) → (⟨S1048576, .i1⟩ : BufTy).Contents (Elt F))
  :: StableHlo.nullary main_c_2 (constantI S_ 32 1195#32)
  :: StableHlo.unary main_c_2 main_v13 (broadcastInDim S1048576 ![] bcast_S_S1048576 : (⟨S_, .i32⟩ : BufTy).Contents (Elt F) → (⟨S1048576, .i32⟩ : BufTy).Contents (Elt F))
  :: StableHlo.binary main_v8 main_v13 main_v14 (addi : (⟨S1048576, .i32⟩ : BufTy).Contents (Elt F) → (⟨S1048576, .i32⟩ : BufTy).Contents (Elt F) → (⟨S1048576, .i32⟩ : BufTy).Contents (Elt F))
  :: StableHlo.ternary main_v12 main_v14 main_v8 main_v15 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.unary main_v15 main_v16 (broadcastInDim S1048576x1 ![0] bcast_S1048576_S1048576x1_0 : (⟨S1048576, .i32⟩ : BufTy).Contents (Elt F) → (⟨S1048576x1, .i32⟩ : BufTy).Contents (Elt F))
  :: StableHlo.binary main_v6 main_v16 main_v17 ((fun x i => Host.gather gather_S1195x64_S1048576x1_S1048576x64_1_0_n_n_0_1_164 x i) : (⟨S1195x64, .f32⟩ : BufTy).Contents (Elt F) → (⟨S1048576x1, .i32⟩ : BufTy).Contents (Elt F) → (⟨S1048576x64, .f32⟩ : BufTy).Contents (Elt F))
  :: StableHlo.unary main_arg8 main_v18 ((transpose S64x64 [1, 0] · transposes_S64x64_S64x64_1_0) : (⟨S64x64, .f32⟩ : BufTy).Contents (Elt F) → (⟨S64x64, .f32⟩ : BufTy).Contents (Elt F))
  :: StableHlo.binary main_v17 main_v18 main_v19 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F))
  :: StableHlo.unary main_arg9 main_v20 (broadcastInDim S1x64 ![1] bcast_S64_S1x64_1 : (⟨S64, .f32⟩ : BufTy).Contents (Elt F) → (⟨S1x64, .f32⟩ : BufTy).Contents (Elt F))
  :: StableHlo.unary main_v20 main_v21 (broadcastInDim S1048576x64 ![0, 1] bcast_S1x64_S1048576x64_0_1 : (⟨S1x64, .f32⟩ : BufTy).Contents (Elt F) → (⟨S1048576x64, .f32⟩ : BufTy).Contents (Elt F))
  :: StableHlo.binary main_v19 main_v21 main_v22 (addf : (⟨S1048576x64, .f32⟩ : BufTy).Contents (Elt F) → (⟨S1048576x64, .f32⟩ : BufTy).Contents (Elt F) → (⟨S1048576x64, .f32⟩ : BufTy).Contents (Elt F))
  :: StableHlo.nullary main_cst (constant S_ .f32 0x00000000#32)
  :: StableHlo.unary main_cst main_v23 (broadcastInDim S1195x64 ![] bcast_S_S1195x64 : (⟨S_, .f32⟩ : BufTy).Contents (Elt F) → (⟨S1195x64, .f32⟩ : BufTy).Contents (Elt F))
  :: StableHlo.unary main_v10 main_v24 (broadcastInDim S1048576x1 ![0] bcast_S1048576_S1048576x1_0 : (⟨S1048576, .i32⟩ : BufTy).Contents (Elt F) → (⟨S1048576x1, .i32⟩ : BufTy).Contents (Elt F))
  :: StableHlo.ternary main_v23 main_v24 main_v22 main_v25 ((fun x i u => Host.scatterAdd scatter_S1195x64_S1048576x1_S1048576x64_1_0_0_1 x i u) : (⟨S1195x64, .f32⟩ : BufTy).Contents (Elt F) → (⟨S1048576x1, .i32⟩ : BufTy).Contents (Elt F) → (⟨S1048576x64, .f32⟩ : BufTy).Contents (Elt F) → (⟨S1195x64, .f32⟩ : BufTy).Contents (Elt F))
  :: StableHlo.nullary main_cst_3 (constant S_ .f32 0x3F800000#32)
  :: StableHlo.unary main_cst_3 main_v26 (broadcastInDim S1048576 ![] bcast_S_S1048576 : (⟨S_, .f32⟩ : BufTy).Contents (Elt F) → (⟨S1048576, .f32⟩ : BufTy).Contents (Elt F))
  :: StableHlo.nullary main_cst_4 (constant S_ .f32 0x00000000#32)
  :: StableHlo.unary main_cst_4 main_v27 (broadcastInDim S1195 ![] bcast_S_S1195 : (⟨S_, .f32⟩ : BufTy).Contents (Elt F) → (⟨S1195, .f32⟩ : BufTy).Contents (Elt F))
  :: StableHlo.unary main_v10 main_v28 (broadcastInDim S1048576x1 ![0] bcast_S1048576_S1048576x1_0 : (⟨S1048576, .i32⟩ : BufTy).Contents (Elt F) → (⟨S1048576x1, .i32⟩ : BufTy).Contents (Elt F))
  :: StableHlo.ternary main_v27 main_v28 main_v26 main_v29 ((fun x i u => Host.scatterAdd scatter_S1195_S1048576x1_S1048576_n_0_0_1 x i u) : (⟨S1195, .f32⟩ : BufTy).Contents (Elt F) → (⟨S1048576x1, .i32⟩ : BufTy).Contents (Elt F) → (⟨S1048576, .f32⟩ : BufTy).Contents (Elt F) → (⟨S1195, .f32⟩ : BufTy).Contents (Elt F))
  :: StableHlo.nullary main_cst_5 (constant S_ .f32 0x3F800000#32)
  :: StableHlo.unary main_cst_5 main_v30 (broadcastInDim S1195 ![] bcast_S_S1195 : (⟨S_, .f32⟩ : BufTy).Contents (Elt F) → (⟨S1195, .f32⟩ : BufTy).Contents (Elt F))
  :: StableHlo.binary main_v29 main_v30 main_v31 (maximumf : (⟨S1195, .f32⟩ : BufTy).Contents (Elt F) → (⟨S1195, .f32⟩ : BufTy).Contents (Elt F) → (⟨S1195, .f32⟩ : BufTy).Contents (Elt F))
  :: StableHlo.unary main_v31 main_v32 (broadcastInDim S1195x1 ![0] bcast_S1195_S1195x1_0 : (⟨S1195, .f32⟩ : BufTy).Contents (Elt F) → (⟨S1195x1, .f32⟩ : BufTy).Contents (Elt F))
  :: StableHlo.unary main_v32 main_v33 (broadcastInDim S1195x64 ![0, 1] bcast_S1195x1_S1195x64_0_1 : (⟨S1195x1, .f32⟩ : BufTy).Contents (Elt F) → (⟨S1195x64, .f32⟩ : BufTy).Contents (Elt F))
  :: StableHlo.binary main_v25 main_v33 main_v34 (Host.divf : (⟨S1195x64, .f32⟩ : BufTy).Contents (Elt F) → (⟨S1195x64, .f32⟩ : BufTy).Contents (Elt F) → (⟨S1195x64, .f32⟩ : BufTy).Contents (Elt F))
  :: StableHlo.unary main_v34 main_v35 (Host.tanh : (⟨S1195x64, .f32⟩ : BufTy).Contents (Elt F) → (⟨S1195x64, .f32⟩ : BufTy).Contents (Elt F))
  :: StableHlo.unary main_arg1 main_v36 ((extractStridedSlice S1x1048576 ![0, 0] · slices_S2x1048576_S1x1048576_0_0) : (⟨S2x1048576, .i32⟩ : BufTy).Contents (Elt F) → (⟨S1x1048576, .i32⟩ : BufTy).Contents (Elt F))
  :: StableHlo.reshape main_v36 main_v37 rfl shapeCasts_S1x1048576_S1048576
  :: StableHlo.unary main_arg1 main_v38 ((extractStridedSlice S1x1048576 ![1, 0] · slices_S2x1048576_S1x1048576_1_0) : (⟨S2x1048576, .i32⟩ : BufTy).Contents (Elt F) → (⟨S1x1048576, .i32⟩ : BufTy).Contents (Elt F))
  :: StableHlo.reshape main_v38 main_v39 rfl shapeCasts_S1x1048576_S1048576
  :: StableHlo.nullary main_c_6 (constantI S_ 32 0#32)
  :: StableHlo.unary main_c_6 main_v40 (broadcastInDim S1048576 ![] bcast_S_S1048576 : (⟨S_, .i32⟩ : BufTy).Contents (Elt F) → (⟨S1048576, .i32⟩ : BufTy).Contents (Elt F))
  :: StableHlo.binary main_v37 main_v40 main_v41 (cmpi .slt : (⟨S1048576, .i32⟩ : BufTy).Contents (Elt F) → (⟨S1048576, .i32⟩ : BufTy).Contents (Elt F) → (⟨S1048576, .i1⟩ : BufTy).Contents (Elt F))
  :: StableHlo.nullary main_c_7 (constantI S_ 32 1195#32)
  :: StableHlo.unary main_c_7 main_v42 (broadcastInDim S1048576 ![] bcast_S_S1048576 : (⟨S_, .i32⟩ : BufTy).Contents (Elt F) → (⟨S1048576, .i32⟩ : BufTy).Contents (Elt F))
  :: StableHlo.binary main_v37 main_v42 main_v43 (addi : (⟨S1048576, .i32⟩ : BufTy).Contents (Elt F) → (⟨S1048576, .i32⟩ : BufTy).Contents (Elt F) → (⟨S1048576, .i32⟩ : BufTy).Contents (Elt F))
  :: StableHlo.ternary main_v41 main_v43 main_v37 main_v44 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.unary main_v44 main_v45 (broadcastInDim S1048576x1 ![0] bcast_S1048576_S1048576x1_0 : (⟨S1048576, .i32⟩ : BufTy).Contents (Elt F) → (⟨S1048576x1, .i32⟩ : BufTy).Contents (Elt F))
  :: StableHlo.binary main_v35 main_v45 main_v46 ((fun x i => Host.gather gather_S1195x64_S1048576x1_S1048576x64_1_0_n_n_0_1_164 x i) : (⟨S1195x64, .f32⟩ : BufTy).Contents (Elt F) → (⟨S1048576x1, .i32⟩ : BufTy).Contents (Elt F) → (⟨S1048576x64, .f32⟩ : BufTy).Contents (Elt F))
  :: StableHlo.unary main_arg10 main_v47 ((transpose S64x64 [1, 0] · transposes_S64x64_S64x64_1_0) : (⟨S64x64, .f32⟩ : BufTy).Contents (Elt F) → (⟨S64x64, .f32⟩ : BufTy).Contents (Elt F))
  :: StableHlo.binary main_v46 main_v47 main_v48 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F))
  :: StableHlo.unary main_arg11 main_v49 (broadcastInDim S1x64 ![1] bcast_S64_S1x64_1 : (⟨S64, .f32⟩ : BufTy).Contents (Elt F) → (⟨S1x64, .f32⟩ : BufTy).Contents (Elt F))
  :: StableHlo.unary main_v49 main_v50 (broadcastInDim S1048576x64 ![0, 1] bcast_S1x64_S1048576x64_0_1 : (⟨S1x64, .f32⟩ : BufTy).Contents (Elt F) → (⟨S1048576x64, .f32⟩ : BufTy).Contents (Elt F))
  :: StableHlo.binary main_v48 main_v50 main_v51 (addf : (⟨S1048576x64, .f32⟩ : BufTy).Contents (Elt F) → (⟨S1048576x64, .f32⟩ : BufTy).Contents (Elt F) → (⟨S1048576x64, .f32⟩ : BufTy).Contents (Elt F))
  :: StableHlo.nullary main_cst_8 (constant S_ .f32 0x00000000#32)
  :: StableHlo.unary main_cst_8 main_v52 (broadcastInDim S1195x64 ![] bcast_S_S1195x64 : (⟨S_, .f32⟩ : BufTy).Contents (Elt F) → (⟨S1195x64, .f32⟩ : BufTy).Contents (Elt F))
  :: StableHlo.unary main_v39 main_v53 (broadcastInDim S1048576x1 ![0] bcast_S1048576_S1048576x1_0 : (⟨S1048576, .i32⟩ : BufTy).Contents (Elt F) → (⟨S1048576x1, .i32⟩ : BufTy).Contents (Elt F))
  :: StableHlo.ternary main_v52 main_v53 main_v51 main_v54 ((fun x i u => Host.scatterAdd scatter_S1195x64_S1048576x1_S1048576x64_1_0_0_1 x i u) : (⟨S1195x64, .f32⟩ : BufTy).Contents (Elt F) → (⟨S1048576x1, .i32⟩ : BufTy).Contents (Elt F) → (⟨S1048576x64, .f32⟩ : BufTy).Contents (Elt F) → (⟨S1195x64, .f32⟩ : BufTy).Contents (Elt F))
  :: StableHlo.nullary main_cst_9 (constant S_ .f32 0x3F800000#32)
  :: StableHlo.unary main_cst_9 main_v55 (broadcastInDim S1048576 ![] bcast_S_S1048576 : (⟨S_, .f32⟩ : BufTy).Contents (Elt F) → (⟨S1048576, .f32⟩ : BufTy).Contents (Elt F))
  :: StableHlo.nullary main_cst_10 (constant S_ .f32 0x00000000#32)
  :: StableHlo.unary main_cst_10 main_v56 (broadcastInDim S1195 ![] bcast_S_S1195 : (⟨S_, .f32⟩ : BufTy).Contents (Elt F) → (⟨S1195, .f32⟩ : BufTy).Contents (Elt F))
  :: StableHlo.unary main_v39 main_v57 (broadcastInDim S1048576x1 ![0] bcast_S1048576_S1048576x1_0 : (⟨S1048576, .i32⟩ : BufTy).Contents (Elt F) → (⟨S1048576x1, .i32⟩ : BufTy).Contents (Elt F))
  :: StableHlo.ternary main_v56 main_v57 main_v55 main_v58 ((fun x i u => Host.scatterAdd scatter_S1195_S1048576x1_S1048576_n_0_0_1 x i u) : (⟨S1195, .f32⟩ : BufTy).Contents (Elt F) → (⟨S1048576x1, .i32⟩ : BufTy).Contents (Elt F) → (⟨S1048576, .f32⟩ : BufTy).Contents (Elt F) → (⟨S1195, .f32⟩ : BufTy).Contents (Elt F))
  :: StableHlo.nullary main_cst_11 (constant S_ .f32 0x3F800000#32)
  :: StableHlo.unary main_cst_11 main_v59 (broadcastInDim S1195 ![] bcast_S_S1195 : (⟨S_, .f32⟩ : BufTy).Contents (Elt F) → (⟨S1195, .f32⟩ : BufTy).Contents (Elt F))
  :: StableHlo.binary main_v58 main_v59 main_v60 (maximumf : (⟨S1195, .f32⟩ : BufTy).Contents (Elt F) → (⟨S1195, .f32⟩ : BufTy).Contents (Elt F) → (⟨S1195, .f32⟩ : BufTy).Contents (Elt F))
  :: StableHlo.unary main_v60 main_v61 (broadcastInDim S1195x1 ![0] bcast_S1195_S1195x1_0 : (⟨S1195, .f32⟩ : BufTy).Contents (Elt F) → (⟨S1195x1, .f32⟩ : BufTy).Contents (Elt F))
  :: StableHlo.unary main_v61 main_v62 (broadcastInDim S1195x64 ![0, 1] bcast_S1195x1_S1195x64_0_1 : (⟨S1195x1, .f32⟩ : BufTy).Contents (Elt F) → (⟨S1195x64, .f32⟩ : BufTy).Contents (Elt F))
  :: StableHlo.binary main_v54 main_v62 main_v63 (Host.divf : (⟨S1195x64, .f32⟩ : BufTy).Contents (Elt F) → (⟨S1195x64, .f32⟩ : BufTy).Contents (Elt F) → (⟨S1195x64, .f32⟩ : BufTy).Contents (Elt F))
  :: StableHlo.unary main_v63 main_v64 (Host.tanh : (⟨S1195x64, .f32⟩ : BufTy).Contents (Elt F) → (⟨S1195x64, .f32⟩ : BufTy).Contents (Elt F))
  :: StableHlo.unary main_v6 main_v65 ((extractStridedSlice S805x64 ![0, 0] · slices_S1195x64_S805x64_0_0) : (⟨S1195x64, .f32⟩ : BufTy).Contents (Elt F) → (⟨S805x64, .f32⟩ : BufTy).Contents (Elt F))
  :: StableHlo.unary main_v6 main_v66 ((extractStridedSlice S390x64 ![805, 0] · slices_S1195x64_S390x64_805_0) : (⟨S1195x64, .f32⟩ : BufTy).Contents (Elt F) → (⟨S390x64, .f32⟩ : BufTy).Contents (Elt F))
  :: StableHlo.unary main_v64 main_v67 ((extractStridedSlice S805x64 ![0, 0] · slices_S1195x64_S805x64_0_0) : (⟨S1195x64, .f32⟩ : BufTy).Contents (Elt F) → (⟨S805x64, .f32⟩ : BufTy).Contents (Elt F))
  :: StableHlo.unary main_v64 main_v68 ((extractStridedSlice S390x64 ![805, 0] · slices_S1195x64_S390x64_805_0) : (⟨S1195x64, .f32⟩ : BufTy).Contents (Elt F) → (⟨S390x64, .f32⟩ : BufTy).Contents (Elt F))
  :: StableHlo.binary main_v66 main_v66 main_v69 (mulf : (⟨S390x64, .f32⟩ : BufTy).Contents (Elt F) → (⟨S390x64, .f32⟩ : BufTy).Contents (Elt F) → (⟨S390x64, .f32⟩ : BufTy).Contents (Elt F))
  :: StableHlo.nullary main_cst_12 (constant S_ .f32 0x00000000#32)
  :: StableHlo.binary main_v69 main_cst_12 main_v70 ((fun x v => Host.reduceAdd x v reducesTo_S390x64_S390_d1 h_S_) : (⟨S390x64, .f32⟩ : BufTy).Contents (Elt F) → (⟨S_, .f32⟩ : BufTy).Contents (Elt F) → (⟨S390, .f32⟩ : BufTy).Contents (Elt F))
  :: StableHlo.unary main_v70 main_v71 (broadcastInDim S390x1 ![0] bcast_S390_S390x1_0 : (⟨S390, .f32⟩ : BufTy).Contents (Elt F) → (⟨S390x1, .f32⟩ : BufTy).Contents (Elt F))
  :: StableHlo.unary main_v71 main_v72 (Host.sqrt : (⟨S390x1, .f32⟩ : BufTy).Contents (Elt F) → (⟨S390x1, .f32⟩ : BufTy).Contents (Elt F))
  :: StableHlo.nullary main_cst_13 (constant S_ .f32 0x2B8CBCCC#32)
  :: StableHlo.unary main_cst_13 main_v73 (broadcastInDim S390x1 ![] bcast_S_S390x1 : (⟨S_, .f32⟩ : BufTy).Contents (Elt F) → (⟨S390x1, .f32⟩ : BufTy).Contents (Elt F))
  :: StableHlo.binary main_v72 main_v73 main_v74 (maximumf : (⟨S390x1, .f32⟩ : BufTy).Contents (Elt F) → (⟨S390x1, .f32⟩ : BufTy).Contents (Elt F) → (⟨S390x1, .f32⟩ : BufTy).Contents (Elt F))
  :: StableHlo.unary main_v74 main_v75 (broadcastInDim S390x64 ![0, 1] bcast_S390x1_S390x64_0_1 : (⟨S390x1, .f32⟩ : BufTy).Contents (Elt F) → (⟨S390x64, .f32⟩ : BufTy).Contents (Elt F))
  :: StableHlo.binary main_v66 main_v75 main_v76 (Host.divf : (⟨S390x64, .f32⟩ : BufTy).Contents (Elt F) → (⟨S390x64, .f32⟩ : BufTy).Contents (Elt F) → (⟨S390x64, .f32⟩ : BufTy).Contents (Elt F))
  :: StableHlo.binary main_v68 main_v68 main_v77 (mulf : (⟨S390x64, .f32⟩ : BufTy).Contents (Elt F) → (⟨S390x64, .f32⟩ : BufTy).Contents (Elt F) → (⟨S390x64, .f32⟩ : BufTy).Contents (Elt F))
  :: StableHlo.nullary main_cst_14 (constant S_ .f32 0x00000000#32)
  :: StableHlo.binary main_v77 main_cst_14 main_v78 ((fun x v => Host.reduceAdd x v reducesTo_S390x64_S64_d0 h_S_) : (⟨S390x64, .f32⟩ : BufTy).Contents (Elt F) → (⟨S_, .f32⟩ : BufTy).Contents (Elt F) → (⟨S64, .f32⟩ : BufTy).Contents (Elt F))
  :: StableHlo.unary main_v78 main_v79 (broadcastInDim S1x64 ![1] bcast_S64_S1x64_1 : (⟨S64, .f32⟩ : BufTy).Contents (Elt F) → (⟨S1x64, .f32⟩ : BufTy).Contents (Elt F))
  :: StableHlo.unary main_v79 main_v80 (Host.sqrt : (⟨S1x64, .f32⟩ : BufTy).Contents (Elt F) → (⟨S1x64, .f32⟩ : BufTy).Contents (Elt F))
  :: StableHlo.nullary main_cst_15 (constant S_ .f32 0x2B8CBCCC#32)
  :: StableHlo.unary main_cst_15 main_v81 (broadcastInDim S1x64 ![] bcast_S_S1x64 : (⟨S_, .f32⟩ : BufTy).Contents (Elt F) → (⟨S1x64, .f32⟩ : BufTy).Contents (Elt F))
  :: StableHlo.binary main_v80 main_v81 main_v82 (maximumf : (⟨S1x64, .f32⟩ : BufTy).Contents (Elt F) → (⟨S1x64, .f32⟩ : BufTy).Contents (Elt F) → (⟨S1x64, .f32⟩ : BufTy).Contents (Elt F))
  :: StableHlo.unary main_v82 main_v83 (broadcastInDim S390x64 ![0, 1] bcast_S1x64_S390x64_0_1 : (⟨S1x64, .f32⟩ : BufTy).Contents (Elt F) → (⟨S390x64, .f32⟩ : BufTy).Contents (Elt F))
  :: StableHlo.binary main_v68 main_v83 main_v84 (Host.divf : (⟨S390x64, .f32⟩ : BufTy).Contents (Elt F) → (⟨S390x64, .f32⟩ : BufTy).Contents (Elt F) → (⟨S390x64, .f32⟩ : BufTy).Contents (Elt F))
  :: StableHlo.binary main_v76 main_v84 main_v85 (addf : (⟨S390x64, .f32⟩ : BufTy).Contents (Elt F) → (⟨S390x64, .f32⟩ : BufTy).Contents (Elt F) → (⟨S390x64, .f32⟩ : BufTy).Contents (Elt F))
  :: StableHlo.binary main_v65 main_v65 main_v86 (mulf : (⟨S805x64, .f32⟩ : BufTy).Contents (Elt F) → (⟨S805x64, .f32⟩ : BufTy).Contents (Elt F) → (⟨S805x64, .f32⟩ : BufTy).Contents (Elt F))
  :: StableHlo.nullary main_cst_16 (constant S_ .f32 0x00000000#32)
  :: StableHlo.binary main_v86 main_cst_16 main_v87 ((fun x v => Host.reduceAdd x v reducesTo_S805x64_S805_d1 h_S_) : (⟨S805x64, .f32⟩ : BufTy).Contents (Elt F) → (⟨S_, .f32⟩ : BufTy).Contents (Elt F) → (⟨S805, .f32⟩ : BufTy).Contents (Elt F))
  :: StableHlo.unary main_v87 main_v88 (broadcastInDim S805x1 ![0] bcast_S805_S805x1_0 : (⟨S805, .f32⟩ : BufTy).Contents (Elt F) → (⟨S805x1, .f32⟩ : BufTy).Contents (Elt F))
  :: StableHlo.unary main_v88 main_v89 (Host.sqrt : (⟨S805x1, .f32⟩ : BufTy).Contents (Elt F) → (⟨S805x1, .f32⟩ : BufTy).Contents (Elt F))
  :: StableHlo.nullary main_cst_17 (constant S_ .f32 0x2B8CBCCC#32)
  :: StableHlo.unary main_cst_17 main_v90 (broadcastInDim S805x1 ![] bcast_S_S805x1 : (⟨S_, .f32⟩ : BufTy).Contents (Elt F) → (⟨S805x1, .f32⟩ : BufTy).Contents (Elt F))
  :: StableHlo.binary main_v89 main_v90 main_v91 (maximumf : (⟨S805x1, .f32⟩ : BufTy).Contents (Elt F) → (⟨S805x1, .f32⟩ : BufTy).Contents (Elt F) → (⟨S805x1, .f32⟩ : BufTy).Contents (Elt F))
  :: StableHlo.unary main_v91 main_v92 (broadcastInDim S805x64 ![0, 1] bcast_S805x1_S805x64_0_1 : (⟨S805x1, .f32⟩ : BufTy).Contents (Elt F) → (⟨S805x64, .f32⟩ : BufTy).Contents (Elt F))
  :: StableHlo.binary main_v65 main_v92 main_v93 (Host.divf : (⟨S805x64, .f32⟩ : BufTy).Contents (Elt F) → (⟨S805x64, .f32⟩ : BufTy).Contents (Elt F) → (⟨S805x64, .f32⟩ : BufTy).Contents (Elt F))
  :: StableHlo.binary main_v67 main_v67 main_v94 (mulf : (⟨S805x64, .f32⟩ : BufTy).Contents (Elt F) → (⟨S805x64, .f32⟩ : BufTy).Contents (Elt F) → (⟨S805x64, .f32⟩ : BufTy).Contents (Elt F))
  :: StableHlo.nullary main_cst_18 (constant S_ .f32 0x00000000#32)
  :: StableHlo.binary main_v94 main_cst_18 main_v95 ((fun x v => Host.reduceAdd x v reducesTo_S805x64_S64_d0 h_S_) : (⟨S805x64, .f32⟩ : BufTy).Contents (Elt F) → (⟨S_, .f32⟩ : BufTy).Contents (Elt F) → (⟨S64, .f32⟩ : BufTy).Contents (Elt F))
  :: StableHlo.unary main_v95 main_v96 (broadcastInDim S1x64 ![1] bcast_S64_S1x64_1 : (⟨S64, .f32⟩ : BufTy).Contents (Elt F) → (⟨S1x64, .f32⟩ : BufTy).Contents (Elt F))
  :: StableHlo.unary main_v96 main_v97 (Host.sqrt : (⟨S1x64, .f32⟩ : BufTy).Contents (Elt F) → (⟨S1x64, .f32⟩ : BufTy).Contents (Elt F))
  :: StableHlo.nullary main_cst_19 (constant S_ .f32 0x2B8CBCCC#32)
  :: StableHlo.unary main_cst_19 main_v98 (broadcastInDim S1x64 ![] bcast_S_S1x64 : (⟨S_, .f32⟩ : BufTy).Contents (Elt F) → (⟨S1x64, .f32⟩ : BufTy).Contents (Elt F))
  :: StableHlo.binary main_v97 main_v98 main_v99 (maximumf : (⟨S1x64, .f32⟩ : BufTy).Contents (Elt F) → (⟨S1x64, .f32⟩ : BufTy).Contents (Elt F) → (⟨S1x64, .f32⟩ : BufTy).Contents (Elt F))
  :: StableHlo.unary main_v99 main_v100 (broadcastInDim S805x64 ![0, 1] bcast_S1x64_S805x64_0_1 : (⟨S1x64, .f32⟩ : BufTy).Contents (Elt F) → (⟨S805x64, .f32⟩ : BufTy).Contents (Elt F))
  :: StableHlo.binary main_v67 main_v100 main_v101 (Host.divf : (⟨S805x64, .f32⟩ : BufTy).Contents (Elt F) → (⟨S805x64, .f32⟩ : BufTy).Contents (Elt F) → (⟨S805x64, .f32⟩ : BufTy).Contents (Elt F))
  :: StableHlo.binary main_v93 main_v101 main_v102 (addf : (⟨S805x64, .f32⟩ : BufTy).Contents (Elt F) → (⟨S805x64, .f32⟩ : BufTy).Contents (Elt F) → (⟨S805x64, .f32⟩ : BufTy).Contents (Elt F))
  :: StableHlo.binary main_arg6 main_v85 main_v103 ((fun l r => Host.dotGeneral dot_S16384x390_S390x64_S16384x64_1_0_0_1_n_n none l r) : (⟨S16384x390, .f32⟩ : BufTy).Contents (Elt F) → (⟨S390x64, .f32⟩ : BufTy).Contents (Elt F) → (⟨S16384x64, .f32⟩ : BufTy).Contents (Elt F))
  :: StableHlo.nullary main_cst_20 (constant S_ .f32 0x00000000#32)
  :: StableHlo.binary main_arg6 main_cst_20 main_v104 ((fun x v => Host.reduceAdd x v reducesTo_S16384x390_S16384_d1 h_S_) : (⟨S16384x390, .f32⟩ : BufTy).Contents (Elt F) → (⟨S_, .f32⟩ : BufTy).Contents (Elt F) → (⟨S16384, .f32⟩ : BufTy).Contents (Elt F))
  :: StableHlo.unary main_v104 main_v105 (broadcastInDim S16384x1 ![0] bcast_S16384_S16384x1_0 : (⟨S16384, .f32⟩ : BufTy).Contents (Elt F) → (⟨S16384x1, .f32⟩ : BufTy).Contents (Elt F))
  :: StableHlo.unary main_v105 main_v106 (broadcastInDim S16384x64 ![0, 1] bcast_S16384x1_S16384x64_0_1 : (⟨S16384x1, .f32⟩ : BufTy).Contents (Elt F) → (⟨S16384x64, .f32⟩ : BufTy).Contents (Elt F))
  :: StableHlo.binary main_v103 main_v106 main_v107 (Host.divf : (⟨S16384x64, .f32⟩ : BufTy).Contents (Elt F) → (⟨S16384x64, .f32⟩ : BufTy).Contents (Elt F) → (⟨S16384x64, .f32⟩ : BufTy).Contents (Elt F))
  :: StableHlo.unary main_arg12 main_v108 ((transpose S64x64 [1, 0] · transposes_S64x64_S64x64_1_0) : (⟨S64x64, .f32⟩ : BufTy).Contents (Elt F) → (⟨S64x64, .f32⟩ : BufTy).Contents (Elt F))
  :: StableHlo.binary main_v107 main_v108 main_v109 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F))
  :: StableHlo.unary main_arg13 main_v110 (broadcastInDim S1x64 ![1] bcast_S64_S1x64_1 : (⟨S64, .f32⟩ : BufTy).Contents (Elt F) → (⟨S1x64, .f32⟩ : BufTy).Contents (Elt F))
  :: StableHlo.unary main_v110 main_v111 (broadcastInDim S16384x64 ![0, 1] bcast_S1x64_S16384x64_0_1 : (⟨S1x64, .f32⟩ : BufTy).Contents (Elt F) → (⟨S16384x64, .f32⟩ : BufTy).Contents (Elt F))
  :: StableHlo.binary main_v109 main_v111 main_v112 (addf : (⟨S16384x64, .f32⟩ : BufTy).Contents (Elt F) → (⟨S16384x64, .f32⟩ : BufTy).Contents (Elt F) → (⟨S16384x64, .f32⟩ : BufTy).Contents (Elt F))
  :: StableHlo.nullary main_cst_21 (constant S_ .f32 0x00000000#32)
  :: StableHlo.binary main_v112 main_cst_21 main_v113 ((fun x v => Host.reduceAdd x v reducesTo_S16384x64_S64_d0 h_S_) : (⟨S16384x64, .f32⟩ : BufTy).Contents (Elt F) → (⟨S_, .f32⟩ : BufTy).Contents (Elt F) → (⟨S64, .f32⟩ : BufTy).Contents (Elt F))
  :: StableHlo.nullary main_cst_22 (constant S_ .f32 0x46800000#32)
  :: StableHlo.unary main_cst_22 main_v114 (broadcastInDim S64 ![] bcast_S_S64 : (⟨S_, .f32⟩ : BufTy).Contents (Elt F) → (⟨S64, .f32⟩ : BufTy).Contents (Elt F))
  :: StableHlo.binary main_v113 main_v114 main_v115 (Host.divf : (⟨S64, .f32⟩ : BufTy).Contents (Elt F) → (⟨S64, .f32⟩ : BufTy).Contents (Elt F) → (⟨S64, .f32⟩ : BufTy).Contents (Elt F))
  :: StableHlo.nullary main_c_23 (constantI S_ 32 0#32)
  :: StableHlo.TRef.nullary main_call0.cst (constant S_ .f32 0x00000000#32)
  :: StableHlo.TRef.binary (.of main_v112 : StableHlo.TRef sig ⟨S16384x64, .f32⟩) main_call0.cst main_call0.v0 (fun x v => Host.reduceAdd x v reducesTo_S16384x64_S64_d0 h_S_)
  :: StableHlo.TRef.unary main_call0.v0 main_call0.v1 (broadcastInDim S1x64 ![1] bcast_S64_S1x64_1)
  :: StableHlo.TRef.nullary main_call0.cst_0 (constant S_ .f32 0x46800000#32)
  :: StableHlo.TRef.unary main_call0.cst_0 main_call0.v2 (broadcastInDim S1x64 ![] bcast_S_S1x64)
  :: StableHlo.TRef.binary main_call0.v1 main_call0.v2 main_call0.v3 Host.divf
  :: StableHlo.TRef.unary main_call0.v3 main_call0.v4 (broadcastInDim S16384x64 ![0, 1] bcast_S1x64_S16384x64_0_1)
  :: StableHlo.TRef.binary (.of main_v112 : StableHlo.TRef sig ⟨S16384x64, .f32⟩) main_call0.v4 main_call0.v5 subf
  :: StableHlo.TRef.binary main_call0.v5 main_call0.v5 main_call0.v6 mulf
  :: StableHlo.TRef.unary (.of main_c_23 : StableHlo.TRef sig ⟨S_, .i32⟩) main_call0.v7 (sitofp .f32)
  :: StableHlo.TRef.nullary main_call0.cst_1 (constant S_ .f32 0x46800000#32)
  :: StableHlo.TRef.binary main_call0.cst_1 main_call0.v7 main_call0.v8 subf
  :: StableHlo.TRef.nullary main_call0.cst_2 (constant S_ .f32 0x00000000#32)
  :: StableHlo.TRef.binary main_call0.v6 main_call0.cst_2 main_call0.v9 (fun x v => Host.reduceAdd x v reducesTo_S16384x64_S64_d0 h_S_)
  :: StableHlo.TRef.unary main_call0.v8 main_call0.v10 (broadcastInDim S64 ![] bcast_S_S64)
  :: StableHlo.TRef.binary main_call0.v9 main_call0.v10 main_call0.v11 Host.divf
  :: StableHlo.TRef.nullary main_call0.cst_3 (constant S_ .f32 0x00000000#32)
  :: StableHlo.TRef.binary main_call0.v8 main_call0.cst_3 main_call0.v12 (cmpf .ogt)
  :: StableHlo.TRef.nullary main_call0.cst_4 (constant S_ .f32 0x7FC00000#32)
  :: StableHlo.TRef.unary main_call0.cst_4 main_call0.call0.v0 id
  :: StableHlo.TRef.unary main_call0.call0.v0 main_call0.call0.v1 (broadcastInDim S64 ![] bcast_S_S64)
  :: StableHlo.TRef.ternary main_call0.v12 main_call0.v11 main_call0.call0.v1 main_call0.call0.v2 (fun p a b => select (broadcastInDim S64 ![] bcast_S_S64 p) a b)
  :: StableHlo.unary main_v115 main_v117 (broadcastInDim S1x64 ![1] bcast_S64_S1x64_1 : (⟨S64, .f32⟩ : BufTy).Contents (Elt F) → (⟨S1x64, .f32⟩ : BufTy).Contents (Elt F))
  :: StableHlo.unary main_v117 main_v118 (broadcastInDim S16384x64 ![0, 1] bcast_S1x64_S16384x64_0_1 : (⟨S1x64, .f32⟩ : BufTy).Contents (Elt F) → (⟨S16384x64, .f32⟩ : BufTy).Contents (Elt F))
  :: StableHlo.binary main_v112 main_v118 main_v119 (subf : (⟨S16384x64, .f32⟩ : BufTy).Contents (Elt F) → (⟨S16384x64, .f32⟩ : BufTy).Contents (Elt F) → (⟨S16384x64, .f32⟩ : BufTy).Contents (Elt F))
  :: StableHlo.nullary main_cst_24 (constant S_ .f32 0x3727C5AC#32)
  :: StableHlo.unary main_cst_24 main_v120 (broadcastInDim S64 ![] bcast_S_S64 : (⟨S_, .f32⟩ : BufTy).Contents (Elt F) → (⟨S64, .f32⟩ : BufTy).Contents (Elt F))
  :: StableHlo.binary main_v116 main_v120 main_v121 (addf : (⟨S64, .f32⟩ : BufTy).Contents (Elt F) → (⟨S64, .f32⟩ : BufTy).Contents (Elt F) → (⟨S64, .f32⟩ : BufTy).Contents (Elt F))
  :: StableHlo.unary main_v121 main_v122 (Host.sqrt : (⟨S64, .f32⟩ : BufTy).Contents (Elt F) → (⟨S64, .f32⟩ : BufTy).Contents (Elt F))
  :: StableHlo.unary main_v122 main_v123 (broadcastInDim S1x64 ![1] bcast_S64_S1x64_1 : (⟨S64, .f32⟩ : BufTy).Contents (Elt F) → (⟨S1x64, .f32⟩ : BufTy).Contents (Elt F))
  :: StableHlo.unary main_v123 main_v124 (broadcastInDim S16384x64 ![0, 1] bcast_S1x64_S16384x64_0_1 : (⟨S1x64, .f32⟩ : BufTy).Contents (Elt F) → (⟨S16384x64, .f32⟩ : BufTy).Contents (Elt F))
  :: StableHlo.binary main_v119 main_v124 main_v125 (Host.divf : (⟨S16384x64, .f32⟩ : BufTy).Contents (Elt F) → (⟨S16384x64, .f32⟩ : BufTy).Contents (Elt F) → (⟨S16384x64, .f32⟩ : BufTy).Contents (Elt F))
  :: StableHlo.unary main_arg14 main_v126 (broadcastInDim S1x64 ![1] bcast_S64_S1x64_1 : (⟨S64, .f32⟩ : BufTy).Contents (Elt F) → (⟨S1x64, .f32⟩ : BufTy).Contents (Elt F))
  :: StableHlo.unary main_v126 main_v127 (broadcastInDim S16384x64 ![0, 1] bcast_S1x64_S16384x64_0_1 : (⟨S1x64, .f32⟩ : BufTy).Contents (Elt F) → (⟨S16384x64, .f32⟩ : BufTy).Contents (Elt F))
  :: StableHlo.binary main_v125 main_v127 main_v128 (mulf : (⟨S16384x64, .f32⟩ : BufTy).Contents (Elt F) → (⟨S16384x64, .f32⟩ : BufTy).Contents (Elt F) → (⟨S16384x64, .f32⟩ : BufTy).Contents (Elt F))
  :: StableHlo.unary main_arg15 main_v129 (broadcastInDim S1x64 ![1] bcast_S64_S1x64_1 : (⟨S64, .f32⟩ : BufTy).Contents (Elt F) → (⟨S1x64, .f32⟩ : BufTy).Contents (Elt F))
  :: StableHlo.unary main_v129 main_v130 (broadcastInDim S16384x64 ![0, 1] bcast_S1x64_S16384x64_0_1 : (⟨S1x64, .f32⟩ : BufTy).Contents (Elt F) → (⟨S16384x64, .f32⟩ : BufTy).Contents (Elt F))
  :: StableHlo.binary main_v128 main_v130 main_v131 (addf : (⟨S16384x64, .f32⟩ : BufTy).Contents (Elt F) → (⟨S16384x64, .f32⟩ : BufTy).Contents (Elt F) → (⟨S16384x64, .f32⟩ : BufTy).Contents (Elt F))
  :: StableHlo.TRef.nullary main_call1.cst (constant S_ .f32 0x00000000#32)
  :: StableHlo.TRef.unary main_call1.cst main_call1.v0 (broadcastInDim S16384x64 ![] bcast_S_S16384x64)
  :: StableHlo.TRef.binary (.of main_v131 : StableHlo.TRef sig ⟨S16384x64, .f32⟩) main_call1.v0 main_call1.v1 maximumf
  :: StableHlo.unary main_v102 main_v133 ((transpose S64x805 [1, 0] · transposes_S805x64_S64x805_1_0) : (⟨S805x64, .f32⟩ : BufTy).Contents (Elt F) → (⟨S64x805, .f32⟩ : BufTy).Contents (Elt F))
  :: StableHlo.binary main_v132 main_v133 main_v134 ((fun l r => Host.dotGeneral dot_S16384x64_S64x805_S16384x805_1_0_0_1_n_n none l r) : (⟨S16384x64, .f32⟩ : BufTy).Contents (Elt F) → (⟨S64x805, .f32⟩ : BufTy).Contents (Elt F) → (⟨S16384x805, .f32⟩ : BufTy).Contents (Elt F))
  :: [] )

-- the three windows and the three function bodies unfold to one chain of 185 steps: one binder deep per operation
set_option maxRecDepth 8192 in
set_option maxHeartbeats 4000000 in
/-- @main is that straight line: its windows in order, each call its callee's body at the call's buffers. -/
theorem main_eq (c : Dev nD) : main (F := F) c = seq ops := rfl

/-- The signature scopes no TensorCore buffer. -/
theorem scopedRefs_eq : (Finset.univ.filter fun b : Ref sig .tc => b.isScoped) = ∅ := by decide
/-- The signature scopes no semaphore of the TensorCore. -/
theorem scopedSems_eq : (Finset.univ.filter fun sm : SemLoc sig => sm.isScoped .tc) = ∅ := by decide

set_option maxRecDepth 8192 in
/-- Every operation touches TensorCore references only: each builder's own fact, in the list's order. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    unary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., unary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., unary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    unary_bufs_sub .., unary_bufs_sub .., unary_bufs_sub .., unary_bufs_sub .., unary_bufs_sub .., binary_bufs_sub ..,
    nullary_bufs_sub .., binary_bufs_sub .., unary_bufs_sub .., unary_bufs_sub .., nullary_bufs_sub .., unary_bufs_sub ..,
    binary_bufs_sub .., unary_bufs_sub .., binary_bufs_sub .., binary_bufs_sub .., nullary_bufs_sub .., binary_bufs_sub ..,
    unary_bufs_sub .., unary_bufs_sub .., nullary_bufs_sub .., unary_bufs_sub .., binary_bufs_sub .., unary_bufs_sub ..,
    binary_bufs_sub .., binary_bufs_sub .., binary_bufs_sub .., nullary_bufs_sub .., binary_bufs_sub .., unary_bufs_sub ..,
    unary_bufs_sub .., nullary_bufs_sub .., unary_bufs_sub .., binary_bufs_sub .., unary_bufs_sub .., binary_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., binary_bufs_sub ..,
    nullary_bufs_sub .., binary_bufs_sub .., unary_bufs_sub .., unary_bufs_sub .., binary_bufs_sub .., unary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., binary_bufs_sub ..⟩

set_option maxRecDepth 8192 in
/-- No operation allocates a buffer: every one determines its result. -/
theorem ops_fresh : (ops : List (HloOp τ sig (Elt F))).Forall fun op => op.fresh = ∅ := by
  simp only [List.Forall]; repeat' constructor

/-- On every device, for any float values, from any memory with zero counters: every weakly fair execution of
    @main on the TensorCores terminates, and every final state has each TensorCore buffer at the fold of the
    operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ op h => (List.forall_iff_forall_mem.mp ops_fresh) op h)

/-! ## The arguments are kept

No operation's result buffer is an argument's: at an argument the fold passes through every operation
(each step the builder's own "another reference keeps its contents", the references told apart by computation). -/

set_option maxRecDepth 8192 in
set_option maxHeartbeats 4000000 in
/-- Argument 0's buffer keeps its launch contents. -/
theorem kept_main_arg0 (m : (ℓ : Loc nD τ sig) → Buf (Elt F) ℓ) (d : Dev nD) :
    after ops (launchContents m d) (Proc.devRef .tc main_arg0) = m ((d.tc : Thread nD τ).loc main_arg0) := by
  after_results_simp

set_option maxRecDepth 8192 in
set_option maxHeartbeats 4000000 in
/-- Argument 1's buffer keeps its launch contents. -/
theorem kept_main_arg1 (m : (ℓ : Loc nD τ sig) → Buf (Elt F) ℓ) (d : Dev nD) :
    after ops (launchContents m d) (Proc.devRef .tc main_arg1) = m ((d.tc : Thread nD τ).loc main_arg1) := by
  after_results_simp

set_option maxRecDepth 8192 in
set_option maxHeartbeats 4000000 in
/-- Argument 2's buffer keeps its launch contents. -/
theorem kept_main_arg2 (m : (ℓ : Loc nD τ sig) → Buf (Elt F) ℓ) (d : Dev nD) :
    after ops (launchContents m d) (Proc.devRef .tc main_arg2) = m ((d.tc : Thread nD τ).loc main_arg2) := by
  after_results_simp

set_option maxRecDepth 8192 in
set_option maxHeartbeats 4000000 in
/-- Argument 3's buffer keeps its launch contents. -/
theorem kept_main_arg3 (m : (ℓ : Loc nD τ sig) → Buf (Elt F) ℓ) (d : Dev nD) :
    after ops (launchContents m d) (Proc.devRef .tc main_arg3) = m ((d.tc : Thread nD τ).loc main_arg3) := by
  after_results_simp

set_option maxRecDepth 8192 in
set_option maxHeartbeats 4000000 in
/-- Argument 4's buffer keeps its launch contents. -/
theorem kept_main_arg4 (m : (ℓ : Loc nD τ sig) → Buf (Elt F) ℓ) (d : Dev nD) :
    after ops (launchContents m d) (Proc.devRef .tc main_arg4) = m ((d.tc : Thread nD τ).loc main_arg4) := by
  after_results_simp

set_option maxRecDepth 8192 in
set_option maxHeartbeats 4000000 in
/-- Argument 5's buffer keeps its launch contents. -/
theorem kept_main_arg5 (m : (ℓ : Loc nD τ sig) → Buf (Elt F) ℓ) (d : Dev nD) :
    after ops (launchContents m d) (Proc.devRef .tc main_arg5) = m ((d.tc : Thread nD τ).loc main_arg5) := by
  after_results_simp

set_option maxRecDepth 8192 in
set_option maxHeartbeats 4000000 in
/-- Argument 6's buffer keeps its launch contents. -/
theorem kept_main_arg6 (m : (ℓ : Loc nD τ sig) → Buf (Elt F) ℓ) (d : Dev nD) :
    after ops (launchContents m d) (Proc.devRef .tc main_arg6) = m ((d.tc : Thread nD τ).loc main_arg6) := by
  after_results_simp

set_option maxRecDepth 8192 in
set_option maxHeartbeats 4000000 in
/-- Argument 7's buffer keeps its launch contents. -/
theorem kept_main_arg7 (m : (ℓ : Loc nD τ sig) → Buf (Elt F) ℓ) (d : Dev nD) :
    after ops (launchContents m d) (Proc.devRef .tc main_arg7) = m ((d.tc : Thread nD τ).loc main_arg7) := by
  after_results_simp

set_option maxRecDepth 8192 in
set_option maxHeartbeats 4000000 in
/-- Argument 8's buffer keeps its launch contents. -/
theorem kept_main_arg8 (m : (ℓ : Loc nD τ sig) → Buf (Elt F) ℓ) (d : Dev nD) :
    after ops (launchContents m d) (Proc.devRef .tc main_arg8) = m ((d.tc : Thread nD τ).loc main_arg8) := by
  after_results_simp

set_option maxRecDepth 8192 in
set_option maxHeartbeats 4000000 in
/-- Argument 9's buffer keeps its launch contents. -/
theorem kept_main_arg9 (m : (ℓ : Loc nD τ sig) → Buf (Elt F) ℓ) (d : Dev nD) :
    after ops (launchContents m d) (Proc.devRef .tc main_arg9) = m ((d.tc : Thread nD τ).loc main_arg9) := by
  after_results_simp

set_option maxRecDepth 8192 in
set_option maxHeartbeats 4000000 in
/-- Argument 10's buffer keeps its launch contents. -/
theorem kept_main_arg10 (m : (ℓ : Loc nD τ sig) → Buf (Elt F) ℓ) (d : Dev nD) :
    after ops (launchContents m d) (Proc.devRef .tc main_arg10) = m ((d.tc : Thread nD τ).loc main_arg10) := by
  after_results_simp

set_option maxRecDepth 8192 in
set_option maxHeartbeats 4000000 in
/-- Argument 11's buffer keeps its launch contents. -/
theorem kept_main_arg11 (m : (ℓ : Loc nD τ sig) → Buf (Elt F) ℓ) (d : Dev nD) :
    after ops (launchContents m d) (Proc.devRef .tc main_arg11) = m ((d.tc : Thread nD τ).loc main_arg11) := by
  after_results_simp

set_option maxRecDepth 8192 in
set_option maxHeartbeats 4000000 in
/-- Argument 12's buffer keeps its launch contents. -/
theorem kept_main_arg12 (m : (ℓ : Loc nD τ sig) → Buf (Elt F) ℓ) (d : Dev nD) :
    after ops (launchContents m d) (Proc.devRef .tc main_arg12) = m ((d.tc : Thread nD τ).loc main_arg12) := by
  after_results_simp

set_option maxRecDepth 8192 in
set_option maxHeartbeats 4000000 in
/-- Argument 13's buffer keeps its launch contents. -/
theorem kept_main_arg13 (m : (ℓ : Loc nD τ sig) → Buf (Elt F) ℓ) (d : Dev nD) :
    after ops (launchContents m d) (Proc.devRef .tc main_arg13) = m ((d.tc : Thread nD τ).loc main_arg13) := by
  after_results_simp

set_option maxRecDepth 8192 in
set_option maxHeartbeats 4000000 in
/-- Argument 14's buffer keeps its launch contents. -/
theorem kept_main_arg14 (m : (ℓ : Loc nD τ sig) → Buf (Elt F) ℓ) (d : Dev nD) :
    after ops (launchContents m d) (Proc.devRef .tc main_arg14) = m ((d.tc : Thread nD τ).loc main_arg14) := by
  after_results_simp

set_option maxRecDepth 8192 in
set_option maxHeartbeats 4000000 in
/-- Argument 15's buffer keeps its launch contents. -/
theorem kept_main_arg15 (m : (ℓ : Loc nD τ sig) → Buf (Elt F) ℓ) (d : Dev nD) :
    after ops (launchContents m d) (Proc.devRef .tc main_arg15) = m ((d.tc : Thread nD τ).loc main_arg15) := by
  after_results_simp

end Cert.ReferenceIdeal.RefRun

end
-- ==== Proof.Frames.lean ====
/-
  The three frame claims: each program, run from any memory, terminates without a fault and leaves its sixteen
  argument arrays as launched. The two kernel programs' frames are their generated frame certificates; the
  reference is a host program with no kernel, and its frame is its run — every buffer ends at what the list of
  its host operations computes — read at the argument buffers, which no operation writes.
-/
import proofs.«406313_j19000935318034_3_alg».proof.Defs
import proofs.«406313_j19000935318034_3_alg».proof.Proof.Gen.Kernel.Frame
import proofs.«406313_j19000935318034_3_alg».proof.Proof.Gen.KernelIdeal.Frame
import proofs.«406313_j19000935318034_3_alg».proof.Proof.Gen.ReferenceIdeal
import proofs.«406313_j19000935318034_3_alg».proof.Proof.Gen.Pre_finite_inputs
import proofs.«406313_j19000935318034_3_alg».proof.Proof.RefRun

noncomputable section

namespace Cert.Proof.Frames

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun r h c =>
    ⟨(h c Cert.ReferenceIdeal.main_arg0).trans (Cert.ReferenceIdeal.RefRun.kept_main_arg0 m c),
      (h c Cert.ReferenceIdeal.main_arg1).trans (Cert.ReferenceIdeal.RefRun.kept_main_arg1 m c),
      (h c Cert.ReferenceIdeal.main_arg2).trans (Cert.ReferenceIdeal.RefRun.kept_main_arg2 m c),
      (h c Cert.ReferenceIdeal.main_arg3).trans (Cert.ReferenceIdeal.RefRun.kept_main_arg3 m c),
      (h c Cert.ReferenceIdeal.main_arg4).trans (Cert.ReferenceIdeal.RefRun.kept_main_arg4 m c),
      (h c Cert.ReferenceIdeal.main_arg5).trans (Cert.ReferenceIdeal.RefRun.kept_main_arg5 m c),
      (h c Cert.ReferenceIdeal.main_arg6).trans (Cert.ReferenceIdeal.RefRun.kept_main_arg6 m c),
      (h c Cert.ReferenceIdeal.main_arg7).trans (Cert.ReferenceIdeal.RefRun.kept_main_arg7 m c),
      (h c Cert.ReferenceIdeal.main_arg8).trans (Cert.ReferenceIdeal.RefRun.kept_main_arg8 m c),
      (h c Cert.ReferenceIdeal.main_arg9).trans (Cert.ReferenceIdeal.RefRun.kept_main_arg9 m c),
      (h c Cert.ReferenceIdeal.main_arg10).trans (Cert.ReferenceIdeal.RefRun.kept_main_arg10 m c),
      (h c Cert.ReferenceIdeal.main_arg11).trans (Cert.ReferenceIdeal.RefRun.kept_main_arg11 m c),
      (h c Cert.ReferenceIdeal.main_arg12).trans (Cert.ReferenceIdeal.RefRun.kept_main_arg12 m c),
      (h c Cert.ReferenceIdeal.main_arg13).trans (Cert.ReferenceIdeal.RefRun.kept_main_arg13 m c),
      (h c Cert.ReferenceIdeal.main_arg14).trans (Cert.ReferenceIdeal.RefRun.kept_main_arg14 m c),
      (h c Cert.ReferenceIdeal.main_arg15).trans (Cert.ReferenceIdeal.RefRun.kept_main_arg15 m c)⟩)
    (Cert.ReferenceIdeal.RefRun.run_all (F := Ideal) m ρ)

end Cert.Proof.Frames

end
-- ==== Proof.Spec.lean ====
/-
  The mathematics both programs compute, stated once over plain finite index types and the extended reals.

  A graph of 1195 nodes with 2^20 directed edges (src e → dst e) carries a 64-wide embedding per node. One
  graph-convolution layer sends x to tanh of the MEAN over the edges into node i of the message
  msg (src e) = x (src e) · Wᵀ + b; a node with no incoming edge divides by 1. The layer is stated in two
  forms: edge by edge (`gcnScatter`), and through the edge-count matrix adj i j = #{e : dst e = i, src e = j}
  (`gcnDense`), in which node i's sum is ∑ j, adj i j · msg j.

  The head: z r = (P r · es) / (∑ j, P r j) · Wᵀ + b for each of the 16384 rows of P; then batch normalisation over
  the rows, column by column, in two forms — centred, (z − mean) / √(var + ε) · γ + β with
  var = mean of (z − mean)² (`bnR`), and through the moments, z · scale + shift with var = mean of z² − mean²,
  scale = γ · (1 / √(var + ε)), shift = β − mean · scale (`bnK`) —; then max with 0 and the product with ehᵀ.
-/
import Idealize.ShloMosaic.PureOps.Ideal

noncomputable section

namespace Cert.Spec

open Idealize.ShloMosaic
open scoped BigOperators

/-- The number of edges. -/
abbrev nE : Nat := 1048576

/-- An extended real that is a real number (neither infinity). -/
def IsReal (a : EReal) : Prop := ∃ r : ℝ, a = (r : EReal)

/-! ## One graph-convolution layer -/

/-- The message a node j sends: row j of x times Wᵀ, plus b. -/
def msg (x : Fin 1195 → Fin 64 → EReal) (W : Fin 64 → Fin 64 → EReal) (b : Fin 64 → EReal) (j : Fin 1195) (d : Fin 64) : EReal :=
  (∑ k : Fin 64, x j k * W d k) + b d

/-- The number of edges into node i. -/
def deg (dst : Fin nE → Fin 1195) (i : Fin 1195) : EReal :=
  ∑ e : Fin nE, if dst e = i then (1 : EReal) else 0

/-- The layer, edge by edge: the messages of the edges into i summed, over max (deg i) 1, under tanh. -/
def gcnScatter (src dst : Fin nE → Fin 1195) (x : Fin 1195 → Fin 64 → EReal) (W : Fin 64 → Fin 64 → EReal) (b : Fin 64 → EReal)
    (i : Fin 1195) (d : Fin 64) : EReal :=
  Ideal.tanh (Ideal.div (∑ e : Fin nE, if dst e = i then msg x W b (src e) d else 0) (max (deg dst i) 1))

/-- The number of edges from j into i. -/
def adj (src dst : Fin nE → Fin 1195) (i j : Fin 1195) : EReal :=
  ∑ e : Fin nE, if dst e = i ∧ src e = j then (1 : EReal) else 0

/-- The layer through the edge-count matrix. -/
def gcnDense (src dst : Fin nE → Fin 1195) (x : Fin 1195 → Fin 64 → EReal) (W : Fin 64 → Fin 64 → EReal) (b : Fin 64 → EReal)
    (i : Fin 1195) (d : Fin 64) : EReal :=
  Ideal.tanh (Ideal.div (∑ j : Fin 1195, adj src dst i j * msg x W b j d) (max (∑ j : Fin 1195, adj src dst i j) 1))

/-! ## The head -/

/-- Row r of P summed. -/
def rowsum (P : Fin 16384 → Fin 390 → EReal) (r : Fin 16384) : EReal := ∑ j : Fin 390, P r j

/-- z r d = ∑ k, ((∑ j, P r j · es j k) / rowsum r) · W d k + b d. -/
def zpre (P : Fin 16384 → Fin 390 → EReal) (es : Fin 390 → Fin 64 → EReal) (W : Fin 64 → Fin 64 → EReal) (b : Fin 64 → EReal)
    (r : Fin 16384) (d : Fin 64) : EReal :=
  (∑ k : Fin 64, Ideal.div (∑ j : Fin 390, P r j * es j k) (rowsum P r) * W d k) + b d

/-- Column d of z, averaged over the 16384 rows. -/
def mean (z : Fin 16384 → Fin 64 → EReal) (d : Fin 64) : EReal := Ideal.div (∑ r : Fin 16384, z r d) 16384

/-- The centred form's variance: the mean of (z − mean)². -/
def varR (z : Fin 16384 → Fin 64 → EReal) (d : Fin 64) : EReal :=
  Ideal.div (∑ r : Fin 16384, (z r d - mean z d) * (z r d - mean z d)) 16384

/-- Batch normalisation, centred form, then max with 0. -/
def bnR (z : Fin 16384 → Fin 64 → EReal) (g be : Fin 64 → EReal) (eps : EReal) (r : Fin 16384) (d : Fin 64) : EReal :=
  max (Ideal.div (z r d - mean z d) (Ideal.sqrt (varR z d + eps)) * g d + be d) 0

/-- The moment form's variance: the mean of z², minus mean². -/
def varK (z : Fin 16384 → Fin 64 → EReal) (d : Fin 64) : EReal :=
  Ideal.div (∑ r : Fin 16384, z r d * z r d) 16384 - mean z d * mean z d

/-- scale = γ · (1 / √(var + ε)). -/
def scaleK (z : Fin 16384 → Fin 64 → EReal) (g : Fin 64 → EReal) (eps : EReal) (d : Fin 64) : EReal :=
  g d * Ideal.div 1 (Ideal.sqrt (varK z d + eps))

/-- shift = β − mean · scale. -/
def shiftK (z : Fin 16384 → Fin 64 → EReal) (g be : Fin 64 → EReal) (eps : EReal) (d : Fin 64) : EReal :=
  be d - mean z d * scaleK z g eps d

/-- Batch normalisation, moment form, then max with 0. -/
def bnK (z : Fin 16384 → Fin 64 → EReal) (g be : Fin 64 → EReal) (eps : EReal) (r : Fin 16384) (d : Fin 64) : EReal :=
  max (z r d * scaleK z g eps d + shiftK z g be eps d) 0

/-- The result: the normalised rows times ehᵀ. `bn` is either form. -/
def out (bn : Fin 16384 → Fin 64 → EReal) (eh : Fin 805 → Fin 64 → EReal) (r : Fin 16384) (u : Fin 805) : EReal :=
  ∑ d : Fin 64, bn r d * eh u d

end Cert.Spec

end
-- ==== Proof.SpecGraph.lean ====
/-
  Facts about the graph-convolution layer and the head's sums, over the extended reals.

  * tanh of any extended real is a real number, and a message msg j d is a real number when x, W and b are.
  * The two forms of the layer agree. The denominators: ∑ j, adj i j counts the edges into i once each, because
    every edge has exactly one source. The numerators: ∑ j, adj i j · msg j regroups the edges into i by their
    source. Moving the factor msg j across the inner sum is a distributive law, which the extended reals lack at
    the infinities; it is done on real witnesses and carried back.
  * A sum over 16384 rows is the sum over 8 blocks of 2048 rows.
  * Two binary32 patterns read as extended reals: 16384, and the small positive constant added to the variance.
-/
import proofs.«406313_j19000935318034_3_alg».proof.Proof.Spec
import Idealize.ShloMosaic.Lib.IdealHost
import Mathlib.Data.EReal.Basic
import Mathlib.Algebra.BigOperators.Fin
import Mathlib.Algebra.BigOperators.Ring.Finset
import Mathlib.Logic.Equiv.Fin.Basic

noncomputable section

namespace Cert.Spec

open Idealize.ShloMosaic
open scoped BigOperators

/-! ## Real numbers inside the extended reals -/

/-- The coercion ℝ → EReal commutes with finite sums. -/
private theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- tanh maps −∞ to −1, +∞ to 1 and a real to a real. -/
theorem tanh_isReal (a : EReal) : IsReal (Ideal.tanh a) := by
  induction a using EReal.rec with
  | bot => exact ⟨-1, rfl⟩
  | top => exact ⟨1, rfl⟩
  | coe r => exact ⟨Real.tanh r, rfl⟩

/-- A message is a finite sum of products of reals, plus a real. -/
theorem msg_isReal {x : Fin 1195 → Fin 64 → EReal} {W : Fin 64 → Fin 64 → EReal} {b : Fin 64 → EReal}
    (hx : ∀ j k, IsReal (x j k)) (hW : ∀ d k, IsReal (W d k)) (hb : ∀ d, IsReal (b d)) (j : Fin 1195) (d : Fin 64) :
    IsReal (msg x W b j d) := by
  choose xr hxr using hx
  choose Wr hWr using hW
  choose br hbr using hb
  refine ⟨(∑ k : Fin 64, xr j k * Wr d k) + br d, ?_⟩
  unfold msg
  simp only [hxr, hWr, hbr, EReal.coe_add, coe_sum, EReal.coe_mul]

/-! ## Counting edges -/

/-- Every edge into i has exactly one source: summing the edge-count matrix along row i counts each such edge once. -/
private theorem sum_count {E N : Type*} [Fintype E] [Fintype N] [DecidableEq N] (src dst : E → N) (i : N) :
    ∑ j : N, ∑ e : E, (if dst e = i ∧ src e = j then (1 : EReal) else 0)
      = ∑ e : E, if dst e = i then (1 : EReal) else 0 := by
  rw [Finset.sum_comm]
  refine Finset.sum_congr rfl fun e _ => ?_
  by_cases h : dst e = i
  · simp [h]
  · simp [h]

/-- Over the reals: weighting m j by the number of edges j → i and summing over j is summing m (src e) over the
    edges e into i. -/
private theorem sum_count_mul {E N : Type*} [Fintype E] [Fintype N] [DecidableEq N] (src dst : E → N) (i : N)
    (m : N → ℝ) :
    ∑ j : N, (∑ e : E, if dst e = i ∧ src e = j then (1 : ℝ) else 0) * m j
      = ∑ e : E, if dst e = i then m (src e) else 0 := by
  simp only [Finset.sum_mul]
  rw [Finset.sum_comm]
  refine Finset.sum_congr rfl fun e _ => ?_
  by_cases h : dst e = i
  · simp [h]
  · simp [h]

/-- The layer through the edge-count matrix is the layer edge by edge. -/
theorem gcnDense_eq_gcnScatter (src dst : Fin nE → Fin 1195) {x : Fin 1195 → Fin 64 → EReal}
    {W : Fin 64 → Fin 64 → EReal} {b : Fin 64 → EReal}
    (hx : ∀ j k, IsReal (x j k)) (hW : ∀ d k, IsReal (W d k)) (hb : ∀ d, IsReal (b d)) (i : Fin 1195) (d : Fin 64) :
    gcnDense src dst x W b i d = gcnScatter src dst x W b i d := by
  have hm : ∀ j, IsReal (msg x W b j d) := fun j => msg_isReal hx hW hb j d
  choose m hm using hm
  have hden : ∑ j : Fin 1195, adj src dst i j = deg dst i := sum_count src dst i
  have hadj : ∀ j, adj src dst i j
      = ((∑ e : Fin nE, if dst e = i ∧ src e = j then (1 : ℝ) else 0 : ℝ) : EReal) := by
    intro j
    unfold adj
    rw [coe_sum]
    refine Finset.sum_congr rfl fun e _ => ?_
    split_ifs <;> simp
  have hnum : ∑ j : Fin 1195, adj src dst i j * msg x W b j d
      = ∑ e : Fin nE, if dst e = i then msg x W b (src e) d else 0 := by
    simp only [hadj, hm, ← EReal.coe_mul]
    rw [← coe_sum, sum_count_mul, coe_sum]
    refine Finset.sum_congr rfl fun e _ => ?_
    split_ifs <;> simp
  unfold gcnDense gcnScatter
  rw [hden, hnum]

/-! ## Rows in blocks -/

private theorem sum_blocks_gen (m n : ℕ) (f : Fin (m * n) → EReal)
    (h : ∀ (b : Fin m) (t : Fin n), b.val * n + t.val < m * n) :
    ∑ b : Fin m, ∑ t : Fin n, f ⟨b.val * n + t.val, h b t⟩ = ∑ r : Fin (m * n), f r := by
  rw [← Finset.sum_product', Finset.univ_product_univ]
  refine Fintype.sum_equiv finProdFinEquiv _ _ fun p => ?_
  congr 1
  ext
  rw [finProdFinEquiv_apply_val]
  show p.1.val * n + p.2.val = p.2.val + n * p.1.val
  rw [Nat.mul_comm, Nat.add_comm]

/-- Row r = 2048 · b + t runs over all 16384 rows once as the block b and the offset t run. -/
theorem sum_blocks (f : Fin 16384 → EReal) :
    ∑ b : Fin 8, ∑ t : Fin 2048, f ⟨b.val * 2048 + t.val, by omega⟩ = ∑ r : Fin 16384, f r :=
  sum_blocks_gen 8 2048 f _

/-! ## Two binary32 patterns -/

/-- Sign 0, exponent 141, fraction 0: 2 ^ (141 − 127) = 16384. -/
theorem ofBits_16384 : Ideal.ofBits .f32 0x46800000#32 = (16384 : EReal) := by
  simp [Ideal.ofBits, Ideal.ieee, -EReal.coe_mul]; norm_num; rfl

/-- Sign 0, exponent 110, fraction 2606508: (2 ^ 23 + 2606508) · 2 ^ (110 − 127 − 23), a positive real (about 10⁻⁵). -/
theorem ofBits_eps_bn : ∃ r : ℝ, Ideal.ofBits .f32 0x3727C5AC#32 = (r : EReal) ∧ 0 < r := by
  refine ⟨(10995116 : ℝ) * (2 : ℝ) ^ (-40 : ℤ), ?_, by positivity⟩
  simp [Ideal.ofBits, Ideal.ieee, -EReal.coe_mul]

end Cert.Spec

end
-- ==== Proof.SpecHead.lean ====
/-
  The head of the computation as the second pallas_call and the host between the two calls compute it.

  From per-block column sums s0 (of z) and s1 (of z²), eight blocks of 2048 rows each: the mean is the blocks' sums
  added and divided by 16384, the variance the same of the squares minus the mean's square, scale = γ · (1 / √(var + ε))
  and shift = β − mean · scale. The result's entry (r, u) is ∑ d, max (z r d · scale d + shift d) 0 · ehᵀ d u.
  With the block sums regrouped into sums over all rows these are the moment form of the batch normalisation.
-/
import proofs.«406313_j19000935318034_3_alg».proof.Proof.Spec
import proofs.«406313_j19000935318034_3_alg».proof.Proof.SpecGraph

noncomputable section

namespace Cert.Spec

open Idealize.ShloMosaic
open scoped BigOperators

/-- The mean from per-block sums. -/
def muB (s0 : Fin 8 → Fin 64 → EReal) (d : Fin 64) : EReal := Ideal.div (∑ blk : Fin 8, s0 blk d) 16384

/-- The variance from per-block sums of z and of z². -/
def varB (s0 s1 : Fin 8 → Fin 64 → EReal) (d : Fin 64) : EReal := Ideal.div (∑ blk : Fin 8, s1 blk d) 16384 - muB s0 d * muB s0 d

/-- scale = γ · (1 / √(var + ε)). -/
def scaleB (g : Fin 64 → EReal) (s0 s1 : Fin 8 → Fin 64 → EReal) (eps : EReal) (d : Fin 64) : EReal :=
  g d * Ideal.div 1 (Ideal.sqrt (varB s0 s1 d + eps))

/-- shift = β − mean · scale. -/
def shiftB (g be : Fin 64 → EReal) (s0 s1 : Fin 8 → Fin 64 → EReal) (eps : EReal) (d : Fin 64) : EReal :=
  be d - muB s0 d * scaleB g s0 s1 eps d

/-- The second call's result: max (z · scale + shift) 0 times ehᵀ. -/
def headK (z : Fin 16384 → Fin 64 → EReal) (sc sh : Fin 64 → EReal) (ehT : Fin 64 → Fin 805 → EReal) (r : Fin 16384) (u : Fin 805) : EReal :=
  ∑ d : Fin 64, max (z r d * sc d + sh d) 0 * ehT d u

/-- The block sums of a z regroup into its sums over all rows: the block form is the moment form. -/
theorem muB_blocks (z : Fin 16384 → Fin 64 → EReal) (d : Fin 64) :
    muB (fun blk d => ∑ t : Fin 2048, z ⟨blk.val * 2048 + t.val, by omega⟩ d) d = mean z d := by
  unfold muB mean
  rw [sum_blocks (fun r => z r d)]

theorem varB_blocks (z : Fin 16384 → Fin 64 → EReal) (d : Fin 64) :
    varB (fun blk d => ∑ t : Fin 2048, z ⟨blk.val * 2048 + t.val, by omega⟩ d)
      (fun blk d => ∑ t : Fin 2048, z ⟨blk.val * 2048 + t.val, by omega⟩ d * z ⟨blk.val * 2048 + t.val, by omega⟩ d) d = varK z d := by
  unfold varB varK
  rw [muB_blocks, sum_blocks (fun r => z r d * z r d)]

theorem scaleB_blocks (z : Fin 16384 → Fin 64 → EReal) (g : Fin 64 → EReal) (eps : EReal) (d : Fin 64) :
    scaleB g (fun blk d => ∑ t : Fin 2048, z ⟨blk.val * 2048 + t.val, by omega⟩ d)
      (fun blk d => ∑ t : Fin 2048, z ⟨blk.val * 2048 + t.val, by omega⟩ d * z ⟨blk.val * 2048 + t.val, by omega⟩ d) eps d = scaleK z g eps d := by
  unfold scaleB scaleK
  rw [varB_blocks]

theorem shiftB_blocks (z : Fin 16384 → Fin 64 → EReal) (g be : Fin 64 → EReal) (eps : EReal) (d : Fin 64) :
    shiftB g be (fun blk d => ∑ t : Fin 2048, z ⟨blk.val * 2048 + t.val, by omega⟩ d)
      (fun blk d => ∑ t : Fin 2048, z ⟨blk.val * 2048 + t.val, by omega⟩ d * z ⟨blk.val * 2048 + t.val, by omega⟩ d) eps d = shiftK z g be eps d := by
  unfold shiftB shiftK
  rw [muB_blocks, scaleB_blocks]

/-- With scale and shift the moment form's, the second call's result is the specification's result at the moment form. -/
theorem headK_eq_out (z : Fin 16384 → Fin 64 → EReal) (g be : Fin 64 → EReal) (eps : EReal) (eh : Fin 805 → Fin 64 → EReal)
    (r : Fin 16384) (u : Fin 805) :
    headK z (scaleK z g eps) (shiftK z g be eps) (fun d u => eh u d) r u = out (bnK z g be eps) eh r u := rfl

end Cert.Spec

end
-- ==== Proof.KerChain.lean ====
/-
  The last stretch of the host operations the program runs before its first custom call, named as two functions.

  From two node tables x1 and h (1195 rows of 64 columns each) the program cuts the rows 805 … 1194 and the
  rows 0 … 804 of both, and forms on each cut

      x / max (√(∑ over a row's columns of x²), c)  +  h / max (√(∑ over a column's rows of h²), c),

  the first table normalised row by row, the second column by column, c the constant the program prints.
  esK is that sum on the rows 805 … 1194 and ehK on the rows 0 … 804, each written as the composition of the very
  operations the program prints, in its order. The theorems read the buffers the custom call receives as these
  functions of the two tables: a change of format is the identity on extended reals, and a matrix transpose swaps the
  two coordinates.
-/
import proofs.«406313_j19000935318034_3_alg».proof.Proof.Gen.KernelIdeal.Launch
import proofs.«406313_j19000935318034_3_alg».proof.Proof.Spec
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Chain

open Cert.KernelIdeal Cert.KernelIdeal.Gen Idealize.ShloMosaic Idealize.ShloMosaic.ValueIdx Idealize.ShloMosaic.StableHlo

/-- The rows 805 … 1194: x1 normalised along each row plus h normalised along each column. -/
def esK {F : FTy → Type} [FloatOps F] (x1 h : FVec F S1195x64 .f32) : FVec F S390x64 .f32 :=
  addf
    (Host.divf (extractStridedSlice S390x64 ![805, 0] x1 slices_S1195x64_S390x64_805_0)
      (broadcastInDim S390x64 ![0, 1] bcast_S390x1_S390x64_0_1
        (maximumf
          (Host.sqrt (broadcastInDim S390x1 ![0] bcast_S390_S390x1_0
            (Host.reduceAdd
              (mulf (extractStridedSlice S390x64 ![805, 0] x1 slices_S1195x64_S390x64_805_0)
                (extractStridedSlice S390x64 ![805, 0] x1 slices_S1195x64_S390x64_805_0))
              (constant S_ .f32 0x00000000#32) reducesTo_S390x64_S390_d1 h_S_)))
          (broadcastInDim S390x1 ![] bcast_S_S390x1 (constant S_ .f32 0x2B8CBCCC#32)))))
    (Host.divf (extractStridedSlice S390x64 ![805, 0] h slices_S1195x64_S390x64_805_0)
      (broadcastInDim S390x64 ![0, 1] bcast_S1x64_S390x64_0_1
        (maximumf
          (Host.sqrt (broadcastInDim S1x64 ![1] bcast_S64_S1x64_1
            (Host.reduceAdd
              (mulf (extractStridedSlice S390x64 ![805, 0] h slices_S1195x64_S390x64_805_0)
                (extractStridedSlice S390x64 ![805, 0] h slices_S1195x64_S390x64_805_0))
              (constant S_ .f32 0x00000000#32) reducesTo_S390x64_S64_d0 h_S_)))
          (broadcastInDim S1x64 ![] bcast_S_S1x64 (constant S_ .f32 0x2B8CBCCC#32)))))

/-- The rows 0 … 804: x1 normalised along each row plus h normalised along each column. -/
def ehK {F : FTy → Type} [FloatOps F] (x1 h : FVec F S1195x64 .f32) : FVec F S805x64 .f32 :=
  addf
    (Host.divf (extractStridedSlice S805x64 ![0, 0] x1 slices_S1195x64_S805x64_0_0)
      (broadcastInDim S805x64 ![0, 1] bcast_S805x1_S805x64_0_1
        (maximumf
          (Host.sqrt (broadcastInDim S805x1 ![0] bcast_S805_S805x1_0
            (Host.reduceAdd
              (mulf (extractStridedSlice S805x64 ![0, 0] x1 slices_S1195x64_S805x64_0_0)
                (extractStridedSlice S805x64 ![0, 0] x1 slices_S1195x64_S805x64_0_0))
              (constant S_ .f32 0x00000000#32) reducesTo_S805x64_S805_d1 h_S_)))
          (broadcastInDim S805x1 ![] bcast_S_S805x1 (constant S_ .f32 0x2B8CBCCC#32)))))
    (Host.divf (extractStridedSlice S805x64 ![0, 0] h slices_S1195x64_S805x64_0_0)
      (broadcastInDim S805x64 ![0, 1] bcast_S1x64_S805x64_0_1
        (maximumf
          (Host.sqrt (broadcastInDim S1x64 ![1] bcast_S64_S1x64_1
            (Host.reduceAdd
              (mulf (extractStridedSlice S805x64 ![0, 0] h slices_S1195x64_S805x64_0_0)
                (extractStridedSlice S805x64 ![0, 0] h slices_S1195x64_S805x64_0_0))
              (constant S_ .f32 0x00000000#32) reducesTo_S805x64_S64_d0 h_S_)))
          (broadcastInDim S1x64 ![] bcast_S_S1x64 (constant S_ .f32 0x2B8CBCCC#32)))))

/-- Running two lines of host operations one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- A line of host operations run from V is its tail past the first n run from what the first n leave. -/
theorem after_split {Val : EltTy → Type} (n : Nat) (ops : List (HloOp τ sig Val)) (V : Valuation τ sig Val) :
    after ops V = after (ops.drop n) (after (ops.take n) V) := by
  conv_lhs => rw [← List.take_append_drop n ops]
  exact after_append _ _ _

/-! ## The two normalised sums

The first 43 operations of the stretch compute h; the last 51 read x1 and h and write neither. Cutting the stretch
there, what the first 43 leave is one valuation whose two tables the last 51 read: the buffer is then the printed
composition applied to them, and x1 and h are still what they were. -/

set_option maxHeartbeats 4000000 in
/-- The buffer the custom call receives as its second operand is esK of the two tables (the change of format to
    sixteen bits is the identity on extended reals). -/
theorem es_eq (L : Valuation τ sig (Elt Ideal)) :
    (after hostOps0_1 (after hostOps0 L) (Proc.devRef .tc main_v76) : S390x64.Idx → EReal)
      = esK (F := Ideal) (after hostOps0_1 (after hostOps0 L) (Proc.devRef .tc main_v0))
          (after hostOps0_1 (after hostOps0 L) (Proc.devRef .tc main_v37)) := by
  rw [after_split 43 hostOps0_1 (after hostOps0 L)]
  generalize after (List.take 43 hostOps0_1) (after hostOps0 L) = Wm
  simp only [hostOps0_1, List.drop_succ_cons, List.drop_zero]
  after_results_simp
  rfl

set_option maxHeartbeats 4000000 in
/-- The transposed, reformatted buffer as a whole: the transpose of ehK of the two tables. -/
theorem ehT_eq (L : Valuation τ sig (Elt Ideal)) :
    (after hostOps0_1 (after hostOps0 L) (Proc.devRef .tc main_v80) : S64x805.Idx → EReal)
      = truncf .bf16
          (transpose S64x805 [1, 0]
            (ehK (F := Ideal) (after hostOps0_1 (after hostOps0 L) (Proc.devRef .tc main_v0))
              (after hostOps0_1 (after hostOps0 L) (Proc.devRef .tc main_v37)))
            transposes_S805x64_S64x805_1_0)
          bitsLt_bf16_f32 := by
  rw [after_split 43 hostOps0_1 (after hostOps0 L)]
  generalize after (List.take 43 hostOps0_1) (after hostOps0 L) = Wm
  simp only [hostOps0_1, List.drop_succ_cons, List.drop_zero]
  after_results_simp
  rfl

/-- Entry (d, u) of the buffer the custom call receives as its last operand is entry (u, d) of ehK of the two tables. -/
theorem ehT_apply (L : Valuation τ sig (Elt Ideal)) (d : Fin 64) (u : Fin 805) :
    (after hostOps0_1 (after hostOps0 L) (Proc.devRef .tc main_v80) : S64x805.Idx → EReal) (ix2 d u)
      = ehK (F := Ideal) (after hostOps0_1 (after hostOps0 L) (Proc.devRef .tc main_v0))
          (after hostOps0_1 (after hostOps0 L) (Proc.devRef .tc main_v37)) (ix2 u d) :=
  (congrFun (ehT_eq L) (ix2 d u)).trans
    ((truncf_apply _ bitsLt_bf16_f32 (ix2 d u)).trans
      (transpose_ix2_apply _ transposes_S805x64_S64x805_1_0 d u))

/-! ## What no host operation writes

Every host operation of the two stretches writes a value of the program, never one of its arguments. -/

/-- The references the first stretch's operations write are not the given one: one inequality of references for each. -/
local macro "no_write0" : tactic =>
  `(tactic| ((simp only [hostOps0, List.Forall, nullary_writes, unary_writes, binary_writes, ternary_writes, quaternary_writes,
        reshape_writes, binaryIndexed_writes, Finset.mem_singleton]); (repeat' apply And.intro); (all_goals exact devRef_ne_of_ne (by decide))))
/-- The same for the second stretch. -/
local macro "no_write1" : tactic =>
  `(tactic| ((simp only [hostOps0_1, List.Forall, nullary_writes, unary_writes, binary_writes, ternary_writes, quaternary_writes,
        reshape_writes, binaryIndexed_writes, Finset.mem_singleton]); (repeat' apply And.intro); (all_goals exact devRef_ne_of_ne (by decide))))

set_option maxHeartbeats 4000000 in
theorem kept_arg6 (L : Valuation τ sig (Elt Ideal)) :
    after hostOps0_1 (after hostOps0 L) (Proc.devRef .tc main_arg6) = L (Proc.devRef .tc main_arg6) :=
  (after_of_forall_not_mem (b := Proc.devRef .tc main_arg6) hostOps0_1 _ (List.forall_iff_forall_mem.mp (by no_write1))).trans
    (after_of_forall_not_mem (b := Proc.devRef .tc main_arg6) hostOps0 _ (List.forall_iff_forall_mem.mp (by no_write0)))

set_option maxHeartbeats 4000000 in
theorem kept_arg12 (L : Valuation τ sig (Elt Ideal)) :
    after hostOps0_1 (after hostOps0 L) (Proc.devRef .tc main_arg12) = L (Proc.devRef .tc main_arg12) :=
  (after_of_forall_not_mem (b := Proc.devRef .tc main_arg12) hostOps0_1 _ (List.forall_iff_forall_mem.mp (by no_write1))).trans
    (after_of_forall_not_mem (b := Proc.devRef .tc main_arg12) hostOps0 _ (List.forall_iff_forall_mem.mp (by no_write0)))

set_option maxHeartbeats 4000000 in
theorem kept_arg13 (L : Valuation τ sig (Elt Ideal)) :
    after hostOps0_1 (after hostOps0 L) (Proc.devRef .tc main_arg13) = L (Proc.devRef .tc main_arg13) :=
  (after_of_forall_not_mem (b := Proc.devRef .tc main_arg13) hostOps0_1 _ (List.forall_iff_forall_mem.mp (by no_write1))).trans
    (after_of_forall_not_mem (b := Proc.devRef .tc main_arg13) hostOps0 _ (List.forall_iff_forall_mem.mp (by no_write0)))

set_option maxHeartbeats 4000000 in
theorem kept_arg14 (L : Valuation τ sig (Elt Ideal)) :
    after hostOps0_1 (after hostOps0 L) (Proc.devRef .tc main_arg14) = L (Proc.devRef .tc main_arg14) :=
  (after_of_forall_not_mem (b := Proc.devRef .tc main_arg14) hostOps0_1 _ (List.forall_iff_forall_mem.mp (by no_write1))).trans
    (after_of_forall_not_mem (b := Proc.devRef .tc main_arg14) hostOps0 _ (List.forall_iff_forall_mem.mp (by no_write0)))

set_option maxHeartbeats 4000000 in
theorem kept_arg15 (L : Valuation τ sig (Elt Ideal)) :
    after hostOps0_1 (after hostOps0 L) (Proc.devRef .tc main_arg15) = L (Proc.devRef .tc main_arg15) :=
  (after_of_forall_not_mem (b := Proc.devRef .tc main_arg15) hostOps0_1 _ (List.forall_iff_forall_mem.mp (by no_write1))).trans
    (after_of_forall_not_mem (b := Proc.devRef .tc main_arg15) hostOps0 _ (List.forall_iff_forall_mem.mp (by no_write0)))

/-! ## The transposed weight -/

set_option maxHeartbeats 4000000 in
/-- The buffer of the transposed weight as a whole: the reformatted transpose of what the second stretch finds at the
    weight argument. -/
theorem wT_eq (W1 : Valuation τ sig (Elt Ideal)) :
    (after hostOps0_1 W1 (Proc.devRef .tc main_v78) : S64x64.Idx → EReal)
      = truncf (F := Ideal) .bf16
          (transpose S64x64 [1, 0] (after hostOps0_1 W1 (Proc.devRef .tc main_arg12) : FVec Ideal S64x64 .f32)
            transposes_S64x64_S64x64_1_0)
          bitsLt_bf16_f32 := by
  rw [after_split 43 hostOps0_1 W1]
  generalize after (List.take 43 hostOps0_1) W1 = Wm
  simp only [hostOps0_1, List.drop_succ_cons, List.drop_zero]
  after_results_simp

/-- Entry (k, d) of the buffer the custom call receives as its weight is entry (d, k) of the weight argument. -/
theorem wT_apply (L : Valuation τ sig (Elt Ideal)) (k d : Fin 64) :
    (after hostOps0_1 (after hostOps0 L) (Proc.devRef .tc main_v78) : S64x64.Idx → EReal) (ix2 k d)
      = (L (Proc.devRef .tc main_arg12) : S64x64.Idx → EReal) (ix2 d k) := by
  refine (congrFun (wT_eq (after hostOps0 L)) (ix2 k d)).trans ?_
  rw [kept_arg12 L]
  exact (truncf_apply _ bitsLt_bf16_f32 (ix2 k d)).trans (transpose_ix2_apply _ transposes_S64x64_S64x64_1_0 k d)

end Cert.KernelIdeal.Chain
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.KerRegion0.lean ====
/-
  What the program's first kernel call leaves in its two result arrays, as functions of its four input arrays.

  The call runs over 8 points. Point t sees rows 2048 t … 2048 t + 2047 of P (a 16384 × 390 array) and the whole of
  es (390 × 64), Wᵀ (64 × 64) and b (64). It writes the 2048 × 64 block of z for those rows — entry (p, q) is
  ∑ k, ((∑ j, P p j · es j k) / ∑ j, P p j) · Wᵀ k q + b q — and one 8 × 64 slab of statistics: row 0 the column sums
  of that block, row 1 the column sums of its squares, rows 2 to 7 zero.

  First every step of the body is read at an entry: a sum along the lanes or along the rows; each of the two products
  as a sum over its shared axis; a vector kept as a column, or as a row, and laid over a matrix; the compare of the row
  number with 0 and with 1 and the two selects as a case split on the row number. Then a block's entries are read off
  the arrays as the call finds them (on each axis: block index × block size + the coordinate inside the block). Last,
  each result array is covered by the 8 points' blocks — row r of z by the point r / 2048, slab blk of the statistics
  by the point blk — so that it ends holding one function of its index.
-/
import proofs.«406313_j19000935318034_3_alg».proof.Proof.Gen.KernelIdeal.Frame
import proofs.«406313_j19000935318034_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import proofs.«406313_j19000935318034_3_alg».proof.Proof.LibColumns

noncomputable section

namespace Cert.KernelIdeal.Region0

open Cert.KernelIdeal Cert.KernelIdeal.Gen Idealize.ShloMosaic Idealize.ShloMosaic.ValueIdx
open scoped BigOperators
open Idealize.ShloMosaic.TcCoe Idealize.SL.Sem
open Idealize.ShloMosaic.Pipeline (Dat)

/-- The row sum: the lane reduction of a [2048, 390] block at row p is the sum over the 390 columns. -/
theorem lane_sum_apply (x : FVec Ideal S2048x390 .f32) (h : S2048x390.Reduces [1] S2048) (hφ : FKind.Formats .f32)
    (hacc : (0x00000000#32 : BitVec 32) = FKind.add.neutral .f32 hφ) (p : Fin 2048) :
    multiReduction (F := Ideal) .add [1] S2048 x 0x00000000#32 h hφ hacc (ix1 p) = ∑ j : Fin 390, x (ix2 p j) := by
  refine (Ideal.multiReduction_add_single x 0x00000000#32 h hφ hacc (ix1 p)).trans ?_
  refine Finset.sum_congr rfl fun j _ => congrArg x ?_
  funext a; apply Fin.ext
  match a with
  | ⟨0, _⟩ => rfl
  | ⟨1, _⟩ => rfl

/-- The column sum: the reduction of a [2048, 64] block along its rows, at column q. -/
theorem col_sum_apply (x : FVec Ideal S2048x64 .f32) (h : S2048x64.Reduces [0] S64) (hφ : FKind.Formats .f32)
    (hacc : (0x00000000#32 : BitVec 32) = FKind.add.neutral .f32 hφ) (q : Fin 64) :
    multiReduction (F := Ideal) .add [0] S64 x 0x00000000#32 h hφ hacc (ix1 q) = ∑ p : Fin 2048, x (ix2 p q) := by
  refine (Ideal.multiReduction_add_single x 0x00000000#32 h hφ hacc (ix1 q)).trans ?_
  refine Finset.sum_congr rfl fun j _ => congrArg x ?_
  funext a; apply Fin.ext
  match a with
  | ⟨0, _⟩ => rfl
  | ⟨1, _⟩ => rfl

/-! ## The two block products at an entry -/

/-- Operand indices of the [2048,390] × [390,64] product, axis by axis. -/
theorem lhsP_0 (j : S2048x64.Idx) (k : dot_S2048x390_S390x64_S2048x64_1_0_0_1_n_n.contr.Idx) :
    ((dot_S2048x390_S390x64_S2048x64_1_0_0_1_n_n.lhsIdx j k (0 : Fin 2)) : ℕ) = (j (0 : Fin 2) : ℕ) := by
  unfold DotDims.lhsIdx
  rw [dif_neg (show ¬ (0 : Fin S2048x390.rank) ∈ dot_S2048x390_S390x64_S2048x64_1_0_0_1_n_n.lhsBatch by decide),
    dif_pos (show (0 : Fin S2048x390.rank) ∈ dot_S2048x390_S390x64_S2048x64_1_0_0_1_n_n.lhsNonContracting by decide)]
  rfl

theorem lhsP_1 (j : S2048x64.Idx) (k : dot_S2048x390_S390x64_S2048x64_1_0_0_1_n_n.contr.Idx) :
    ((dot_S2048x390_S390x64_S2048x64_1_0_0_1_n_n.lhsIdx j k (1 : Fin 2)) : ℕ) = (k ⟨0, by decide⟩ : ℕ) :=
  dot_S2048x390_S390x64_S2048x64_1_0_0_1_n_n.lhsIdx_val_of_single (cl := (1 : Fin 2)) rfl j k

theorem rhsP_0 (j : S2048x64.Idx) (k : dot_S2048x390_S390x64_S2048x64_1_0_0_1_n_n.contr.Idx) :
    ((dot_S2048x390_S390x64_S2048x64_1_0_0_1_n_n.rhsIdx j k (0 : Fin 2)) : ℕ) = (k ⟨0, by decide⟩ : ℕ) :=
  dot_S2048x390_S390x64_S2048x64_1_0_0_1_n_n.rhsIdx_val_of_single (cr := (0 : Fin 2)) rfl j k

theorem rhsP_1 (j : S2048x64.Idx) (k : dot_S2048x390_S390x64_S2048x64_1_0_0_1_n_n.contr.Idx) :
    ((dot_S2048x390_S390x64_S2048x64_1_0_0_1_n_n.rhsIdx j k (1 : Fin 2)) : ℕ) = (j (1 : Fin 2) : ℕ) := by
  unfold DotDims.rhsIdx
  rw [dif_neg (show ¬ (1 : Fin S390x64.rank) ∈ dot_S2048x390_S390x64_S2048x64_1_0_0_1_n_n.rhsBatch by decide),
    dif_pos (show (1 : Fin S390x64.rank) ∈ dot_S2048x390_S390x64_S2048x64_1_0_0_1_n_n.rhsNonContracting by decide)]
  rfl

/-- The first product into a zero accumulator, at (p, q): the sum over the 390 shared columns. -/
theorem prodP_apply (a : FVec Ideal S2048x390 .bf16) (b : FVec Ideal S390x64 .bf16) (p : Fin 2048) (q : Fin 64) :
    matmul (F := Ideal) dot_S2048x390_S390x64_S2048x64_1_0_0_1_n_n none a b (constant (F := Ideal) S2048x64 .f32 0x00000000#32) (ix2 p q)
      = ∑ j : Fin 390, a (ix2 p j) * b (ix2 j q) := by
  refine (Ideal.matmul_constant_zero_apply dot_S2048x390_S390x64_S2048x64_1_0_0_1_n_n none a b (ix2 p q)).trans ?_
  rw [← Equiv.sum_comp (contrEquiv1 dot_S2048x390_S390x64_S2048x64_1_0_0_1_n_n 390 rfl rfl).symm]
  refine Finset.sum_congr rfl fun j _ => ?_
  refine congrArg₂ (· * ·) (congrArg a ?_) (congrArg b ?_)
  · funext ax; apply Fin.ext
    match ax with
    | ⟨0, _⟩ => exact lhsP_0 _ _
    | ⟨1, _⟩ => exact (lhsP_1 _ _).trans (contrEquiv1_symm_val dot_S2048x390_S390x64_S2048x64_1_0_0_1_n_n 390 rfl rfl j)
  · funext ax; apply Fin.ext
    match ax with
    | ⟨0, _⟩ => exact (rhsP_0 _ _).trans (contrEquiv1_symm_val dot_S2048x390_S390x64_S2048x64_1_0_0_1_n_n 390 rfl rfl j)
    | ⟨1, _⟩ => exact rhsP_1 _ _

/-- Operand indices of the [2048,64] × [64,64] product, axis by axis. -/
theorem lhsW_0 (j : S2048x64.Idx) (k : dot_S2048x64_S64x64_S2048x64_1_0_0_1_n_n.contr.Idx) :
    ((dot_S2048x64_S64x64_S2048x64_1_0_0_1_n_n.lhsIdx j k (0 : Fin 2)) : ℕ) = (j (0 : Fin 2) : ℕ) := by
  unfold DotDims.lhsIdx
  rw [dif_neg (show ¬ (0 : Fin S2048x64.rank) ∈ dot_S2048x64_S64x64_S2048x64_1_0_0_1_n_n.lhsBatch by decide),
    dif_pos (show (0 : Fin S2048x64.rank) ∈ dot_S2048x64_S64x64_S2048x64_1_0_0_1_n_n.lhsNonContracting by decide)]
  rfl

theorem lhsW_1 (j : S2048x64.Idx) (k : dot_S2048x64_S64x64_S2048x64_1_0_0_1_n_n.contr.Idx) :
    ((dot_S2048x64_S64x64_S2048x64_1_0_0_1_n_n.lhsIdx j k (1 : Fin 2)) : ℕ) = (k ⟨0, by decide⟩ : ℕ) :=
  dot_S2048x64_S64x64_S2048x64_1_0_0_1_n_n.lhsIdx_val_of_single (cl := (1 : Fin 2)) rfl j k

theorem rhsW_0 (j : S2048x64.Idx) (k : dot_S2048x64_S64x64_S2048x64_1_0_0_1_n_n.contr.Idx) :
    ((dot_S2048x64_S64x64_S2048x64_1_0_0_1_n_n.rhsIdx j k (0 : Fin 2)) : ℕ) = (k ⟨0, by decide⟩ : ℕ) :=
  dot_S2048x64_S64x64_S2048x64_1_0_0_1_n_n.rhsIdx_val_of_single (cr := (0 : Fin 2)) rfl j k

theorem rhsW_1 (j : S2048x64.Idx) (k : dot_S2048x64_S64x64_S2048x64_1_0_0_1_n_n.contr.Idx) :
    ((dot_S2048x64_S64x64_S2048x64_1_0_0_1_n_n.rhsIdx j k (1 : Fin 2)) : ℕ) = (j (1 : Fin 2) : ℕ) := by
  unfold DotDims.rhsIdx
  rw [dif_neg (show ¬ (1 : Fin S64x64.rank) ∈ dot_S2048x64_S64x64_S2048x64_1_0_0_1_n_n.rhsBatch by decide),
    dif_pos (show (1 : Fin S64x64.rank) ∈ dot_S2048x64_S64x64_S2048x64_1_0_0_1_n_n.rhsNonContracting by decide)]
  rfl

/-- The second product into a zero accumulator, at (p, q): the sum over the 64 shared columns. -/
theorem prodW_apply (a : FVec Ideal S2048x64 .bf16) (b : FVec Ideal S64x64 .bf16) (p : Fin 2048) (q : Fin 64) :
    matmul (F := Ideal) dot_S2048x64_S64x64_S2048x64_1_0_0_1_n_n none a b (constant (F := Ideal) S2048x64 .f32 0x00000000#32) (ix2 p q)
      = ∑ k : Fin 64, a (ix2 p k) * b (ix2 k q) := by
  refine (Ideal.matmul_constant_zero_apply dot_S2048x64_S64x64_S2048x64_1_0_0_1_n_n none a b (ix2 p q)).trans ?_
  rw [← Equiv.sum_comp (contrEquiv1 dot_S2048x64_S64x64_S2048x64_1_0_0_1_n_n 64 rfl rfl).symm]
  refine Finset.sum_congr rfl fun k _ => ?_
  refine congrArg₂ (· * ·) (congrArg a ?_) (congrArg b ?_)
  · funext ax; apply Fin.ext
    match ax with
    | ⟨0, _⟩ => exact lhsW_0 _ _
    | ⟨1, _⟩ => exact (lhsW_1 _ _).trans (contrEquiv1_symm_val dot_S2048x64_S64x64_S2048x64_1_0_0_1_n_n 64 rfl rfl k)
  · funext ax; apply Fin.ext
    match ax with
    | ⟨0, _⟩ => exact (rhsW_0 _ _).trans (contrEquiv1_symm_val dot_S2048x64_S64x64_S2048x64_1_0_0_1_n_n 64 rfl rfl k)
    | ⟨1, _⟩ => exact rhsW_1 _ _

/-! ## The layout steps at an entry -/

/-- A vector of 2048 entries kept as one column and laid along the 64 columns reads, at (p, q), its entry p. -/
theorem column_apply (v : FVec Ideal S2048 .f32) (h : S2048.ShapeCasts S2048x1) (h' : S2048x1.Broadcasts S2048x64) (p : Fin 2048) (q : Fin 64) :
    broadcastTo S2048x64 (shapeCast S2048x1 v h) h' (ix2 p q) = v (ix1 p) :=
  (Cert.Lib.Columns.broadcastTo_a1_ab_apply (shapeCast S2048x1 v h) h' p q).trans (Cert.Lib.Columns.shapeCast_a_a1_apply v h p (0 : Fin 1))

/-- A vector of 64 entries kept as one row and laid along the 2048 rows reads, at (p, q), its entry q. -/
theorem row_apply (v : FVec Ideal S64 .f32) (h : S64.ShapeCasts S1x64) (h' : S1x64.Broadcasts S2048x64) (p : Fin 2048) (q : Fin 64) :
    broadcastTo S2048x64 (shapeCast S1x64 v h) h' (ix2 p q) = v (ix1 q) :=
  (broadcastTo_1b_ab_apply (shapeCast S1x64 v h) h' p q).trans (shapeCast_a_1a_apply v h (0 : Fin 1) q)

/-- The same along the 8 rows of a statistics block. -/
theorem row8_apply (v : FVec Ideal S64 .f32) (h : S64.ShapeCasts S1x64) (h0 : S1x64.ShapeCasts S1x64) (h' : S1x64.Broadcasts S8x64) (a : Fin 8) (q : Fin 64) :
    broadcastTo S8x64 (shapeCast S1x64 (shapeCast S1x64 v h) h0) h' (ix2 a q) = v (ix1 q) := by
  rw [shapeCast_self]
  exact (broadcastTo_1b_ab_apply (shapeCast S1x64 v h) h' a q).trans (shapeCast_a_1a_apply v h (0 : Fin 1) q)

/-! ## The z block at an entry -/

/-- Entry (p, q) of the block the body stores into the z window: row p of the P block times es, over the row's sum,
    times Wᵀ, plus b. -/
theorem zblock_apply (x0 : Vec Ideal S2048x390 .f32) (x1 : Vec Ideal S390x64 .bf16) (x2 : Vec Ideal S64x64 .bf16) (x3 : Vec Ideal S64 .f32)
    (p : Fin 2048) (q : Fin 64) :
    (k0_pay1 (F := Ideal) x0 x1 x2 x3 : S2048x64.Idx → EReal) (ix2 p q)
      = (∑ k : Fin 64, Ideal.div (∑ j : Fin 390, (x0 (ix2 p j) : EReal) * x1 (ix2 j k)) (∑ j : Fin 390, (x0 (ix2 p j) : EReal)) * x2 (ix2 k q)) + x3 (ix1 q) := by
  unfold k0_pay1
  dsimp only
  refine (addf_apply _ _ _).trans ?_
  refine congrArg₂ (· + ·) ?_ (row_apply x3 _ _ p q)
  refine (prodW_apply _ _ p q).trans ?_
  refine Finset.sum_congr rfl fun k _ => ?_
  refine congrArg₂ (· * ·) ?_ (congrFun (shapeCast_self x2 _) (ix2 k q))
  refine (truncf_apply (φ := .f32) (ψ := .bf16) _ _ _).trans ?_
  refine (divf_apply _ _ _).trans ?_
  refine congrArg₂ Ideal.div ?_ ?_
  · refine (prodP_apply _ _ p k).trans ?_
    refine Finset.sum_congr rfl fun j _ => ?_
    exact congrArg₂ (· * ·) (truncf_apply (φ := .f32) (ψ := .bf16) _ _ _) (congrFun (shapeCast_self x1 _) (ix2 j k))
  · exact (column_apply _ _ _ p k).trans (lane_sum_apply x0 _ _ _ p)

/-! ## The statistics block at an entry -/

/-- The row number of the statistics block against 0 and against 1, as the body's two compares compute them. -/
theorem is_row0 : ∀ a : Fin 8, IntOp.cmpi .eq (BitVec.ofNat 32 a.val) 0#32 = if a.val = 0 then 1#1 else 0#1 := by decide
theorem is_row1 : ∀ a : Fin 8, IntOp.cmpi .eq (BitVec.ofNat 32 a.val) 1#32 = if a.val = 1 then 1#1 else 0#1 := by decide

/-- Two nested selects on "row 0" and "row 1" are a three-way case split on the row number. -/
theorem select_rows (c0 c1 : BitVec 1) (A B Z : EReal) (a : Fin 8) (h0 : c0 = if a.val = 0 then 1#1 else 0#1)
    (h1 : c1 = if a.val = 1 then 1#1 else 0#1) :
    Scalar.select c0 A (Scalar.select c1 B Z) = if a.val = 0 then A else if a.val = 1 then B else Z := by
  subst h0; subst h1
  by_cases e0 : a.val = 0
  · rw [if_pos e0, if_pos e0]; exact select_one _ _
  · rw [if_neg e0, if_neg e0]
    refine (select_zero _ _).trans ?_
    by_cases e1 : a.val = 1
    · rw [if_pos e1, if_pos e1]; exact select_one _ _
    · rw [if_neg e1, if_neg e1]; exact select_zero _ _

/-- Entry (u, a, q) of the block the body stores into the statistics window: row 0 the column sums of the z block, row 1
    the column sums of its squares, the other rows zero. -/
theorem stats_apply (x0 : Vec Ideal S2048x390 .f32) (x1 : Vec Ideal S390x64 .bf16) (x2 : Vec Ideal S64x64 .bf16) (x3 : Vec Ideal S64 .f32)
    (u : Fin 1) (a : Fin 8) (q : Fin 64) :
    (k0_pay2 (F := Ideal) x0 x1 x2 x3 : S1x8x64.Idx → EReal) (ix3 u a q)
      = if a.val = 0 then ∑ p : Fin 2048, (k0_pay1 (F := Ideal) x0 x1 x2 x3 : S2048x64.Idx → EReal) (ix2 p q)
        else if a.val = 1 then ∑ p : Fin 2048, (k0_pay1 (F := Ideal) x0 x1 x2 x3 : S2048x64.Idx → EReal) (ix2 p q)
            * (k0_pay1 (F := Ideal) x0 x1 x2 x3 : S2048x64.Idx → EReal) (ix2 p q)
        else 0 := by
  unfold k0_pay2
  dsimp only
  refine (shapeCast_ab_1ab_apply _ _ u a q).trans ?_
  refine (select_apply _ _ _ _).trans ?_
  refine (congrArg (Scalar.select _ _) (select_apply _ _ _ _)).trans ?_
  refine (select_rows _ _ _ _ _ a ?_ ?_).trans ?_
  · show IntOp.cmpi .eq (iota .tc S8x64 32 [0] iota_S8x64_d0_w32 (ix2 a q)) 0#32 = _
    rw [iota_single_apply]; exact is_row0 a
  · show IntOp.cmpi .eq (iota .tc S8x64 32 [0] iota_S8x64_d0_w32 (ix2 a q)) 1#32 = _
    rw [iota_single_apply]; exact is_row1 a
  refine if_congr Iff.rfl ?_ (if_congr Iff.rfl ?_ ?_)
  · exact (row8_apply _ _ _ _ a q).trans (col_sum_apply _ _ _ _ q)
  · refine (row8_apply _ _ _ _ a q).trans ((col_sum_apply _ _ _ _ q).trans ?_)
    exact Finset.sum_congr rfl fun p _ => mulf_apply _ _ _
  · show Ideal.ofBits .f32 0x00000000#32 = 0
    exact Ideal.ofBits_zero_f32

/-! ## From the blocks to the arrays -/

variable (V : (c : Dev nD) → (b : Ref sig .tc) → Buf (Elt Ideal) ((c : Thread nD τ).loc b))

/-- z as the specification's function of region 0's input arrays as it finds them. -/
def zK (c : Dev nD) : Fin 16384 → Fin 64 → EReal :=
  Cert.Spec.zpre (fun r j => (V c main_arg6 : S16384x390.Idx → EReal) (ix2 r j)) (fun j k => (V c main_v76 : S390x64.Idx → EReal) (ix2 j k))
    (fun d k => (V c main_v78 : S64x64.Idx → EReal) (ix2 k d)) (fun d => (V c main_arg13 : S64.Idx → EReal) (ix1 d))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 8 grid points: the P, z and statistics windows move with the point along
    their first axis, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0
    ∧ t.val < 8 :=
  (by decide +kernel : ∀ t : Fin grid0.N, _)

/-- Row p of the P block at point t is row 2048 t + p of P. -/
theorem blockP_apply (c : Dev nD) (t : Fin cfg0.N) (p : Fin 2048) (j : Fin 390) (r : Fin 16384) (hr : r.val = t.val * 2048 + p.val) :
    (iblk0 V c 0 t : Vec Ideal S2048x390 .f32) (ix2 p j) = (V c main_arg6 : S16384x390.Idx → EReal) (ix2 r j) := by
  obtain ⟨e0, e1, -⟩ := idx_facts t
  unfold iblk0
  rw [View.read_apply]
  show V c main_arg6 _ = V c main_arg6 _
  refine congrArg (V c main_arg6) ?_
  funext a; apply Fin.ext
  match a with
  | ⟨0, _⟩ => show win0_0.index t (0 : Fin 2) * 2048 + 1 * p.val = r.val; rw [e0, hr]; omega
  | ⟨1, _⟩ => show win0_0.index t (1 : Fin 2) * 390 + 1 * j.val = j.val; rw [e1]; omega

/-- The es, Wᵀ and b windows hold their whole arrays at every point. -/
theorem blockE_apply (c : Dev nD) (t : Fin cfg0.N) (j : Fin 390) (k : Fin 64) :
    (iblk0 V c 1 t : Vec Ideal S390x64 .bf16) (ix2 j k) = (V c main_v76 : S390x64.Idx → EReal) (ix2 j k) := by
  obtain ⟨-, -, e2, e3, -⟩ := idx_facts t
  unfold iblk0
  rw [View.read_apply]
  show V c main_v76 _ = V c main_v76 _
  refine congrArg (V c main_v76) ?_
  funext a; apply Fin.ext
  match a with
  | ⟨0, _⟩ => show win0_1.index t (0 : Fin 2) * 390 + 1 * j.val = j.val; rw [e2]; omega
  | ⟨1, _⟩ => show win0_1.index t (1 : Fin 2) * 64 + 1 * k.val = k.val; rw [e3]; omega

theorem blockW_apply (c : Dev nD) (t : Fin cfg0.N) (k : Fin 64) (d : Fin 64) :
    (iblk0 V c 2 t : Vec Ideal S64x64 .bf16) (ix2 k d) = (V c main_v78 : S64x64.Idx → EReal) (ix2 k d) := by
  obtain ⟨-, -, -, -, e4, e5, -⟩ := idx_facts t
  unfold iblk0
  rw [View.read_apply]
  show V c main_v78 _ = V c main_v78 _
  refine congrArg (V c main_v78) ?_
  funext a; apply Fin.ext
  match a with
  | ⟨0, _⟩ => show win0_2.index t (0 : Fin 2) * 64 + 1 * k.val = k.val; rw [e4]; omega
  | ⟨1, _⟩ => show win0_2.index t (1 : Fin 2) * 64 + 1 * d.val = d.val; rw [e5]; omega

theorem blockB_apply (c : Dev nD) (t : Fin cfg0.N) (d : Fin 64) :
    (iblk0 V c 3 t : Vec Ideal S64 .f32) (ix1 d) = (V c main_arg13 : S64.Idx → EReal) (ix1 d) := by
  obtain ⟨-, -, -, -, -, -, e6, -⟩ := idx_facts t
  unfold iblk0
  rw [View.read_apply]
  show V c main_arg13 _ = V c main_arg13 _
  refine congrArg (V c main_arg13) ?_
  funext a; apply Fin.ext
  match a with
  | ⟨0, _⟩ => show win0_3.index t (0 : Fin 1) * 64 + 1 * d.val = d.val; rw [e6]; omega

/-- Entry (p, q) of the z block at point t is the specification's z at row 2048 t + p. -/
theorem zblock_zK (c : Dev nD) (t : Fin cfg0.N) (p : Fin 2048) (q : Fin 64) (r : Fin 16384) (hr : r.val = t.val * 2048 + p.val) :
    (k0_pay1 (F := Ideal) (iblk0 V c 0 t) (iblk0 V c 1 t) (iblk0 V c 2 t) (iblk0 V c 3 t) : S2048x64.Idx → EReal) (ix2 p q) = zK V c r q := by
  refine (zblock_apply (iblk0 V c 0 t) (iblk0 V c 1 t) (iblk0 V c 2 t) (iblk0 V c 3 t) p q).trans ?_
  unfold zK Cert.Spec.zpre Cert.Spec.rowsum
  refine congrArg₂ (· + ·) (Finset.sum_congr rfl fun k _ => congrArg₂ (· * ·) (congrArg₂ Ideal.div
    (Finset.sum_congr rfl fun j _ => congrArg₂ (· * ·) (blockP_apply V c t p j r hr) (blockE_apply V c t j k))
    (Finset.sum_congr rfl fun j _ => blockP_apply V c t p j r hr)) (blockW_apply V c t k q)) (blockB_apply V c t q)

/-- The z array as one function of its index. -/
def zArr (c : Dev nD) : S16384x64.Idx → EReal := fun i => zK V c (i 0) (i 1)

/-- The statistics of row block blk: row 0 the column sums of z over the block's 2048 rows, row 1 the column sums of its
    squares, rows 2 to 7 zero. -/
def statK (c : Dev nD) (blk : Fin 8) (a : Fin 8) (d : Fin 64) : EReal :=
  if a.val = 0 then ∑ t : Fin 2048, zK V c ⟨blk.val * 2048 + t.val, by omega⟩ d
  else if a.val = 1 then ∑ t : Fin 2048, zK V c ⟨blk.val * 2048 + t.val, by omega⟩ d * zK V c ⟨blk.val * 2048 + t.val, by omega⟩ d
  else 0

/-- The statistics array as one function of its index. -/
def statArr (c : Dev nD) : S8x8x64.Idx → EReal := fun i => statK V c (i 0) (i 1) (i 2)

/-- An entry of the z block at point t is `zArr` at the entry's place in the array. -/
theorem zblock_emb (c : Dev nD) (t : Fin cfg0.N) (j : S2048x64.Idx) :
    (k0_pay1 (F := Ideal) (iblk0 V c 0 t) (iblk0 V c 1 t) (iblk0 V c 2 t) (iblk0 V c 3 t) : S2048x64.Idx → EReal) j
      = zArr V c (((cfg0.win 4).blk t).view.emb j) := by
  obtain ⟨p, q, rfl⟩ : ∃ (p : Fin 2048) (q : Fin 64), j = ix2 p q := ⟨j 0, j 1, eq_ix2 j⟩
  obtain ⟨-, -, -, -, -, -, -, e7, e8, -, -, -, hN⟩ := idx_facts t
  have hi : ((cfg0.win 4).blk t).view.emb (ix2 p q) = ix2 (⟨t.val * 2048 + p.val, by omega⟩ : Fin 16384) q := by
    funext a; apply Fin.ext
    match a with
    | ⟨0, _⟩ => show win0_4.index t (0 : Fin 2) * 2048 + 1 * p.val = t.val * 2048 + p.val; rw [e7]; omega
    | ⟨1, _⟩ => show win0_4.index t (1 : Fin 2) * 64 + 1 * q.val = q.val; rw [e8]; omega
  rw [hi]
  exact zblock_zK V c t p q _ rfl

/-- What point t writes back into the z array is block t of `zArr`. -/
theorem flushed_z (c : Dev nD) (t : Fin cfg0.N) :
    (dat0 (F := Ideal) V c).flushed 4 t = ((cfg0.win 4).blk t).view.read (Elt Ideal) (zArr V c) := by
  show (cfg0.win 4).cut (grid0.coords t) ((dat0 (F := Ideal) V c).after 4 t) = _
  rw [after0_4]
  unfold out0_4
  rw [View.canon_unit_zero hz2]
  simp only [View.ld_unit_zero (S := S2048x390) hz2, View.ld_unit_zero (S := S390x64) hz2, View.ld_unit_zero (S := S64x64) hz2,
    View.ld_unit_zero (S := S64) hz1]
  funext j
  exact zblock_emb V c t j

/-- An index of the z array is in point t's block iff each coordinate is in the block's range on its axis. -/
theorem mem_blk_z (t : Fin cfg0.N) (i : S16384x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v81_0).slice (win0_4.rect t)).set ↔ _
  rw [View.set_slice_whole, Rect.mem_set_unit]
  exact Iff.rfl

/-- Row r of the z array lies in the block of point r / 2048. -/
theorem cover_z (i : S16384x64.Idx) : ∃ t : Fin cfg0.N, (cfg0.win 4).flush t = true ∧ i ∈ ((cfg0.win 4).blk t).view.set := by
  have hi0 : (i 0).val < 16384 := (i 0).isLt
  have hi1 : (i 1).val < 64 := (i 1).isLt
  have hN : cfg0.N = 8 := N_0
  refine ⟨⟨(i 0).val / 2048, by rw [hN]; omega⟩, flush0_4 _, ?_⟩
  obtain ⟨-, -, -, -, -, -, -, e7, e8, -⟩ := idx_facts ⟨(i 0).val / 2048, by rw [hN]; omega⟩
  rw [mem_blk_z]
  intro a
  match a with
  | ⟨0, _⟩ =>
    show win0_4.index _ (0 : Fin 2) * 2048 ≤ (i 0).val ∧ (i 0).val < win0_4.index _ (0 : Fin 2) * 2048 + 2048
    rw [e7]; show (i 0).val / 2048 * 2048 ≤ (i 0).val ∧ (i 0).val < (i 0).val / 2048 * 2048 + 2048; omega
  | ⟨1, _⟩ =>
    show win0_4.index _ (1 : Fin 2) * 64 ≤ (i 1).val ∧ (i 1).val < win0_4.index _ (1 : Fin 2) * 64 + 64
    rw [e8]; omega

/-- The z array after region 0, as one function. -/
theorem final_zArr (c : Dev nD) : (dat0 (F := Ideal) V c).arrAt 4 cfg0.N = zArr V c :=
  (dat0 (F := Ideal) V c).arrAt_eq_of_cover 4 (zArr V c) (fun t _ => flushed_z V c t) cover_z

/-- After region 0 the z array holds the specification's z of region 0's input arrays. -/
theorem final_z (c : Dev nD) (r : Fin 16384) (d : Fin 64) :
    ((dat0 (F := Ideal) V c).arrAt 4 cfg0.N : S16384x64.Idx → EReal) (ix2 r d) = zK V c r d := by
  rw [final_zArr]
  rfl

/-- An entry of the statistics block at point t is `statArr` at the entry's place in the array: row block t. -/
theorem stats_emb (c : Dev nD) (t : Fin cfg0.N) (j : S1x8x64.Idx) :
    (k0_pay2 (F := Ideal) (iblk0 V c 0 t) (iblk0 V c 1 t) (iblk0 V c 2 t) (iblk0 V c 3 t) : S1x8x64.Idx → EReal) j
      = statArr V c (((cfg0.win 5).blk t).view.emb j) := by
  obtain ⟨u, a, q, rfl⟩ : ∃ (u : Fin 1) (a : Fin 8) (q : Fin 64), j = ix3 u a q := ⟨j 0, j 1, j 2, eq_ix3 j⟩
  obtain ⟨-, -, -, -, -, -, -, -, -, e9, e10, e11, hN⟩ := idx_facts t
  have hu : u.val = 0 := by omega
  have hi : ((cfg0.win 5).blk t).view.emb (ix3 u a q) = ix3 (⟨t.val, hN⟩ : Fin 8) a q := by
    funext b; apply Fin.ext
    match b with
    | ⟨0, _⟩ => show win0_5.index t (0 : Fin 3) * 1 + 1 * u.val = t.val; rw [e9, hu]; omega
    | ⟨1, _⟩ => show win0_5.index t (1 : Fin 3) * 8 + 1 * a.val = a.val; rw [e10]; omega
    | ⟨2, _⟩ => show win0_5.index t (2 : Fin 3) * 64 + 1 * q.val = q.val; rw [e11]; omega
  rw [hi]
  refine (stats_apply _ _ _ _ u a q).trans ?_
  show _ = statK V c ⟨t.val, hN⟩ a q
  unfold statK
  refine if_congr Iff.rfl ?_ (if_congr Iff.rfl ?_ rfl)
  · exact Finset.sum_congr rfl fun p _ => zblock_zK V c t p q _ rfl
  · exact Finset.sum_congr rfl fun p _ => congrArg₂ (· * ·) (zblock_zK V c t p q _ rfl) (zblock_zK V c t p q _ rfl)

/-- What point t writes back into the statistics array is block t of `statArr`. -/
theorem flushed_stats (c : Dev nD) (t : Fin cfg0.N) :
    (dat0 (F := Ideal) V c).flushed 5 t = ((cfg0.win 5).blk t).view.read (Elt Ideal) (statArr V c) := by
  show (cfg0.win 5).cut (grid0.coords t) ((dat0 (F := Ideal) V c).after 5 t) = _
  rw [after0_5]
  unfold out0_5
  rw [View.canon_unit_zero hz3]
  simp only [View.ld_unit_zero (S := S2048x390) hz2, View.ld_unit_zero (S := S390x64) hz2, View.ld_unit_zero (S := S64x64) hz2,
    View.ld_unit_zero (S := S64) hz1]
  funext j
  exact stats_emb V c t j

/-- An index of the statistics array is in point t's block iff each coordinate is in the block's range on its axis. -/
theorem mem_blk_stats (t : Fin cfg0.N) (i : S8x8x64.Idx) :
    i ∈ ((cfg0.win 5).blk t).view.set ↔ ∀ a : Fin 3, win0_5.index t a * S1x8x64.size a ≤ (i a).val ∧ (i a).val < win0_5.index t a * S1x8x64.size a + S1x8x64.size a := by
  show i ∈ ((View.whole main_v81_1).slice (win0_5.rect t)).set ↔ _
  rw [View.set_slice_whole, Rect.mem_set_unit]
  exact Iff.rfl

/-- Slab blk of the statistics array is the block of point blk. -/
theorem cover_stats (i : S8x8x64.Idx) : ∃ t : Fin cfg0.N, (cfg0.win 5).flush t = true ∧ i ∈ ((cfg0.win 5).blk t).view.set := by
  have hi0 : (i 0).val < 8 := (i 0).isLt
  have hi1 : (i 1).val < 8 := (i 1).isLt
  have hi2 : (i 2).val < 64 := (i 2).isLt
  have hN : cfg0.N = 8 := N_0
  refine ⟨⟨(i 0).val, by rw [hN]; omega⟩, flush0_5 _, ?_⟩
  obtain ⟨-, -, -, -, -, -, -, -, -, e9, e10, e11, -⟩ := idx_facts ⟨(i 0).val, by rw [hN]; omega⟩
  rw [mem_blk_stats]
  intro a
  match a with
  | ⟨0, _⟩ =>
    show win0_5.index _ (0 : Fin 3) * 1 ≤ (i 0).val ∧ (i 0).val < win0_5.index _ (0 : Fin 3) * 1 + 1
    rw [e9]; show (i 0).val * 1 ≤ (i 0).val ∧ (i 0).val < (i 0).val * 1 + 1; omega
  | ⟨1, _⟩ =>
    show win0_5.index _ (1 : Fin 3) * 8 ≤ (i 1).val ∧ (i 1).val < win0_5.index _ (1 : Fin 3) * 8 + 8
    rw [e10]; omega
  | ⟨2, _⟩ =>
    show win0_5.index _ (2 : Fin 3) * 64 ≤ (i 2).val ∧ (i 2).val < win0_5.index _ (2 : Fin 3) * 64 + 64
    rw [e11]; omega

/-- The statistics array after region 0, as one function. -/
theorem final_statArr (c : Dev nD) : (dat0 (F := Ideal) V c).arrAt 5 cfg0.N = statArr V c :=
  (dat0 (F := Ideal) V c).arrAt_eq_of_cover 5 (statArr V c) (fun t _ => flushed_stats V c t) cover_stats

/-- After region 0, row 0 of slab blk of the statistics array holds the column sums of z over row block blk. -/
theorem final_sum (c : Dev nD) (blk : Fin 8) (d : Fin 64) :
    ((dat0 (F := Ideal) V c).arrAt 5 cfg0.N : S8x8x64.Idx → EReal) (ix3 blk (0 : Fin 8) d) = ∑ t : Fin 2048, zK V c ⟨blk.val * 2048 + t.val, by omega⟩ d := by
  rw [final_statArr]
  show statK V c blk (0 : Fin 8) d = _
  unfold statK
  exact if_pos (show ((0 : Fin 8)).val = 0 from rfl)

/-- After region 0, row 1 of slab blk of the statistics array holds the column sums of z² over row block blk. -/
theorem final_sq (c : Dev nD) (blk : Fin 8) (d : Fin 64) :
    ((dat0 (F := Ideal) V c).arrAt 5 cfg0.N : S8x8x64.Idx → EReal) (ix3 blk (1 : Fin 8) d)
      = ∑ t : Fin 2048, zK V c ⟨blk.val * 2048 + t.val, by omega⟩ d * zK V c ⟨blk.val * 2048 + t.val, by omega⟩ d := by
  rw [final_statArr]
  show statK V c blk (1 : Fin 8) d = _
  unfold statK
  rw [if_neg (show ¬ ((1 : Fin 8)).val = 0 by decide)]
  exact if_pos (show ((1 : Fin 8)).val = 1 from rfl)

end Cert.KernelIdeal.Region0
end
-- ==== Proof.KerRegion1.lean ====
/-
  What the second kernel call leaves in its output array, as one function of its four input arrays.

  The call walks the 16384 rows of z in 8 blocks of 2048 rows. On each block it scales and shifts every row by the two
  64-vectors, cuts the result off below at zero, and multiplies by the 64 × 805 right factor. So entry (r, u) of the
  output is ∑ d, max (z r d · scale d + shift d) 0 · ehᵀ d u, whatever block r lies in: the block of row r is r / 2048,
  and within the block the row is r % 2048.
-/
import proofs.«406313_j19000935318034_3_alg».proof.Proof.Gen.KernelIdeal.Frame
import proofs.«406313_j19000935318034_3_alg».proof.Proof.Spec
import proofs.«406313_j19000935318034_3_alg».proof.Proof.SpecHead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.Region1

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-! ## The product at an index -/

/-- The product's left operand is read at the output's row … -/
theorem lhs_row (i : S2048x805.Idx) (q : dot_S2048x64_S64x805_S2048x805_1_0_0_1_n_n.contr.Idx) :
    (dot_S2048x64_S64x805_S2048x805_1_0_0_1_n_n.lhsIdx i q 0).val = (i 0).val := by
  unfold DotDims.lhsIdx
  rw [dif_neg (show ¬(0 : Fin S2048x64.rank) ∈ dot_S2048x64_S64x805_S2048x805_1_0_0_1_n_n.lhsBatch by decide), dif_pos (show (0 : Fin S2048x64.rank) ∈ dot_S2048x64_S64x805_S2048x805_1_0_0_1_n_n.lhsNonContracting by decide)]
  rfl

/-- … and at the summation index in its column; -/
theorem lhs_col (i : S2048x805.Idx) (q : dot_S2048x64_S64x805_S2048x805_1_0_0_1_n_n.contr.Idx) :
    (dot_S2048x64_S64x805_S2048x805_1_0_0_1_n_n.lhsIdx i q 1).val = (q ⟨0, by decide⟩).val :=
  dot_S2048x64_S64x805_S2048x805_1_0_0_1_n_n.lhsIdx_val_of_single rfl i q

/-- the right operand at the summation index in its row … -/
theorem rhs_row (i : S2048x805.Idx) (q : dot_S2048x64_S64x805_S2048x805_1_0_0_1_n_n.contr.Idx) :
    (dot_S2048x64_S64x805_S2048x805_1_0_0_1_n_n.rhsIdx i q 0).val = (q ⟨0, by decide⟩).val :=
  dot_S2048x64_S64x805_S2048x805_1_0_0_1_n_n.rhsIdx_val_of_single rfl i q

/-- … and at the output's column. -/
theorem rhs_col (i : S2048x805.Idx) (q : dot_S2048x64_S64x805_S2048x805_1_0_0_1_n_n.contr.Idx) :
    (dot_S2048x64_S64x805_S2048x805_1_0_0_1_n_n.rhsIdx i q 1).val = (i 1).val := by
  unfold DotDims.rhsIdx
  rw [dif_neg (show ¬(1 : Fin S64x805.rank) ∈ dot_S2048x64_S64x805_S2048x805_1_0_0_1_n_n.rhsBatch by decide), dif_pos (show (1 : Fin S64x805.rank) ∈ dot_S2048x64_S64x805_S2048x805_1_0_0_1_n_n.rhsNonContracting by decide)]
  rfl

/-- A vector of 64 entries laid out as one row and repeated down 2048 rows reads, at (p, d), its entry d. -/
theorem row_bcast_apply (x : Vec Ideal S64 .f32) (p : Fin 2048) (d : Fin 64) :
    (broadcastTo S2048x64 (shapeCast S1x64 x shapeCasts_S64_S1x64) broadcasts_S1x64_S2048x64 : FVec Ideal S2048x64 .f32) (ix2 p d) = x (ix1 d) := by
  rw [broadcastTo_1b_ab_apply, shapeCast_a_1a_apply]

/-- One block's payload at (p, u): row p of the block scaled, shifted and cut off below at zero, times column u of the
    right factor. -/
theorem pay_apply (x0 : Vec Ideal S2048x64 .f32) (x1 x2 : Vec Ideal S64 .f32) (x3 : Vec Ideal S64x805 .bf16) (p : Fin 2048) (u : Fin 805) :
    k1_pay1 (F := Ideal) x0 x1 x2 x3 (ix2 p u)
      = ∑ d : Fin 64, max (x0 (ix2 p d) * x1 (ix1 d) + x2 (ix1 d)) 0 * x3 (ix2 d u) := by
  unfold k1_pay1
  simp only [matmul, shapeCast_self]
  rw [Ideal.matmul_constant_zero_apply, ← Equiv.sum_comp (contrEquiv1 dot_S2048x64_S64x805_S2048x805_1_0_0_1_n_n 64 rfl rfl).symm]
  refine Finset.sum_congr rfl fun k _ => ?_
  have hk := contrEquiv1_symm_val dot_S2048x64_S64x805_S2048x805_1_0_0_1_n_n 64 rfl rfl k
  have el : dot_S2048x64_S64x805_S2048x805_1_0_0_1_n_n.lhsIdx (ix2 p u) ((contrEquiv1 dot_S2048x64_S64x805_S2048x805_1_0_0_1_n_n 64 rfl rfl).symm k) = ix2 p k := funext fun a => Fin.ext (by
    match a with
    | ⟨0, _⟩ => exact lhs_row _ _
    | ⟨1, _⟩ => exact (lhs_col _ _).trans hk)
  have er : dot_S2048x64_S64x805_S2048x805_1_0_0_1_n_n.rhsIdx (ix2 p u) ((contrEquiv1 dot_S2048x64_S64x805_S2048x805_1_0_0_1_n_n 64 rfl rfl).symm k) = ix2 k u := funext fun a => Fin.ext (by
    match a with
    | ⟨0, _⟩ => exact (rhs_row _ _).trans hk
    | ⟨1, _⟩ => exact rhs_col _ _)
  rw [el, er, truncf_apply, maximumf_apply, addf_apply, mulf_apply, broadcast_apply, row_bcast_apply, row_bcast_apply]
  show max (x0 (ix2 p k) * x1 (ix1 k) + x2 (ix1 k)) (Ideal.ofBits .f32 0x00000000#32) * x3 (ix2 k u) = _
  rw [Ideal.ofBits_zero_f32]

/-! ## The output array as one function of the four input arrays -/

/-- The result array: entry (r, u) is ∑ d, max (z r d · scale d + shift d) 0 · ehᵀ d u. -/
def headOut (z : Vec Ideal S16384x64 .f32) (sc sh : Vec Ideal S64 .f32) (eh : Vec Ideal S64x805 .bf16) : Vec Ideal S16384x805 .f32 :=
  fun i => Cert.Spec.headK (fun r d => z (ix2 r d)) (fun d => sc (ix1 d)) (fun d => sh (ix1 d)) (fun d u => eh (ix2 d u)) (i 0) (i 1)

/-- A block whose row p is row r of z and whose column u is column u' of the right factor, the other two operands the
    whole vectors, has its payload at (p, u) equal to entry (r, u') of the result. -/
theorem block_apply (x0 : Vec Ideal S2048x64 .f32) (x1 x2 : Vec Ideal S64 .f32) (x3 : Vec Ideal S64x805 .bf16)
    (z : Vec Ideal S16384x64 .f32) (sc sh : Vec Ideal S64 .f32) (eh : Vec Ideal S64x805 .bf16)
    (p : Fin 2048) (u : Fin 805) (i : S16384x805.Idx)
    (h0 : ∀ d : Fin 64, x0 (ix2 p d) = z (ix2 (i 0) d)) (h1 : ∀ d : Fin 64, x1 (ix1 d) = sc (ix1 d))
    (h2 : ∀ d : Fin 64, x2 (ix1 d) = sh (ix1 d)) (h3 : ∀ d : Fin 64, x3 (ix2 d u) = eh (ix2 d (i 1))) :
    k1_pay1 (F := Ideal) x0 x1 x2 x3 (ix2 p u) = headOut z sc sh eh i := by
  rw [pay_apply]
  unfold headOut Cert.Spec.headK
  exact Finset.sum_congr rfl fun d _ => by rw [h0 d, h1 d, h2 d, h3 d]

/-! ## From the blocks to the array -/

theorem zero2 : (![0, 0] : Fin 2 → Nat) = fun _ => 0 := funext fun a => by fin_cases a <;> rfl
theorem zero1 : (![0] : Fin 1 → Nat) = fun _ => 0 := funext fun a => by fin_cases a; rfl

/-- The block indices over the 8 points: the rows of z and of the result move with the point, everything else stays. -/
theorem idx_facts : ∀ t : Fin cfg1.N, win1_0.index t (0 : Fin 2) = win1_4.index t (0 : Fin 2) ∧ win1_0.index t (1 : Fin 2) = 0
    ∧ win1_1.index t (0 : Fin 1) = 0 ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The four arrays the call reads, as the call finds them. -/
abbrev zArr (c : Dev nD) : Vec Ideal S16384x64 .f32 := V c main_v81_0
abbrev scaleArr (c : Dev nD) : Vec Ideal S64 .f32 := V c main_v99
abbrev shiftArr (c : Dev nD) : Vec Ideal S64 .f32 := V c main_v101
abbrev ehArr (c : Dev nD) : Vec Ideal S64x805 .bf16 := V c main_v80

/-- What point t writes back is block t of the result array. -/
theorem flushed_eq (c : Dev nD) (t : Fin cfg1.N) :
    (dat1 (F := Ideal) V c).flushed 4 t = ((cfg1.win 4).blk t).view.read (Elt Ideal)
      (headOut (zArr V c) (scaleArr V c) (shiftArr V c) (ehArr V c)) := by
  show (cfg1.win 4).cut (grid1.coords t) ((dat1 (F := Ideal) V c).after 4 t) = _
  rw [after1_4]
  unfold out1_4
  rw [View.canon_unit_zero zero2]
  simp only [View.ld_unit_zero (S := S2048x64) zero2, View.ld_unit_zero (S := S64) zero1, View.ld_unit_zero (S := S64x805) zero2]
  obtain ⟨e00, e01, e1, e2, e30, e31, e40, e41⟩ := idx_facts t
  funext j
  have hp : (j 0).val < 2048 := (j 0).isLt
  have hu : (j 1).val < 805 := (j 1).isLt
  have hy : (cfg1.win 4).xinj (grid1.coords t) j = ix2 (⟨(j 0).val, hp⟩ : Fin 2048) (⟨(j 1).val, hu⟩ : Fin 805) :=
    funext fun a => Fin.ext (by
      match a with
      | ⟨0, _⟩ => rfl
      | ⟨1, _⟩ => rfl)
  show k1_pay1 (F := Ideal) (iblk1 V c 0 t) (iblk1 V c 1 t) (iblk1 V c 2 t) (iblk1 V c 3 t) ((cfg1.win 4).xinj (grid1.coords t) j)
    = headOut (zArr V c) (scaleArr V c) (shiftArr V c) (ehArr V c) (((cfg1.win 4).blk t).view.emb j)
  rw [hy]
  refine block_apply (iblk1 V c 0 t) (iblk1 V c 1 t) (iblk1 V c 2 t) (iblk1 V c 3 t) (zArr V c) (scaleArr V c) (shiftArr V c) (ehArr V c)
    ⟨(j 0).val, hp⟩ ⟨(j 1).val, hu⟩ (((cfg1.win 4).blk t).view.emb j) ?_ ?_ ?_ ?_
  · intro d
    show zArr V c (((cfg1.win 0).blk t).view.emb (ix2 (⟨(j 0).val, hp⟩ : Fin 2048) d)) = zArr V c (ix2 ((((cfg1.win 4).blk t).view.emb j) 0) d)
    congr 1
    funext a
    apply Fin.ext
    match a with
    | ⟨0, _⟩ => show win1_0.index t (0 : Fin 2) * 2048 + 1 * (j 0).val = win1_4.index t (0 : Fin 2) * 2048 + 1 * (j 0).val; omega
    | ⟨1, _⟩ => show win1_0.index t (1 : Fin 2) * 64 + 1 * d.val = d.val; omega
  · intro d
    show scaleArr V c (((cfg1.win 1).blk t).view.emb (ix1 d)) = scaleArr V c (ix1 d)
    congr 1
    funext a
    apply Fin.ext
    match a with
    | ⟨0, _⟩ => show win1_1.index t (0 : Fin 1) * 64 + 1 * d.val = d.val; omega
  · intro d
    show shiftArr V c (((cfg1.win 2).blk t).view.emb (ix1 d)) = shiftArr V c (ix1 d)
    congr 1
    funext a
    apply Fin.ext
    match a with
    | ⟨0, _⟩ => show win1_2.index t (0 : Fin 1) * 64 + 1 * d.val = d.val; omega
  · intro d
    show ehArr V c (((cfg1.win 3).blk t).view.emb (ix2 d (⟨(j 1).val, hu⟩ : Fin 805))) = ehArr V c (ix2 d ((((cfg1.win 4).blk t).view.emb j) 1))
    congr 1
    funext a
    apply Fin.ext
    match a with
    | ⟨0, _⟩ => show win1_3.index t (0 : Fin 2) * 64 + 1 * d.val = d.val; omega
    | ⟨1, _⟩ => show win1_3.index t (1 : Fin 2) * 805 + 1 * (j 1).val = win1_4.index t (1 : Fin 2) * 805 + 1 * (j 1).val; omega

/-- An index of the result array is in point t's block iff each coordinate is in the block's range on its axis. -/
theorem mem_blk (t : Fin cfg1.N) (i : S16384x805.Idx) :
    i ∈ ((cfg1.win 4).blk t).view.set ↔ ∀ a : Fin 2, win1_4.index t a * S2048x805.size a ≤ (i a).val ∧ (i a).val < win1_4.index t a * S2048x805.size a + S2048x805.size a := by
  show i ∈ ((View.whole main_v102).slice (win1_4.rect t)).set ↔ _
  rw [View.set_slice_whole, Rect.mem_set_unit]
  exact Iff.rfl

/-- Row r of the result lies in the block of point r / 2048. -/
theorem cover (i : S16384x805.Idx) : ∃ t : Fin cfg1.N, (cfg1.win 4).flush t = true ∧ i ∈ ((cfg1.win 4).blk t).view.set := by
  have hi0 : (i 0).val < 16384 := (i 0).isLt
  have hi1 : (i 1).val < 805 := (i 1).isLt
  have hN : cfg1.N = 8 := N_1
  have hq : (i 0).val / 2048 < cfg1.N := by rw [hN]; omega
  obtain ⟨_, _, _, _, _, _, e40, e41⟩ := idx_facts ⟨(i 0).val / 2048, hq⟩
  refine ⟨⟨(i 0).val / 2048, hq⟩, flush1_4 _, ?_⟩
  rw [mem_blk]
  intro a
  match a with
  | ⟨0, _⟩ =>
    show win1_4.index ⟨(i 0).val / 2048, hq⟩ (0 : Fin 2) * 2048 ≤ (i 0).val ∧ (i 0).val < win1_4.index ⟨(i 0).val / 2048, hq⟩ (0 : Fin 2) * 2048 + 2048
    rw [e40]
    show (i 0).val / 2048 * 2048 ≤ (i 0).val ∧ (i 0).val < (i 0).val / 2048 * 2048 + 2048
    omega
  | ⟨1, _⟩ =>
    show win1_4.index ⟨(i 0).val / 2048, hq⟩ (1 : Fin 2) * 805 ≤ (i 1).val ∧ (i 1).val < win1_4.index ⟨(i 0).val / 2048, hq⟩ (1 : Fin 2) * 805 + 805
    rw [e41]
    omega

/-- The result array after the call. -/
theorem final (c : Dev nD) :
    (dat1 (F := Ideal) V c).arrAt 4 cfg1.N = headOut (zArr V c) (scaleArr V c) (shiftArr V c) (ehArr V c) :=
  (dat1 (F := Ideal) V c).arrAt_eq_of_cover 4 (headOut (zArr V c) (scaleArr V c) (shiftArr V c) (ehArr V c))
    (fun t _ => flushed_eq V c t) cover

/-- Entry (r, u) of the result array after the call. -/
theorem final_out (c : Dev nD) (r : Fin 16384) (u : Fin 805) :
    ((dat1 (F := Ideal) V c).arrAt 4 cfg1.N : S16384x805.Idx → EReal) (ix2 r u)
      = Cert.Spec.headK (fun r d => (V c main_v81_0 : S16384x64.Idx → EReal) (ix2 r d)) (fun d => (V c main_v99 : S64.Idx → EReal) (ix1 d))
          (fun d => (V c main_v101 : S64.Idx → EReal) (ix1 d)) (fun d u => (V c main_v80 : S64x805.Idx → EReal) (ix2 d u)) r u := by
  rw [final V c]
  rfl

end Cert.KernelIdeal.Region1

end
-- ==== Proof.KerMoments.lean ====
/-
  Between its two calls the program turns the statistics array the first call leaves — for each of eight blocks of 2048
  rows, row 0 the column sums of z over the block and row 1 the column sums of z² — into the two vectors the second
  call normalises with. Column by column: the mean is the eight row-0 entries added and divided by 16384, the variance
  the same of the row-1 entries minus the mean's square, scale = γ · (1 / √(var + ε)) and shift = β − mean · scale.

  The 26 operations are read in two steps. Their result buffers are first named as one term over three variables
  (the statistics array, γ, β); that term is then read at a column, where the slice of one row, its view as an
  [8,64] array and the sum over the leading axis give the sum over the blocks, the broadcast constants give their
  values (zero, 16384, one, ε) and every other operation acts element by element.
-/
import proofs.«406313_j19000935318034_3_alg».proof.Proof.Gen.KernelIdeal.Launch
import proofs.«406313_j19000935318034_3_alg».proof.Proof.Spec
import proofs.«406313_j19000935318034_3_alg».proof.Proof.SpecHead
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Moments

open Cert.KernelIdeal Cert.KernelIdeal.Gen Idealize.ShloMosaic Idealize.ShloMosaic.ValueIdx Idealize.ShloMosaic.StableHlo
open scoped BigOperators

/-- The divisor's pattern denotes 16384 = 2^14. -/
private theorem ofBits_16384 : Ideal.ofBits .f32 0x46800000#32 = (16384 : EReal) := by
  rw [show (16384 : EReal) = ((16384 : ℝ) : EReal) by norm_cast]
  simp [Ideal.ofBits, Ideal.ieee, -EReal.coe_mul]; norm_num

/-- The host's square root at an index is the ideal square root of the element. -/
private theorem hostSqrt_apply {s : Shape} {φ : FTy} (x : FVec Ideal s φ) (i : s.Idx) : Host.sqrt x i = Ideal.sqrt (x i) := rfl

/-- A scalar constant broadcast to a vector reads the constant's value everywhere. -/
private theorem bcast_const_apply {T : Shape} (h : S_.BroadcastsInDim T ![]) (b : BitVec 32) (j : T.Idx) :
    broadcastInDim T ![] h (constant (F := Ideal) S_ .f32 b) j = Ideal.ofBits .f32 b := by
  rw [broadcastInDim_scalar_apply]; rfl

/-- Row `a` of the middle axis of an [8,8,64] array, viewed as [8,64] and summed over its leading axis from an
    initial value: at column d, the initial value plus the sum over the eight blocks of the array at (blk, a, d). -/
theorem colsum_apply (S : S8x8x64.Idx → EReal) (o : Nat) (a : Fin 8) (ha : a.val = o)
    (hs : S8x8x64.Slices ![0, o, 0] S8x1x64) (hc : S8x1x64.ShapeCasts S8x64)
    (hr : S8x64.ReducesTo [0] S64) (hu : 0 < S_.numel) (init : S_.Idx → EReal) (d : Fin 64) :
    (Host.reduceAdd (F := Ideal) (φ := .f32) (shapeCast S8x64 (extractStridedSlice S8x1x64 ![0, o, 0] S hs) hc) init hr hu : S64.Idx → EReal) (ix1 d)
      = init (Shape.Idx.first hu) + ∑ blk : Fin 8, S (ix3 blk a d) := by
  have hR : S8x64.Reduces [0] S64 := by decide
  show Ideal.hostReduceAdd hr _ _ _ = _
  rw [Ideal.hostReduceAdd_single hr hR]
  refine congrArg (init (Shape.Idx.first hu) + ·) (Finset.sum_congr rfl fun blk _ => ?_)
  have hk : (S8x1x64.rowMajor (ix3 blk (0 : Fin 1) d)).val = (S8x64.rowMajor (hR.lift (ix1 d) blk)).val := by
    rw [Shape.rowMajor_val_three, Shape.rowMajor_val_two]
    show (blk.val * 1 + 0) * 64 + d.val = blk.val * 64 + d.val
    omega
  rw [shapeCast_apply _ hc _ _ hk]
  exact slice3_axis1_apply o S hs blk 0 d a (by rw [ha]; rfl)

/-! ## The quantities -/

/-- The column mean: the row-0 sums over the eight blocks, over 16384. -/
abbrev mu (S : S8x8x64.Idx → EReal) (d : Fin 64) : EReal := Ideal.div (∑ blk : Fin 8, S (ix3 blk (0 : Fin 8) d)) 16384

/-- The column variance in moment form: the row-1 sums over the eight blocks, over 16384, minus the mean squared. -/
abbrev var (S : S8x8x64.Idx → EReal) (d : Fin 64) : EReal :=
  Ideal.div (∑ blk : Fin 8, S (ix3 blk (1 : Fin 8) d)) 16384 - mu S d * mu S d

/-- The stabiliser under the square root, left as the literal the program spells. -/
abbrev eps : EReal := Ideal.ofBits .f32 0x3727C5AC#32

/-- The statistics array, the scale vector γ and the shift vector β, read off a valuation. -/
abbrev stat (Wv : Valuation τ sig (Elt Ideal)) : S8x8x64.Idx → EReal := Wv (Proc.devRef .tc main_v81_1)
abbrev gam (Wv : Valuation τ sig (Elt Ideal)) : S64.Idx → EReal := Wv (Proc.devRef .tc main_arg14)
abbrev bet (Wv : Valuation τ sig (Elt Ideal)) : S64.Idx → EReal := Wv (Proc.devRef .tc main_arg15)

/-! ## The operations' term, over variables -/

/-- A scalar constant broadcast to 64 lanes. -/
abbrev lanes (b : BitVec 32) : S64.Idx → EReal := broadcastInDim S64 ![] bcast_S_S64 (constant (F := Ideal) S_ .f32 b)

/-- Row `o` of the statistics, viewed [8,64], summed over the blocks from the zero constant. -/
abbrev tot (S : S8x8x64.Idx → EReal) (o : Nat) (hs : S8x8x64.Slices ![0, o, 0] S8x1x64) : S64.Idx → EReal :=
  Host.reduceAdd (F := Ideal) (φ := .f32) (shapeCast S8x64 (extractStridedSlice S8x1x64 ![0, o, 0] S hs) shapeCasts_S8x1x64_S8x64)
    (constant (F := Ideal) S_ .f32 0x00000000#32) reducesTo_S8x64_S64_d0 h_S_

abbrev muT (S : S8x8x64.Idx → EReal) : S64.Idx → EReal :=
  Host.divf (F := Ideal) (φ := .f32) (tot S 0 slices_S8x8x64_S8x1x64_0_0_0) (lanes 0x46800000#32)

abbrev varT (S : S8x8x64.Idx → EReal) : S64.Idx → EReal :=
  subf (F := Ideal) (φ := .f32) (Host.divf (F := Ideal) (φ := .f32) (tot S 1 slices_S8x8x64_S8x1x64_0_1_0) (lanes 0x46800000#32))
    (mulf (F := Ideal) (φ := .f32) (muT S) (muT S))

abbrev scaleT (S : S8x8x64.Idx → EReal) (g : S64.Idx → EReal) : S64.Idx → EReal :=
  mulf (F := Ideal) (φ := .f32) g (Host.divf (F := Ideal) (φ := .f32) (lanes 0x3F800000#32)
    (Host.sqrt (F := Ideal) (φ := .f32) (addf (F := Ideal) (φ := .f32) (varT S) (lanes 0x3727C5AC#32))))

abbrev shiftT (S : S8x8x64.Idx → EReal) (g b : S64.Idx → EReal) : S64.Idx → EReal :=
  subf (F := Ideal) (φ := .f32) b (mulf (F := Ideal) (φ := .f32) (muT S) (scaleT S g))

/-! ## The term read at a column -/

theorem tot_apply (S : S8x8x64.Idx → EReal) (o : Nat) (a : Fin 8) (ha : a.val = o) (hs : S8x8x64.Slices ![0, o, 0] S8x1x64) (d : Fin 64) :
    tot S o hs (ix1 d) = ∑ blk : Fin 8, S (ix3 blk a d) := by
  refine (colsum_apply S o a ha hs _ _ _ _ d).trans ?_
  show Ideal.ofBits .f32 0x00000000#32 + _ = _
  rw [Ideal.ofBits_zero_f32, zero_add]

theorem muT_apply (S : S8x8x64.Idx → EReal) (d : Fin 64) : muT S (ix1 d) = mu S d := by
  rw [muT, hostDivf_apply, tot_apply S 0 0 rfl, lanes, bcast_const_apply, ofBits_16384]

theorem varT_apply (S : S8x8x64.Idx → EReal) (d : Fin 64) : varT S (ix1 d) = var S d := by
  rw [varT, subf_apply, mulf_apply, muT_apply, hostDivf_apply, tot_apply S 1 1 rfl, lanes, bcast_const_apply, ofBits_16384]

theorem scaleT_apply (S : S8x8x64.Idx → EReal) (g : S64.Idx → EReal) (d : Fin 64) :
    scaleT S g (ix1 d) = g (ix1 d) * Ideal.div 1 (Ideal.sqrt (var S d + eps)) := by
  rw [scaleT, mulf_apply, hostDivf_apply, hostSqrt_apply, addf_apply, varT_apply, lanes, bcast_const_apply, lanes, bcast_const_apply,
    Ideal.ofBits_one_f32]

theorem shiftT_apply (S : S8x8x64.Idx → EReal) (g b : S64.Idx → EReal) (d : Fin 64) :
    shiftT S g b (ix1 d) = b (ix1 d) - mu S d * (g (ix1 d) * Ideal.div 1 (Ideal.sqrt (var S d + eps))) := by
  rw [shiftT, subf_apply, mulf_apply, muT_apply, scaleT_apply]

/-! ## The host operations' results -/

/-- The scale buffer after the 26 operations is the scale term of the valuation's statistics and γ. -/
theorem scale_term (Wv : Valuation τ sig (Elt Ideal)) :
    after (hostOps1 (F := Ideal)) Wv (Proc.devRef .tc main_v99) = scaleT (stat Wv) (gam Wv) := by
  after_results
  rfl

/-- The shift buffer after the 26 operations is the shift term of the valuation's statistics, γ and β. -/
theorem shift_term (Wv : Valuation τ sig (Elt Ideal)) :
    after (hostOps1 (F := Ideal)) Wv (Proc.devRef .tc main_v101) = shiftT (stat Wv) (gam Wv) (bet Wv) := by
  after_results_simp
  rfl

/-- scale = γ · (1 / √(var + ε)) at each column, the mean and the variance taken from the block sums the statistics
    array holds in its rows 0 and 1. -/
theorem scale_apply (Wv : Valuation τ sig (Elt Ideal)) (d : Fin 64) :
    (after hostOps1 Wv (Proc.devRef .tc main_v99) : S64.Idx → EReal) (ix1 d)
      = Cert.Spec.scaleB (fun d => (Wv (Proc.devRef .tc main_arg14) : S64.Idx → EReal) (ix1 d))
          (fun (blk : Fin 8) (d : Fin 64) => (Wv (Proc.devRef .tc main_v81_1) : S8x8x64.Idx → EReal) (ix3 blk (0 : Fin 8) d))
          (fun (blk : Fin 8) (d : Fin 64) => (Wv (Proc.devRef .tc main_v81_1) : S8x8x64.Idx → EReal) (ix3 blk (1 : Fin 8) d))
          (Ideal.ofBits .f32 0x3727C5AC#32) d := by
  rw [scale_term]; exact scaleT_apply _ _ d

/-- shift = β − mean · scale at each column. -/
theorem shift_apply (Wv : Valuation τ sig (Elt Ideal)) (d : Fin 64) :
    (after hostOps1 Wv (Proc.devRef .tc main_v101) : S64.Idx → EReal) (ix1 d)
      = Cert.Spec.shiftB (fun d => (Wv (Proc.devRef .tc main_arg14) : S64.Idx → EReal) (ix1 d))
          (fun d => (Wv (Proc.devRef .tc main_arg15) : S64.Idx → EReal) (ix1 d))
          (fun (blk : Fin 8) (d : Fin 64) => (Wv (Proc.devRef .tc main_v81_1) : S8x8x64.Idx → EReal) (ix3 blk (0 : Fin 8) d))
          (fun (blk : Fin 8) (d : Fin 64) => (Wv (Proc.devRef .tc main_v81_1) : S8x8x64.Idx → EReal) (ix3 blk (1 : Fin 8) d))
          (Ideal.ofBits .f32 0x3727C5AC#32) d := by
  rw [shift_term]; exact shiftT_apply _ _ _ d

/-- The operations write neither the first call's row array nor the transposed table: both keep their contents. -/
theorem kept (Wv : Valuation τ sig (Elt Ideal)) (b : Ref sig .tc) (hb : b = main_v81_0 ∨ b = main_v80) :
    after (hostOps1 (F := Ideal)) Wv (Proc.devRef .tc b) = Wv (Proc.devRef .tc b) := by
  rcases hb with rfl | rfl
  · after_results
  · after_results

end Cert.KernelIdeal.Moments

end
-- ==== Proof.KerValue.lean ====
/-
  What the idealized kernel program's result array holds, entry by entry, as the specification's function of the
  argument arrays.

  The second pallas_call's eight row blocks cover the result: entry (r, u) is ∑ d, max (z r d · scale d + shift d) 0 · ehᵀ d u
  of the arrays that call finds. z is what the first pallas_call left in its first output array; scale and shift are
  what the host computes between the two calls from the first call's per-block column sums of z and of z², and eight
  blocks of 2048 rows regroup into sums over all 16384 rows, which makes them the moment form's scale and shift; γ, β
  and the other arguments are untouched by everything before; es, Wᵀ and ehᵀ are what the host computed before the
  first call: the normalisation chain applied to the embedding lookup and the second layer's output, and transposes.
-/
import proofs.«406313_j19000935318034_3_alg».proof.Proof.KerRun
import proofs.«406313_j19000935318034_3_alg».proof.Proof.Spec
import proofs.«406313_j19000935318034_3_alg».proof.Proof.SpecGraph
import proofs.«406313_j19000935318034_3_alg».proof.Proof.SpecHead
import proofs.«406313_j19000935318034_3_alg».proof.Proof.KerChain
import proofs.«406313_j19000935318034_3_alg».proof.Proof.KerRegion0
import proofs.«406313_j19000935318034_3_alg».proof.Proof.KerRegion1
import proofs.«406313_j19000935318034_3_alg».proof.Proof.KerMoments
import Idealize.ShloMosaic.Lib.ValueIdx

noncomputable section

open Cert.KernelIdeal Cert.KernelIdeal.Gen Idealize.ShloMosaic Idealize.ShloMosaic.TcCoe Idealize.ShloMosaic.ValueIdx Idealize.ShloMosaic.StableHlo
open scoped BigOperators

namespace Cert.KernelIdeal.KerValue

variable (m : (ℓ : Loc nD τ sig) → Buf (Elt Ideal) ℓ) (ρ : Dev nD → PrngReg)

theorem W3_z (c : Dev nD) : W3 m ρ c (Proc.devRef .tc main_v81_0) = (dat0 (V2 m ρ) c).arrAt 4 cfg0.N := W3_arr m ρ c 4
theorem W3_stats (c : Dev nD) : W3 m ρ c (Proc.devRef .tc main_v81_1) = (dat0 (V2 m ρ) c).arrAt 5 cfg0.N := W3_arr m ρ c 5

/-- z as region 1 finds it is z as region 0 left it. -/
theorem V4_z (c : Dev nD) (r : Fin 16384) (d : Fin 64) :
    (V4 m ρ c main_v81_0 : S16384x64.Idx → EReal) (ix2 r d) = Region0.zK (V2 m ρ) c r d := by
  have e : V4 m ρ c main_v81_0 = (dat0 (V2 m ρ) c).arrAt 4 cfg0.N := (Moments.kept (W3 m ρ c) main_v81_0 (Or.inl rfl)).trans (W3_z m ρ c)
  rw [e]; exact Region0.final_z (V2 m ρ) c r d

/-- scale as region 1 finds it is the moment form's scale of that z. -/
theorem V4_scale (c : Dev nD) (d : Fin 64) :
    (V4 m ρ c main_v99 : S64.Idx → EReal) (ix1 d)
      = Cert.Spec.scaleK (Region0.zK (V2 m ρ) c) (fun d => (W3 m ρ c (Proc.devRef .tc main_arg14) : S64.Idx → EReal) (ix1 d)) (Ideal.ofBits .f32 0x3727C5AC#32) d := by
  refine (Moments.scale_apply (W3 m ρ c) d).trans ?_
  rw [W3_stats m ρ c]
  simp only [Region0.final_sum (V2 m ρ) c, Region0.final_sq (V2 m ρ) c]
  exact Cert.Spec.scaleB_blocks (Region0.zK (V2 m ρ) c) _ _ d

/-- shift as region 1 finds it is the moment form's shift of that z. -/
theorem V4_shift (c : Dev nD) (d : Fin 64) :
    (V4 m ρ c main_v101 : S64.Idx → EReal) (ix1 d)
      = Cert.Spec.shiftK (Region0.zK (V2 m ρ) c) (fun d => (W3 m ρ c (Proc.devRef .tc main_arg14) : S64.Idx → EReal) (ix1 d))
          (fun d => (W3 m ρ c (Proc.devRef .tc main_arg15) : S64.Idx → EReal) (ix1 d)) (Ideal.ofBits .f32 0x3727C5AC#32) d := by
  refine (Moments.shift_apply (W3 m ρ c) d).trans ?_
  rw [W3_stats m ρ c]
  simp only [Region0.final_sum (V2 m ρ) c, Region0.final_sq (V2 m ρ) c]
  exact Cert.Spec.shiftB_blocks (Region0.zK (V2 m ρ) c) _ _ _ d

/-- The arguments γ, β at region 0's exit are the launch's: region 0 writes neither, nor does the host before it. -/
theorem W3_arg14 (c : Dev nD) : W3 m ρ c (Proc.devRef .tc main_arg14) = m ((c : Thread nD τ).loc main_arg14) :=
  (W3_of_ne m ρ c main_arg14 (by decide)).trans (Chain.kept_arg14 (W0 m ρ c))
theorem W3_arg15 (c : Dev nD) : W3 m ρ c (Proc.devRef .tc main_arg15) = m ((c : Thread nD τ).loc main_arg15) :=
  (W3_of_ne m ρ c main_arg15 (by decide)).trans (Chain.kept_arg15 (W0 m ρ c))

/-- The embedding lookup and the second layer's output, as the host leaves them before the first call. -/
def x1K (c : Dev nD) : FVec Ideal S1195x64 .f32 := W2 m ρ c (Proc.devRef .tc main_v0)
def hK (c : Dev nD) : FVec Ideal S1195x64 .f32 := W2 m ρ c (Proc.devRef .tc main_v37)

/-- ehᵀ as region 1 finds it is the chain's eh, transposed. -/
theorem V4_ehT (c : Dev nD) (d : Fin 64) (u : Fin 805) :
    (V4 m ρ c main_v80 : S64x805.Idx → EReal) (ix2 d u) = Chain.ehK (F := Ideal) (x1K m ρ c) (hK m ρ c) (ix2 u d) := by
  have e : V4 m ρ c main_v80 = W2 m ρ c (Proc.devRef .tc main_v80) :=
    (Moments.kept (W3 m ρ c) main_v80 (Or.inr rfl)).trans (W3_of_ne m ρ c main_v80 (by decide))
  rw [e]; exact Chain.ehT_apply (W0 m ρ c) d u

/-- z in terms of the launch's arrays and the chain's es. -/
def zS (c : Dev nD) : Fin 16384 → Fin 64 → EReal :=
  Cert.Spec.zpre (fun r j => (m ((c : Thread nD τ).loc main_arg6) : S16384x390.Idx → EReal) (ix2 r j))
    (fun j k => Chain.esK (F := Ideal) (x1K m ρ c) (hK m ρ c) (ix2 j k))
    (fun d k => (m ((c : Thread nD τ).loc main_arg12) : S64x64.Idx → EReal) (ix2 d k))
    (fun d => (m ((c : Thread nD τ).loc main_arg13) : S64.Idx → EReal) (ix1 d))

theorem zK_eq (c : Dev nD) : Region0.zK (V2 m ρ) c = zS m ρ c := by
  unfold Region0.zK zS
  have e6 : V2 m ρ c main_arg6 = m ((c : Thread nD τ).loc main_arg6) := Chain.kept_arg6 (W0 m ρ c)
  have e13 : V2 m ρ c main_arg13 = m ((c : Thread nD τ).loc main_arg13) := Chain.kept_arg13 (W0 m ρ c)
  have e76 : (V2 m ρ c main_v76 : S390x64.Idx → EReal) = Chain.esK (F := Ideal) (x1K m ρ c) (hK m ρ c) := Chain.es_eq (W0 m ρ c)
  have e78 : (fun (d k : Fin 64) => (V2 m ρ c main_v78 : S64x64.Idx → EReal) (ix2 k d))
      = fun d k => (m ((c : Thread nD τ).loc main_arg12) : S64x64.Idx → EReal) (ix2 d k) :=
    funext fun d => funext fun k => Chain.wT_apply (W0 m ρ c) k d
  rw [e6, e13, e76, e78]

/-- THE KERNEL'S RESULT, entry by entry, in the specification's moment form. -/
theorem result_apply (c : Dev nD) (r : Fin 16384) (u : Fin 805) :
    ((dat1 (F := Ideal) (V4 m ρ) c).arrAt 4 cfg1.N : S16384x805.Idx → EReal) (ix2 r u)
      = Cert.Spec.out (Cert.Spec.bnK (zS m ρ c) (fun d => (m ((c : Thread nD τ).loc main_arg14) : S64.Idx → EReal) (ix1 d))
          (fun d => (m ((c : Thread nD τ).loc main_arg15) : S64.Idx → EReal) (ix1 d)) (Ideal.ofBits .f32 0x3727C5AC#32))
          (fun u d => Chain.ehK (F := Ideal) (x1K m ρ c) (hK m ρ c) (ix2 u d)) r u := by
  rw [Region1.final_out (V4 m ρ) c r u]
  have hz : (fun (r : Fin 16384) (d : Fin 64) => (V4 m ρ c main_v81_0 : S16384x64.Idx → EReal) (ix2 r d)) = zS m ρ c :=
    funext fun r => funext fun d => (V4_z m ρ c r d).trans (congrFun (congrFun (zK_eq m ρ c) r) d)
  have hsc : (fun d : Fin 64 => (V4 m ρ c main_v99 : S64.Idx → EReal) (ix1 d))
      = Cert.Spec.scaleK (zS m ρ c) (fun d => (m ((c : Thread nD τ).loc main_arg14) : S64.Idx → EReal) (ix1 d)) (Ideal.ofBits .f32 0x3727C5AC#32) :=
    funext fun d => by rw [V4_scale m ρ c d, zK_eq m ρ c, W3_arg14 m ρ c]
  have hsh : (fun d : Fin 64 => (V4 m ρ c main_v101 : S64.Idx → EReal) (ix1 d))
      = Cert.Spec.shiftK (zS m ρ c) (fun d => (m ((c : Thread nD τ).loc main_arg14) : S64.Idx → EReal) (ix1 d))
          (fun d => (m ((c : Thread nD τ).loc main_arg15) : S64.Idx → EReal) (ix1 d)) (Ideal.ofBits .f32 0x3727C5AC#32) :=
    funext fun d => by rw [V4_shift m ρ c d, zK_eq m ρ c, W3_arg14 m ρ c, W3_arg15 m ρ c]
  have heh : (fun (d : Fin 64) (u : Fin 805) => (V4 m ρ c main_v80 : S64x805.Idx → EReal) (ix2 d u))
      = fun d u => Chain.ehK (F := Ideal) (x1K m ρ c) (hK m ρ c) (ix2 u d) :=
    funext fun d => funext fun u => V4_ehT m ρ c d u
  rw [hz, hsc, hsh, heh]
  exact Cert.Spec.headK_eq_out (zS m ρ c) _ _ _ (fun u d => Chain.ehK (F := Ideal) (x1K m ρ c) (hK m ρ c) (ix2 u d)) r u

end Cert.KernelIdeal.KerValue

end
-- ==== Proof.RefHead.lean ====
/-
  The reference's head, read entry by entry.

  After the two graph-convolution layers the reference normalises four slices of the node embeddings into
  es (390 rows) and eh (805 rows); forms z = (P · es / rowsum P) · Wᵀ + b over the 16384 rows of P; normalises z
  column by column over the rows — the column's mean, the mean of the squared deviations from it, then
  (z − mean) / √(var + ε) · γ + β —; takes the maximum with 0; and multiplies by ehᵀ.

  The four definitions below are those compositions, operation by operation, for any float instance. At the
  extended reals each entry of z and of the result is the closed expression of the specification: a host sum
  over one axis is its initial value 0 plus the sum over that axis's coordinate; a product of two matrices is
  the sum over the contracted coordinate; a broadcast, a transpose read one entry of their operand; the divisor
  16384 − 0 is positive, so the guarded quotient inside the variance is the quotient itself.
-/
import proofs.«406313_j19000935318034_3_alg».proof.Proof.Gen.ReferenceIdeal
import proofs.«406313_j19000935318034_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.KernelVsHost
import Idealize.ShloMosaic.Lib.StackMember

noncomputable section

namespace Cert.ReferenceIdeal.RefHead

open Cert.ReferenceIdeal Idealize.ShloMosaic Idealize.ShloMosaic.ValueIdx
open scoped BigOperators

variable [Facts]
open Facts₀ Facts

/-! ## The compositions -/

section Compositions
variable {F : FTy → Type} [FloatOps F]

/-- es: rows 805 … 1194 of x1, each row over the larger of its Euclidean norm and the small constant, plus the same
    rows of h, each column over the larger of its Euclidean norm and the small constant. -/
def esT (x1 h : FVec F S1195x64 .f32) : FVec F S390x64 .f32 :=
  let v66 : FVec F S390x64 .f32 := extractStridedSlice S390x64 ![805, 0] x1 slices_S1195x64_S390x64_805_0
  let v68 : FVec F S390x64 .f32 := extractStridedSlice S390x64 ![805, 0] h slices_S1195x64_S390x64_805_0
  let v69 := mulf v66 v66
  let v70 : FVec F S390 .f32 := Host.reduceAdd v69 (constant (F := F) S_ .f32 0x00000000#32) reducesTo_S390x64_S390_d1 h_S_
  let v71 : FVec F S390x1 .f32 := broadcastInDim S390x1 ![0] bcast_S390_S390x1_0 v70
  let v72 := Host.sqrt v71
  let v73 : FVec F S390x1 .f32 := broadcastInDim S390x1 ![] bcast_S_S390x1 (constant (F := F) S_ .f32 0x2B8CBCCC#32)
  let v74 := maximumf v72 v73
  let v75 : FVec F S390x64 .f32 := broadcastInDim S390x64 ![0, 1] bcast_S390x1_S390x64_0_1 v74
  let v76 := Host.divf v66 v75
  let v77 := mulf v68 v68
  let v78 : FVec F S64 .f32 := Host.reduceAdd v77 (constant (F := F) S_ .f32 0x00000000#32) reducesTo_S390x64_S64_d0 h_S_
  let v79 : FVec F S1x64 .f32 := broadcastInDim S1x64 ![1] bcast_S64_S1x64_1 v78
  let v80 := Host.sqrt v79
  let v81 : FVec F S1x64 .f32 := broadcastInDim S1x64 ![] bcast_S_S1x64 (constant (F := F) S_ .f32 0x2B8CBCCC#32)
  let v82 := maximumf v80 v81
  let v83 : FVec F S390x64 .f32 := broadcastInDim S390x64 ![0, 1] bcast_S1x64_S390x64_0_1 v82
  let v84 := Host.divf v68 v83
  addf v76 v84

/-- eh: the same two normalisations of rows 0 … 804 of x1 and of h, added. -/
def ehT (x1 h : FVec F S1195x64 .f32) : FVec F S805x64 .f32 :=
  let v65 : FVec F S805x64 .f32 := extractStridedSlice S805x64 ![0, 0] x1 slices_S1195x64_S805x64_0_0
  let v67 : FVec F S805x64 .f32 := extractStridedSlice S805x64 ![0, 0] h slices_S1195x64_S805x64_0_0
  let v86 := mulf v65 v65
  let v87 : FVec F S805 .f32 := Host.reduceAdd v86 (constant (F := F) S_ .f32 0x00000000#32) reducesTo_S805x64_S805_d1 h_S_
  let v88 : FVec F S805x1 .f32 := broadcastInDim S805x1 ![0] bcast_S805_S805x1_0 v87
  let v89 := Host.sqrt v88
  let v90 : FVec F S805x1 .f32 := broadcastInDim S805x1 ![] bcast_S_S805x1 (constant (F := F) S_ .f32 0x2B8CBCCC#32)
  let v91 := maximumf v89 v90
  let v92 : FVec F S805x64 .f32 := broadcastInDim S805x64 ![0, 1] bcast_S805x1_S805x64_0_1 v91
  let v93 := Host.divf v65 v92
  let v94 := mulf v67 v67
  let v95 : FVec F S64 .f32 := Host.reduceAdd v94 (constant (F := F) S_ .f32 0x00000000#32) reducesTo_S805x64_S64_d0 h_S_
  let v96 : FVec F S1x64 .f32 := broadcastInDim S1x64 ![1] bcast_S64_S1x64_1 v95
  let v97 := Host.sqrt v96
  let v98 : FVec F S1x64 .f32 := broadcastInDim S1x64 ![] bcast_S_S1x64 (constant (F := F) S_ .f32 0x2B8CBCCC#32)
  let v99 := maximumf v97 v98
  let v100 : FVec F S805x64 .f32 := broadcastInDim S805x64 ![0, 1] bcast_S1x64_S805x64_0_1 v99
  let v101 := Host.divf v67 v100
  addf v93 v101

/-- z = (P · es / rowsum P) · Wᵀ + b. -/
def zT (P : FVec F S16384x390 .f32) (es : FVec F S390x64 .f32) (W : FVec F S64x64 .f32) (b : FVec F S64 .f32) :
    FVec F S16384x64 .f32 :=
  addf
    (Host.dotGeneral dot_S16384x64_S64x64_S16384x64_1_0_0_1_n_n none
      (Host.divf
        (Host.dotGeneral dot_S16384x390_S390x64_S16384x64_1_0_0_1_n_n none P es)
        (broadcastInDim S16384x64 ![0, 1] bcast_S16384x1_S16384x64_0_1
          (broadcastInDim S16384x1 ![0] bcast_S16384_S16384x1_0
            (Host.reduceAdd P (constant (F := F) S_ .f32 0x00000000#32) reducesTo_S16384x390_S16384_d1 h_S_))))
      (transpose S64x64 [1, 0] W transposes_S64x64_S64x64_1_0))
    (broadcastInDim S16384x64 ![0, 1] bcast_S1x64_S16384x64_0_1 (broadcastInDim S1x64 ![1] bcast_S64_S1x64_1 b))

/-- The column means of z: the column sums from 0, over the splat of 16384. -/
def meanT (z : FVec F S16384x64 .f32) : FVec F S64 .f32 :=
  Host.divf
    (Host.reduceAdd z (constant (F := F) S_ .f32 0x00000000#32) reducesTo_S16384x64_S64_d0 h_S_)
    (broadcastInDim S64 ![] bcast_S_S64 (constant (F := F) S_ .f32 0x46800000#32))

/-- The column means of z once more, as the variance takes them: the column sums from 0 kept as one row, over the
    one-row splat of 16384, laid along every row. -/
def meanRowsT (z : FVec F S16384x64 .f32) : FVec F S16384x64 .f32 :=
  broadcastInDim S16384x64 ![0, 1] bcast_S1x64_S16384x64_0_1
    (Host.divf
      (broadcastInDim S1x64 ![1] bcast_S64_S1x64_1
        (Host.reduceAdd z (constant (F := F) S_ .f32 0x00000000#32) reducesTo_S16384x64_S64_d0 h_S_))
      (broadcastInDim S1x64 ![] bcast_S_S1x64 (constant (F := F) S_ .f32 0x46800000#32)))

/-- The column variances of z with the correction c: the squared deviations from the column means summed from 0
    over the rows, over 16384 − c where that is positive and the quiet NaN pattern elsewhere. -/
def varT (z : FVec F S16384x64 .f32) (c : IVec S_ 32) : FVec F S64 .f32 :=
  let v5 := subf z (meanRowsT z)
  let v6 := mulf v5 v5
  let v7 : FVec F S_ .f32 := sitofp .f32 c
  let v8 := subf (constant (F := F) S_ .f32 0x46800000#32) v7
  let v9 : FVec F S64 .f32 := Host.reduceAdd v6 (constant (F := F) S_ .f32 0x00000000#32) reducesTo_S16384x64_S64_d0 h_S_
  let v10 : FVec F S64 .f32 := broadcastInDim S64 ![] bcast_S_S64 v8
  let v11 := Host.divf v9 v10
  let v12 : IVec S_ 1 := cmpf .ogt v8 (constant (F := F) S_ .f32 0x00000000#32)
  let w0 : FVec F S_ .f32 := id (constant (F := F) S_ .f32 0x7FC00000#32)
  let w1 : FVec F S64 .f32 := broadcastInDim S64 ![] bcast_S_S64 w0
  select (broadcastInDim S64 ![] bcast_S_S64 v12) v11 w1

/-- The result: z normalised column by column, scaled by γ and shifted by β, the maximum with 0, times ehᵀ. -/
def outT (z : FVec F S16384x64 .f32) (g be : FVec F S64 .f32) (eh : FVec F S805x64 .f32) : FVec F S16384x805 .f32 :=
  let v115 := meanT z
  let v116 := varT z (constantI S_ 32 0#32)
  let v118 : FVec F S16384x64 .f32 :=
    broadcastInDim S16384x64 ![0, 1] bcast_S1x64_S16384x64_0_1 (broadcastInDim S1x64 ![1] bcast_S64_S1x64_1 v115)
  let v119 := subf z v118
  let v120 : FVec F S64 .f32 := broadcastInDim S64 ![] bcast_S_S64 (constant (F := F) S_ .f32 0x3727C5AC#32)
  let v121 := addf v116 v120
  let v122 := Host.sqrt v121
  let v124 : FVec F S16384x64 .f32 :=
    broadcastInDim S16384x64 ![0, 1] bcast_S1x64_S16384x64_0_1 (broadcastInDim S1x64 ![1] bcast_S64_S1x64_1 v122)
  let v125 := Host.divf v119 v124
  let v127 : FVec F S16384x64 .f32 :=
    broadcastInDim S16384x64 ![0, 1] bcast_S1x64_S16384x64_0_1 (broadcastInDim S1x64 ![1] bcast_S64_S1x64_1 g)
  let v128 := mulf v125 v127
  let v130 : FVec F S16384x64 .f32 :=
    broadcastInDim S16384x64 ![0, 1] bcast_S1x64_S16384x64_0_1 (broadcastInDim S1x64 ![1] bcast_S64_S1x64_1 be)
  let v131 := addf v128 v130
  let v132 := maximumf v131 (broadcastInDim S16384x64 ![] bcast_S_S16384x64 (constant (F := F) S_ .f32 0x00000000#32))
  let v133 : FVec F S64x805 .f32 := transpose S64x805 [1, 0] eh transposes_S805x64_S64x805_1_0
  Host.dotGeneral dot_S16384x64_S64x805_S16384x805_1_0_0_1_n_n none v132 v133

end Compositions

/-! ## Single operations read at an entry -/

section Readings

/-- The pattern 0x46800000 is 2¹⁴. -/
private theorem ofBits_16384 : Ideal.ofBits .f32 0x46800000#32 = (16384 : EReal) := by
  rw [show (16384 : EReal) = ((16384 : ℝ) : EReal) by norm_cast]
  simp [Ideal.ofBits, Ideal.ieee, -EReal.coe_mul]; norm_num

/-- A column of a 16384 × 64 matrix summed from 0: the sum over the rows. -/
theorem colSum_apply (x : FVec Ideal S16384x64 .f32) (d : Fin 64) :
    Host.reduceAdd (F := Ideal) x (constant (F := Ideal) S_ .f32 0x00000000#32) reducesTo_S16384x64_S64_d0 h_S_ (ix1 d)
      = ∑ r : Fin 16384, x (ix2 r d) := by
  have h : S16384x64.Reduces [0] S64 := by decide
  show Ideal.hostReduceAdd reducesTo_S16384x64_S64_d0 x (Ideal.ofBits .f32 0x00000000#32) (ix1 d) = _
  rw [Ideal.hostReduceAdd_single reducesTo_S16384x64_S64_d0 h, Ideal.ofBits_zero_f32, zero_add]
  exact Finset.sum_congr rfl fun r _ => congrArg x (funext fun a => Fin.ext (by
    match a with
    | ⟨0, _⟩ => rfl
    | ⟨1, _⟩ => rfl))

/-- A row of P summed from 0: the sum over its 390 columns. -/
theorem rowSum_apply (P : FVec Ideal S16384x390 .f32) (r : Fin 16384) :
    Host.reduceAdd (F := Ideal) P (constant (F := Ideal) S_ .f32 0x00000000#32) reducesTo_S16384x390_S16384_d1 h_S_ (ix1 r)
      = ∑ j : Fin 390, P (ix2 r j) := by
  have h : S16384x390.Reduces [1] S16384 := by decide
  show Ideal.hostReduceAdd reducesTo_S16384x390_S16384_d1 P (Ideal.ofBits .f32 0x00000000#32) (ix1 r) = _
  rw [Ideal.hostReduceAdd_single reducesTo_S16384x390_S16384_d1 h, Ideal.ofBits_zero_f32, zero_add]
  exact Finset.sum_congr rfl fun j _ => congrArg P (funext fun a => Fin.ext (by
    match a with
    | ⟨0, _⟩ => rfl
    | ⟨1, _⟩ => rfl))

/-- The host's square root at an entry is the square root of the entry. -/
theorem hostSqrt_apply {s : Shape} {φ : FTy} (a : FVec Ideal s φ) (i : s.Idx) : Host.sqrt a i = Ideal.sqrt (a i) := rfl

variable {α : Type}

/-- A vector of 64 entries kept as one row reads, at (0, d), its entry d. -/
theorem oneRow_apply (v : S64.Idx → α) (u : Fin 1) (d : Fin 64) :
    broadcastInDim S1x64 ![1] bcast_S64_S1x64_1 v (ix2 u d) = v (ix1 d) := by
  refine broadcastInDim_apply ![1] bcast_S64_S1x64_1 v (ix2 u d) (ix1 d) fun a => ?_
  match a with
  | ⟨0, _⟩ => rfl

/-- … and laid along every one of the 16384 rows it reads, at (r, d), its entry d. -/
theorem rowBcast_apply (v : S64.Idx → α) (r : Fin 16384) (d : Fin 64) :
    broadcastInDim S16384x64 ![0, 1] bcast_S1x64_S16384x64_0_1 (broadcastInDim S1x64 ![1] bcast_S64_S1x64_1 v) (ix2 r d)
      = v (ix1 d) :=
  (broadcastInDim_oneRow_apply bcast_S1x64_S16384x64_0_1 _ r d).trans (oneRow_apply v 0 d)

/-- A vector of 16384 entries kept as one column and laid along every one of the 64 columns reads, at (r, d), its entry r. -/
theorem colBcast_apply (v : S16384.Idx → α) (r : Fin 16384) (d : Fin 64) :
    broadcastInDim S16384x64 ![0, 1] bcast_S16384x1_S16384x64_0_1 (broadcastInDim S16384x1 ![0] bcast_S16384_S16384x1_0 v) (ix2 r d)
      = v (ix1 r) := by
  refine (broadcastInDim_apply ![0, 1] bcast_S16384x1_S16384x64_0_1 _ (ix2 r d) (ix2 r (0 : Fin 1)) fun a => ?_).trans ?_
  · match a with
    | ⟨0, _⟩ => rfl
    | ⟨1, _⟩ => rfl
  · refine broadcastInDim_apply ![0] bcast_S16384_S16384x1_0 v (ix2 r (0 : Fin 1)) (ix1 r) fun a => ?_
    match a with
    | ⟨0, _⟩ => rfl

/-- The transpose of W reads, at (k, d), W at (d, k). -/
theorem transposeW_apply (W : S64x64.Idx → α) (k d : Fin 64) :
    transpose S64x64 [1, 0] W transposes_S64x64_S64x64_1_0 (ix2 k d) = W (ix2 d k) := by
  refine transpose_apply [1, 0] W transposes_S64x64_S64x64_1_0 (ix2 k d) (ix2 d k) fun b => ?_
  match b with
  | ⟨0, _⟩ => rfl
  | ⟨1, _⟩ => rfl

/-- The transpose of eh reads, at (d, u), eh at (u, d). -/
theorem transposeEh_apply (eh : S805x64.Idx → α) (d : Fin 64) (u : Fin 805) :
    transpose S64x805 [1, 0] eh transposes_S805x64_S64x805_1_0 (ix2 d u) = eh (ix2 u d) := by
  refine transpose_apply [1, 0] eh transposes_S805x64_S64x805_1_0 (ix2 d u) (ix2 u d) fun b => ?_
  match b with
  | ⟨0, _⟩ => rfl
  | ⟨1, _⟩ => rfl

/-- P · es at (r, k): the sum over the 390 contracted columns of P. -/
theorem dotP_apply (P : FVec Ideal S16384x390 .f32) (es : FVec Ideal S390x64 .f32) (r : Fin 16384) (k : Fin 64) :
    Host.dotGeneral dot_S16384x390_S390x64_S16384x64_1_0_0_1_n_n none P es (ix2 r k)
      = ∑ j : Fin 390, P (ix2 r j) * es (ix2 j k) :=
  StackMember.dotGeneral_plain_apply (m := 16384) (n := 64) (k := 390) none P es r k

/-- A 16384 × 64 matrix times a 64 × 64 matrix at (r, d): the sum over the contracted coordinate. -/
theorem dotW_apply (A : FVec Ideal S16384x64 .f32) (B : FVec Ideal S64x64 .f32) (r : Fin 16384) (d : Fin 64) :
    Host.dotGeneral dot_S16384x64_S64x64_S16384x64_1_0_0_1_n_n none A B (ix2 r d)
      = ∑ k : Fin 64, A (ix2 r k) * B (ix2 k d) :=
  StackMember.dotGeneral_plain_apply (m := 16384) (n := 64) (k := 64) none A B r d

/-- A 16384 × 64 matrix times a 64 × 805 matrix at (r, u): the sum over the contracted coordinate. -/
theorem dotEh_apply (A : FVec Ideal S16384x64 .f32) (B : FVec Ideal S64x805 .f32) (r : Fin 16384) (u : Fin 805) :
    Host.dotGeneral dot_S16384x64_S64x805_S16384x805_1_0_0_1_n_n none A B (ix2 r u)
      = ∑ d : Fin 64, A (ix2 r d) * B (ix2 d u) :=
  StackMember.dotGeneral_plain_apply (m := 16384) (n := 805) (k := 64) none A B r u

end Readings

/-! ## z and the result at an entry -/

section Entries

/-- z at (r, d) is the specification's z: the row of P times es, over the row's sum, times row d of W, plus b d. -/
theorem zT_apply (P : FVec Ideal S16384x390 .f32) (es : FVec Ideal S390x64 .f32) (W : FVec Ideal S64x64 .f32)
    (b : FVec Ideal S64 .f32) (r : Fin 16384) (d : Fin 64) :
    zT (F := Ideal) P es W b (ix2 r d)
      = Cert.Spec.zpre (fun r j => P (ix2 r j)) (fun j k => es (ix2 j k)) (fun d k => W (ix2 d k)) (fun d => b (ix1 d)) r d := by
  unfold zT Cert.Spec.zpre Cert.Spec.rowsum
  rw [addf_apply, dotW_apply, rowBcast_apply]
  refine congrArg₂ (· + ·) (Finset.sum_congr rfl fun k _ => ?_) rfl
  rw [hostDivf_apply, dotP_apply, colBcast_apply, rowSum_apply, transposeW_apply]

/-- The column means are the specification's. -/
theorem meanT_apply (z : FVec Ideal S16384x64 .f32) (d : Fin 64) :
    meanT (F := Ideal) z (ix1 d) = Cert.Spec.mean (fun r d => z (ix2 r d)) d := by
  unfold meanT Cert.Spec.mean
  rw [hostDivf_apply, colSum_apply, broadcastInDim_scalar_apply, constant_apply, ofBits_16384]

/-- … and so are the means the variance takes, at every row. -/
theorem meanRowsT_apply (z : FVec Ideal S16384x64 .f32) (r : Fin 16384) (d : Fin 64) :
    meanRowsT (F := Ideal) z (ix2 r d) = Cert.Spec.mean (fun r d => z (ix2 r d)) d := by
  unfold meanRowsT Cert.Spec.mean
  rw [broadcastInDim_oneRow_apply, hostDivf_apply, oneRow_apply, colSum_apply, broadcastInDim_scalar_apply, constant_apply,
    ofBits_16384]

/-- The divisor 16384 − 0 is 16384. -/
private theorem count_eq :
    subf (constant (F := Ideal) S_ .f32 0x46800000#32) (sitofp .f32 (constantI S_ 32 0#32)) ix0 = (16384 : EReal) := by
  show Ideal.ofBits .f32 0x46800000#32 - ((((0#32 : BitVec 32).toInt : ℝ)) : EReal) = 16384
  rw [ofBits_16384]
  simp

/-- 16384 is above 0. -/
private theorem count_pos : Ideal.cmp .ogt (16384 : EReal) (Ideal.ofBits .f32 0x00000000#32) = 1#1 := by
  have h : (0 : EReal) < 16384 := by exact_mod_cast (by norm_num : (0 : ℝ) < 16384)
  rw [Ideal.ofBits_zero_f32]
  simp [Ideal.cmp, h]

/-- The column variances with correction 0 are the specification's: the guard holds, so the quotient is kept. -/
theorem varT_apply (z : FVec Ideal S16384x64 .f32) (d : Fin 64) :
    varT (F := Ideal) z (constantI S_ 32 0#32) (ix1 d) = Cert.Spec.varR (fun r d => z (ix2 r d)) d := by
  unfold varT Cert.Spec.varR
  dsimp only
  rw [select_apply, broadcastInDim_scalar_apply, cmpf_apply, count_eq, constant_apply]
  show Scalar.select (Ideal.cmp .ogt (16384 : EReal) (Ideal.ofBits .f32 0x00000000#32)) _ _ = _
  rw [count_pos, select_one, hostDivf_apply, colSum_apply, broadcastInDim_scalar_apply, count_eq]
  refine congrArg (fun s => Ideal.div s (16384 : EReal)) (Finset.sum_congr rfl fun r _ => ?_)
  rw [mulf_apply, subf_apply, meanRowsT_apply]

/-- The result at (r, u): the normalised, scaled and shifted row r, its maximum with 0, times row u of eh. -/
theorem outT_apply (z : FVec Ideal S16384x64 .f32) (g be : FVec Ideal S64 .f32) (eh : FVec Ideal S805x64 .f32)
    (r : Fin 16384) (u : Fin 805) :
    outT (F := Ideal) z g be eh (ix2 r u)
      = Cert.Spec.out (Cert.Spec.bnR (fun r d => z (ix2 r d)) (fun d => g (ix1 d)) (fun d => be (ix1 d))
          (Ideal.ofBits .f32 0x3727C5AC#32)) (fun u d => eh (ix2 u d)) r u := by
  unfold outT Cert.Spec.out
  dsimp only
  rw [dotEh_apply]
  refine Finset.sum_congr rfl fun d _ => ?_
  rw [transposeEh_apply]
  refine congrArg (· * eh (ix2 u d)) ?_
  unfold Cert.Spec.bnR
  rw [maximumf_apply, broadcastInDim_scalar_apply, constant_apply, Ideal.ofBits_zero_f32, addf_apply, mulf_apply, hostDivf_apply,
    subf_apply, rowBcast_apply, rowBcast_apply, rowBcast_apply, rowBcast_apply, meanT_apply, hostSqrt_apply, addf_apply, varT_apply,
    broadcastInDim_scalar_apply, constant_apply]

end Entries

end Cert.ReferenceIdeal.RefHead

end
-- ==== Proof.RefCut.lean ====
import proofs.«406313_j19000935318034_3_alg».proof.Proof.RefRun

/-!
# The reference's line in eight stretches

The fold of the reference's 185 operations over a valuation, cut at the buffers the value argument stops at:
`after ops V` is the eight stretches' folds composed (`after_ops`), and a stretch keeps every buffer it does
not write (`segK_keeps`, the stretch's written buffers listed in `segK_W`). A buffer's final contents are so
the fold of its own stretch alone, over the valuation the earlier stretches leave.
-/

noncomputable section

namespace Cert.ReferenceIdeal.RefCut

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The first stretch: the node ids wrapped into range and the embedding's rows gathered (`%c … %6`). -/
abbrev seg0 : List (HloOp τ sig (Elt F)) :=
  ( StableHlo.nullary main_c (constantI S_ 32 0#32)
  :: StableHlo.unary main_c main_v0 (broadcastInDim S1195 ![] bcast_S_S1195 : (⟨S_, .i32⟩ : BufTy).Contents (Elt F) → (⟨S1195, .i32⟩ : BufTy).Contents (Elt F))
  :: StableHlo.binary main_arg0 main_v0 main_v1 (cmpi .slt : (⟨S1195, .i32⟩ : BufTy).Contents (Elt F) → (⟨S1195, .i32⟩ : BufTy).Contents (Elt F) → (⟨S1195, .i1⟩ : BufTy).Contents (Elt F))
  :: StableHlo.nullary main_c_0 (constantI S_ 32 1195#32)
  :: StableHlo.unary main_c_0 main_v2 (broadcastInDim S1195 ![] bcast_S_S1195 : (⟨S_, .i32⟩ : BufTy).Contents (Elt F) → (⟨S1195, .i32⟩ : BufTy).Contents (Elt F))
  :: StableHlo.binary main_arg0 main_v2 main_v3 (addi : (⟨S1195, .i32⟩ : BufTy).Contents (Elt F) → (⟨S1195, .i32⟩ : BufTy).Contents (Elt F) → (⟨S1195, .i32⟩ : BufTy).Contents (Elt F))
  :: StableHlo.ternary main_v1 main_v3 main_arg0 main_v4 (select : (⟨S1195, .i1⟩ : BufTy).Contents (Elt F) → (⟨S1195, .i32⟩ : BufTy).Contents (Elt F) → (⟨S1195, .i32⟩ : BufTy).Contents (Elt F) → (⟨S1195, .i32⟩ : BufTy).Contents (Elt F))
  :: StableHlo.unary main_v4 main_v5 (broadcastInDim S1195x1 ![0] bcast_S1195_S1195x1_0 : (⟨S1195, .i32⟩ : BufTy).Contents (Elt F) → (⟨S1195x1, .i32⟩ : BufTy).Contents (Elt F))
  :: StableHlo.binary main_arg7 main_v5 main_v6 ((fun x i => Host.gather gather_S1195x64_S1195x1_S1195x64_1_0_n_n_0_1_164 x i) : (⟨S1195x64, .f32⟩ : BufTy).Contents (Elt F) → (⟨S1195x1, .i32⟩ : BufTy).Contents (Elt F) → (⟨S1195x64, .f32⟩ : BufTy).Contents (Elt F))
  :: [] )

/-- The second stretch: the first graph convolution (`%7 … %35`). -/
abbrev seg1 : List (HloOp τ sig (Elt F)) :=
  ( StableHlo.unary main_arg1 main_v7 ((extractStridedSlice S1x1048576 ![0, 0] · slices_S2x1048576_S1x1048576_0_0) : (⟨S2x1048576, .i32⟩ : BufTy).Contents (Elt F) → (⟨S1x1048576, .i32⟩ : BufTy).Contents (Elt F))
  :: StableHlo.reshape main_v7 main_v8 rfl shapeCasts_S1x1048576_S1048576
  :: StableHlo.unary main_arg1 main_v9 ((extractStridedSlice S1x1048576 ![1, 0] · slices_S2x1048576_S1x1048576_1_0) : (⟨S2x1048576, .i32⟩ : BufTy).Contents (Elt F) → (⟨S1x1048576, .i32⟩ : BufTy).Contents (Elt F))
  :: StableHlo.reshape main_v9 main_v10 rfl shapeCasts_S1x1048576_S1048576
  :: StableHlo.nullary main_c_1 (constantI S_ 32 0#32)
  :: StableHlo.unary main_c_1 main_v11 (broadcastInDim S1048576 ![] bcast_S_S1048576 : (⟨S_, .i32⟩ : BufTy).Contents (Elt F) → (⟨S1048576, .i32⟩ : BufTy).Contents (Elt F))
  :: StableHlo.binary main_v8 main_v11 main_v12 (cmpi .slt : (⟨S1048576, .i32⟩ : BufTy).Contents (Elt F) → (⟨S1048576, .i32⟩ : BufTy).Contents (Elt F) → (⟨S1048576, .i1⟩ : BufTy).Contents (Elt F))
  :: StableHlo.nullary main_c_2 (constantI S_ 32 1195#32)
  :: StableHlo.unary main_c_2 main_v13 (broadcastInDim S1048576 ![] bcast_S_S1048576 : (⟨S_, .i32⟩ : BufTy).Contents (Elt F) → (⟨S1048576, .i32⟩ : BufTy).Contents (Elt F))
  :: StableHlo.binary main_v8 main_v13 main_v14 (addi : (⟨S1048576, .i32⟩ : BufTy).Contents (Elt F) → (⟨S1048576, .i32⟩ : BufTy).Contents (Elt F) → (⟨S1048576, .i32⟩ : BufTy).Contents (Elt F))
  :: StableHlo.ternary main_v12 main_v14 main_v8 main_v15 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.unary main_v15 main_v16 (broadcastInDim S1048576x1 ![0] bcast_S1048576_S1048576x1_0 : (⟨S1048576, .i32⟩ : BufTy).Contents (Elt F) → (⟨S1048576x1, .i32⟩ : BufTy).Contents (Elt F))
  :: StableHlo.binary main_v6 main_v16 main_v17 ((fun x i => Host.gather gather_S1195x64_S1048576x1_S1048576x64_1_0_n_n_0_1_164 x i) : (⟨S1195x64, .f32⟩ : BufTy).Contents (Elt F) → (⟨S1048576x1, .i32⟩ : BufTy).Contents (Elt F) → (⟨S1048576x64, .f32⟩ : BufTy).Contents (Elt F))
  :: StableHlo.unary main_arg8 main_v18 ((transpose S64x64 [1, 0] · transposes_S64x64_S64x64_1_0) : (⟨S64x64, .f32⟩ : BufTy).Contents (Elt F) → (⟨S64x64, .f32⟩ : BufTy).Contents (Elt F))
  :: StableHlo.binary main_v17 main_v18 main_v19 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F))
  :: StableHlo.unary main_arg9 main_v20 (broadcastInDim S1x64 ![1] bcast_S64_S1x64_1 : (⟨S64, .f32⟩ : BufTy).Contents (Elt F) → (⟨S1x64, .f32⟩ : BufTy).Contents (Elt F))
  :: StableHlo.unary main_v20 main_v21 (broadcastInDim S1048576x64 ![0, 1] bcast_S1x64_S1048576x64_0_1 : (⟨S1x64, .f32⟩ : BufTy).Contents (Elt F) → (⟨S1048576x64, .f32⟩ : BufTy).Contents (Elt F))
  :: StableHlo.binary main_v19 main_v21 main_v22 (addf : (⟨S1048576x64, .f32⟩ : BufTy).Contents (Elt F) → (⟨S1048576x64, .f32⟩ : BufTy).Contents (Elt F) → (⟨S1048576x64, .f32⟩ : BufTy).Contents (Elt F))
  :: StableHlo.nullary main_cst (constant S_ .f32 0x00000000#32)
  :: StableHlo.unary main_cst main_v23 (broadcastInDim S1195x64 ![] bcast_S_S1195x64 : (⟨S_, .f32⟩ : BufTy).Contents (Elt F) → (⟨S1195x64, .f32⟩ : BufTy).Contents (Elt F))
  :: StableHlo.unary main_v10 main_v24 (broadcastInDim S1048576x1 ![0] bcast_S1048576_S1048576x1_0 : (⟨S1048576, .i32⟩ : BufTy).Contents (Elt F) → (⟨S1048576x1, .i32⟩ : BufTy).Contents (Elt F))
  :: StableHlo.ternary main_v23 main_v24 main_v22 main_v25 ((fun x i u => Host.scatterAdd scatter_S1195x64_S1048576x1_S1048576x64_1_0_0_1 x i u) : (⟨S1195x64, .f32⟩ : BufTy).Contents (Elt F) → (⟨S1048576x1, .i32⟩ : BufTy).Contents (Elt F) → (⟨S1048576x64, .f32⟩ : BufTy).Contents (Elt F) → (⟨S1195x64, .f32⟩ : BufTy).Contents (Elt F))
  :: StableHlo.nullary main_cst_3 (constant S_ .f32 0x3F800000#32)
  :: StableHlo.unary main_cst_3 main_v26 (broadcastInDim S1048576 ![] bcast_S_S1048576 : (⟨S_, .f32⟩ : BufTy).Contents (Elt F) → (⟨S1048576, .f32⟩ : BufTy).Contents (Elt F))
  :: StableHlo.nullary main_cst_4 (constant S_ .f32 0x00000000#32)
  :: StableHlo.unary main_cst_4 main_v27 (broadcastInDim S1195 ![] bcast_S_S1195 : (⟨S_, .f32⟩ : BufTy).Contents (Elt F) → (⟨S1195, .f32⟩ : BufTy).Contents (Elt F))
  :: StableHlo.unary main_v10 main_v28 (broadcastInDim S1048576x1 ![0] bcast_S1048576_S1048576x1_0 : (⟨S1048576, .i32⟩ : BufTy).Contents (Elt F) → (⟨S1048576x1, .i32⟩ : BufTy).Contents (Elt F))
  :: StableHlo.ternary main_v27 main_v28 main_v26 main_v29 ((fun x i u => Host.scatterAdd scatter_S1195_S1048576x1_S1048576_n_0_0_1 x i u) : (⟨S1195, .f32⟩ : BufTy).Contents (Elt F) → (⟨S1048576x1, .i32⟩ : BufTy).Contents (Elt F) → (⟨S1048576, .f32⟩ : BufTy).Contents (Elt F) → (⟨S1195, .f32⟩ : BufTy).Contents (Elt F))
  :: StableHlo.nullary main_cst_5 (constant S_ .f32 0x3F800000#32)
  :: StableHlo.unary main_cst_5 main_v30 (broadcastInDim S1195 ![] bcast_S_S1195 : (⟨S_, .f32⟩ : BufTy).Contents (Elt F) → (⟨S1195, .f32⟩ : BufTy).Contents (Elt F))
  :: StableHlo.binary main_v29 main_v30 main_v31 (maximumf : (⟨S1195, .f32⟩ : BufTy).Contents (Elt F) → (⟨S1195, .f32⟩ : BufTy).Contents (Elt F) → (⟨S1195, .f32⟩ : BufTy).Contents (Elt F))
  :: StableHlo.unary main_v31 main_v32 (broadcastInDim S1195x1 ![0] bcast_S1195_S1195x1_0 : (⟨S1195, .f32⟩ : BufTy).Contents (Elt F) → (⟨S1195x1, .f32⟩ : BufTy).Contents (Elt F))
  :: StableHlo.unary main_v32 main_v33 (broadcastInDim S1195x64 ![0, 1] bcast_S1195x1_S1195x64_0_1 : (⟨S1195x1, .f32⟩ : BufTy).Contents (Elt F) → (⟨S1195x64, .f32⟩ : BufTy).Contents (Elt F))
  :: StableHlo.binary main_v25 main_v33 main_v34 (Host.divf : (⟨S1195x64, .f32⟩ : BufTy).Contents (Elt F) → (⟨S1195x64, .f32⟩ : BufTy).Contents (Elt F) → (⟨S1195x64, .f32⟩ : BufTy).Contents (Elt F))
  :: StableHlo.unary main_v34 main_v35 (Host.tanh : (⟨S1195x64, .f32⟩ : BufTy).Contents (Elt F) → (⟨S1195x64, .f32⟩ : BufTy).Contents (Elt F))
  :: [] )

/-- The third stretch: the second graph convolution (`%36 … %64`). -/
abbrev seg2 : List (HloOp τ sig (Elt F)) :=
  ( StableHlo.unary main_arg1 main_v36 ((extractStridedSlice S1x1048576 ![0, 0] · slices_S2x1048576_S1x1048576_0_0) : (⟨S2x1048576, .i32⟩ : BufTy).Contents (Elt F) → (⟨S1x1048576, .i32⟩ : BufTy).Contents (Elt F))
  :: StableHlo.reshape main_v36 main_v37 rfl shapeCasts_S1x1048576_S1048576
  :: StableHlo.unary main_arg1 main_v38 ((extractStridedSlice S1x1048576 ![1, 0] · slices_S2x1048576_S1x1048576_1_0) : (⟨S2x1048576, .i32⟩ : BufTy).Contents (Elt F) → (⟨S1x1048576, .i32⟩ : BufTy).Contents (Elt F))
  :: StableHlo.reshape main_v38 main_v39 rfl shapeCasts_S1x1048576_S1048576
  :: StableHlo.nullary main_c_6 (constantI S_ 32 0#32)
  :: StableHlo.unary main_c_6 main_v40 (broadcastInDim S1048576 ![] bcast_S_S1048576 : (⟨S_, .i32⟩ : BufTy).Contents (Elt F) → (⟨S1048576, .i32⟩ : BufTy).Contents (Elt F))
  :: StableHlo.binary main_v37 main_v40 main_v41 (cmpi .slt : (⟨S1048576, .i32⟩ : BufTy).Contents (Elt F) → (⟨S1048576, .i32⟩ : BufTy).Contents (Elt F) → (⟨S1048576, .i1⟩ : BufTy).Contents (Elt F))
  :: StableHlo.nullary main_c_7 (constantI S_ 32 1195#32)
  :: StableHlo.unary main_c_7 main_v42 (broadcastInDim S1048576 ![] bcast_S_S1048576 : (⟨S_, .i32⟩ : BufTy).Contents (Elt F) → (⟨S1048576, .i32⟩ : BufTy).Contents (Elt F))
  :: StableHlo.binary main_v37 main_v42 main_v43 (addi : (⟨S1048576, .i32⟩ : BufTy).Contents (Elt F) → (⟨S1048576, .i32⟩ : BufTy).Contents (Elt F) → (⟨S1048576, .i32⟩ : BufTy).Contents (Elt F))
  :: StableHlo.ternary main_v41 main_v43 main_v37 main_v44 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.unary main_v44 main_v45 (broadcastInDim S1048576x1 ![0] bcast_S1048576_S1048576x1_0 : (⟨S1048576, .i32⟩ : BufTy).Contents (Elt F) → (⟨S1048576x1, .i32⟩ : BufTy).Contents (Elt F))
  :: StableHlo.binary main_v35 main_v45 main_v46 ((fun x i => Host.gather gather_S1195x64_S1048576x1_S1048576x64_1_0_n_n_0_1_164 x i) : (⟨S1195x64, .f32⟩ : BufTy).Contents (Elt F) → (⟨S1048576x1, .i32⟩ : BufTy).Contents (Elt F) → (⟨S1048576x64, .f32⟩ : BufTy).Contents (Elt F))
  :: StableHlo.unary main_arg10 main_v47 ((transpose S64x64 [1, 0] · transposes_S64x64_S64x64_1_0) : (⟨S64x64, .f32⟩ : BufTy).Contents (Elt F) → (⟨S64x64, .f32⟩ : BufTy).Contents (Elt F))
  :: StableHlo.binary main_v46 main_v47 main_v48 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F))
  :: StableHlo.unary main_arg11 main_v49 (broadcastInDim S1x64 ![1] bcast_S64_S1x64_1 : (⟨S64, .f32⟩ : BufTy).Contents (Elt F) → (⟨S1x64, .f32⟩ : BufTy).Contents (Elt F))
  :: StableHlo.unary main_v49 main_v50 (broadcastInDim S1048576x64 ![0, 1] bcast_S1x64_S1048576x64_0_1 : (⟨S1x64, .f32⟩ : BufTy).Contents (Elt F) → (⟨S1048576x64, .f32⟩ : BufTy).Contents (Elt F))
  :: StableHlo.binary main_v48 main_v50 main_v51 (addf : (⟨S1048576x64, .f32⟩ : BufTy).Contents (Elt F) → (⟨S1048576x64, .f32⟩ : BufTy).Contents (Elt F) → (⟨S1048576x64, .f32⟩ : BufTy).Contents (Elt F))
  :: StableHlo.nullary main_cst_8 (constant S_ .f32 0x00000000#32)
  :: StableHlo.unary main_cst_8 main_v52 (broadcastInDim S1195x64 ![] bcast_S_S1195x64 : (⟨S_, .f32⟩ : BufTy).Contents (Elt F) → (⟨S1195x64, .f32⟩ : BufTy).Contents (Elt F))
  :: StableHlo.unary main_v39 main_v53 (broadcastInDim S1048576x1 ![0] bcast_S1048576_S1048576x1_0 : (⟨S1048576, .i32⟩ : BufTy).Contents (Elt F) → (⟨S1048576x1, .i32⟩ : BufTy).Contents (Elt F))
  :: StableHlo.ternary main_v52 main_v53 main_v51 main_v54 ((fun x i u => Host.scatterAdd scatter_S1195x64_S1048576x1_S1048576x64_1_0_0_1 x i u) : (⟨S1195x64, .f32⟩ : BufTy).Contents (Elt F) → (⟨S1048576x1, .i32⟩ : BufTy).Contents (Elt F) → (⟨S1048576x64, .f32⟩ : BufTy).Contents (Elt F) → (⟨S1195x64, .f32⟩ : BufTy).Contents (Elt F))
  :: StableHlo.nullary main_cst_9 (constant S_ .f32 0x3F800000#32)
  :: StableHlo.unary main_cst_9 main_v55 (broadcastInDim S1048576 ![] bcast_S_S1048576 : (⟨S_, .f32⟩ : BufTy).Contents (Elt F) → (⟨S1048576, .f32⟩ : BufTy).Contents (Elt F))
  :: StableHlo.nullary main_cst_10 (constant S_ .f32 0x00000000#32)
  :: StableHlo.unary main_cst_10 main_v56 (broadcastInDim S1195 ![] bcast_S_S1195 : (⟨S_, .f32⟩ : BufTy).Contents (Elt F) → (⟨S1195, .f32⟩ : BufTy).Contents (Elt F))
  :: StableHlo.unary main_v39 main_v57 (broadcastInDim S1048576x1 ![0] bcast_S1048576_S1048576x1_0 : (⟨S1048576, .i32⟩ : BufTy).Contents (Elt F) → (⟨S1048576x1, .i32⟩ : BufTy).Contents (Elt F))
  :: StableHlo.ternary main_v56 main_v57 main_v55 main_v58 ((fun x i u => Host.scatterAdd scatter_S1195_S1048576x1_S1048576_n_0_0_1 x i u) : (⟨S1195, .f32⟩ : BufTy).Contents (Elt F) → (⟨S1048576x1, .i32⟩ : BufTy).Contents (Elt F) → (⟨S1048576, .f32⟩ : BufTy).Contents (Elt F) → (⟨S1195, .f32⟩ : BufTy).Contents (Elt F))
  :: StableHlo.nullary main_cst_11 (constant S_ .f32 0x3F800000#32)
  :: StableHlo.unary main_cst_11 main_v59 (broadcastInDim S1195 ![] bcast_S_S1195 : (⟨S_, .f32⟩ : BufTy).Contents (Elt F) → (⟨S1195, .f32⟩ : BufTy).Contents (Elt F))
  :: StableHlo.binary main_v58 main_v59 main_v60 (maximumf : (⟨S1195, .f32⟩ : BufTy).Contents (Elt F) → (⟨S1195, .f32⟩ : BufTy).Contents (Elt F) → (⟨S1195, .f32⟩ : BufTy).Contents (Elt F))
  :: StableHlo.unary main_v60 main_v61 (broadcastInDim S1195x1 ![0] bcast_S1195_S1195x1_0 : (⟨S1195, .f32⟩ : BufTy).Contents (Elt F) → (⟨S1195x1, .f32⟩ : BufTy).Contents (Elt F))
  :: StableHlo.unary main_v61 main_v62 (broadcastInDim S1195x64 ![0, 1] bcast_S1195x1_S1195x64_0_1 : (⟨S1195x1, .f32⟩ : BufTy).Contents (Elt F) → (⟨S1195x64, .f32⟩ : BufTy).Contents (Elt F))
  :: StableHlo.binary main_v54 main_v62 main_v63 (Host.divf : (⟨S1195x64, .f32⟩ : BufTy).Contents (Elt F) → (⟨S1195x64, .f32⟩ : BufTy).Contents (Elt F) → (⟨S1195x64, .f32⟩ : BufTy).Contents (Elt F))
  :: StableHlo.unary main_v63 main_v64 (Host.tanh : (⟨S1195x64, .f32⟩ : BufTy).Contents (Elt F) → (⟨S1195x64, .f32⟩ : BufTy).Contents (Elt F))
  :: [] )

/-- The fourth stretch: the four row blocks sliced, and the last 390 rows of both normalised and added (`%65 … %85`). -/
abbrev seg3 : List (HloOp τ sig (Elt F)) :=
  ( StableHlo.unary main_v6 main_v65 ((extractStridedSlice S805x64 ![0, 0] · slices_S1195x64_S805x64_0_0) : (⟨S1195x64, .f32⟩ : BufTy).Contents (Elt F) → (⟨S805x64, .f32⟩ : BufTy).Contents (Elt F))
  :: StableHlo.unary main_v6 main_v66 ((extractStridedSlice S390x64 ![805, 0] · slices_S1195x64_S390x64_805_0) : (⟨S1195x64, .f32⟩ : BufTy).Contents (Elt F) → (⟨S390x64, .f32⟩ : BufTy).Contents (Elt F))
  :: StableHlo.unary main_v64 main_v67 ((extractStridedSlice S805x64 ![0, 0] · slices_S1195x64_S805x64_0_0) : (⟨S1195x64, .f32⟩ : BufTy).Contents (Elt F) → (⟨S805x64, .f32⟩ : BufTy).Contents (Elt F))
  :: StableHlo.unary main_v64 main_v68 ((extractStridedSlice S390x64 ![805, 0] · slices_S1195x64_S390x64_805_0) : (⟨S1195x64, .f32⟩ : BufTy).Contents (Elt F) → (⟨S390x64, .f32⟩ : BufTy).Contents (Elt F))
  :: StableHlo.binary main_v66 main_v66 main_v69 (mulf : (⟨S390x64, .f32⟩ : BufTy).Contents (Elt F) → (⟨S390x64, .f32⟩ : BufTy).Contents (Elt F) → (⟨S390x64, .f32⟩ : BufTy).Contents (Elt F))
  :: StableHlo.nullary main_cst_12 (constant S_ .f32 0x00000000#32)
  :: StableHlo.binary main_v69 main_cst_12 main_v70 ((fun x v => Host.reduceAdd x v reducesTo_S390x64_S390_d1 h_S_) : (⟨S390x64, .f32⟩ : BufTy).Contents (Elt F) → (⟨S_, .f32⟩ : BufTy).Contents (Elt F) → (⟨S390, .f32⟩ : BufTy).Contents (Elt F))
  :: StableHlo.unary main_v70 main_v71 (broadcastInDim S390x1 ![0] bcast_S390_S390x1_0 : (⟨S390, .f32⟩ : BufTy).Contents (Elt F) → (⟨S390x1, .f32⟩ : BufTy).Contents (Elt F))
  :: StableHlo.unary main_v71 main_v72 (Host.sqrt : (⟨S390x1, .f32⟩ : BufTy).Contents (Elt F) → (⟨S390x1, .f32⟩ : BufTy).Contents (Elt F))
  :: StableHlo.nullary main_cst_13 (constant S_ .f32 0x2B8CBCCC#32)
  :: StableHlo.unary main_cst_13 main_v73 (broadcastInDim S390x1 ![] bcast_S_S390x1 : (⟨S_, .f32⟩ : BufTy).Contents (Elt F) → (⟨S390x1, .f32⟩ : BufTy).Contents (Elt F))
  :: StableHlo.binary main_v72 main_v73 main_v74 (maximumf : (⟨S390x1, .f32⟩ : BufTy).Contents (Elt F) → (⟨S390x1, .f32⟩ : BufTy).Contents (Elt F) → (⟨S390x1, .f32⟩ : BufTy).Contents (Elt F))
  :: StableHlo.unary main_v74 main_v75 (broadcastInDim S390x64 ![0, 1] bcast_S390x1_S390x64_0_1 : (⟨S390x1, .f32⟩ : BufTy).Contents (Elt F) → (⟨S390x64, .f32⟩ : BufTy).Contents (Elt F))
  :: StableHlo.binary main_v66 main_v75 main_v76 (Host.divf : (⟨S390x64, .f32⟩ : BufTy).Contents (Elt F) → (⟨S390x64, .f32⟩ : BufTy).Contents (Elt F) → (⟨S390x64, .f32⟩ : BufTy).Contents (Elt F))
  :: StableHlo.binary main_v68 main_v68 main_v77 (mulf : (⟨S390x64, .f32⟩ : BufTy).Contents (Elt F) → (⟨S390x64, .f32⟩ : BufTy).Contents (Elt F) → (⟨S390x64, .f32⟩ : BufTy).Contents (Elt F))
  :: StableHlo.nullary main_cst_14 (constant S_ .f32 0x00000000#32)
  :: StableHlo.binary main_v77 main_cst_14 main_v78 ((fun x v => Host.reduceAdd x v reducesTo_S390x64_S64_d0 h_S_) : (⟨S390x64, .f32⟩ : BufTy).Contents (Elt F) → (⟨S_, .f32⟩ : BufTy).Contents (Elt F) → (⟨S64, .f32⟩ : BufTy).Contents (Elt F))
  :: StableHlo.unary main_v78 main_v79 (broadcastInDim S1x64 ![1] bcast_S64_S1x64_1 : (⟨S64, .f32⟩ : BufTy).Contents (Elt F) → (⟨S1x64, .f32⟩ : BufTy).Contents (Elt F))
  :: StableHlo.unary main_v79 main_v80 (Host.sqrt : (⟨S1x64, .f32⟩ : BufTy).Contents (Elt F) → (⟨S1x64, .f32⟩ : BufTy).Contents (Elt F))
  :: StableHlo.nullary main_cst_15 (constant S_ .f32 0x2B8CBCCC#32)
  :: StableHlo.unary main_cst_15 main_v81 (broadcastInDim S1x64 ![] bcast_S_S1x64 : (⟨S_, .f32⟩ : BufTy).Contents (Elt F) → (⟨S1x64, .f32⟩ : BufTy).Contents (Elt F))
  :: StableHlo.binary main_v80 main_v81 main_v82 (maximumf : (⟨S1x64, .f32⟩ : BufTy).Contents (Elt F) → (⟨S1x64, .f32⟩ : BufTy).Contents (Elt F) → (⟨S1x64, .f32⟩ : BufTy).Contents (Elt F))
  :: StableHlo.unary main_v82 main_v83 (broadcastInDim S390x64 ![0, 1] bcast_S1x64_S390x64_0_1 : (⟨S1x64, .f32⟩ : BufTy).Contents (Elt F) → (⟨S390x64, .f32⟩ : BufTy).Contents (Elt F))
  :: StableHlo.binary main_v68 main_v83 main_v84 (Host.divf : (⟨S390x64, .f32⟩ : BufTy).Contents (Elt F) → (⟨S390x64, .f32⟩ : BufTy).Contents (Elt F) → (⟨S390x64, .f32⟩ : BufTy).Contents (Elt F))
  :: StableHlo.binary main_v76 main_v84 main_v85 (addf : (⟨S390x64, .f32⟩ : BufTy).Contents (Elt F) → (⟨S390x64, .f32⟩ : BufTy).Contents (Elt F) → (⟨S390x64, .f32⟩ : BufTy).Contents (Elt F))
  :: [] )

/-- The fifth stretch: the first 805 rows of both normalised and added (`%86 … %102`). -/
abbrev seg4 : List (HloOp τ sig (Elt F)) :=
  ( StableHlo.binary main_v65 main_v65 main_v86 (mulf : (⟨S805x64, .f32⟩ : BufTy).Contents (Elt F) → (⟨S805x64, .f32⟩ : BufTy).Contents (Elt F) → (⟨S805x64, .f32⟩ : BufTy).Contents (Elt F))
  :: StableHlo.nullary main_cst_16 (constant S_ .f32 0x00000000#32)
  :: StableHlo.binary main_v86 main_cst_16 main_v87 ((fun x v => Host.reduceAdd x v reducesTo_S805x64_S805_d1 h_S_) : (⟨S805x64, .f32⟩ : BufTy).Contents (Elt F) → (⟨S_, .f32⟩ : BufTy).Contents (Elt F) → (⟨S805, .f32⟩ : BufTy).Contents (Elt F))
  :: StableHlo.unary main_v87 main_v88 (broadcastInDim S805x1 ![0] bcast_S805_S805x1_0 : (⟨S805, .f32⟩ : BufTy).Contents (Elt F) → (⟨S805x1, .f32⟩ : BufTy).Contents (Elt F))
  :: StableHlo.unary main_v88 main_v89 (Host.sqrt : (⟨S805x1, .f32⟩ : BufTy).Contents (Elt F) → (⟨S805x1, .f32⟩ : BufTy).Contents (Elt F))
  :: StableHlo.nullary main_cst_17 (constant S_ .f32 0x2B8CBCCC#32)
  :: StableHlo.unary main_cst_17 main_v90 (broadcastInDim S805x1 ![] bcast_S_S805x1 : (⟨S_, .f32⟩ : BufTy).Contents (Elt F) → (⟨S805x1, .f32⟩ : BufTy).Contents (Elt F))
  :: StableHlo.binary main_v89 main_v90 main_v91 (maximumf : (⟨S805x1, .f32⟩ : BufTy).Contents (Elt F) → (⟨S805x1, .f32⟩ : BufTy).Contents (Elt F) → (⟨S805x1, .f32⟩ : BufTy).Contents (Elt F))
  :: StableHlo.unary main_v91 main_v92 (broadcastInDim S805x64 ![0, 1] bcast_S805x1_S805x64_0_1 : (⟨S805x1, .f32⟩ : BufTy).Contents (Elt F) → (⟨S805x64, .f32⟩ : BufTy).Contents (Elt F))
  :: StableHlo.binary main_v65 main_v92 main_v93 (Host.divf : (⟨S805x64, .f32⟩ : BufTy).Contents (Elt F) → (⟨S805x64, .f32⟩ : BufTy).Contents (Elt F) → (⟨S805x64, .f32⟩ : BufTy).Contents (Elt F))
  :: StableHlo.binary main_v67 main_v67 main_v94 (mulf : (⟨S805x64, .f32⟩ : BufTy).Contents (Elt F) → (⟨S805x64, .f32⟩ : BufTy).Contents (Elt F) → (⟨S805x64, .f32⟩ : BufTy).Contents (Elt F))
  :: StableHlo.nullary main_cst_18 (constant S_ .f32 0x00000000#32)
  :: StableHlo.binary main_v94 main_cst_18 main_v95 ((fun x v => Host.reduceAdd x v reducesTo_S805x64_S64_d0 h_S_) : (⟨S805x64, .f32⟩ : BufTy).Contents (Elt F) → (⟨S_, .f32⟩ : BufTy).Contents (Elt F) → (⟨S64, .f32⟩ : BufTy).Contents (Elt F))
  :: StableHlo.unary main_v95 main_v96 (broadcastInDim S1x64 ![1] bcast_S64_S1x64_1 : (⟨S64, .f32⟩ : BufTy).Contents (Elt F) → (⟨S1x64, .f32⟩ : BufTy).Contents (Elt F))
  :: StableHlo.unary main_v96 main_v97 (Host.sqrt : (⟨S1x64, .f32⟩ : BufTy).Contents (Elt F) → (⟨S1x64, .f32⟩ : BufTy).Contents (Elt F))
  :: StableHlo.nullary main_cst_19 (constant S_ .f32 0x2B8CBCCC#32)
  :: StableHlo.unary main_cst_19 main_v98 (broadcastInDim S1x64 ![] bcast_S_S1x64 : (⟨S_, .f32⟩ : BufTy).Contents (Elt F) → (⟨S1x64, .f32⟩ : BufTy).Contents (Elt F))
  :: StableHlo.binary main_v97 main_v98 main_v99 (maximumf : (⟨S1x64, .f32⟩ : BufTy).Contents (Elt F) → (⟨S1x64, .f32⟩ : BufTy).Contents (Elt F) → (⟨S1x64, .f32⟩ : BufTy).Contents (Elt F))
  :: StableHlo.unary main_v99 main_v100 (broadcastInDim S805x64 ![0, 1] bcast_S1x64_S805x64_0_1 : (⟨S1x64, .f32⟩ : BufTy).Contents (Elt F) → (⟨S805x64, .f32⟩ : BufTy).Contents (Elt F))
  :: StableHlo.binary main_v67 main_v100 main_v101 (Host.divf : (⟨S805x64, .f32⟩ : BufTy).Contents (Elt F) → (⟨S805x64, .f32⟩ : BufTy).Contents (Elt F) → (⟨S805x64, .f32⟩ : BufTy).Contents (Elt F))
  :: StableHlo.binary main_v93 main_v101 main_v102 (addf : (⟨S805x64, .f32⟩ : BufTy).Contents (Elt F) → (⟨S805x64, .f32⟩ : BufTy).Contents (Elt F) → (⟨S805x64, .f32⟩ : BufTy).Contents (Elt F))
  :: [] )

/-- The sixth stretch: the neighbourhood mean and the linear layer (`%103 … %112`). -/
abbrev seg5 : List (HloOp τ sig (Elt F)) :=
  ( StableHlo.binary main_arg6 main_v85 main_v103 ((fun l r => Host.dotGeneral dot_S16384x390_S390x64_S16384x64_1_0_0_1_n_n none l r) : (⟨S16384x390, .f32⟩ : BufTy).Contents (Elt F) → (⟨S390x64, .f32⟩ : BufTy).Contents (Elt F) → (⟨S16384x64, .f32⟩ : BufTy).Contents (Elt F))
  :: StableHlo.nullary main_cst_20 (constant S_ .f32 0x00000000#32)
  :: StableHlo.binary main_arg6 main_cst_20 main_v104 ((fun x v => Host.reduceAdd x v reducesTo_S16384x390_S16384_d1 h_S_) : (⟨S16384x390, .f32⟩ : BufTy).Contents (Elt F) → (⟨S_, .f32⟩ : BufTy).Contents (Elt F) → (⟨S16384, .f32⟩ : BufTy).Contents (Elt F))
  :: StableHlo.unary main_v104 main_v105 (broadcastInDim S16384x1 ![0] bcast_S16384_S16384x1_0 : (⟨S16384, .f32⟩ : BufTy).Contents (Elt F) → (⟨S16384x1, .f32⟩ : BufTy).Contents (Elt F))
  :: StableHlo.unary main_v105 main_v106 (broadcastInDim S16384x64 ![0, 1] bcast_S16384x1_S16384x64_0_1 : (⟨S16384x1, .f32⟩ : BufTy).Contents (Elt F) → (⟨S16384x64, .f32⟩ : BufTy).Contents (Elt F))
  :: StableHlo.binary main_v103 main_v106 main_v107 (Host.divf : (⟨S16384x64, .f32⟩ : BufTy).Contents (Elt F) → (⟨S16384x64, .f32⟩ : BufTy).Contents (Elt F) → (⟨S16384x64, .f32⟩ : BufTy).Contents (Elt F))
  :: StableHlo.unary main_arg12 main_v108 ((transpose S64x64 [1, 0] · transposes_S64x64_S64x64_1_0) : (⟨S64x64, .f32⟩ : BufTy).Contents (Elt F) → (⟨S64x64, .f32⟩ : BufTy).Contents (Elt F))
  :: StableHlo.binary main_v107 main_v108 main_v109 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F))
  :: StableHlo.unary main_arg13 main_v110 (broadcastInDim S1x64 ![1] bcast_S64_S1x64_1 : (⟨S64, .f32⟩ : BufTy).Contents (Elt F) → (⟨S1x64, .f32⟩ : BufTy).Contents (Elt F))
  :: StableHlo.unary main_v110 main_v111 (broadcastInDim S16384x64 ![0, 1] bcast_S1x64_S16384x64_0_1 : (⟨S1x64, .f32⟩ : BufTy).Contents (Elt F) → (⟨S16384x64, .f32⟩ : BufTy).Contents (Elt F))
  :: StableHlo.binary main_v109 main_v111 main_v112 (addf : (⟨S16384x64, .f32⟩ : BufTy).Contents (Elt F) → (⟨S16384x64, .f32⟩ : BufTy).Contents (Elt F) → (⟨S16384x64, .f32⟩ : BufTy).Contents (Elt F))
  :: [] )

/-- The seventh stretch: the column mean, and the variance (@_var with the @_where it calls) (`%113 … %116`). -/
abbrev seg6 : List (HloOp τ sig (Elt F)) :=
  ( StableHlo.nullary main_cst_21 (constant S_ .f32 0x00000000#32)
  :: StableHlo.binary main_v112 main_cst_21 main_v113 ((fun x v => Host.reduceAdd x v reducesTo_S16384x64_S64_d0 h_S_) : (⟨S16384x64, .f32⟩ : BufTy).Contents (Elt F) → (⟨S_, .f32⟩ : BufTy).Contents (Elt F) → (⟨S64, .f32⟩ : BufTy).Contents (Elt F))
  :: StableHlo.nullary main_cst_22 (constant S_ .f32 0x46800000#32)
  :: StableHlo.unary main_cst_22 main_v114 (broadcastInDim S64 ![] bcast_S_S64 : (⟨S_, .f32⟩ : BufTy).Contents (Elt F) → (⟨S64, .f32⟩ : BufTy).Contents (Elt F))
  :: StableHlo.binary main_v113 main_v114 main_v115 (Host.divf : (⟨S64, .f32⟩ : BufTy).Contents (Elt F) → (⟨S64, .f32⟩ : BufTy).Contents (Elt F) → (⟨S64, .f32⟩ : BufTy).Contents (Elt F))
  :: StableHlo.nullary main_c_23 (constantI S_ 32 0#32)
  :: StableHlo.TRef.nullary main_call0.cst (constant S_ .f32 0x00000000#32)
  :: StableHlo.TRef.binary (.of main_v112 : StableHlo.TRef sig ⟨S16384x64, .f32⟩) main_call0.cst main_call0.v0 (fun x v => Host.reduceAdd x v reducesTo_S16384x64_S64_d0 h_S_)
  :: StableHlo.TRef.unary main_call0.v0 main_call0.v1 (broadcastInDim S1x64 ![1] bcast_S64_S1x64_1)
  :: StableHlo.TRef.nullary main_call0.cst_0 (constant S_ .f32 0x46800000#32)
  :: StableHlo.TRef.unary main_call0.cst_0 main_call0.v2 (broadcastInDim S1x64 ![] bcast_S_S1x64)
  :: StableHlo.TRef.binary main_call0.v1 main_call0.v2 main_call0.v3 Host.divf
  :: StableHlo.TRef.unary main_call0.v3 main_call0.v4 (broadcastInDim S16384x64 ![0, 1] bcast_S1x64_S16384x64_0_1)
  :: StableHlo.TRef.binary (.of main_v112 : StableHlo.TRef sig ⟨S16384x64, .f32⟩) main_call0.v4 main_call0.v5 subf
  :: StableHlo.TRef.binary main_call0.v5 main_call0.v5 main_call0.v6 mulf
  :: StableHlo.TRef.unary (.of main_c_23 : StableHlo.TRef sig ⟨S_, .i32⟩) main_call0.v7 (sitofp .f32)
  :: StableHlo.TRef.nullary main_call0.cst_1 (constant S_ .f32 0x46800000#32)
  :: StableHlo.TRef.binary main_call0.cst_1 main_call0.v7 main_call0.v8 subf
  :: StableHlo.TRef.nullary main_call0.cst_2 (constant S_ .f32 0x00000000#32)
  :: StableHlo.TRef.binary main_call0.v6 main_call0.cst_2 main_call0.v9 (fun x v => Host.reduceAdd x v reducesTo_S16384x64_S64_d0 h_S_)
  :: StableHlo.TRef.unary main_call0.v8 main_call0.v10 (broadcastInDim S64 ![] bcast_S_S64)
  :: StableHlo.TRef.binary main_call0.v9 main_call0.v10 main_call0.v11 Host.divf
  :: StableHlo.TRef.nullary main_call0.cst_3 (constant S_ .f32 0x00000000#32)
  :: StableHlo.TRef.binary main_call0.v8 main_call0.cst_3 main_call0.v12 (cmpf .ogt)
  :: StableHlo.TRef.nullary main_call0.cst_4 (constant S_ .f32 0x7FC00000#32)
  :: StableHlo.TRef.unary main_call0.cst_4 main_call0.call0.v0 id
  :: StableHlo.TRef.unary main_call0.call0.v0 main_call0.call0.v1 (broadcastInDim S64 ![] bcast_S_S64)
  :: StableHlo.TRef.ternary main_call0.v12 main_call0.v11 main_call0.call0.v1 main_call0.call0.v2 (fun p a b => select (broadcastInDim S64 ![] bcast_S_S64 p) a b)
  :: [] )

/-- The last stretch: the normalisation, @relu, the transpose and the product (`%117 … %134`). -/
abbrev seg7 : List (HloOp τ sig (Elt F)) :=
  ( StableHlo.unary main_v115 main_v117 (broadcastInDim S1x64 ![1] bcast_S64_S1x64_1 : (⟨S64, .f32⟩ : BufTy).Contents (Elt F) → (⟨S1x64, .f32⟩ : BufTy).Contents (Elt F))
  :: StableHlo.unary main_v117 main_v118 (broadcastInDim S16384x64 ![0, 1] bcast_S1x64_S16384x64_0_1 : (⟨S1x64, .f32⟩ : BufTy).Contents (Elt F) → (⟨S16384x64, .f32⟩ : BufTy).Contents (Elt F))
  :: StableHlo.binary main_v112 main_v118 main_v119 (subf : (⟨S16384x64, .f32⟩ : BufTy).Contents (Elt F) → (⟨S16384x64, .f32⟩ : BufTy).Contents (Elt F) → (⟨S16384x64, .f32⟩ : BufTy).Contents (Elt F))
  :: StableHlo.nullary main_cst_24 (constant S_ .f32 0x3727C5AC#32)
  :: StableHlo.unary main_cst_24 main_v120 (broadcastInDim S64 ![] bcast_S_S64 : (⟨S_, .f32⟩ : BufTy).Contents (Elt F) → (⟨S64, .f32⟩ : BufTy).Contents (Elt F))
  :: StableHlo.binary main_v116 main_v120 main_v121 (addf : (⟨S64, .f32⟩ : BufTy).Contents (Elt F) → (⟨S64, .f32⟩ : BufTy).Contents (Elt F) → (⟨S64, .f32⟩ : BufTy).Contents (Elt F))
  :: StableHlo.unary main_v121 main_v122 (Host.sqrt : (⟨S64, .f32⟩ : BufTy).Contents (Elt F) → (⟨S64, .f32⟩ : BufTy).Contents (Elt F))
  :: StableHlo.unary main_v122 main_v123 (broadcastInDim S1x64 ![1] bcast_S64_S1x64_1 : (⟨S64, .f32⟩ : BufTy).Contents (Elt F) → (⟨S1x64, .f32⟩ : BufTy).Contents (Elt F))
  :: StableHlo.unary main_v123 main_v124 (broadcastInDim S16384x64 ![0, 1] bcast_S1x64_S16384x64_0_1 : (⟨S1x64, .f32⟩ : BufTy).Contents (Elt F) → (⟨S16384x64, .f32⟩ : BufTy).Contents (Elt F))
  :: StableHlo.binary main_v119 main_v124 main_v125 (Host.divf : (⟨S16384x64, .f32⟩ : BufTy).Contents (Elt F) → (⟨S16384x64, .f32⟩ : BufTy).Contents (Elt F) → (⟨S16384x64, .f32⟩ : BufTy).Contents (Elt F))
  :: StableHlo.unary main_arg14 main_v126 (broadcastInDim S1x64 ![1] bcast_S64_S1x64_1 : (⟨S64, .f32⟩ : BufTy).Contents (Elt F) → (⟨S1x64, .f32⟩ : BufTy).Contents (Elt F))
  :: StableHlo.unary main_v126 main_v127 (broadcastInDim S16384x64 ![0, 1] bcast_S1x64_S16384x64_0_1 : (⟨S1x64, .f32⟩ : BufTy).Contents (Elt F) → (⟨S16384x64, .f32⟩ : BufTy).Contents (Elt F))
  :: StableHlo.binary main_v125 main_v127 main_v128 (mulf : (⟨S16384x64, .f32⟩ : BufTy).Contents (Elt F) → (⟨S16384x64, .f32⟩ : BufTy).Contents (Elt F) → (⟨S16384x64, .f32⟩ : BufTy).Contents (Elt F))
  :: StableHlo.unary main_arg15 main_v129 (broadcastInDim S1x64 ![1] bcast_S64_S1x64_1 : (⟨S64, .f32⟩ : BufTy).Contents (Elt F) → (⟨S1x64, .f32⟩ : BufTy).Contents (Elt F))
  :: StableHlo.unary main_v129 main_v130 (broadcastInDim S16384x64 ![0, 1] bcast_S1x64_S16384x64_0_1 : (⟨S1x64, .f32⟩ : BufTy).Contents (Elt F) → (⟨S16384x64, .f32⟩ : BufTy).Contents (Elt F))
  :: StableHlo.binary main_v128 main_v130 main_v131 (addf : (⟨S16384x64, .f32⟩ : BufTy).Contents (Elt F) → (⟨S16384x64, .f32⟩ : BufTy).Contents (Elt F) → (⟨S16384x64, .f32⟩ : BufTy).Contents (Elt F))
  :: StableHlo.TRef.nullary main_call1.cst (constant S_ .f32 0x00000000#32)
  :: StableHlo.TRef.unary main_call1.cst main_call1.v0 (broadcastInDim S16384x64 ![] bcast_S_S16384x64)
  :: StableHlo.TRef.binary (.of main_v131 : StableHlo.TRef sig ⟨S16384x64, .f32⟩) main_call1.v0 main_call1.v1 maximumf
  :: StableHlo.unary main_v102 main_v133 ((transpose S64x805 [1, 0] · transposes_S805x64_S64x805_1_0) : (⟨S805x64, .f32⟩ : BufTy).Contents (Elt F) → (⟨S64x805, .f32⟩ : BufTy).Contents (Elt F))
  :: StableHlo.binary main_v132 main_v133 main_v134 ((fun l r => Host.dotGeneral dot_S16384x64_S64x805_S16384x805_1_0_0_1_n_n none l r) : (⟨S16384x64, .f32⟩ : BufTy).Contents (Elt F) → (⟨S64x805, .f32⟩ : BufTy).Contents (Elt F) → (⟨S16384x805, .f32⟩ : BufTy).Contents (Elt F))
  :: [] )

set_option maxRecDepth 8192 in
/-- The line is its eight stretches in order. -/
theorem ops_cut : (ops : List (HloOp τ sig (Elt F))) = seg0 ++ seg1 ++ seg2 ++ seg3 ++ seg4 ++ seg5 ++ seg6 ++ seg7 := rfl

/-- The fold over two lines run one after the other is the second's fold over the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The fold over the whole line, stretch by stretch. -/
theorem after_ops (V : Valuation τ sig (Elt F)) :
    after ops V = after seg7 (after seg6 (after seg5 (after seg4 (after seg3 (after seg2 (after seg1 (after seg0 V))))))) := by
  rw [ops_cut]; simp only [after_append']

/-- A result buffer is among a list's images. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers stretch 0 writes. -/
abbrev seg0_W : List (Ref sig .tc) := [main_c, main_v0, main_v1, main_c_0, main_v2, main_v3, main_v4, main_v5, main_v6]
set_option maxRecDepth 8192 in
theorem seg0_writes : (seg0 : List (HloOp τ sig (Elt F))).Forall fun op =>
    op.writes ⊆ (seg0_W.map (Proc.devRef (τ := τ) .tc)).toFinset := by
  simp only [List.Forall, nullary_writes, unary_writes, binary_writes, ternary_writes, reshape_writes]
  repeat' apply And.intro
  all_goals exact writes_sub_of_mem (by decide)
/-- A buffer stretch 0 does not write keeps its contents through it. -/
theorem seg0_keeps (V : Valuation τ sig (Elt F)) {r : Ref sig .tc} (h : r ∉ seg0_W) :
    after seg0 V (Proc.devRef .tc r) = V (Proc.devRef .tc r) :=
  after_of_writes_sub seg0 V seg0_writes h

/-- The buffers stretch 1 writes. -/
abbrev seg1_W : List (Ref sig .tc) := [main_v7, main_v8, main_v9, main_v10, main_c_1, main_v11, main_v12, main_c_2, main_v13, main_v14, main_v15, main_v16, main_v17, main_v18, main_v19, main_v20, main_v21, main_v22, main_cst, main_v23, main_v24, main_v25, main_cst_3, main_v26, main_cst_4, main_v27, main_v28, main_v29, main_cst_5, main_v30, main_v31, main_v32, main_v33, main_v34, main_v35]
set_option maxRecDepth 8192 in
theorem seg1_writes : (seg1 : List (HloOp τ sig (Elt F))).Forall fun op =>
    op.writes ⊆ (seg1_W.map (Proc.devRef (τ := τ) .tc)).toFinset := by
  simp only [List.Forall, nullary_writes, unary_writes, binary_writes, ternary_writes, reshape_writes]
  repeat' apply And.intro
  all_goals exact writes_sub_of_mem (by decide)
/-- A buffer stretch 1 does not write keeps its contents through it. -/
theorem seg1_keeps (V : Valuation τ sig (Elt F)) {r : Ref sig .tc} (h : r ∉ seg1_W) :
    after seg1 V (Proc.devRef .tc r) = V (Proc.devRef .tc r) :=
  after_of_writes_sub seg1 V seg1_writes h

/-- The buffers stretch 2 writes. -/
abbrev seg2_W : List (Ref sig .tc) := [main_v36, main_v37, main_v38, main_v39, main_c_6, main_v40, main_v41, main_c_7, main_v42, main_v43, main_v44, main_v45, main_v46, main_v47, main_v48, main_v49, main_v50, main_v51, main_cst_8, main_v52, main_v53, main_v54, main_cst_9, main_v55, main_cst_10, main_v56, main_v57, main_v58, main_cst_11, main_v59, main_v60, main_v61, main_v62, main_v63, main_v64]
set_option maxRecDepth 8192 in
theorem seg2_writes : (seg2 : List (HloOp τ sig (Elt F))).Forall fun op =>
    op.writes ⊆ (seg2_W.map (Proc.devRef (τ := τ) .tc)).toFinset := by
  simp only [List.Forall, nullary_writes, unary_writes, binary_writes, ternary_writes, reshape_writes]
  repeat' apply And.intro
  all_goals exact writes_sub_of_mem (by decide)
/-- A buffer stretch 2 does not write keeps its contents through it. -/
theorem seg2_keeps (V : Valuation τ sig (Elt F)) {r : Ref sig .tc} (h : r ∉ seg2_W) :
    after seg2 V (Proc.devRef .tc r) = V (Proc.devRef .tc r) :=
  after_of_writes_sub seg2 V seg2_writes h

/-- The buffers stretch 3 writes. -/
abbrev seg3_W : List (Ref sig .tc) := [main_v65, main_v66, main_v67, main_v68, main_v69, main_cst_12, main_v70, main_v71, main_v72, main_cst_13, main_v73, main_v74, main_v75, main_v76, main_v77, main_cst_14, main_v78, main_v79, main_v80, main_cst_15, main_v81, main_v82, main_v83, main_v84, main_v85]
set_option maxRecDepth 8192 in
theorem seg3_writes : (seg3 : List (HloOp τ sig (Elt F))).Forall fun op =>
    op.writes ⊆ (seg3_W.map (Proc.devRef (τ := τ) .tc)).toFinset := by
  simp only [List.Forall, nullary_writes, unary_writes, binary_writes, ternary_writes, reshape_writes]
  repeat' apply And.intro
  all_goals exact writes_sub_of_mem (by decide)
/-- A buffer stretch 3 does not write keeps its contents through it. -/
theorem seg3_keeps (V : Valuation τ sig (Elt F)) {r : Ref sig .tc} (h : r ∉ seg3_W) :
    after seg3 V (Proc.devRef .tc r) = V (Proc.devRef .tc r) :=
  after_of_writes_sub seg3 V seg3_writes h

/-- The buffers stretch 4 writes. -/
abbrev seg4_W : List (Ref sig .tc) := [main_v86, main_cst_16, main_v87, main_v88, main_v89, main_cst_17, main_v90, main_v91, main_v92, main_v93, main_v94, main_cst_18, main_v95, main_v96, main_v97, main_cst_19, main_v98, main_v99, main_v100, main_v101, main_v102]
set_option maxRecDepth 8192 in
theorem seg4_writes : (seg4 : List (HloOp τ sig (Elt F))).Forall fun op =>
    op.writes ⊆ (seg4_W.map (Proc.devRef (τ := τ) .tc)).toFinset := by
  simp only [List.Forall, nullary_writes, unary_writes, binary_writes, ternary_writes, reshape_writes]
  repeat' apply And.intro
  all_goals exact writes_sub_of_mem (by decide)
/-- A buffer stretch 4 does not write keeps its contents through it. -/
theorem seg4_keeps (V : Valuation τ sig (Elt F)) {r : Ref sig .tc} (h : r ∉ seg4_W) :
    after seg4 V (Proc.devRef .tc r) = V (Proc.devRef .tc r) :=
  after_of_writes_sub seg4 V seg4_writes h

/-- The buffers stretch 5 writes. -/
abbrev seg5_W : List (Ref sig .tc) := [main_v103, main_cst_20, main_v104, main_v105, main_v106, main_v107, main_v108, main_v109, main_v110, main_v111, main_v112]
set_option maxRecDepth 8192 in
theorem seg5_writes : (seg5 : List (HloOp τ sig (Elt F))).Forall fun op =>
    op.writes ⊆ (seg5_W.map (Proc.devRef (τ := τ) .tc)).toFinset := by
  simp only [List.Forall, nullary_writes, unary_writes, binary_writes, ternary_writes, reshape_writes]
  repeat' apply And.intro
  all_goals exact writes_sub_of_mem (by decide)
/-- A buffer stretch 5 does not write keeps its contents through it. -/
theorem seg5_keeps (V : Valuation τ sig (Elt F)) {r : Ref sig .tc} (h : r ∉ seg5_W) :
    after seg5 V (Proc.devRef .tc r) = V (Proc.devRef .tc r) :=
  after_of_writes_sub seg5 V seg5_writes h

/-- The buffers stretch 6 writes. -/
abbrev seg6_W : List (Ref sig .tc) := [main_cst_21, main_v113, main_cst_22, main_v114, main_v115, main_c_23, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]
set_option maxRecDepth 8192 in
theorem seg6_writes : (seg6 : List (HloOp τ sig (Elt F))).Forall fun op =>
    op.writes ⊆ (seg6_W.map (Proc.devRef (τ := τ) .tc)).toFinset := by
  simp only [List.Forall, nullary_writes, unary_writes, binary_writes, ternary_writes, reshape_writes]
  repeat' apply And.intro
  all_goals exact writes_sub_of_mem (by decide)
/-- A buffer stretch 6 does not write keeps its contents through it. -/
theorem seg6_keeps (V : Valuation τ sig (Elt F)) {r : Ref sig .tc} (h : r ∉ seg6_W) :
    after seg6 V (Proc.devRef .tc r) = V (Proc.devRef .tc r) :=
  after_of_writes_sub seg6 V seg6_writes h

/-- The buffers stretch 7 writes. -/
abbrev seg7_W : List (Ref sig .tc) := [main_v117, main_v118, main_v119, main_cst_24, main_v120, main_v121, main_v122, main_v123, main_v124, main_v125, main_v126, main_v127, main_v128, main_v129, main_v130, main_v131, main_call1.cst.ref, main_call1.v0.ref, main_call1.v1.ref, main_v133, main_v134]
set_option maxRecDepth 8192 in
theorem seg7_writes : (seg7 : List (HloOp τ sig (Elt F))).Forall fun op =>
    op.writes ⊆ (seg7_W.map (Proc.devRef (τ := τ) .tc)).toFinset := by
  simp only [List.Forall, nullary_writes, unary_writes, binary_writes, ternary_writes, reshape_writes]
  repeat' apply And.intro
  all_goals exact writes_sub_of_mem (by decide)
/-- A buffer stretch 7 does not write keeps its contents through it. -/
theorem seg7_keeps (V : Valuation τ sig (Elt F)) {r : Ref sig .tc} (h : r ∉ seg7_W) :
    after seg7 V (Proc.devRef .tc r) = V (Proc.devRef .tc r) :=
  after_of_writes_sub seg7 V seg7_writes h

end Cert.ReferenceIdeal.RefCut

end
-- ==== Proof.LibGatherRows.lean ====
/-
  A gather of whole rows, read at an index. What x[idx] of a table x : [N, C] at an integer array idx : [R] lowers to:
  a gather with offset axes [1], collapsed slice axes [0], start index map [0], slice sizes [1, C] and the index
  vector on axis 1 of the start indices taken as [R, 1]. Result element (t, c) is x at row idx[t, 0], read as a
  signed integer and clamped into [0, N − 1] (a gather clamps every start index so that the slice fits), and at
  column c. Stated at every size.
-/
import Idealize.ShloMosaic.Lib.ValueIdx

namespace Cert.LibGatherRows

open Idealize.ShloMosaic Idealize.ShloMosaic.ValueIdx

variable {α : Type}

/-- The dimension numbers of a row gather: operand [N, C], start indices [R, 1], result [R, C]. -/
abbrev rowGatherDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result index (t, c) reads the one component of its start index at start-indices index (t, 0): its batch
    coordinate t, and 0 on the index vector's axis. -/
theorem rowGather_siIdx {N C R : Nat} (wf : GatherDims.WF ⟨2, ![N, C]⟩ ⟨2, ![R, 1]⟩ ⟨2, ![R, C]⟩ [1] [0] [] [0] [] 1 ![1, C])
    (t : Fin R) (c : Fin C) (k : Fin (rowGatherDims N C R wf).startIndexMap.length) :
    (rowGatherDims N C R wf).siIdx (ix2 t c) k = ix2 t (0 : Fin 1) := by
  funext b
  refine Fin.ext ?_
  have hk : k.val = 0 := by have := k.isLt; simpa using this
  match b with
  | ⟨0, _⟩ => rfl
  | ⟨1, _⟩ => exact hk

/-- On the row axis the slice starts at the start index, read signed and clamped into [0, N − 1]. -/
theorem rowGather_start_row {N C R w : Nat} (wf : GatherDims.WF ⟨2, ![N, C]⟩ ⟨2, ![R, 1]⟩ ⟨2, ![R, C]⟩ [1] [0] [] [0] [] 1 ![1, C])
    (idx : IVec ⟨2, ![R, 1]⟩ w) (t : Fin R) (c : Fin C) :
    (rowGatherDims N C R wf).start (ix2 t c) idx 0 = min (idx (ix2 t (0 : Fin 1))).toInt.toNat (N - 1) := by
  unfold GatherDims.start
  rw [dif_pos (show (0 : Fin 2) ∈ (rowGatherDims N C R wf).startIndexMap from List.mem_singleton.mpr rfl), rowGather_siIdx]
  rfl

/-- On the column axis, which no start index addresses, the slice starts at 0. -/
theorem rowGather_start_col {N C R w : Nat} (wf : GatherDims.WF ⟨2, ![N, C]⟩ ⟨2, ![R, 1]⟩ ⟨2, ![R, C]⟩ [1] [0] [] [0] [] 1 ![1, C])
    (idx : IVec ⟨2, ![R, 1]⟩ w) (j : (⟨2, ![R, C]⟩ : Shape).Idx) :
    (rowGatherDims N C R wf).start j idx 1 = 0 := by
  unfold GatherDims.start
  rw [dif_neg (show (1 : Fin 2) ∉ ([0] : List (Fin 2)) from by decide)]

/-- On the column axis, the one operand axis kept, the offset coordinate is the result's column. -/
theorem rowGather_offCoord_col {N C R : Nat} (wf : GatherDims.WF ⟨2, ![N, C]⟩ ⟨2, ![R, 1]⟩ ⟨2, ![R, C]⟩ [1] [0] [] [0] [] 1 ![1, C])
    (t : Fin R) (c : Fin C) : (rowGatherDims N C R wf).offCoord (ix2 t c) 1 = c.val := by
  have hk : (1 : Fin 2) ∈ (rowGatherDims N C R wf).sKept :=
    (GatherDims.mem_sKept _ _).mpr ⟨show (1 : Fin 2) ∉ ([0] : List (Fin 2)) from by decide, List.not_mem_nil⟩
  unfold GatherDims.offCoord
  rw [dif_pos hk]
  rfl

/-- THE GATHER READ AT (t, c): the operand at row idx[t, 0], read signed and clamped into [0, N − 1], and column c. -/
theorem gather_rows_apply {N C R w : Nat} (hN : 0 < N) (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (c : Fin C) :
    Host.gather (rowGatherDims N C R wf) x idx (ix2 t c) = x (ix2 ⟨min (idx (ix2 t (0 : Fin 1))).toInt.toNat (N - 1), by omega⟩ c) := by
  unfold Host.gather
  congr 1
  funext a
  refine Fin.ext ?_
  match a with
  | ⟨0, _⟩ =>
    show (rowGatherDims N C R wf).start (ix2 t c) idx 0 + (rowGatherDims N C R wf).batchCoord (ix2 t c) 0
      + (rowGatherDims N C R wf).offCoord (ix2 t c) 0 = min (idx (ix2 t (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl)),
      rowGather_start_row]
    rfl
  | ⟨1, _⟩ =>
    show (rowGatherDims N C R wf).start (ix2 t c) idx 1 + (rowGatherDims N C R wf).batchCoord (ix2 t c) 1
      + (rowGatherDims N C R wf).offCoord (ix2 t c) 1 = c.val
    rw [GatherDims.batchCoord_eq_zero _ _ _ List.not_mem_nil, rowGather_start_col, rowGather_offCoord_col]
    omega

end Cert.LibGatherRows
-- ==== Proof.LibScatterAdd.lean ====
/-
  The host's accumulating float scatter, read at one index of its result, over the extended reals, for the two
  shapes a segment sum takes: a flat operand [N] receiving E scalars, and a matrix operand [N, C] receiving E rows.
  In both, update e lands in row idx[e, 0] of the operand (read as a signed integer and not clamped: an update whose
  row is outside [0, N) is dropped), so the result at row i is the operand there plus the sum of the updates e with
  idx[e, 0] = i. Every size is a variable.
-/
import Idealize.ShloMosaic.PureOps.Ideal
import Idealize.ShloMosaic.Lib.ValueIdx

noncomputable section

namespace Cert.LibScatterAdd

open Idealize.ShloMosaic Idealize.ShloMosaic.ValueIdx
open scoped BigOperators

/-- An update index j lands at the operand index i exactly when, on every operand axis, the window's start plus j's
    window coordinate is i's coordinate. (Landing outside the operand on some axis is landing nowhere, and no
    operand index has a coordinate outside its axis.) -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro heq a
      have h1 : (d.start j idx a + (d.window j a : Int)).toNat = (i a).val := congrArg (fun f => (f a).val) heq
      have h0 := (h a).1
      omega
    · intro hall
      funext a
      refine Fin.ext ?_
      show (d.start j idx a + (d.window j a : Int)).toNat = (i a).val
      rw [hall a]; exact Int.toNat_natCast _
  · rename_i h
    constructor
    · intro h'; cases h'
    · intro hall
      refine absurd (fun a => ?_) h
      have := (i a).isLt
      have := hall a
      constructor <;> omega

/-- A sum over the indices of a rank-1 shape is the sum over its one coordinate. -/
private theorem sum_idx1 {M : Type*} [AddCommMonoid M] {n : Nat} (f : (⟨1, ![n]⟩ : Shape).Idx → M) :
    ∑ i, f i = ∑ a : Fin n, f (ix1 a) := by
  refine (Fintype.sum_bijective (fun a : Fin n => (ix1 a : (⟨1, ![n]⟩ : Shape).Idx)) ⟨?_, ?_⟩ _ _ (fun _ => rfl)).symm
  · intro a b h; exact congrFun h 0
  · intro j; exact ⟨j 0, (eq_ix1 j).symm⟩

/-! ## A flat operand -/

/-- The dimension numbers of a scatter of E scalars into a flat operand [N] through indices [E, 1]: no window axis,
    operand axis 0 inserted and index-mapped, the index vector on axis 1. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update e of the flat scatter lands at i exactly when idx[e, 0], read signed, is i. -/
private theorem flat_lands_iff {N E w : Nat} (wf : ScatterDims.WF ⟨1, ![N]⟩ ⟨2, ![E, 1]⟩ ⟨1, ![E]⟩ [] [0] [0] 1)
    (idx : IVec ⟨2, ![E, 1]⟩ w) (e : Fin E) (i : Fin N) :
    (flatScatterDims N E wf).resultIdx? (ix1 e) idx = some (ix1 i)
      ↔ (idx (ix2 e (0 : Fin 1))).toInt = (i.val : Int) := by
  rw [resultIdx?_eq_some_iff]
  have hsi : ∀ c, (flatScatterDims N E wf).siIdx (ix1 e) c = ix2 e (0 : Fin 1) := by
    intro c
    funext b; refine Fin.ext ?_
    match b with
    | ⟨0, _⟩ => rfl
    | ⟨1, _⟩ =>
      have := c.isLt
      show c.val = 0
      have hl : (flatScatterDims N E wf).scatterDimsToOperandDims.length = 1 := rfl
      omega
  have hstart : (flatScatterDims N E wf).start (ix1 e) idx 0 = (idx (ix2 e (0 : Fin 1))).toInt := by
    unfold ScatterDims.start
    rw [dif_pos (show (0 : Fin 1) ∈ (flatScatterDims N E wf).scatterDimsToOperandDims from List.mem_singleton.mpr rfl),
      hsi]
  have hwin : (flatScatterDims N E wf).window (ix1 e) 0 = 0 := rfl
  constructor
  · intro h
    have h0 := h 0
    rw [hstart, hwin] at h0
    have h1 : (idx (ix2 e (0 : Fin 1))).toInt = (((ix1 i : (⟨1, ![N]⟩ : Shape).Idx) 0).val : Int) := by
      simpa using h0
    exact h1
  · intro h a
    obtain rfl : a = 0 := Subsingleton.elim _ _
    rw [hstart, hwin]
    have h1 : (idx (ix2 e (0 : Fin 1))).toInt = (((ix1 i : (⟨1, ![N]⟩ : Shape).Idx) 0).val : Int) := h
    simpa using h1

/-- THE FLAT SCATTER READ AT i: the operand at i plus the updates whose index is i. -/
theorem scatterAdd_flat_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (flatScatterDims N E wf) x idx upd (ix1 i)
      = x (ix1 i) + ∑ e : Fin E, if (idx (ix2 e (0 : Fin 1))).toInt = (i.val : Int) then upd (ix1 e) else 0 := by
  unfold Ideal.hostScatterAdd
  rw [Finset.sum_filter, sum_idx1]
  congr 1
  refine Finset.sum_congr rfl fun e _ => ?_
  exact if_congr (flat_lands_iff wf idx e i) rfl rfl

/-! ## A matrix operand, scattered by rows -/

/-- The dimension numbers of a scatter of E rows of width C into an operand [N, C] through indices [E, 1]: the
    updates' axis 1 is the window axis, operand axis 0 is inserted and index-mapped, the index vector on axis 1. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Element (e, c') of the updates lands at (i, c) exactly when idx[e, 0], read signed, is i, and c' is c: the row
    comes from the index, the column is kept. -/
private theorem rows_lands_iff {N C E w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (i : Fin N) (c : Fin C) :
    (rowScatterDims N C E wf).resultIdx? (ix2 e c') idx = some (ix2 i c)
      ↔ (idx (ix2 e (0 : Fin 1))).toInt = (i.val : Int) ∧ c' = c := by
  rw [resultIdx?_eq_some_iff]
  have hsi : ∀ k, (rowScatterDims N C E wf).siIdx (ix2 e c') k = ix2 e (0 : Fin 1) := by
    intro k
    funext b; refine Fin.ext ?_
    match b with
    | ⟨0, _⟩ => rfl
    | ⟨1, _⟩ =>
      have := k.isLt
      show k.val = 0
      have hl : (rowScatterDims N C E wf).scatterDimsToOperandDims.length = 1 := rfl
      omega
  have hstart0 : (rowScatterDims N C E wf).start (ix2 e c') idx 0 = (idx (ix2 e (0 : Fin 1))).toInt := by
    unfold ScatterDims.start
    rw [dif_pos (show (0 : Fin 2) ∈ (rowScatterDims N C E wf).scatterDimsToOperandDims from List.mem_singleton.mpr rfl),
      hsi]
  have hstart1 : (rowScatterDims N C E wf).start (ix2 e c') idx 1 = 0 := rfl
  have hwin0 : (rowScatterDims N C E wf).window (ix2 e c') 0 = 0 := rfl
  have hwin1 : (rowScatterDims N C E wf).window (ix2 e c') 1 = c'.val := rfl
  constructor
  · intro h
    have h0 := h 0
    have h1 := h 1
    rw [hstart0, hwin0] at h0
    rw [hstart1, hwin1] at h1
    have h0' : (idx (ix2 e (0 : Fin 1))).toInt = (((ix2 i c : (⟨2, ![N, C]⟩ : Shape).Idx) 0).val : Int) := by
      simpa using h0
    have h1' : (c'.val : Int) = (((ix2 i c : (⟨2, ![N, C]⟩ : Shape).Idx) 1).val : Int) := by
      simpa using h1
    have h1'' : (c'.val : Int) = (c.val : Int) := h1'
    exact ⟨h0', Fin.ext (by omega)⟩
  · rintro ⟨h0, rfl⟩ a
    match a with
    | ⟨0, _⟩ =>
      show (rowScatterDims N C E wf).start (ix2 e c') idx 0 + (((rowScatterDims N C E wf).window (ix2 e c') 0 : Nat) : Int)
        = (i.val : Int)
      rw [hstart0, hwin0]
      simpa using h0
    | ⟨1, _⟩ =>
      show (rowScatterDims N C E wf).start (ix2 e c') idx 1 + (((rowScatterDims N C E wf).window (ix2 e c') 1 : Nat) : Int)
        = (c'.val : Int)
      rw [hstart1, hwin1]
      simp

/-- THE ROW SCATTER READ AT (i, c): the operand there plus column c of the update rows whose index is i. -/
theorem scatterAdd_rows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (c : Fin C) :
    Ideal.hostScatterAdd (rowScatterDims N C E wf) x idx upd (ix2 i c)
      = x (ix2 i c) + ∑ e : Fin E, if (idx (ix2 e (0 : Fin 1))).toInt = (i.val : Int) then upd (ix2 e c) else 0 := by
  unfold Ideal.hostScatterAdd
  rw [Finset.sum_filter, sum_idx2]
  congr 1
  refine Finset.sum_congr rfl fun e _ => ?_
  rw [Finset.sum_congr rfl (fun c' _ => if_congr (rows_lands_iff wf idx e c' i c) rfl rfl)]
  by_cases h : (idx (ix2 e (0 : Fin 1))).toInt = (i.val : Int)
  · simp [h]
  · simp [h]

end Cert.LibScatterAdd

end
-- ==== Proof.RefGraph.lean ====
/-
  The reference's embedding lookup and one graph-convolution layer, read at an index.

  The lookup takes row xs i of the embedding table (an index below zero is wrapped by adding the
  table's height; an index in range is kept). The layer gathers the rows x (src e), multiplies by
  Wᵀ, adds b, sums the messages of the edges into each node with a scatter, counts those edges
  with a second scatter of ones, and applies tanh to the quotient by max (count, 1).
-/
import proofs.«406313_j19000935318034_3_alg».proof.Proof.Gen.ReferenceIdeal
import proofs.«406313_j19000935318034_3_alg».proof.Proof.Spec
import proofs.«406313_j19000935318034_3_alg».proof.Proof.LibGatherRows
import proofs.«406313_j19000935318034_3_alg».proof.Proof.LibScatterAdd
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefGraph

open Cert.ReferenceIdeal Idealize.ShloMosaic Idealize.ShloMosaic.ValueIdx
open Cert.LibGatherRows Cert.LibScatterAdd
open scoped BigOperators

variable [Facts₀]
open Facts₀

/-! ## The two stretches of the program as pure terms -/

/-- The embedding lookup: the index wrapped, then the table's rows gathered. -/
def x1T {F : FTy → Type} [FloatOps F] (xs : IVec S1195 32) (emb : FVec F S1195x64 .f32) : FVec F S1195x64 .f32 :=
  Host.gather gather_S1195x64_S1195x1_S1195x64_1_0_n_n_0_1_164 emb
    (broadcastInDim S1195x1 ![0] bcast_S1195_S1195x1_0
      (select (cmpi .slt xs (broadcastInDim S1195 ![] bcast_S_S1195 (constantI S_ 32 0#32)))
        (addi xs (broadcastInDim S1195 ![] bcast_S_S1195 (constantI S_ 32 1195#32)))
        xs))

/-- Row r of the edge list, as a vector over the edges. -/
def edgeRow0 (ei : IVec S2x1048576 32) : IVec S1048576 32 :=
  shapeCast S1048576 (extractStridedSlice S1x1048576 ![0, 0] ei slices_S2x1048576_S1x1048576_0_0) shapeCasts_S1x1048576_S1048576

def edgeRow1 (ei : IVec S2x1048576 32) : IVec S1048576 32 :=
  shapeCast S1048576 (extractStridedSlice S1x1048576 ![1, 0] ei slices_S2x1048576_S1x1048576_1_0) shapeCasts_S1x1048576_S1048576

/-- The source indices wrapped and laid out as a column. -/
def srcCol (ei : IVec S2x1048576 32) : IVec S1048576x1 32 :=
  broadcastInDim S1048576x1 ![0] bcast_S1048576_S1048576x1_0
    (select (cmpi .slt (edgeRow0 ei) (broadcastInDim S1048576 ![] bcast_S_S1048576 (constantI S_ 32 0#32)))
      (addi (edgeRow0 ei) (broadcastInDim S1048576 ![] bcast_S_S1048576 (constantI S_ 32 1195#32)))
      (edgeRow0 ei))

/-- The destination indices laid out as a column. -/
def dstCol (ei : IVec S2x1048576 32) : IVec S1048576x1 32 :=
  broadcastInDim S1048576x1 ![0] bcast_S1048576_S1048576x1_0 (edgeRow1 ei)

/-- The message of every edge: row src e of x times Wᵀ, plus b. -/
def msgT {F : FTy → Type} [FloatOps F] (x : FVec F S1195x64 .f32) (ei : IVec S2x1048576 32) (W : FVec F S64x64 .f32)
    (b : FVec F S64 .f32) : FVec F S1048576x64 .f32 :=
  addf
    (Host.dotGeneral dot_S1048576x64_S64x64_S1048576x64_1_0_0_1_n_n none
      (Host.gather gather_S1195x64_S1048576x1_S1048576x64_1_0_n_n_0_1_164 x (srcCol ei))
      (transpose S64x64 [1, 0] W transposes_S64x64_S64x64_1_0))
    (broadcastInDim S1048576x64 ![0, 1] bcast_S1x64_S1048576x64_0_1 (broadcastInDim S1x64 ![1] bcast_S64_S1x64_1 b))

/-- The messages summed into their destination rows. -/
def sumT {F : FTy → Type} [FloatOps F] (x : FVec F S1195x64 .f32) (ei : IVec S2x1048576 32) (W : FVec F S64x64 .f32)
    (b : FVec F S64 .f32) : FVec F S1195x64 .f32 :=
  Host.scatterAdd scatter_S1195x64_S1048576x1_S1048576x64_1_0_0_1
    (broadcastInDim S1195x64 ![] bcast_S_S1195x64 (constant S_ .f32 0x00000000#32)) (dstCol ei) (msgT x ei W b)

/-- The number of edges into each node, at least one. -/
def cntT {F : FTy → Type} [FloatOps F] (ei : IVec S2x1048576 32) : FVec F S1195 .f32 :=
  maximumf
    (Host.scatterAdd scatter_S1195_S1048576x1_S1048576_n_0_0_1
      (broadcastInDim S1195 ![] bcast_S_S1195 (constant S_ .f32 0x00000000#32)) (dstCol ei)
      (broadcastInDim S1048576 ![] bcast_S_S1048576 (constant S_ .f32 0x3F800000#32)))
    (broadcastInDim S1195 ![] bcast_S_S1195 (constant S_ .f32 0x3F800000#32))

/-- One graph-convolution layer: tanh of the summed messages over the count. -/
def gcnT {F : FTy → Type} [FloatOps F] (x : FVec F S1195x64 .f32) (ei : IVec S2x1048576 32) (W : FVec F S64x64 .f32)
    (b : FVec F S64 .f32) : FVec F S1195x64 .f32 :=
  Host.tanh (Host.divf (sumT x ei W b)
    (broadcastInDim S1195x64 ![0, 1] bcast_S1195x1_S1195x64_0_1 (broadcastInDim S1195x1 ![0] bcast_S1195_S1195x1_0 (cntT ei))))

/-! ## Layout operations at an index -/

section Layout
variable {α : Type}

/-- A vector laid out as a column: entry (i, 0) is entry i. -/
theorem column_apply {n : Nat} (v : (⟨1, ![n]⟩ : Shape).Idx → α)
    (h : (⟨1, ![n]⟩ : Shape).BroadcastsInDim ⟨2, ![n, 1]⟩ (![0] : Fin 1 → Fin 2)) (i : Fin n) (u : Fin 1) :
    broadcastInDim ⟨2, ![n, 1]⟩ ![0] h v (ix2 i u) = v (ix1 i) :=
  broadcastInDim_apply _ h v _ _ fun a => by
    match a with
    | ⟨0, _⟩ =>
      show i.val = if n = 1 then 0 else i.val
      split
      · have := i.isLt; omega
      · rfl

/-- A column spread over the columns of a matrix: entry (i, d) is entry (i, 0). -/
theorem column_spread_apply {n m : Nat} (v : (⟨2, ![n, 1]⟩ : Shape).Idx → α)
    (h : (⟨2, ![n, 1]⟩ : Shape).BroadcastsInDim ⟨2, ![n, m]⟩ (![0, 1] : Fin 2 → Fin 2)) (i : Fin n) (d : Fin m) :
    broadcastInDim ⟨2, ![n, m]⟩ ![0, 1] h v (ix2 i d) = v (ix2 i (0 : Fin 1)) :=
  broadcastInDim_apply _ h v _ _ fun a => by
    match a with
    | ⟨0, _⟩ =>
      show i.val = if n = 1 then 0 else i.val
      split
      · have := i.isLt; omega
      · rfl
    | ⟨1, _⟩ => rfl

/-- A vector laid out as a row: entry (0, d) is entry d. -/
theorem row_apply {m : Nat} (v : (⟨1, ![m]⟩ : Shape).Idx → α)
    (h : (⟨1, ![m]⟩ : Shape).BroadcastsInDim ⟨2, ![1, m]⟩ (![1] : Fin 1 → Fin 2)) (u : Fin 1) (d : Fin m) :
    broadcastInDim ⟨2, ![1, m]⟩ ![1] h v (ix2 u d) = v (ix1 d) :=
  broadcastInDim_apply _ h v _ _ fun a => by
    match a with
    | ⟨0, _⟩ =>
      show d.val = if m = 1 then 0 else d.val
      split
      · have := d.isLt; omega
      · rfl

/-- A row spread over the rows of a matrix: entry (e, d) is entry (0, d). -/
theorem row_spread_apply {n m : Nat} (v : (⟨2, ![1, m]⟩ : Shape).Idx → α)
    (h : (⟨2, ![1, m]⟩ : Shape).BroadcastsInDim ⟨2, ![n, m]⟩ (![0, 1] : Fin 2 → Fin 2)) (e : Fin n) (d : Fin m) :
    broadcastInDim ⟨2, ![n, m]⟩ ![0, 1] h v (ix2 e d) = v (ix2 (0 : Fin 1) d) :=
  broadcastInDim_apply _ h v _ _ fun a => by
    match a with
    | ⟨0, _⟩ => rfl
    | ⟨1, _⟩ =>
      show d.val = if m = 1 then 0 else d.val
      split
      · have := d.isLt; omega
      · rfl

/-- Row r of a two-row array, cut out and flattened: entry e is entry (r, e). -/
theorem two_rows_apply {n : Nat} (o : Nat) (X : (⟨2, ![2, n]⟩ : Shape).Idx → α)
    (h1 : (⟨2, ![2, n]⟩ : Shape).Slices ![o, 0] ⟨2, ![1, n]⟩) (h2 : (⟨2, ![1, n]⟩ : Shape).ShapeCasts ⟨1, ![n]⟩)
    (r : Fin 2) (hr : r.val = o) (e : Fin n) :
    shapeCast ⟨1, ![n]⟩ (extractStridedSlice ⟨2, ![1, n]⟩ ![o, 0] X h1) h2 (ix1 e) = X (ix2 r e) :=
  (shapeCast_1a_a_apply _ h2 e).trans (slice2_axis0_apply o X h1 0 e r (by rw [hr]; rfl))

end Layout

/-! ## An index in range is kept by the wrap, and by the gather's clamp -/

/-- A word whose signed value is a natural number is not below zero: the select keeps it. -/
theorem wrap_keep (v a : BitVec 32) (n : Nat) (hv : v.toInt = (n : Int)) :
    Scalar.select (IntOp.cmpi .slt v 0#32) a v = v := by
  have h : v.slt 0#32 = false := by
    simp [BitVec.slt, hv]
  show Scalar.select (BitVec.ofBool (v.slt 0#32)) a v = v
  rw [h]
  exact select_zero _ _

/-- A signed value that is a natural number below N is its own clamp into [0, N − 1]. -/
theorem clamp_keep (v : BitVec 32) (N : Nat) (r : Fin N) (hv : v.toInt = (r.val : Int)) :
    min v.toInt.toNat (N - 1) = r.val := by
  rw [hv, Int.toNat_natCast]
  have := r.isLt
  omega

/-- A constant scalar spread over a shape: every entry is the constant's value. -/
theorem splat_const_apply {t : Shape} (h : (⟨0, ![]⟩ : Shape).BroadcastsInDim t (![] : Fin 0 → Fin t.rank)) (w : BitVec 32)
    (j : t.Idx) : broadcastInDim t ![] h (constant (F := Ideal) ⟨0, ![]⟩ .f32 w) j = Ideal.ofBits .f32 w := rfl

/-- The accumulating scatter at the extended reals is the exact sum. -/
theorem scatterAdd_eq {s si u : Shape} {w : Nat} (D : ScatterDims s si u) (x : FVec Ideal s .f32) (idx : IVec si w)
    (upd : FVec Ideal u .f32) : Host.scatterAdd D x idx upd = Ideal.hostScatterAdd D x idx upd := rfl

/-- The host's tanh at an index. -/
theorem tanh_apply {s : Shape} (a : FVec Ideal s .f32) (j : s.Idx) : Host.tanh a j = Ideal.tanh (a j) := rfl

/-- The host's quotient at an index. -/
theorem hdivf_apply {s : Shape} (a b : FVec Ideal s .f32) (j : s.Idx) : Host.divf a b j = Ideal.div (a j) (b j) := rfl

/-! ## The row gather and the two scatters, with their indices in range -/

/-- A row gather whose start index at row t is r, in range: result (t, c) is operand (r, c). -/
theorem gather_rows_at {N C R : Nat} {α : Type}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (t : Fin R) (c : Fin C) (r : Fin N)
    (h : (idx (ix2 t (0 : Fin 1))).toInt = (r.val : Int)) :
    Host.gather (rowGatherDims N C R wf) x idx (ix2 t c) = x (ix2 r c) :=
  (gather_rows_apply (Nat.lt_of_le_of_lt (Nat.zero_le _) r.isLt) wf x idx t c).trans
    (congrArg (fun k => x (ix2 k c)) (Fin.ext (clamp_keep _ N r h)))

/-- A row scatter-add whose index at update row e is dst e, in range: the operand plus the update rows with dst e = i. -/
theorem scatter_rows_at {N C E : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ 32) (upd : (⟨2, ![E, C]⟩ : Shape).Idx → EReal)
    (dst : Fin E → Fin N) (h : ∀ e : Fin E, (idx (ix2 e (0 : Fin 1))).toInt = ((dst e).val : Int)) (i : Fin N) (c : Fin C) :
    Ideal.hostScatterAdd (rowScatterDims N C E wf) x idx upd (ix2 i c)
      = x (ix2 i c) + ∑ e : Fin E, if dst e = i then upd (ix2 e c) else 0 := by
  rw [scatterAdd_rows_apply]
  refine congrArg (x (ix2 i c) + ·) (Finset.sum_congr rfl fun e _ => if_congr ?_ rfl rfl)
  rw [h e]
  exact ⟨fun hh => Fin.ext (by omega), fun hh => by rw [hh]⟩

/-- The same for a flat operand and flat updates. -/
theorem scatter_flat_at {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal)
    (dst : Fin E → Fin N) (h : ∀ e : Fin E, (idx (ix2 e (0 : Fin 1))).toInt = ((dst e).val : Int)) (i : Fin N) :
    Ideal.hostScatterAdd (flatScatterDims N E wf) x idx upd (ix1 i)
      = x (ix1 i) + ∑ e : Fin E, if dst e = i then upd (ix1 e) else 0 := by
  rw [scatterAdd_flat_apply]
  refine congrArg (x (ix1 i) + ·) (Finset.sum_congr rfl fun e _ => if_congr ?_ rfl rfl)
  rw [h e]
  exact ⟨fun hh => Fin.ext (by omega), fun hh => by rw [hh]⟩

/-! ## The lookup at an index -/

/-- Row i of the lookup is row xs i of the table. -/
theorem x1T_apply (xs : IVec S1195 32) (emb : FVec Ideal S1195x64 .f32) (xsF : Fin 1195 → Fin 1195)
    (hxs : ∀ i : Fin 1195, (xs (ix1 i)).toInt = ((xsF i).val : Int)) (i : Fin 1195) (d : Fin 64) :
    x1T (F := Ideal) xs emb (ix2 i d) = emb (ix2 (xsF i) d) := by
  unfold x1T
  refine gather_rows_at gather_S1195x64_S1195x1_S1195x64_1_0_n_n_0_1_164_wf emb _ i d (xsF i) ?_
  rw [column_apply]
  show (Scalar.select (IntOp.cmpi .slt (xs (ix1 i)) 0#32) _ (xs (ix1 i))).toInt = _
  rw [wrap_keep _ _ _ (hxs i)]
  exact hxs i

/-! ## The product with Wᵀ at an index -/

theorem lhs_dot_0 (i : S1048576x64.Idx) (q : dot_S1048576x64_S64x64_S1048576x64_1_0_0_1_n_n.contr.Idx) :
    (dot_S1048576x64_S64x64_S1048576x64_1_0_0_1_n_n.lhsIdx i q 0).val = (i 0).val := by
  unfold DotDims.lhsIdx
  rw [dif_neg (show ¬(0 : Fin S1048576x64.rank) ∈ dot_S1048576x64_S64x64_S1048576x64_1_0_0_1_n_n.lhsBatch from List.not_mem_nil),
    dif_pos (show (0 : Fin S1048576x64.rank) ∈ dot_S1048576x64_S64x64_S1048576x64_1_0_0_1_n_n.lhsNonContracting from List.mem_singleton.mpr rfl)]
  rfl

theorem lhs_dot_1 (i : S1048576x64.Idx) (q : dot_S1048576x64_S64x64_S1048576x64_1_0_0_1_n_n.contr.Idx) :
    (dot_S1048576x64_S64x64_S1048576x64_1_0_0_1_n_n.lhsIdx i q 1).val = (q ⟨0, Nat.one_pos⟩).val :=
  dot_S1048576x64_S64x64_S1048576x64_1_0_0_1_n_n.lhsIdx_val_of_single rfl i q

theorem rhs_dot_0 (i : S1048576x64.Idx) (q : dot_S1048576x64_S64x64_S1048576x64_1_0_0_1_n_n.contr.Idx) :
    (dot_S1048576x64_S64x64_S1048576x64_1_0_0_1_n_n.rhsIdx i q 0).val = (q ⟨0, Nat.one_pos⟩).val :=
  dot_S1048576x64_S64x64_S1048576x64_1_0_0_1_n_n.rhsIdx_val_of_single rfl i q

theorem rhs_dot_1 (i : S1048576x64.Idx) (q : dot_S1048576x64_S64x64_S1048576x64_1_0_0_1_n_n.contr.Idx) :
    (dot_S1048576x64_S64x64_S1048576x64_1_0_0_1_n_n.rhsIdx i q 1).val = (i 1).val := by
  unfold DotDims.rhsIdx
  rw [dif_neg (show ¬(1 : Fin S64x64.rank) ∈ dot_S1048576x64_S64x64_S1048576x64_1_0_0_1_n_n.rhsBatch from List.not_mem_nil),
    dif_pos (show (1 : Fin S64x64.rank) ∈ dot_S1048576x64_S64x64_S1048576x64_1_0_0_1_n_n.rhsNonContracting from List.mem_singleton.mpr rfl)]
  rfl

/-- Entry (e, d) of the product of an edge-by-64 array with a 64-by-64 one: the sum over the shared axis. -/
theorem dot_apply (l : FVec Ideal S1048576x64 .f32) (r : FVec Ideal S64x64 .f32) (e : Fin 1048576) (d : Fin 64) :
    Host.dotGeneral (F := Ideal) dot_S1048576x64_S64x64_S1048576x64_1_0_0_1_n_n none l r (ix2 e d)
      = ∑ k : Fin 64, l (ix2 e k) * r (ix2 k d) := by
  simp only [Host.dotGeneral]
  rw [Ideal.dotGeneral_apply, ← Equiv.sum_comp (contrEquiv1 dot_S1048576x64_S64x64_S1048576x64_1_0_0_1_n_n 64 rfl rfl).symm]
  refine Finset.sum_congr rfl fun k _ => ?_
  have hk := contrEquiv1_symm_val dot_S1048576x64_S64x64_S1048576x64_1_0_0_1_n_n 64 rfl rfl k
  have el : dot_S1048576x64_S64x64_S1048576x64_1_0_0_1_n_n.lhsIdx (ix2 e d)
      ((contrEquiv1 dot_S1048576x64_S64x64_S1048576x64_1_0_0_1_n_n 64 rfl rfl).symm k) = ix2 e k := funext fun a => Fin.ext (by
    match a with
    | ⟨0, _⟩ => exact lhs_dot_0 _ _
    | ⟨1, _⟩ => exact (lhs_dot_1 _ _).trans hk)
  have er : dot_S1048576x64_S64x64_S1048576x64_1_0_0_1_n_n.rhsIdx (ix2 e d)
      ((contrEquiv1 dot_S1048576x64_S64x64_S1048576x64_1_0_0_1_n_n 64 rfl rfl).symm k) = ix2 k d := funext fun a => Fin.ext (by
    match a with
    | ⟨0, _⟩ => exact (rhs_dot_0 _ _).trans hk
    | ⟨1, _⟩ => exact rhs_dot_1 _ _)
  rw [el, er]

/-! ## The layer's pieces at an index -/

/-- The source column at edge e is row 0 of the edge list: in range, so the wrap keeps it. -/
theorem srcCol_toInt (ei : IVec S2x1048576 32) (src : Fin Cert.Spec.nE → Fin 1195)
    (hsrc : ∀ e : Fin Cert.Spec.nE, (ei (ix2 (0 : Fin 2) e)).toInt = ((src e).val : Int)) (e : Fin 1048576) :
    (srcCol ei (ix2 e (0 : Fin 1))).toInt = ((src e).val : Int) := by
  unfold srcCol
  rw [column_apply]
  have h0 : edgeRow0 ei (ix1 e) = ei (ix2 (0 : Fin 2) e) := two_rows_apply 0 ei _ _ 0 rfl e
  show (Scalar.select (IntOp.cmpi .slt (edgeRow0 ei (ix1 e)) 0#32) _ (edgeRow0 ei (ix1 e))).toInt = _
  rw [h0, wrap_keep _ _ _ (hsrc e)]
  exact hsrc e

/-- The destination column at edge e is row 1 of the edge list. -/
theorem dstCol_toInt (ei : IVec S2x1048576 32) (dst : Fin Cert.Spec.nE → Fin 1195)
    (hdst : ∀ e : Fin Cert.Spec.nE, (ei (ix2 (1 : Fin 2) e)).toInt = ((dst e).val : Int)) (e : Fin 1048576) :
    (dstCol ei (ix2 e (0 : Fin 1))).toInt = ((dst e).val : Int) := by
  unfold dstCol
  rw [column_apply]
  have h1 : edgeRow1 ei (ix1 e) = ei (ix2 (1 : Fin 2) e) := two_rows_apply 1 ei _ _ 1 rfl e
  rw [h1]
  exact hdst e

/-- The message of edge e is the message its source node sends. -/
theorem msgT_apply (x : FVec Ideal S1195x64 .f32) (ei : IVec S2x1048576 32) (W : FVec Ideal S64x64 .f32) (b : FVec Ideal S64 .f32)
    (src : Fin Cert.Spec.nE → Fin 1195)
    (hsrc : ∀ e : Fin Cert.Spec.nE, (ei (ix2 (0 : Fin 2) e)).toInt = ((src e).val : Int)) (e : Fin 1048576) (d : Fin 64) :
    msgT (F := Ideal) x ei W b (ix2 e d)
      = Cert.Spec.msg (fun j k => x (ix2 j k)) (fun d k => W (ix2 d k)) (fun d => b (ix1 d)) (src e) d := by
  show _ = (∑ k : Fin 64, x (ix2 (src e) k) * W (ix2 d k)) + b (ix1 d)
  unfold msgT
  rw [addf_apply, dot_apply, row_spread_apply, row_apply]
  refine congrArg (· + b (ix1 d)) (Finset.sum_congr rfl fun k _ => ?_)
  have hg : Host.gather gather_S1195x64_S1048576x1_S1048576x64_1_0_n_n_0_1_164 x (srcCol ei) (ix2 e k) = x (ix2 (src e) k) :=
    gather_rows_at gather_S1195x64_S1048576x1_S1048576x64_1_0_n_n_0_1_164_wf x (srcCol ei) e k (src e) (srcCol_toInt ei src hsrc e)
  rw [hg, transpose_ix2_apply]

/-- Entry (i, d) of the scatter: the messages of the edges into node i, summed. -/
theorem sumT_apply (x : FVec Ideal S1195x64 .f32) (ei : IVec S2x1048576 32) (W : FVec Ideal S64x64 .f32) (b : FVec Ideal S64 .f32)
    (src dst : Fin Cert.Spec.nE → Fin 1195)
    (hsrc : ∀ e : Fin Cert.Spec.nE, (ei (ix2 (0 : Fin 2) e)).toInt = ((src e).val : Int))
    (hdst : ∀ e : Fin Cert.Spec.nE, (ei (ix2 (1 : Fin 2) e)).toInt = ((dst e).val : Int)) (i : Fin 1195) (d : Fin 64) :
    sumT (F := Ideal) x ei W b (ix2 i d)
      = ∑ e : Fin Cert.Spec.nE, if dst e = i then
          Cert.Spec.msg (fun j k => x (ix2 j k)) (fun d k => W (ix2 d k)) (fun d => b (ix1 d)) (src e) d else 0 := by
  unfold sumT
  rw [scatterAdd_eq,
    show scatter_S1195x64_S1048576x1_S1048576x64_1_0_0_1
      = rowScatterDims 1195 64 1048576 scatter_S1195x64_S1048576x1_S1048576x64_1_0_0_1_wf from rfl,
    scatter_rows_at _ _ (dstCol ei) _ dst (dstCol_toInt ei dst hdst) i d, splat_const_apply, Ideal.ofBits_zero_f32, zero_add]
  exact Finset.sum_congr rfl fun e _ => by rw [msgT_apply x ei W b src hsrc e d]

/-- Entry i of the count: the number of edges into node i, or one if there is none. -/
theorem cntT_apply (ei : IVec S2x1048576 32) (dst : Fin Cert.Spec.nE → Fin 1195)
    (hdst : ∀ e : Fin Cert.Spec.nE, (ei (ix2 (1 : Fin 2) e)).toInt = ((dst e).val : Int)) (i : Fin 1195) :
    cntT (F := Ideal) ei (ix1 i) = max (Cert.Spec.deg dst i) 1 := by
  rw [show Cert.Spec.deg dst i = ∑ e : Fin 1048576, if dst e = i then (1 : EReal) else 0 from rfl]
  unfold cntT
  rw [maximumf_apply, scatterAdd_eq,
    show scatter_S1195_S1048576x1_S1048576_n_0_0_1
      = flatScatterDims 1195 1048576 scatter_S1195_S1048576x1_S1048576_n_0_0_1_wf from rfl,
    scatter_flat_at _ _ (dstCol ei) _ dst (dstCol_toInt ei dst hdst) i,
    splat_const_apply, splat_const_apply, Ideal.ofBits_zero_f32, zero_add, Ideal.ofBits_one_f32]
  refine congrArg (max · 1) (Finset.sum_congr rfl fun e _ => ?_)
  rw [splat_const_apply, Ideal.ofBits_one_f32]

/-! ## The layer at an index -/

/-- Entry (i, d) of the layer is the specification's edge-by-edge form. -/
theorem gcnT_apply (x : FVec Ideal S1195x64 .f32) (ei : IVec S2x1048576 32) (W : FVec Ideal S64x64 .f32) (b : FVec Ideal S64 .f32)
    (src dst : Fin Cert.Spec.nE → Fin 1195)
    (hsrc : ∀ e : Fin Cert.Spec.nE, (ei (ix2 (0 : Fin 2) e)).toInt = ((src e).val : Int))
    (hdst : ∀ e : Fin Cert.Spec.nE, (ei (ix2 (1 : Fin 2) e)).toInt = ((dst e).val : Int)) (i : Fin 1195) (d : Fin 64) :
    gcnT (F := Ideal) x ei W b (ix2 i d)
      = Cert.Spec.gcnScatter src dst (fun j k => x (ix2 j k)) (fun d k => W (ix2 d k)) (fun d => b (ix1 d)) i d := by
  unfold gcnT Cert.Spec.gcnScatter
  rw [tanh_apply, hdivf_apply, column_spread_apply, column_apply, cntT_apply ei dst hdst,
    sumT_apply x ei W b src dst hsrc hdst]

end Cert.ReferenceIdeal.RefGraph

end
-- ==== Proof.RefValueGraph.lean ====
import proofs.«406313_j19000935318034_3_alg».proof.Proof.RefCut
import proofs.«406313_j19000935318034_3_alg».proof.Proof.RefGraph
import Idealize.ShloMosaic.PureOps.Ideal

/-!
# The reference's graph half, stage by stage

Three buffers of the reference's run, each as a function of earlier ones, at the extended reals: %6's holds
the embedding rows at the node ids wrapped into range; %35's one graph convolution of %6's under the first
layer's weight and bias; %64's one graph convolution of %35's under the second layer's. Each is read in the
stretch of the line that writes it — the stretch's operations composed are the stage's function by
computation — and is kept by every later stretch, as the arguments are by every stretch.
-/

noncomputable section

namespace Cert.ReferenceIdeal.RefValueGraph

open Cert.ReferenceIdeal Cert.ReferenceIdeal.Gen Cert.ReferenceIdeal.RefRun Cert.ReferenceIdeal.RefCut Idealize.ShloMosaic Idealize.ShloMosaic.TcCoe Idealize.SL.Sem Idealize.ShloMosaic.StableHlo

/-! ## Each stage over its own stretch, at any valuation -/

set_option maxRecDepth 8192 in
set_option maxHeartbeats 4000000 in
/-- The first stretch leaves in %6's buffer the gathered embedding rows of what it finds in the arguments' buffers. -/
theorem seg0_v6 (V : Valuation τ sig (Elt Ideal)) :
    (after (seg0 (F := Ideal)) V (Proc.devRef .tc main_v6) : S1195x64.Idx → EReal)
      = RefGraph.x1T (F := Ideal) (V (Proc.devRef .tc main_arg0) : IVec S1195 32) (V (Proc.devRef .tc main_arg7) : S1195x64.Idx → EReal) := by
  after_results_simp
  rfl

set_option maxRecDepth 8192 in
set_option maxHeartbeats 4000000 in
/-- The second stretch leaves in %35's buffer one graph convolution of what it finds in %6's. -/
theorem seg1_v35 (V : Valuation τ sig (Elt Ideal)) :
    (after (seg1 (F := Ideal)) V (Proc.devRef .tc main_v35) : S1195x64.Idx → EReal)
      = RefGraph.gcnT (F := Ideal) (V (Proc.devRef .tc main_v6) : S1195x64.Idx → EReal) (V (Proc.devRef .tc main_arg1) : IVec S2x1048576 32)
          (V (Proc.devRef .tc main_arg8) : S64x64.Idx → EReal) (V (Proc.devRef .tc main_arg9) : S64.Idx → EReal) := by
  after_results_simp
  rfl

set_option maxRecDepth 8192 in
set_option maxHeartbeats 4000000 in
/-- The third stretch leaves in %64's buffer one graph convolution of what it finds in %35's. -/
theorem seg2_v64 (V : Valuation τ sig (Elt Ideal)) :
    (after (seg2 (F := Ideal)) V (Proc.devRef .tc main_v64) : S1195x64.Idx → EReal)
      = RefGraph.gcnT (F := Ideal) (V (Proc.devRef .tc main_v35) : S1195x64.Idx → EReal) (V (Proc.devRef .tc main_arg1) : IVec S2x1048576 32)
          (V (Proc.devRef .tc main_arg10) : S64x64.Idx → EReal) (V (Proc.devRef .tc main_arg11) : S64.Idx → EReal) := by
  after_results_simp
  rfl

/-! ## The three buffers after the whole line -/

/-- %6's buffer is last written in the first stretch. -/
theorem read_v6 (L : Valuation τ sig (Elt Ideal)) :
    after (ops (F := Ideal)) L (Proc.devRef .tc main_v6) = after seg0 L (Proc.devRef .tc main_v6) := by
  rw [after_ops, seg7_keeps _ (by decide), seg6_keeps _ (by decide), seg5_keeps _ (by decide), seg4_keeps _ (by decide),
    seg3_keeps _ (by decide), seg2_keeps _ (by decide), seg1_keeps _ (by decide)]

/-- %35's buffer is last written in the second stretch. -/
theorem read_v35 (L : Valuation τ sig (Elt Ideal)) :
    after (ops (F := Ideal)) L (Proc.devRef .tc main_v35) = after seg1 (after seg0 L) (Proc.devRef .tc main_v35) := by
  rw [after_ops, seg7_keeps _ (by decide), seg6_keeps _ (by decide), seg5_keeps _ (by decide), seg4_keeps _ (by decide),
    seg3_keeps _ (by decide), seg2_keeps _ (by decide)]

/-- %64's buffer is last written in the third stretch. -/
theorem read_v64 (L : Valuation τ sig (Elt Ideal)) :
    after (ops (F := Ideal)) L (Proc.devRef .tc main_v64) = after seg2 (after seg1 (after seg0 L)) (Proc.devRef .tc main_v64) := by
  rw [after_ops, seg7_keeps _ (by decide), seg6_keeps _ (by decide), seg5_keeps _ (by decide), seg4_keeps _ (by decide),
    seg3_keeps _ (by decide)]

/-- After the line, %6's buffer holds the embedding rows at the wrapped node ids. -/
theorem v6_eq (L : Valuation τ sig (Elt Ideal)) :
    (after (ops (F := Ideal)) L (Proc.devRef .tc main_v6) : S1195x64.Idx → EReal)
      = RefGraph.x1T (F := Ideal) (L (Proc.devRef .tc main_arg0) : IVec S1195 32) (L (Proc.devRef .tc main_arg7) : S1195x64.Idx → EReal) :=
  (read_v6 L).trans (seg0_v6 L)

/-- After the line, %35's buffer holds one graph convolution of %6's, under the first layer's weight and bias. -/
theorem v35_eq (L : Valuation τ sig (Elt Ideal)) :
    (after (ops (F := Ideal)) L (Proc.devRef .tc main_v35) : S1195x64.Idx → EReal)
      = RefGraph.gcnT (F := Ideal) (after (ops (F := Ideal)) L (Proc.devRef .tc main_v6) : S1195x64.Idx → EReal)
          (L (Proc.devRef .tc main_arg1) : IVec S2x1048576 32) (L (Proc.devRef .tc main_arg8) : S64x64.Idx → EReal)
          (L (Proc.devRef .tc main_arg9) : S64.Idx → EReal) := by
  rw [read_v35, seg1_v35, read_v6, seg0_keeps L (r := main_arg1) (by decide), seg0_keeps L (r := main_arg8) (by decide),
    seg0_keeps L (r := main_arg9) (by decide)]

/-- After the line, %64's buffer holds one graph convolution of %35's, under the second layer's weight and bias. -/
theorem v64_eq (L : Valuation τ sig (Elt Ideal)) :
    (after (ops (F := Ideal)) L (Proc.devRef .tc main_v64) : S1195x64.Idx → EReal)
      = RefGraph.gcnT (F := Ideal) (after (ops (F := Ideal)) L (Proc.devRef .tc main_v35) : S1195x64.Idx → EReal)
          (L (Proc.devRef .tc main_arg1) : IVec S2x1048576 32) (L (Proc.devRef .tc main_arg10) : S64x64.Idx → EReal)
          (L (Proc.devRef .tc main_arg11) : S64.Idx → EReal) := by
  rw [read_v64, seg2_v64, read_v35,
    seg1_keeps _ (r := main_arg1) (by decide), seg1_keeps _ (r := main_arg10) (by decide), seg1_keeps _ (r := main_arg11) (by decide),
    seg0_keeps L (r := main_arg1) (by decide), seg0_keeps L (r := main_arg10) (by decide), seg0_keeps L (r := main_arg11) (by decide)]

end Cert.ReferenceIdeal.RefValueGraph

end
-- ==== Proof.RefValue.lean ====
/-
  The reference's result buffer as the composition of the head's stage terms.

  The run of the reference ends with every buffer at the fold of its 185 operations over the launch contents.
  Cut the list after its first k operations: the fold over the whole list is the fold over the rest, begun
  from the fold over the first k. The operations after a cut read the buffers of the earlier ones as they
  stand at the cut, so over ANY contents W at the cut the buffer of a later value is that stage's composition
  applied to W's buffers (each operation's result at its own buffer its function of its operands' buffers, at
  every other buffer what was there), and a buffer the rest never writes keeps W's contents. No operation
  writes an argument, so an argument's buffer at a cut still holds the launch contents.

  Four stages: es and eh from the node embeddings x1 and h (values %85 and %102, from %6 and %64); z from the
  argument P, es and the head's weight and bias (%112); the result from z, γ, β and eh (%134). With the two
  graph-convolution layers' values %6, %35, %64 read the same way, the result buffer is
  outT (zT P (esT x1 h) W b) γ β (ehT x1 h).
-/
import proofs.«406313_j19000935318034_3_alg».proof.Proof.RefRun
import proofs.«406313_j19000935318034_3_alg».proof.Proof.RefHead
import proofs.«406313_j19000935318034_3_alg».proof.Proof.RefValueGraph

noncomputable section

namespace Cert.ReferenceIdeal.RefValue

open Cert.ReferenceIdeal Cert.ReferenceIdeal.Gen Cert.ReferenceIdeal.RefRun
open Idealize.ShloMosaic Idealize.ShloMosaic.StableHlo

/-! ## Cutting the list of operations -/

/-- Two lines run one after the other: the second begins where the first ends. -/
private theorem after_app (l₁ l₂ : List (HloOp τ sig (Elt Ideal))) :
    ∀ V : Valuation τ sig (Elt Ideal), after (l₁ ++ l₂) V = after l₂ (after l₁ V) := by
  induction l₁ with
  | nil => intro V; rfl
  | cons op l ih => intro V; rw [List.cons_append, after_cons, after_cons, ih]

/-- The fold over a list is the fold over all but its first k operations, begun from the fold over those k. -/
private theorem after_cut (k : Nat) (l : List (HloOp τ sig (Elt Ideal))) (V : Valuation τ sig (Elt Ideal)) :
    after l V = after (l.drop k) (after (l.take k) V) := by
  rw [← after_app, List.take_append_drop]

/-! ## Arguments at a cut -/

set_option maxRecDepth 8192 in
set_option maxHeartbeats 4000000 in
/-- P's buffer after the first 125 operations: the launch contents. -/
private theorem arg6_at125 (L : Valuation τ sig (Elt Ideal)) :
    after ((ops (F := Ideal)).take 125) L (Proc.devRef .tc main_arg6) = L (Proc.devRef .tc main_arg6) := by
  simp only [ops, List.take_succ_cons, List.take_zero]
  after_results_simp

set_option maxRecDepth 8192 in
set_option maxHeartbeats 4000000 in
/-- The head's weight after the first 125 operations: the launch contents. -/
private theorem arg12_at125 (L : Valuation τ sig (Elt Ideal)) :
    after ((ops (F := Ideal)).take 125) L (Proc.devRef .tc main_arg12) = L (Proc.devRef .tc main_arg12) := by
  simp only [ops, List.take_succ_cons, List.take_zero]
  after_results_simp

set_option maxRecDepth 8192 in
set_option maxHeartbeats 4000000 in
/-- The head's bias after the first 125 operations: the launch contents. -/
private theorem arg13_at125 (L : Valuation τ sig (Elt Ideal)) :
    after ((ops (F := Ideal)).take 125) L (Proc.devRef .tc main_arg13) = L (Proc.devRef .tc main_arg13) := by
  simp only [ops, List.take_succ_cons, List.take_zero]
  after_results_simp

set_option maxRecDepth 8192 in
set_option maxHeartbeats 4000000 in
/-- γ after the first 136 operations: the launch contents. -/
private theorem arg14_at136 (L : Valuation τ sig (Elt Ideal)) :
    after ((ops (F := Ideal)).take 136) L (Proc.devRef .tc main_arg14) = L (Proc.devRef .tc main_arg14) := by
  simp only [ops, List.take_succ_cons, List.take_zero]
  after_results_simp

set_option maxRecDepth 8192 in
set_option maxHeartbeats 4000000 in
/-- β after the first 136 operations: the launch contents. -/
private theorem arg15_at136 (L : Valuation τ sig (Elt Ideal)) :
    after ((ops (F := Ideal)).take 136) L (Proc.devRef .tc main_arg15) = L (Proc.devRef .tc main_arg15) := by
  simp only [ops, List.take_succ_cons, List.take_zero]
  after_results_simp

/-! ## The stages from any contents at their cut -/

set_option maxRecDepth 8192 in
set_option maxHeartbeats 4000000 in
/-- From any contents after the first 79 operations (both layers done): %85 is es of %6 and %64. -/
private theorem es_from79 (W : Valuation τ sig (Elt Ideal)) :
    (after ((ops (F := Ideal)).drop 79) W (Proc.devRef .tc main_v85) : S390x64.Idx → EReal)
      = RefHead.esT (F := Ideal) (after ((ops (F := Ideal)).drop 79) W (Proc.devRef .tc main_v6))
          (after ((ops (F := Ideal)).drop 79) W (Proc.devRef .tc main_v64)) := by
  simp only [ops, List.drop_succ_cons, List.drop_zero]
  after_results_simp
  rfl

set_option maxRecDepth 8192 in
set_option maxHeartbeats 4000000 in
/-- From any contents after the first 79 operations: %102 is eh of %6 and %64. -/
private theorem eh_from79 (W : Valuation τ sig (Elt Ideal)) :
    (after ((ops (F := Ideal)).drop 79) W (Proc.devRef .tc main_v102) : S805x64.Idx → EReal)
      = RefHead.ehT (F := Ideal) (after ((ops (F := Ideal)).drop 79) W (Proc.devRef .tc main_v6))
          (after ((ops (F := Ideal)).drop 79) W (Proc.devRef .tc main_v64)) := by
  simp only [ops, List.drop_succ_cons, List.drop_zero]
  after_results_simp
  rfl

set_option maxRecDepth 8192 in
set_option maxHeartbeats 4000000 in
/-- From any contents after the first 125 operations (es and eh done): %112 is z of P, %85, the weight and the bias. -/
private theorem z_from125 (W : Valuation τ sig (Elt Ideal)) :
    (after ((ops (F := Ideal)).drop 125) W (Proc.devRef .tc main_v112) : S16384x64.Idx → EReal)
      = RefHead.zT (F := Ideal) (W (Proc.devRef .tc main_arg6))
          (after ((ops (F := Ideal)).drop 125) W (Proc.devRef .tc main_v85))
          (W (Proc.devRef .tc main_arg12)) (W (Proc.devRef .tc main_arg13)) := by
  simp only [ops, List.drop_succ_cons, List.drop_zero]
  after_results_simp
  rfl

set_option maxRecDepth 8192 in
set_option maxHeartbeats 4000000 in
/-- From any contents after the first 136 operations (z done): %134 is the head's result of %112, γ, β and %102. -/
private theorem out_from136 (W : Valuation τ sig (Elt Ideal)) :
    (after ((ops (F := Ideal)).drop 136) W (Proc.devRef .tc main_v134) : S16384x805.Idx → EReal)
      = RefHead.outT (F := Ideal) (after ((ops (F := Ideal)).drop 136) W (Proc.devRef .tc main_v112))
          (W (Proc.devRef .tc main_arg14)) (W (Proc.devRef .tc main_arg15))
          (after ((ops (F := Ideal)).drop 136) W (Proc.devRef .tc main_v102)) := by
  simp only [ops, List.drop_succ_cons, List.drop_zero]
  after_results_simp
  rfl

/-! ## The stages of the run -/

/-- %85 = es of %6 and %64. -/
theorem es_eq (L : Valuation τ sig (Elt Ideal)) :
    (after (ops (F := Ideal)) L (Proc.devRef .tc main_v85) : S390x64.Idx → EReal)
      = RefHead.esT (F := Ideal) (after (ops (F := Ideal)) L (Proc.devRef .tc main_v6))
          (after (ops (F := Ideal)) L (Proc.devRef .tc main_v64)) := by
  rw [after_cut 79 ops L]
  exact es_from79 _

/-- %102 = eh of %6 and %64. -/
theorem eh_eq (L : Valuation τ sig (Elt Ideal)) :
    (after (ops (F := Ideal)) L (Proc.devRef .tc main_v102) : S805x64.Idx → EReal)
      = RefHead.ehT (F := Ideal) (after (ops (F := Ideal)) L (Proc.devRef .tc main_v6))
          (after (ops (F := Ideal)) L (Proc.devRef .tc main_v64)) := by
  rw [after_cut 79 ops L]
  exact eh_from79 _

/-- %112 = z of the argument P, %85, and the head's weight and bias. -/
theorem z_eq (L : Valuation τ sig (Elt Ideal)) :
    (after (ops (F := Ideal)) L (Proc.devRef .tc main_v112) : S16384x64.Idx → EReal)
      = RefHead.zT (F := Ideal) (L (Proc.devRef .tc main_arg6) : S16384x390.Idx → EReal)
          (after (ops (F := Ideal)) L (Proc.devRef .tc main_v85))
          (L (Proc.devRef .tc main_arg12) : S64x64.Idx → EReal) (L (Proc.devRef .tc main_arg13) : S64.Idx → EReal) := by
  rw [after_cut 125 ops L, z_from125, arg6_at125, arg12_at125, arg13_at125]

/-- %134 = the head's result of %112, γ, β and %102. -/
theorem out_eq (L : Valuation τ sig (Elt Ideal)) :
    (after (ops (F := Ideal)) L (Proc.devRef .tc main_v134) : S16384x805.Idx → EReal)
      = RefHead.outT (F := Ideal) (after (ops (F := Ideal)) L (Proc.devRef .tc main_v112))
          (L (Proc.devRef .tc main_arg14) : S64.Idx → EReal) (L (Proc.devRef .tc main_arg15) : S64.Idx → EReal)
          (after (ops (F := Ideal)) L (Proc.devRef .tc main_v102)) := by
  rw [after_cut 136 ops L, out_from136, arg14_at136, arg15_at136]

/-! ## The result buffer -/

/-- The embedded node features x1 (%6), from the launch contents. -/
abbrev x1 (L : Valuation τ sig (Elt Ideal)) : FVec Ideal S1195x64 .f32 :=
  RefGraph.x1T (F := Ideal) (L (Proc.devRef .tc main_arg0) : S1195.Idx → BitVec 32) (L (Proc.devRef .tc main_arg7) : S1195x64.Idx → EReal)

/-- The second layer's node features h (%64), from the launch contents. -/
abbrev h (L : Valuation τ sig (Elt Ideal)) : FVec Ideal S1195x64 .f32 :=
  RefGraph.gcnT (F := Ideal)
    (RefGraph.gcnT (F := Ideal) (x1 L) (L (Proc.devRef .tc main_arg1) : S2x1048576.Idx → BitVec 32)
      (L (Proc.devRef .tc main_arg8) : S64x64.Idx → EReal) (L (Proc.devRef .tc main_arg9) : S64.Idx → EReal))
    (L (Proc.devRef .tc main_arg1) : S2x1048576.Idx → BitVec 32) (L (Proc.devRef .tc main_arg10) : S64x64.Idx → EReal)
    (L (Proc.devRef .tc main_arg11) : S64.Idx → EReal)

/-- The reference's result buffer is the head's result of z = zT P (esT x1 h) W b, γ, β and ehT x1 h. -/
theorem result_eq (L : Valuation τ sig (Elt Ideal)) :
    (after (ops (F := Ideal)) L (Proc.devRef .tc main_v134) : S16384x805.Idx → EReal)
      = RefHead.outT (F := Ideal)
          (RefHead.zT (F := Ideal) (L (Proc.devRef .tc main_arg6) : S16384x390.Idx → EReal) (RefHead.esT (F := Ideal) (x1 L) (h L))
            (L (Proc.devRef .tc main_arg12) : S64x64.Idx → EReal) (L (Proc.devRef .tc main_arg13) : S64.Idx → EReal))
          (L (Proc.devRef .tc main_arg14) : S64.Idx → EReal) (L (Proc.devRef .tc main_arg15) : S64.Idx → EReal)
          (RefHead.ehT (F := Ideal) (x1 L) (h L)) := by
  rw [out_eq, z_eq, es_eq, eh_eq, RefValueGraph.v64_eq, RefValueGraph.v35_eq, RefValueGraph.v6_eq]

end Cert.ReferenceIdeal.RefValue

end
-- ==== Proof.RefSpec.lean ====
/-
  The reference's result in the form of the specification.

  The reference gathers the rows xs i of the embedding table into x1, passes x1 through two graph-convolution layers
  over the same edge list to h, normalises slices of x1 and h into es and eh, and from the rows of P forms
  z = (P · es / rowsum P) · Wᵀ + b, normalises z column by column, takes the maximum with 0 and multiplies by ehᵀ.
  Here the sixteen argument arrays are named once each at their literal types, x1 and h are named as functions of
  them, and each is read entry by entry: x1 is a row of the table; h is the edge-by-edge layer applied twice; the
  result at (r, u) is the specification's product of the normalised z with eh, es and eh being the two normalised sums
  of x1 and h.
-/
import proofs.«406313_j19000935318034_3_alg».proof.Proof.RefValue
import proofs.«406313_j19000935318034_3_alg».proof.Proof.RefGraph
import proofs.«406313_j19000935318034_3_alg».proof.Proof.RefHead
import proofs.«406313_j19000935318034_3_alg».proof.Proof.RefRun
import proofs.«406313_j19000935318034_3_alg».proof.Proof.Spec

noncomputable section

namespace Cert.ReferenceIdeal.RefSpec

open Cert.ReferenceIdeal Cert.ReferenceIdeal.Gen Idealize.ShloMosaic Idealize.ShloMosaic.ValueIdx Idealize.ShloMosaic.StableHlo

/-! ## The sixteen arguments a run reads, each at its literal type -/

/-- The node ids. -/
abbrev a0 (L : Valuation τ sig (Elt Ideal)) : IVec S1195 32 := L (Proc.devRef .tc main_arg0)
/-- The edge list: row 0 the sources, row 1 the destinations. -/
abbrev a1 (L : Valuation τ sig (Elt Ideal)) : IVec S2x1048576 32 := L (Proc.devRef .tc main_arg1)
/-- P. -/
abbrev a6 (L : Valuation τ sig (Elt Ideal)) : FVec Ideal S16384x390 .f32 := L (Proc.devRef .tc main_arg6)
/-- The embedding table. -/
abbrev a7 (L : Valuation τ sig (Elt Ideal)) : FVec Ideal S1195x64 .f32 := L (Proc.devRef .tc main_arg7)
/-- The first layer's weight and bias. -/
abbrev a8 (L : Valuation τ sig (Elt Ideal)) : FVec Ideal S64x64 .f32 := L (Proc.devRef .tc main_arg8)
abbrev a9 (L : Valuation τ sig (Elt Ideal)) : FVec Ideal S64 .f32 := L (Proc.devRef .tc main_arg9)
/-- The second layer's weight and bias. -/
abbrev a10 (L : Valuation τ sig (Elt Ideal)) : FVec Ideal S64x64 .f32 := L (Proc.devRef .tc main_arg10)
abbrev a11 (L : Valuation τ sig (Elt Ideal)) : FVec Ideal S64 .f32 := L (Proc.devRef .tc main_arg11)
/-- The head's weight and bias. -/
abbrev a12 (L : Valuation τ sig (Elt Ideal)) : FVec Ideal S64x64 .f32 := L (Proc.devRef .tc main_arg12)
abbrev a13 (L : Valuation τ sig (Elt Ideal)) : FVec Ideal S64 .f32 := L (Proc.devRef .tc main_arg13)
/-- The normalisation's scale γ and shift β. -/
abbrev a14 (L : Valuation τ sig (Elt Ideal)) : FVec Ideal S64 .f32 := L (Proc.devRef .tc main_arg14)
abbrev a15 (L : Valuation τ sig (Elt Ideal)) : FVec Ideal S64 .f32 := L (Proc.devRef .tc main_arg15)

/-! ## x1 and h -/

/-- x1: the rows of the embedding table the node ids name. -/
def x1R (L : Valuation τ sig (Elt Ideal)) : FVec Ideal S1195x64 .f32 := RefGraph.x1T (F := Ideal) (a0 L) (a7 L)

/-- h: x1 through the two graph-convolution layers. -/
def hR (L : Valuation τ sig (Elt Ideal)) : FVec Ideal S1195x64 .f32 :=
  RefGraph.gcnT (F := Ideal) (RefGraph.gcnT (F := Ideal) (x1R L) (a1 L) (a8 L) (a9 L)) (a1 L) (a10 L) (a11 L)

/-- Row i of x1 is the table's row xsF i, where xsF reads the node ids as indices. -/
theorem x1R_apply (L : Valuation τ sig (Elt Ideal)) (xsF : Fin 1195 → Fin 1195)
    (hxs : ∀ i : Fin 1195, (a0 L (ix1 i)).toInt = ((xsF i).val : Int)) (i : Fin 1195) (d : Fin 64) :
    x1R L (ix2 i d) = a7 L (ix2 (xsF i) d) :=
  RefGraph.x1T_apply (a0 L) (a7 L) xsF hxs i d

/-- h is the edge-by-edge layer of the specification applied twice to x1, src and dst reading the edge list's two rows
    as indices. -/
theorem hR_apply (L : Valuation τ sig (Elt Ideal)) (src dst : Fin Cert.Spec.nE → Fin 1195)
    (hsrc : ∀ e : Fin Cert.Spec.nE, (a1 L (ix2 (0 : Fin 2) e)).toInt = ((src e).val : Int))
    (hdst : ∀ e : Fin Cert.Spec.nE, (a1 L (ix2 (1 : Fin 2) e)).toInt = ((dst e).val : Int)) (i : Fin 1195) (d : Fin 64) :
    hR L (ix2 i d)
      = Cert.Spec.gcnScatter src dst
          (Cert.Spec.gcnScatter src dst (fun j k => x1R L (ix2 j k)) (fun d k => a8 L (ix2 d k)) (fun d => a9 L (ix1 d)))
          (fun d k => a10 L (ix2 d k)) (fun d => a11 L (ix1 d)) i d := by
  have inner : (fun j k => RefGraph.gcnT (F := Ideal) (x1R L) (a1 L) (a8 L) (a9 L) (ix2 j k))
      = Cert.Spec.gcnScatter src dst (fun j k => x1R L (ix2 j k)) (fun d k => a8 L (ix2 d k)) (fun d => a9 L (ix1 d)) := by
    funext j k
    exact RefGraph.gcnT_apply (x1R L) (a1 L) (a8 L) (a9 L) src dst hsrc hdst j k
  refine (RefGraph.gcnT_apply (RefGraph.gcnT (F := Ideal) (x1R L) (a1 L) (a8 L) (a9 L)) (a1 L) (a10 L) (a11 L) src dst hsrc hdst i d).trans ?_
  rw [inner]

/-! ## The result -/

/-- What the run leaves in the result buffer, over x1 and h. -/
theorem result_eq (L : Valuation τ sig (Elt Ideal)) :
    (after (RefRun.ops (F := Ideal)) L (Proc.devRef .tc main_v134) : S16384x805.Idx → EReal)
      = RefHead.outT (F := Ideal) (RefHead.zT (F := Ideal) (a6 L) (RefHead.esT (F := Ideal) (x1R L) (hR L)) (a12 L) (a13 L)) (a14 L) (a15 L)
          (RefHead.ehT (F := Ideal) (x1R L) (hR L)) :=
  RefValue.result_eq L

/-- The result at (r, u) is the specification's: z from P, es, the head's weight and bias; z normalised column by
    column over the rows with γ, β and the program's ε; the maximum with 0; times row u of eh. -/
theorem out_apply (L : Valuation τ sig (Elt Ideal)) (r : Fin 16384) (u : Fin 805) :
    (after (RefRun.ops (F := Ideal)) L (Proc.devRef .tc main_v134) : S16384x805.Idx → EReal) (ix2 r u)
      = Cert.Spec.out
          (Cert.Spec.bnR
            (Cert.Spec.zpre (fun r j => a6 L (ix2 r j)) (fun j k => RefHead.esT (F := Ideal) (x1R L) (hR L) (ix2 j k))
              (fun d k => a12 L (ix2 d k)) (fun d => a13 L (ix1 d)))
            (fun d => a14 L (ix1 d)) (fun d => a15 L (ix1 d)) (Ideal.ofBits .f32 0x3727C5AC#32))
          (fun u d => RefHead.ehT (F := Ideal) (x1R L) (hR L) (ix2 u d)) r u := by
  have hz : (fun r d => RefHead.zT (F := Ideal) (a6 L) (RefHead.esT (F := Ideal) (x1R L) (hR L)) (a12 L) (a13 L) (ix2 r d))
      = Cert.Spec.zpre (fun r j => a6 L (ix2 r j)) (fun j k => RefHead.esT (F := Ideal) (x1R L) (hR L) (ix2 j k))
          (fun d k => a12 L (ix2 d k)) (fun d => a13 L (ix1 d)) := by
    funext r d
    exact RefHead.zT_apply (a6 L) (RefHead.esT (F := Ideal) (x1R L) (hR L)) (a12 L) (a13 L) r d
  refine (congrFun (result_eq L) (ix2 r u)).trans ?_
  refine (RefHead.outT_apply _ (a14 L) (a15 L) (RefHead.ehT (F := Ideal) (x1R L) (hR L)) r u).trans ?_
  rw [hz]

end Cert.ReferenceIdeal.RefSpec

end
-- ==== Proof.KerGraph.lean ====
/-
  The host operations the program runs before its first kernel call, graph part, read entry by entry.

  The first stretch looks up one row of a 1195-row table per node: a negative index is wrapped once, a row whose
  wrapped index falls outside the table is filled with NaN, and the rows are gathered. With every index a node
  number the wrap leaves it, every row is in range, and row i is the table's row at index i.

  The second stretch builds the edge-count matrix: each edge (src → dst) adds one at flat position dst · 1195 + src
  of a zero vector of length 1195², which is then read as a 1195 × 1195 square; entry (i, j) counts the edges from j
  into i, and its row sums are the in-degrees. For node numbers below 1195 the position is below 2³¹, so the 32-bit
  product and sum do not wrap, and the position determines (dst, src). Two graph-convolution layers follow, each
  tanh ((A · (x · Wᵀ + b)) / max deg 1): the specification's dense layer.
-/
import proofs.«406313_j19000935318034_3_alg».proof.Proof.Gen.KernelIdeal.Launch
import proofs.«406313_j19000935318034_3_alg».proof.Proof.Spec
import proofs.«406313_j19000935318034_3_alg».proof.Proof.LibGatherRows
import proofs.«406313_j19000935318034_3_alg».proof.Proof.LibScatterAdd
import Idealize.ShloMosaic.Lib.StableHlo.Run
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws
import Idealize.ShloMosaic.Lib.IdealHost

noncomputable section

namespace Cert.KernelIdeal.KerGraph

open Cert.KernelIdeal Cert.KernelIdeal.Gen Idealize.ShloMosaic Idealize.ShloMosaic.ValueIdx Idealize.ShloMosaic.StableHlo
open scoped BigOperators

/-! ## The program's terms, named

Each is the composition of host operations that writes one buffer, as a function of the buffers it reads. -/

/-- A negative index wrapped once by the table's length. -/
def wrapTerm (xs : IVec S1195 32) : IVec S1195 32 :=
  select (cmpi .slt xs (broadcastInDim S1195 ![] bcast_S_S1195 (constantI S_ 32 0#32)))
    (addi xs (broadcastInDim S1195 ![] bcast_S_S1195 (constantI S_ 32 1195#32))) xs

/-- The wrapped indices as a column. -/
def colTerm (xs : IVec S1195 32) : IVec S1195x1 32 :=
  broadcastInDim S1195x1 ![0] bcast_S1195_S1195x1_0 (wrapTerm xs)

/-- Row by row: is the wrapped index inside the table? -/
def maskTerm (xs : IVec S1195 32) : IVec S1195 1 :=
  Host.reduce IntOp.andi
    (andi (cmpi .sge (colTerm xs) (broadcastInDim S1195x1 ![] bcast_S_S1195x1 (constantI S_ 32 0#32)))
      (cmpi .sle (colTerm xs) (broadcastInDim S1195x1 ![0, 1] bcast_S1x1_S1195x1_0_1
        (broadcastInDim S1x1 ![1] bcast_S1_S1x1_1 (constantI S1 32 1194#32)))))
    (constantI S_ 1 1#1) reducesTo_S1195x1_S1195_d1 h_S_

/-- The table's rows at the indices, a row out of range filled with a quiet NaN. -/
def takeTerm (xs : IVec S1195 32) (emb : FVec Ideal S1195x64 .f32) : FVec Ideal S1195x64 .f32 :=
  select (broadcastInDim S1195x64 ![0] bcast_S1195_S1195x64_0 (maskTerm xs))
    (Host.gather gather_S1195x64_S1195x1_S1195x64_1_0_n_n_0_1_164 emb (colTerm xs))
    (broadcastInDim S1195x64 ![] bcast_S_S1195x64 (constant (F := Ideal) S_ .f32 0x7FC00000#32))

/-- Edge by edge, the flat position dst · 1195 + src of the edge's entry in the count matrix. -/
def keyTerm (E : IVec S2x1048576 32) : IVec S1048576x1 32 :=
  broadcastInDim S1048576x1 ![0] bcast_S1048576_S1048576x1_0
    (addi
      (muli (shapeCast S1048576 (extractStridedSlice S1x1048576 ![1, 0] E slices_S2x1048576_S1x1048576_1_0) shapeCasts_S1x1048576_S1048576)
        (broadcastInDim S1048576 ![] bcast_S_S1048576 (constantI S_ 32 1195#32)))
      (shapeCast S1048576 (extractStridedSlice S1x1048576 ![0, 0] E slices_S2x1048576_S1x1048576_0_0) shapeCasts_S1x1048576_S1048576))

/-- The edge-count matrix: ones scattered with addition at the edges' positions into zeros, read as a square. -/
def adjTerm (E : IVec S2x1048576 32) : FVec Ideal S1195x1195 .f32 :=
  shapeCast S1195x1195
    (Host.scatterAdd (F := Ideal) scatter_S1428025_S1048576x1_S1048576_n_0_0_1
      (broadcastInDim S1428025 ![] bcast_S_S1428025 (constant (F := Ideal) S_ .f32 0x00000000#32))
      (keyTerm E)
      (broadcastInDim S1048576 ![] bcast_S_S1048576 (constant (F := Ideal) S_ .f32 0x3F800000#32)))
    shapeCasts_S1428025_S1195x1195

/-- The in-degrees: the count matrix summed along its rows. -/
def cntTerm (E : IVec S2x1048576 32) : FVec Ideal S1195 .f32 :=
  Host.reduceAdd (F := Ideal) (adjTerm E) (constant (F := Ideal) S_ .f32 0x00000000#32) reducesTo_S1195x1195_S1195_d1 h_S_

/-- One graph-convolution layer as the program spells it, over its five operands. -/
def layerTerm (x : FVec Ideal S1195x64 .f32) (A : FVec Ideal S1195x1195 .f32) (cnt : FVec Ideal S1195 .f32)
    (W : FVec Ideal S64x64 .f32) (b : FVec Ideal S64 .f32) : FVec Ideal S1195x64 .f32 :=
  Host.tanh (Host.divf
    (Host.dotGeneral (F := Ideal) dot_S1195x1195_S1195x64_S1195x64_1_0_0_1_n_n none A
      (addf (Host.dotGeneral (F := Ideal) dot_S1195x64_S64x64_S1195x64_1_0_0_1_n_n none x (transpose S64x64 [1, 0] W transposes_S64x64_S64x64_1_0))
        (broadcastInDim S1195x64 ![0, 1] bcast_S1x64_S1195x64_0_1 (broadcastInDim S1x64 ![1] bcast_S64_S1x64_1 b))))
    (broadcastInDim S1195x64 ![0, 1] bcast_S1195x1_S1195x64_0_1 (broadcastInDim S1195x1 ![0] bcast_S1195_S1195x1_0
      (maximumf cnt (broadcastInDim S1195 ![] bcast_S_S1195 (constant (F := Ideal) S_ .f32 0x3F800000#32))))))

/-! ## The buffers as those terms -/

theorem v0_term (L : Valuation τ sig (Elt Ideal)) :
    (after hostOps0 L (Proc.devRef .tc main_v0) : S1195x64.Idx → EReal)
      = takeTerm (L (Proc.devRef .tc main_arg0)) (L (Proc.devRef .tc main_arg7)) := by
  dsimp only [hostOps0]
  after_results_simp
  rfl

theorem kept0_arg1 (L : Valuation τ sig (Elt Ideal)) :
    after hostOps0 L (Proc.devRef .tc main_arg1) = L (Proc.devRef .tc main_arg1) := by
  dsimp only [hostOps0]
  after_results_simp
theorem kept0_arg8 (L : Valuation τ sig (Elt Ideal)) :
    after hostOps0 L (Proc.devRef .tc main_arg8) = L (Proc.devRef .tc main_arg8) := by
  dsimp only [hostOps0]
  after_results_simp
theorem kept0_arg9 (L : Valuation τ sig (Elt Ideal)) :
    after hostOps0 L (Proc.devRef .tc main_arg9) = L (Proc.devRef .tc main_arg9) := by
  dsimp only [hostOps0]
  after_results_simp
theorem kept0_arg10 (L : Valuation τ sig (Elt Ideal)) :
    after hostOps0 L (Proc.devRef .tc main_arg10) = L (Proc.devRef .tc main_arg10) := by
  dsimp only [hostOps0]
  after_results_simp
theorem kept0_arg11 (L : Valuation τ sig (Elt Ideal)) :
    after hostOps0 L (Proc.devRef .tc main_arg11) = L (Proc.devRef .tc main_arg11) := by
  dsimp only [hostOps0]
  after_results_simp

set_option maxHeartbeats 4000000 in
theorem v25_term (W : Valuation τ sig (Elt Ideal)) :
    (after hostOps0_1 W (Proc.devRef .tc main_v25) : S1195x64.Idx → EReal)
      = layerTerm (W (Proc.devRef .tc main_v0)) (adjTerm (W (Proc.devRef .tc main_arg1))) (cntTerm (W (Proc.devRef .tc main_arg1)))
          (W (Proc.devRef .tc main_arg8)) (W (Proc.devRef .tc main_arg9)) := by
  dsimp only [hostOps0_1]
  after_results_simp
  rfl

set_option maxHeartbeats 4000000 in
theorem v37_term (W : Valuation τ sig (Elt Ideal)) :
    (after hostOps0_1 W (Proc.devRef .tc main_v37) : S1195x64.Idx → EReal)
      = layerTerm (after hostOps0_1 W (Proc.devRef .tc main_v25)) (adjTerm (W (Proc.devRef .tc main_arg1))) (cntTerm (W (Proc.devRef .tc main_arg1)))
          (W (Proc.devRef .tc main_arg10)) (W (Proc.devRef .tc main_arg11)) := by
  rw [v25_term]
  dsimp only [hostOps0_1]
  after_results_simp
  rfl

set_option maxHeartbeats 4000000 in
/-- The second stretch of host operations does not write the looked-up rows. -/
theorem v0_kept (L : Valuation τ sig (Elt Ideal)) :
    after hostOps0_1 (after hostOps0 L) (Proc.devRef .tc main_v0) = after hostOps0 L (Proc.devRef .tc main_v0) := by
  generalize after hostOps0 L = W
  dsimp only [hostOps0_1]
  after_results_simp

/-! ## Small words -/

/-- A signed 32-bit value inside the signed range is its own balanced remainder modulo 2³². -/
theorem bmod32 {n : Int} (h₁ : -2 ^ 31 ≤ n) (h₂ : n < 2 ^ 31) : n.bmod (2 ^ 32) = n :=
  Int.bmod_eq_of_le (by omega) (by omega)

/-- For node numbers t, s below 1195 the 32-bit word t · 1195 + s does not wrap: it is below 2³¹. -/
theorem key_toInt (a b : BitVec 32) (s t : Nat) (hs : s < 1195) (ht : t < 1195) (ha : a.toInt = (s : Int)) (hb : b.toInt = (t : Int)) :
    (IntOp.addi (IntOp.muli b 1195#32) a).toInt = ((t * 1195 + s : Nat) : Int) := by
  have h1195 : (1195#32 : BitVec 32).toInt = 1195 := by decide
  have hm : (IntOp.muli b 1195#32).toInt = (t : Int) * 1195 := by
    rw [IntOp.muli, BitVec.toInt_mul, hb, h1195, bmod32 (by omega) (by omega)]
  rw [IntOp.addi, BitVec.toInt_add, hm, ha, bmod32 (by omega) (by omega)]
  omega

/-! ## The lookup -/

/-- An index that is a natural number is not negative, so the wrap leaves it. -/
theorem wrapTerm_apply (xs : IVec S1195 32) (i : Fin 1195) (n : Nat) (hn : (xs (ix1 i)).toInt = (n : Int)) :
    wrapTerm xs (ix1 i) = xs (ix1 i) := by
  have h0 : (0#32 : BitVec 32).toInt = 0 := by decide
  have hc : IntOp.cmpi .slt (xs (ix1 i)) 0#32 = 0#1 :=
    eq_zero_of_ne_one fun h => by
      have := IntOp.cmpi_slt.1 h
      rw [hn, h0] at this
      omega
  show Scalar.select (IntOp.cmpi .slt (xs (ix1 i)) 0#32) _ (xs (ix1 i)) = _
  rw [hc, select_zero]

theorem colTerm_apply (xs : IVec S1195 32) (i : Fin 1195) (u : Fin 1) : colTerm xs (ix2 i u) = wrapTerm xs (ix1 i) :=
  broadcastInDim_apply _ _ _ (ix2 i u) (ix1 i) fun a => by
    match a with
    | ⟨0, _⟩ => rfl

/-- The conjunction over an axis of extent one of bits that are all set is set. -/
theorem mask_one (x : IVec S1195x1 1) (hx : ∀ idx, x idx = 1#1) (j : S1195.Idx) :
    Host.reduce IntOp.andi x (constantI S_ 1 1#1) reducesTo_S1195x1_S1195_d1 h_S_ j = 1#1 := by
  rw [Host.reduce_eq_fold_single IntOp.andi x _ reducesTo_S1195x1_S1195_d1 (by decide : S1195x1.Reduces [1] S1195) h_S_ j]
  have hc : x ∘ (by decide : S1195x1.Reduces [1] S1195).lift j = fun _ => 1#1 := funext fun k => hx _
  rw [hc]
  rfl

/-- With every index in range every row's mask bit is set. -/
theorem maskTerm_apply (xs : IVec S1195 32) (xsF : Fin 1195 → Fin 1195)
    (hxs : ∀ i : Fin 1195, (xs (ix1 i)).toInt = ((xsF i).val : Int)) (j : S1195.Idx) : maskTerm xs j = 1#1 := by
  unfold maskTerm
  refine mask_one _ (fun idx => ?_) j
  obtain ⟨r, u, rfl⟩ : ∃ (r : Fin 1195) (u : Fin 1), idx = ix2 r u := ⟨idx 0, idx 1, eq_ix2 idx⟩
  have hcol : colTerm xs (ix2 r u) = xs (ix1 r) := (colTerm_apply xs r u).trans (wrapTerm_apply xs r _ (hxs r))
  have h0 : (0#32 : BitVec 32).toInt = 0 := by decide
  have h1194 : (1194#32 : BitVec 32).toInt = 1194 := by decide
  show IntOp.andi (IntOp.cmpi .sge (colTerm xs (ix2 r u)) 0#32) (IntOp.cmpi .sle (colTerm xs (ix2 r u)) 1194#32) = 1#1
  rw [hcol]
  refine IntOp.andi_eq_one.2 ⟨IntOp.cmpi_sge.2 ?_, IntOp.cmpi_sle.2 ?_⟩
  · rw [hxs r, h0]; omega
  · rw [hxs r, h1194]; have := (xsF r).isLt; omega

/-- The lookup with every index in range: row i is the table's row at the index. -/
theorem takeTerm_apply (xs : IVec S1195 32) (emb : FVec Ideal S1195x64 .f32) (xsF : Fin 1195 → Fin 1195)
    (hxs : ∀ i : Fin 1195, (xs (ix1 i)).toInt = ((xsF i).val : Int)) (i : Fin 1195) (d : Fin 64) :
    takeTerm xs emb (ix2 i d) = emb (ix2 (xsF i) d) := by
  have hb : broadcastInDim S1195x64 ![0] bcast_S1195_S1195x64_0 (maskTerm xs) (ix2 i d) = maskTerm xs (ix1 i) :=
    broadcastInDim_apply _ _ _ (ix2 i d) (ix1 i) fun a => by
      match a with
      | ⟨0, _⟩ => rfl
  have hcol : colTerm xs (ix2 i (0 : Fin 1)) = xs (ix1 i) := (colTerm_apply xs i 0).trans (wrapTerm_apply xs i _ (hxs i))
  unfold takeTerm
  show Scalar.select (broadcastInDim S1195x64 ![0] bcast_S1195_S1195x64_0 (maskTerm xs) (ix2 i d))
    (Host.gather gather_S1195x64_S1195x1_S1195x64_1_0_n_n_0_1_164 emb (colTerm xs) (ix2 i d)) _ = _
  rw [hb, maskTerm_apply xs xsF hxs, select_one]
  refine (Cert.LibGatherRows.gather_rows_apply (by decide) gather_S1195x64_S1195x1_S1195x64_1_0_n_n_0_1_164_wf emb (colTerm xs) i d).trans ?_
  refine congrArg (fun r => emb (ix2 r d)) (Fin.ext ?_)
  show min (colTerm xs (ix2 i (0 : Fin 1))).toInt.toNat (1195 - 1) = (xsF i).val
  rw [hcol, hxs i]
  have := (xsF i).isLt
  omega

/-! ## The edge-count matrix -/

/-- Row r of the edge list as a vector. -/
theorem edgeRow0_apply (E : IVec S2x1048576 32) (e : Fin 1048576) :
    shapeCast S1048576 (extractStridedSlice S1x1048576 ![0, 0] E slices_S2x1048576_S1x1048576_0_0) shapeCasts_S1x1048576_S1048576 (ix1 e)
      = E (ix2 (0 : Fin 2) e) :=
  (shapeCast_1a_a_apply _ _ e).trans (slice2_axis0_apply 0 E _ (0 : Fin 1) e (0 : Fin 2) rfl)
theorem edgeRow1_apply (E : IVec S2x1048576 32) (e : Fin 1048576) :
    shapeCast S1048576 (extractStridedSlice S1x1048576 ![1, 0] E slices_S2x1048576_S1x1048576_1_0) shapeCasts_S1x1048576_S1048576 (ix1 e)
      = E (ix2 (1 : Fin 2) e) :=
  (shapeCast_1a_a_apply _ _ e).trans (slice2_axis0_apply 1 E _ (0 : Fin 1) e (1 : Fin 2) rfl)

theorem keyTerm_apply (E : IVec S2x1048576 32) (e : Fin 1048576) (u : Fin 1) :
    keyTerm E (ix2 e u) = IntOp.addi (IntOp.muli (E (ix2 (1 : Fin 2) e)) 1195#32) (E (ix2 (0 : Fin 2) e)) := by
  unfold keyTerm
  refine (broadcastInDim_apply _ _ _ (ix2 e u) (ix1 e) fun a => ?_).trans ?_
  · match a with
    | ⟨0, _⟩ => rfl
  show IntOp.addi (IntOp.muli (shapeCast S1048576 _ _ (ix1 e)) 1195#32) (shapeCast S1048576 _ _ (ix1 e)) = _
  rw [edgeRow1_apply, edgeRow0_apply]

/-- The scatter of the program at a flat position: the operand there plus the updates whose index is that position. -/
theorem scatter_apply (Z : FVec Ideal S1428025 .f32) (K : IVec S1048576x1 32) (O : FVec Ideal S1048576 .f32) (p : Fin 1428025) :
    Host.scatterAdd (F := Ideal) scatter_S1428025_S1048576x1_S1048576_n_0_0_1 Z K O (ix1 p)
      = Z (ix1 p) + ∑ e : Fin 1048576, if (K (ix2 e (0 : Fin 1))).toInt = (p.val : Int) then O (ix1 e) else 0 :=
  Cert.LibScatterAdd.scatterAdd_flat_apply scatter_S1428025_S1048576x1_S1048576_n_0_0_1_wf Z K O p

/-- Two positions t · 1195 + s with s below 1195 agree exactly when both parts do. -/
theorem key_eq_iff (t s i j : Nat) (hs : s < 1195) (hj : j < 1195) :
    ((t * 1195 + s : Nat) : Int) = ((i * 1195 + j : Nat) : Int) ↔ t = i ∧ s = j := by omega

/-- Edge e counts at position (i, j) exactly when it runs from j into i. -/
theorem adj_entry (E : IVec S2x1048576 32) (src dst : Fin Cert.Spec.nE → Fin 1195)
    (hsrc : ∀ e : Fin Cert.Spec.nE, (E (ix2 (0 : Fin 2) e)).toInt = ((src e).val : Int))
    (hdst : ∀ e : Fin Cert.Spec.nE, (E (ix2 (1 : Fin 2) e)).toInt = ((dst e).val : Int)) (i j : Fin 1195) (e : Fin 1048576) :
    (if (keyTerm E (ix2 e (0 : Fin 1))).toInt = ((i.val * 1195 + j.val : Nat) : Int) then (1 : EReal) else 0)
      = if dst e = i ∧ src e = j then (1 : EReal) else 0 := by
  rw [keyTerm_apply, key_toInt _ _ _ _ (src e).isLt (dst e).isLt (hsrc e) (hdst e)]
  refine if_congr ?_ rfl rfl
  rw [key_eq_iff _ _ _ _ (src e).isLt j.isLt]
  exact ⟨fun h => ⟨Fin.ext h.1, Fin.ext h.2⟩, fun h => ⟨congrArg Fin.val h.1, congrArg Fin.val h.2⟩⟩

/-- Entry (i, j) of the square sits at flat position i · 1195 + j. -/
theorem flat_pos (i j : Fin 1195) (hp : i.val * 1195 + j.val < 1428025) :
    (S1428025.rowMajor (ix1 ⟨i.val * 1195 + j.val, hp⟩)).val = (S1195x1195.rowMajor (ix2 i j)).val :=
  (Shape.rowMajor_val_one (d := ![1428025]) (ix1 ⟨i.val * 1195 + j.val, hp⟩)).trans
    (Shape.rowMajor_val_two (d := ![1195, 1195]) (ix2 i j)).symm

theorem square_apply {α : Type} (X : S1428025.Idx → α) (i j : Fin 1195) (hp : i.val * 1195 + j.val < 1428025) :
    shapeCast S1195x1195 X shapeCasts_S1428025_S1195x1195 (ix2 i j) = X (ix1 ⟨i.val * 1195 + j.val, hp⟩) :=
  shapeCast_apply X shapeCasts_S1428025_S1195x1195 (ix2 i j) (ix1 ⟨i.val * 1195 + j.val, hp⟩) (flat_pos i j hp)

/-- Entry (i, j) of the count matrix is the number of edges from j into i. -/
theorem adjTerm_apply (E : IVec S2x1048576 32) (src dst : Fin Cert.Spec.nE → Fin 1195)
    (hsrc : ∀ e : Fin Cert.Spec.nE, (E (ix2 (0 : Fin 2) e)).toInt = ((src e).val : Int))
    (hdst : ∀ e : Fin Cert.Spec.nE, (E (ix2 (1 : Fin 2) e)).toInt = ((dst e).val : Int)) (i j : Fin 1195) :
    adjTerm E (ix2 i j) = Cert.Spec.adj src dst i j := by
  have hp : i.val * 1195 + j.val < 1428025 := by have := i.isLt; have := j.isLt; omega
  unfold adjTerm
  rw [square_apply _ i j hp, scatter_apply]
  rw [broadcastInDim_scalar_apply, constant_apply, Ideal.ofBits_zero_f32, zero_add]
  unfold Cert.Spec.adj
  refine Finset.sum_congr rfl fun e _ => ?_
  rw [broadcastInDim_scalar_apply, constant_apply, Ideal.ofBits_one_f32]
  exact adj_entry E src dst hsrc hdst i j e
/-- The in-degree of node i is row i of the count matrix summed. -/
theorem cntTerm_apply (E : IVec S2x1048576 32) (i : Fin 1195) :
    cntTerm E (ix1 i) = ∑ j : Fin 1195, adjTerm E (ix2 i j) := by
  unfold cntTerm
  rw [hostReduceAdd_apply, Ideal.hostReduceAdd_single reducesTo_S1195x1195_S1195_d1 (by decide : S1195x1195.Reduces [1] S1195)]
  show Ideal.ofBits .f32 0x00000000#32 + _ = _
  rw [Ideal.ofBits_zero_f32, zero_add]
  refine Finset.sum_congr rfl fun k _ => congrArg (adjTerm E) ?_
  funext a
  refine Fin.ext ?_
  match a with
  | ⟨0, _⟩ => rfl
  | ⟨1, _⟩ => rfl

/-! ## One layer -/

/-- A product of a matrix by a matrix, contracting the left operand's columns with the right operand's rows. -/
theorem dotW_apply (x : FVec Ideal S1195x64 .f32) (Wt : FVec Ideal S64x64 .f32) (j : Fin 1195) (d : Fin 64) :
    Host.dotGeneral (F := Ideal) dot_S1195x64_S64x64_S1195x64_1_0_0_1_n_n none x Wt (ix2 j d) = ∑ k : Fin 64, x (ix2 j k) * Wt (ix2 k d) :=
  StackMember.dotGeneral_plain_apply (m := 1195) (n := 64) (k := 64) none x Wt j d

theorem dotA_apply (A : FVec Ideal S1195x1195 .f32) (M : FVec Ideal S1195x64 .f32) (i : Fin 1195) (d : Fin 64) :
    Host.dotGeneral (F := Ideal) dot_S1195x1195_S1195x64_S1195x64_1_0_0_1_n_n none A M (ix2 i d) = ∑ j : Fin 1195, A (ix2 i j) * M (ix2 j d) :=
  StackMember.dotGeneral_plain_apply (m := 1195) (n := 64) (k := 1195) none A M i d

/-- A vector laid along the columns of every row. -/
theorem brow_apply {α : Type} (b : S64.Idx → α) (j : Fin 1195) (d : Fin 64) :
    broadcastInDim S1195x64 ![0, 1] bcast_S1x64_S1195x64_0_1 (broadcastInDim S1x64 ![1] bcast_S64_S1x64_1 b) (ix2 j d) = b (ix1 d) := by
  refine (broadcastInDim_apply _ _ _ (ix2 j d) (ix2 (0 : Fin 1) d) fun a => ?_).trans
    (broadcastInDim_apply _ _ b (ix2 (0 : Fin 1) d) (ix1 d) fun a => ?_)
  · match a with
    | ⟨0, _⟩ => rfl
    | ⟨1, _⟩ => rfl
  · match a with
    | ⟨0, _⟩ => rfl

/-- A vector laid along the rows of every column. -/
theorem bcol_apply {α : Type} (v : S1195.Idx → α) (i : Fin 1195) (d : Fin 64) :
    broadcastInDim S1195x64 ![0, 1] bcast_S1195x1_S1195x64_0_1 (broadcastInDim S1195x1 ![0] bcast_S1195_S1195x1_0 v) (ix2 i d) = v (ix1 i) := by
  refine (broadcastInDim_apply _ _ _ (ix2 i d) (ix2 i (0 : Fin 1)) fun a => ?_).trans
    (broadcastInDim_apply _ _ v (ix2 i (0 : Fin 1)) (ix1 i) fun a => ?_)
  · match a with
    | ⟨0, _⟩ => rfl
    | ⟨1, _⟩ => rfl
  · match a with
    | ⟨0, _⟩ => rfl

/-- The degree, floored at one. -/
theorem maxone_apply (cnt : FVec Ideal S1195 .f32) (i : Fin 1195) :
    maximumf cnt (broadcastInDim S1195 ![] bcast_S_S1195 (constant (F := Ideal) S_ .f32 0x3F800000#32)) (ix1 i) = max (cnt (ix1 i)) 1 := by
  rw [maximumf_apply, broadcastInDim_scalar_apply, constant_apply, Ideal.ofBits_one_f32]

/-- The layer at an entry: tanh of the count-weighted sum of the messages over the floored degree. -/
theorem layerTerm_apply (x : FVec Ideal S1195x64 .f32) (A : FVec Ideal S1195x1195 .f32) (cnt : FVec Ideal S1195 .f32)
    (W : FVec Ideal S64x64 .f32) (b : FVec Ideal S64 .f32) (i : Fin 1195) (d : Fin 64) :
    layerTerm x A cnt W b (ix2 i d)
      = Ideal.tanh (Ideal.div (∑ j : Fin 1195, A (ix2 i j) * ((∑ k : Fin 64, x (ix2 j k) * W (ix2 d k)) + b (ix1 d))) (max (cnt (ix1 i)) 1)) := by
  unfold layerTerm
  show Ideal.tanh (Ideal.div (Host.dotGeneral (F := Ideal) _ none A _ (ix2 i d)) (broadcastInDim _ _ _ _ (ix2 i d))) = _
  rw [dotA_apply, bcol_apply, maxone_apply]
  refine congrArg (fun s => Ideal.tanh (Ideal.div s _)) (Finset.sum_congr rfl fun j _ => ?_)
  rw [addf_apply, dotW_apply, brow_apply]
  refine congrArg (fun s => A (ix2 i j) * (s + b (ix1 d))) (Finset.sum_congr rfl fun k _ => ?_)
  rw [transpose_ix2_apply]

/-- The layer over the count matrix of a graph is the specification's dense form. -/
theorem layerTerm_eq_gcnDense (x : FVec Ideal S1195x64 .f32) (E : IVec S2x1048576 32) (W : FVec Ideal S64x64 .f32) (b : FVec Ideal S64 .f32)
    (src dst : Fin Cert.Spec.nE → Fin 1195)
    (hsrc : ∀ e : Fin Cert.Spec.nE, (E (ix2 (0 : Fin 2) e)).toInt = ((src e).val : Int))
    (hdst : ∀ e : Fin Cert.Spec.nE, (E (ix2 (1 : Fin 2) e)).toInt = ((dst e).val : Int)) (i : Fin 1195) (d : Fin 64) :
    layerTerm x (adjTerm E) (cntTerm E) W b (ix2 i d)
      = Cert.Spec.gcnDense src dst (fun j k => x (ix2 j k)) (fun d k => W (ix2 d k)) (fun d => b (ix1 d)) i d := by
  unfold Cert.Spec.gcnDense Cert.Spec.msg
  rw [layerTerm_apply, cntTerm_apply]
  simp only [adjTerm_apply E src dst hsrc hdst]

/-! ## The buffers at an entry -/

/-- The looked-up rows: row i is the table's row at index i's value, for indices in range. -/
theorem take_apply (L : Valuation τ sig (Elt Ideal)) (xsF : Fin 1195 → Fin 1195)
    (hxs : ∀ i : Fin 1195, ((L (Proc.devRef .tc main_arg0) : S1195.Idx → BitVec 32) (ix1 i)).toInt = ((xsF i).val : Int)) (i : Fin 1195) (d : Fin 64) :
    (after hostOps0 L (Proc.devRef .tc main_v0) : S1195x64.Idx → EReal) (ix2 i d)
      = (L (Proc.devRef .tc main_arg7) : S1195x64.Idx → EReal) (ix2 (xsF i) d) :=
  (congrFun (v0_term L) (ix2 i d)).trans (takeTerm_apply _ _ xsF hxs i d)

/-- A layer's term with the operands the first stretch leaves alone read off the launch contents. -/
theorem layer_of_kept (x : FVec Ideal S1195x64 .f32) (E E' : IVec S2x1048576 32) (W W' : FVec Ideal S64x64 .f32) (b b' : FVec Ideal S64 .f32)
    (hE : E = E') (hW : W = W') (hb : b = b')
    (src dst : Fin Cert.Spec.nE → Fin 1195)
    (hsrc : ∀ e : Fin Cert.Spec.nE, (E' (ix2 (0 : Fin 2) e)).toInt = ((src e).val : Int))
    (hdst : ∀ e : Fin Cert.Spec.nE, (E' (ix2 (1 : Fin 2) e)).toInt = ((dst e).val : Int)) (i : Fin 1195) (d : Fin 64) :
    layerTerm x (adjTerm E) (cntTerm E) W b (ix2 i d)
      = Cert.Spec.gcnDense src dst (fun j k => x (ix2 j k)) (fun d k => W' (ix2 d k)) (fun d => b' (ix1 d)) i d := by
  subst hE hW hb
  exact layerTerm_eq_gcnDense x E W b src dst hsrc hdst i d

/-- The first layer's result is the dense layer of the looked-up rows with the first weights. -/
theorem layer1_apply (L : Valuation τ sig (Elt Ideal)) (src dst : Fin Cert.Spec.nE → Fin 1195)
    (hsrc : ∀ e : Fin Cert.Spec.nE, ((L (Proc.devRef .tc main_arg1) : S2x1048576.Idx → BitVec 32) (ix2 (0 : Fin 2) e)).toInt = ((src e).val : Int))
    (hdst : ∀ e : Fin Cert.Spec.nE, ((L (Proc.devRef .tc main_arg1) : S2x1048576.Idx → BitVec 32) (ix2 (1 : Fin 2) e)).toInt = ((dst e).val : Int))
    (i : Fin 1195) (d : Fin 64) :
    (after hostOps0_1 (after hostOps0 L) (Proc.devRef .tc main_v25) : S1195x64.Idx → EReal) (ix2 i d)
      = Cert.Spec.gcnDense src dst (fun j k => (after hostOps0 L (Proc.devRef .tc main_v0) : S1195x64.Idx → EReal) (ix2 j k))
          (fun d k => (L (Proc.devRef .tc main_arg8) : S64x64.Idx → EReal) (ix2 d k))
          (fun d => (L (Proc.devRef .tc main_arg9) : S64.Idx → EReal) (ix1 d)) i d :=
  (congrFun (v25_term (after hostOps0 L)) (ix2 i d)).trans
    (layer_of_kept _ _ _ _ _ _ _ (kept0_arg1 L) (kept0_arg8 L) (kept0_arg9 L) src dst hsrc hdst i d)

/-- The second layer's result is the dense layer of the first layer's result with the second weights. -/
theorem layer2_apply (L : Valuation τ sig (Elt Ideal)) (src dst : Fin Cert.Spec.nE → Fin 1195)
    (hsrc : ∀ e : Fin Cert.Spec.nE, ((L (Proc.devRef .tc main_arg1) : S2x1048576.Idx → BitVec 32) (ix2 (0 : Fin 2) e)).toInt = ((src e).val : Int))
    (hdst : ∀ e : Fin Cert.Spec.nE, ((L (Proc.devRef .tc main_arg1) : S2x1048576.Idx → BitVec 32) (ix2 (1 : Fin 2) e)).toInt = ((dst e).val : Int))
    (i : Fin 1195) (d : Fin 64) :
    (after hostOps0_1 (after hostOps0 L) (Proc.devRef .tc main_v37) : S1195x64.Idx → EReal) (ix2 i d)
      = Cert.Spec.gcnDense src dst (fun j k => (after hostOps0_1 (after hostOps0 L) (Proc.devRef .tc main_v25) : S1195x64.Idx → EReal) (ix2 j k))
          (fun d k => (L (Proc.devRef .tc main_arg10) : S64x64.Idx → EReal) (ix2 d k))
          (fun d => (L (Proc.devRef .tc main_arg11) : S64.Idx → EReal) (ix1 d)) i d :=
  (congrFun (v37_term (after hostOps0 L)) (ix2 i d)).trans
    (layer_of_kept _ _ _ _ _ _ _ (kept0_arg1 L) (kept0_arg10 L) (kept0_arg11 L) src dst hsrc hdst i d)

end Cert.KernelIdeal.KerGraph
-- ==== Proof.ChainEq.lean ====
/-
  The two programs normalise the node tables by the same operations.

  Before the head, each program cuts the rows 805 … 1194 and the rows 0 … 804 out of the two node tables x1 and h and
  forms, on each cut, x1 with every row over the larger of its Euclidean norm and a small constant plus h with every
  column over the larger of its Euclidean norm and the same constant. Both programs spell this with the same
  operations in the same order with the same constants over the same shapes; they differ only in which program's
  stated shape relations (a slice fits, a broadcast is admissible, an axis reduces) the operations cite, and those
  are proofs of propositions. So the two compositions are one function of the two tables, by unfolding alone: nothing
  is read at an entry.
-/
import proofs.«406313_j19000935318034_3_alg».proof.Proof.RefHead
import proofs.«406313_j19000935318034_3_alg».proof.Proof.KerChain

noncomputable section

namespace Cert.ChainEq

open Idealize.ShloMosaic

/-- On the rows 805 … 1194 the kernel program's composition is the reference's. -/
theorem esK_eq_esT (x1 h : FVec Ideal Cert.ReferenceIdeal.S1195x64 .f32) :
    Cert.KernelIdeal.Chain.esK (F := Ideal) x1 h = Cert.ReferenceIdeal.RefHead.esT (F := Ideal) x1 h := rfl

/-- On the rows 0 … 804 the kernel program's composition is the reference's. -/
theorem ehK_eq_ehT (x1 h : FVec Ideal Cert.ReferenceIdeal.S1195x64 .f32) :
    Cert.KernelIdeal.Chain.ehK (F := Ideal) x1 h = Cert.ReferenceIdeal.RefHead.ehT (F := Ideal) x1 h := rfl

end Cert.ChainEq

end
-- ==== Proof.SpecBN.lean ====
/-
  Batch normalisation's two forms agree at every entry, whatever the column holds.

  Fix a column d of z. Either every entry of the column is a real number, or some entry is ⊤ or ⊥.

  All real: with n = 16384 and μ = (∑ z) / n, the two variances are the same real number,
  (1/n) ∑ (z − μ)² = (1/n) ∑ z² − μ²; it is ≥ 0, so with ε > 0 the square root s = √(v + ε) is a positive
  real, a division by s is the product with 1/s, and
  ((z − μ) / s) · γ + β = z · (γ · (1/s)) + (β − μ · (γ · (1/s))) in ℝ.

  Some entry infinite: both forms give max β 0. The column's sum is ⊥ if an entry is ⊥ and ⊤ otherwise, so
  the mean is ⊤ or ⊥. Centred: every z − mean is ⊤ or ⊥, its square ⊤, the variance ⊤, its root ⊤, and a
  quotient by ⊤ is 0: 0 · γ + β = β. Moments: the mean of squares is ⊤ and mean² is ⊤, so the variance is
  ⊤ − ⊤ = ⊥, its root ⊥, 1 / ⊥ = 0, the scale is 0 and the shift is β − mean · 0 = β: z · 0 + β = β.
-/
import proofs.«406313_j19000935318034_3_alg».proof.Proof.Spec
import Mathlib.Data.EReal.Basic
import Mathlib.Data.EReal.Operations
import Mathlib.Data.EReal.Inv
import Mathlib.Algebra.BigOperators.Group.Finset.Basic
import Mathlib.Analysis.SpecialFunctions.Sqrt
import Mathlib.Tactic.Ring
import Mathlib.Tactic.NormNum

noncomputable section

namespace Cert.Spec

open Idealize.ShloMosaic
open scoped BigOperators

/-! ## Extended reals: the three kinds, and the corners of division and square root -/

/-- An extended real is a real number, or ⊤, or ⊥. -/
private theorem real_or_inf (x : EReal) : (∃ r : ℝ, x = (r : EReal)) ∨ x = ⊤ ∨ x = ⊥ := by
  induction x with
  | bot => exact Or.inr (Or.inr rfl)
  | coe a => exact Or.inl ⟨a, rfl⟩
  | top => exact Or.inr (Or.inl rfl)

/-- A quotient by ⊤ is 0. -/
private theorem div_top (x : EReal) : Ideal.div x ⊤ = 0 := by
  rw [Ideal.div, if_neg EReal.top_ne_zero, EReal.inv_top, mul_zero]

/-- A quotient by ⊥ is 0. -/
private theorem div_bot (x : EReal) : Ideal.div x ⊥ = 0 := by
  rw [Ideal.div, if_neg EReal.bot_ne_zero, EReal.inv_bot, mul_zero]

/-- Division by n = 16384 is the product with the real 1/n. -/
private theorem div_n (x : EReal) : Ideal.div x 16384 = x * ((1 / 16384 : ℝ) : EReal) := by
  have h : (16384 : EReal) = ((16384 : ℝ) : EReal) := by norm_cast
  rw [h, Ideal.div_coe (by norm_num)]

private theorem top_div_n : Ideal.div ⊤ 16384 = ⊤ := by
  rw [div_n, EReal.top_mul_coe_of_pos (by norm_num)]

private theorem bot_div_n : Ideal.div ⊥ 16384 = ⊥ := by
  rw [div_n, EReal.bot_mul_coe_of_pos (by norm_num)]

/-- A square is never ⊥. -/
private theorem mul_self_ne_bot (x : EReal) : x * x ≠ ⊥ := by
  induction x with
  | bot => simp
  | coe a => rw [← EReal.coe_mul]; exact EReal.coe_ne_bot _
  | top => simp

/-- The square of an infinity is ⊤. -/
private theorem mul_self_inf {x : EReal} (h : x = ⊤ ∨ x = ⊥) : x * x = ⊤ := by
  rcases h with h | h <;> rw [h]
  · exact EReal.top_mul_top
  · exact EReal.bot_mul_bot

/-! ## Sums of extended reals -/

section Sums

variable {ι : Type*}

/-- A sum with a ⊥ term is ⊥. -/
private theorem sum_eq_bot [DecidableEq ι] (s : Finset ι) (f : ι → EReal) {i : ι} (hi : i ∈ s) (h : f i = ⊥) :
    ∑ j ∈ s, f j = ⊥ := by
  rw [← Finset.add_sum_erase s f hi, h, EReal.bot_add]

/-- A sum of terms none of which is ⊥ is not ⊥. -/
private theorem sum_ne_bot [DecidableEq ι] (s : Finset ι) (f : ι → EReal) (h : ∀ j ∈ s, f j ≠ ⊥) :
    ∑ j ∈ s, f j ≠ ⊥ := by
  induction s using Finset.induction_on with
  | empty => simp
  | insert a s ha ih =>
    rw [Finset.sum_insert ha]
    intro hc
    rcases EReal.add_eq_bot_iff.1 hc with h1 | h1
    · exact h a (Finset.mem_insert_self a s) h1
    · exact ih (fun j hj => h j (Finset.mem_insert_of_mem hj)) h1

/-- A sum of terms none of which is ⊥ and one of which is ⊤ is ⊤. -/
private theorem sum_eq_top [DecidableEq ι] (s : Finset ι) (f : ι → EReal) (h : ∀ j ∈ s, f j ≠ ⊥) {i : ι} (hi : i ∈ s)
    (hi' : f i = ⊤) : ∑ j ∈ s, f j = ⊤ := by
  rw [← Finset.add_sum_erase s f hi, hi']
  exact EReal.top_add_of_ne_bot (sum_ne_bot _ _ (fun j hj => h j (Finset.mem_of_mem_erase hj)))

/-- A sum of real numbers, read in the extended reals, is the real sum. -/
private theorem sum_coe [DecidableEq ι] (s : Finset ι) (f : ι → ℝ) :
    ∑ j ∈ s, (f j : EReal) = ((∑ j ∈ s, f j : ℝ) : EReal) := by
  induction s using Finset.induction_on with
  | empty => simp
  | insert a s ha ih => rw [Finset.sum_insert ha, Finset.sum_insert ha, ih, EReal.coe_add]

end Sums

/-! ## A column with an infinite entry -/

/-- The mean of a column with an infinite entry is infinite. -/
private theorem mean_inf (z : Fin 16384 → Fin 64 → EReal) (d : Fin 64) (r₀ : Fin 16384)
    (h₀ : z r₀ d = ⊤ ∨ z r₀ d = ⊥) : mean z d = ⊤ ∨ mean z d = ⊥ := by
  unfold mean
  by_cases hb : ∃ r', z r' d = ⊥
  · obtain ⟨r', hr'⟩ := hb
    right
    rw [sum_eq_bot Finset.univ (fun r => z r d) (Finset.mem_univ r') hr', bot_div_n]
  · left
    have hnb : ∀ r', z r' d ≠ ⊥ := fun r' hr' => hb ⟨r', hr'⟩
    have htop : z r₀ d = ⊤ := h₀.resolve_right (hnb r₀)
    rw [sum_eq_top Finset.univ (fun r => z r d) (fun j _ => hnb j) (Finset.mem_univ r₀) htop, top_div_n]

/-- Minus an infinity, everything is an infinity; so the square of the difference is ⊤. -/
private theorem sub_inf_sq {m : EReal} (hm : m = ⊤ ∨ m = ⊥) (x : EReal) : (x - m) * (x - m) = ⊤ := by
  apply mul_self_inf
  rcases hm with hm | hm <;> rw [hm]
  · right; exact EReal.sub_top x
  · by_cases hx : x = ⊥
    · right; rw [hx]; exact EReal.bot_sub ⊥
    · left; rw [sub_eq_add_neg, EReal.neg_bot]; exact EReal.add_top_of_ne_bot hx

/-- The centred variance of a column with an infinite entry is ⊤. -/
private theorem varR_inf (z : Fin 16384 → Fin 64 → EReal) (d : Fin 64) (r₀ : Fin 16384)
    (h₀ : z r₀ d = ⊤ ∨ z r₀ d = ⊥) : varR z d = ⊤ := by
  have hm := mean_inf z d r₀ h₀
  unfold varR
  rw [sum_eq_top Finset.univ (fun r => (z r d - mean z d) * (z r d - mean z d))
    (fun j _ => by rw [sub_inf_sq hm]; exact top_ne_bot) (Finset.mem_univ r₀) (sub_inf_sq hm _), top_div_n]

/-- The moment variance of a column with an infinite entry is ⊥: ⊤ − ⊤. -/
private theorem varK_inf (z : Fin 16384 → Fin 64 → EReal) (d : Fin 64) (r₀ : Fin 16384)
    (h₀ : z r₀ d = ⊤ ∨ z r₀ d = ⊥) : varK z d = ⊥ := by
  have hm := mean_inf z d r₀ h₀
  unfold varK
  rw [sum_eq_top Finset.univ (fun r => z r d * z r d) (fun j _ => mul_self_ne_bot _) (Finset.mem_univ r₀)
    (mul_self_inf h₀), top_div_n, mul_self_inf hm]
  exact EReal.sub_top ⊤

/-- The centred form on a column with an infinite entry: max β 0. -/
private theorem bnR_inf (z : Fin 16384 → Fin 64 → EReal) (g be : Fin 64 → EReal) (eps : EReal)
    (heps : ∃ r : ℝ, eps = (r : EReal) ∧ 0 < r) (r : Fin 16384) (d : Fin 64) (r₀ : Fin 16384)
    (h₀ : z r₀ d = ⊤ ∨ z r₀ d = ⊥) : bnR z g be eps r d = max (be d) 0 := by
  obtain ⟨e, he, _⟩ := heps
  unfold bnR
  rw [varR_inf z d r₀ h₀, he, EReal.top_add_coe, Ideal.sqrt_top, div_top, zero_mul, zero_add]

/-- The moment form on a column with an infinite entry: max β 0. -/
private theorem bnK_inf (z : Fin 16384 → Fin 64 → EReal) (g be : Fin 64 → EReal) (eps : EReal)
    (r : Fin 16384) (d : Fin 64) (r₀ : Fin 16384)
    (h₀ : z r₀ d = ⊤ ∨ z r₀ d = ⊥) : bnK z g be eps r d = max (be d) 0 := by
  unfold bnK shiftK scaleK
  rw [varK_inf z d r₀ h₀, EReal.bot_add, Ideal.sqrt_bot, div_bot, mul_zero, mul_zero, mul_zero, sub_zero, zero_add]

/-! ## A column of real numbers -/

/-- The two variances of a real column are the same real number. -/
private theorem var_real (f : Fin 16384 → ℝ) :
    (∑ r, (f r - (∑ r, f r) * (1 / 16384)) * (f r - (∑ r, f r) * (1 / 16384))) * (1 / 16384)
      = (∑ r, f r * f r) * (1 / 16384) - ((∑ r, f r) * (1 / 16384)) * ((∑ r, f r) * (1 / 16384)) := by
  generalize hμ : (∑ r, f r) * (1 / 16384 : ℝ) = μ
  have hB : ∑ r, f r = 16384 * μ := by rw [← hμ]; ring
  have hsq : ∀ r, (f r - μ) * (f r - μ) = f r * f r - 2 * μ * f r + μ * μ := fun r => by ring
  simp only [hsq]
  rw [Finset.sum_add_distrib, Finset.sum_sub_distrib, ← Finset.mul_sum, Finset.sum_const, Finset.card_univ,
    Fintype.card_fin, nsmul_eq_mul, hB]
  push_cast
  ring

/-- The two forms on a column of real numbers. -/
private theorem bn_real (z : Fin 16384 → Fin 64 → EReal) (g be : Fin 64 → EReal) (eps : EReal)
    (hg : ∀ d, IsReal (g d)) (hbe : ∀ d, IsReal (be d)) (heps : ∃ r : ℝ, eps = (r : EReal) ∧ 0 < r)
    (r : Fin 16384) (d : Fin 64) (hz : ∀ r', ∃ x : ℝ, z r' d = (x : EReal)) :
    bnK z g be eps r d = bnR z g be eps r d := by
  obtain ⟨e, he, hepos⟩ := heps
  obtain ⟨γ, hγ⟩ := hg d
  obtain ⟨β, hβ⟩ := hbe d
  choose f hf using hz
  -- the mean and the two variances as real numbers
  have hmean : mean z d = (((∑ r, f r) * (1 / 16384) : ℝ) : EReal) := by
    simp only [mean, hf]
    rw [sum_coe, div_n, ← EReal.coe_mul]
  have hvarR : varR z d = (((∑ r, (f r - (∑ r, f r) * (1 / 16384)) * (f r - (∑ r, f r) * (1 / 16384)))
      * (1 / 16384) : ℝ) : EReal) := by
    simp only [varR, hmean, hf, ← EReal.coe_sub, ← EReal.coe_mul]
    rw [sum_coe, div_n, ← EReal.coe_mul]
  have hvarK : varK z d = varR z d := by
    rw [hvarR, var_real]
    simp only [varK, hmean, hf, ← EReal.coe_mul]
    rw [sum_coe, div_n, ← EReal.coe_mul, ← EReal.coe_sub]
  -- the variance is ≥ 0, so the root of v + ε is a positive real
  set v : ℝ := (∑ r, (f r - (∑ r, f r) * (1 / 16384)) * (f r - (∑ r, f r) * (1 / 16384))) * (1 / 16384) with hv
  have hv0 : 0 ≤ v := mul_nonneg (Finset.sum_nonneg (fun i _ => mul_self_nonneg _)) (by norm_num)
  have hpos : 0 < v + e := by linarith
  have hs : 0 < Real.sqrt (v + e) := Real.sqrt_pos.2 hpos
  have hsqrt : Ideal.sqrt (varR z d + eps) = ((Real.sqrt (v + e) : ℝ) : EReal) := by
    rw [hvarR, he, ← EReal.coe_add, Ideal.sqrt_coe, if_neg (not_lt.2 hpos.le)]
  unfold bnK shiftK scaleK bnR
  rw [hvarK, hsqrt, hmean, hf r, hγ, hβ, Ideal.div_coe hs.ne', Ideal.div_coe hs.ne', one_mul]
  simp only [← EReal.coe_mul, ← EReal.coe_sub, ← EReal.coe_add]
  congr 2
  ring

/-! ## The two forms agree -/

/-- Batch normalisation through the moments is batch normalisation in centred form, on every column. -/
theorem bnK_eq_bnR (z : Fin 16384 → Fin 64 → EReal) (g be : Fin 64 → EReal) (eps : EReal)
    (hg : ∀ d, IsReal (g d)) (hbe : ∀ d, IsReal (be d)) (heps : ∃ r : ℝ, eps = (r : EReal) ∧ 0 < r)
    (r : Fin 16384) (d : Fin 64) : bnK z g be eps r d = bnR z g be eps r d := by
  by_cases hz : ∀ r', ∃ x : ℝ, z r' d = (x : EReal)
  · exact bn_real z g be eps hg hbe heps r d hz
  · rw [not_forall] at hz
    obtain ⟨r₀, hr₀⟩ := hz
    have h₀ : z r₀ d = ⊤ ∨ z r₀ d = ⊥ := by
      rcases real_or_inf (z r₀ d) with ⟨x, hx⟩ | h
      · exact absurd ⟨x, hx⟩ hr₀
      · exact h
    rw [bnK_inf z g be eps r d r₀ h₀, bnR_inf z g be eps heps r d r₀ h₀]

end Cert.Spec

end
-- ==== Proof.SpecBridge.lean ====
/-
  The two forms of the whole computation agree, at the level of the specification.

  Two stacked graph-convolution layers through the edge-count matrix equal the same two layers edge by edge as soon
  as the embedding table, the weights and the biases are real numbers: the first layer's output is a tanh, hence
  real, so the second layer meets real inputs again. The head's two batch-normalisation forms agree for every z
  (its entries may be infinite), so the two results agree.
-/
import proofs.«406313_j19000935318034_3_alg».proof.Proof.Spec
import proofs.«406313_j19000935318034_3_alg».proof.Proof.SpecGraph
import proofs.«406313_j19000935318034_3_alg».proof.Proof.SpecBN

noncomputable section

namespace Cert.Spec

open Idealize.ShloMosaic
open scoped BigOperators

/-- One layer's output is real whatever it is fed: it is a tanh. -/
theorem gcnScatter_isReal (src dst : Fin nE → Fin 1195) (x : Fin 1195 → Fin 64 → EReal) (W : Fin 64 → Fin 64 → EReal)
    (b : Fin 64 → EReal) (i : Fin 1195) (d : Fin 64) : IsReal (gcnScatter src dst x W b i d) :=
  tanh_isReal _

/-- Two layers through the edge-count matrix are the two layers edge by edge, on real inputs. -/
theorem gcnDense2_eq_gcnScatter2 (src dst : Fin nE → Fin 1195) {x : Fin 1195 → Fin 64 → EReal}
    {W1 W2 : Fin 64 → Fin 64 → EReal} {b1 b2 : Fin 64 → EReal}
    (hx : ∀ j k, IsReal (x j k)) (hW1 : ∀ d k, IsReal (W1 d k)) (hb1 : ∀ d, IsReal (b1 d))
    (hW2 : ∀ d k, IsReal (W2 d k)) (hb2 : ∀ d, IsReal (b2 d)) (i : Fin 1195) (d : Fin 64) :
    gcnDense src dst (gcnDense src dst x W1 b1) W2 b2 i d = gcnScatter src dst (gcnScatter src dst x W1 b1) W2 b2 i d := by
  have h1 : gcnDense src dst x W1 b1 = gcnScatter src dst x W1 b1 :=
    funext fun i => funext fun d => gcnDense_eq_gcnScatter src dst hx hW1 hb1 i d
  rw [h1]
  exact gcnDense_eq_gcnScatter src dst (fun j k => gcnScatter_isReal src dst x W1 b1 j k) hW2 hb2 i d

/-- The two results agree: the normalised rows agree entry by entry. -/
theorem out_bnK_eq_out_bnR (z : Fin 16384 → Fin 64 → EReal) (g be : Fin 64 → EReal) (eps : EReal)
    (hg : ∀ d, IsReal (g d)) (hbe : ∀ d, IsReal (be d)) (heps : ∃ r : ℝ, eps = (r : EReal) ∧ 0 < r)
    (eh : Fin 805 → Fin 64 → EReal) (r : Fin 16384) (u : Fin 805) :
    out (bnK z g be eps) eh r u = out (bnR z g be eps) eh r u := by
  unfold out
  exact Finset.sum_congr rfl fun d _ => by rw [bnK_eq_bnR z g be eps hg hbe heps r d]

end Cert.Spec

end
-- ==== Proof.PreFacts.lean ====
/-
  The printed precondition, decoded. The precondition is the conjunction of fourteen "for all entries" tests, each
  a reduction by "and" of an entrywise comparison: for each of the ten float arrays, |x| < +∞ at every entry; for
  each of the two index arrays that the programs read, 0 ≤ x and x < 1195 at every entry, the words read signed.
  A conjunction of one-bit words that is 1 has every conjunct 1; a reduction by "and" that is 1 met only 1s; and at
  one entry, |x| < +∞ on the extended reals says x is neither infinity, that is, x is a real number, while the
  signed comparisons say what they say of the words' signed values.
-/
import proofs.«406313_j19000935318034_3_alg».proof.Pre_finite_inputs
import proofs.«406313_j19000935318034_3_alg».proof.Proof.Spec
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx
open Cert.Pre_finite_inputs

/-- The scalar shape has one index. -/
instance : Subsingleton S_.Idx := ⟨fun a b => funext fun d => d.elim0⟩

/-! ## One entry -/

/-- The f32 pattern 0x7F800000 denotes +∞. -/
theorem ofBits_inf : Ideal.ofBits .f32 0x7F800000#32 = (⊤ : EReal) := by simp [Ideal.ofBits, Ideal.ieee]

/-- |x| < +∞ says that x is a real number: −∞ has |x| = +∞, and so has +∞. -/
theorem isReal_of_abs_lt_inf (x : EReal)
    (h : Ideal.cmp .olt (max x (-x)) (Ideal.ofBits .f32 0x7F800000#32) = 1#1) : Cert.Spec.IsReal x := by
  rw [ofBits_inf] at h
  have h' : max x (-x) < ⊤ := by
    simpa [Ideal.cmp, StableHlo.Predicate.ofBool_eq_one_iff] using h
  induction x using EReal.rec with
  | bot => simp at h'
  | coe r => exact ⟨r, rfl⟩
  | top => simp at h'

/-- A conjunction of two one-bit arrays, read at an index, is 1 exactly when both entries are. -/
theorem andi_apply_eq_one {s : Shape} (x y : IVec s 1) (i : s.Idx) : andi x y i = 1#1 ↔ x i = 1#1 ∧ y i = 1#1 :=
  IntOp.andi_eq_one

/-! ## One "for all entries" test, at any shape -/

section All
variable {s : Shape} {axes : List (Fin s.rank)}

/-- All entries pass |x| < +∞: every entry is a real number. -/
theorem allReal (x : FVec Ideal s .f32) (hb : S_.BroadcastsInDim s (![] : Fin 0 → Fin s.rank)) (hr : s.ReducesTo axes S_)
    (hu : 0 < S_.numel) (init : IVec S_ 1) (j : S_.Idx)
    (e : Host.reduce IntOp.andi
          (cmpf .olt (Host.absf x) (broadcastInDim s ![] hb (constant (F := Ideal) S_ .f32 0x7F800000#32))) init hr hu j = 1#1) :
    ∀ i, Cert.Spec.IsReal (x i) := fun i =>
  isReal_of_abs_lt_inf (x i) (Host.reduce_andi_all _ init hr hu j e i)

/-- All entries pass x ≥ 0, signed: every entry's signed value is nonnegative. -/
theorem allNonneg (x : IVec s 32) (hb : S_.BroadcastsInDim s (![] : Fin 0 → Fin s.rank)) (hr : s.ReducesTo axes S_)
    (hu : 0 < S_.numel) (init : IVec S_ 1) (j : S_.Idx)
    (e : Host.reduce IntOp.andi (cmpi .sge x (broadcastInDim s ![] hb (constantI S_ 32 0#32))) init hr hu j = 1#1) :
    ∀ i, 0 ≤ (x i).toInt := fun i => by
  have h : IntOp.cmpi .sge (x i) 0#32 = 1#1 := Host.reduce_andi_all _ init hr hu j e i
  rw [IntOp.cmpi_sge] at h
  exact h

/-- All entries pass x < n, signed, for a bound n below 2³¹: every entry's signed value is below n. -/
theorem allBelow (n : ℕ) (hn : n < 2 ^ 31) (x : IVec s 32) (hb : S_.BroadcastsInDim s (![] : Fin 0 → Fin s.rank))
    (hr : s.ReducesTo axes S_) (hu : 0 < S_.numel) (init : IVec S_ 1) (j : S_.Idx)
    (e : Host.reduce IntOp.andi (cmpi .slt x (broadcastInDim s ![] hb (constantI S_ 32 (BitVec.ofNat 32 n)))) init hr hu j = 1#1) :
    ∀ i, (x i).toInt < n := fun i => by
  have h : IntOp.cmpi .slt (x i) (BitVec.ofNat 32 n) = 1#1 := Host.reduce_andi_all _ init hr hu j e i
  rw [IntOp.cmpi_slt, StableHlo.Predicate.toInt_ofNat_small n hn] at h
  exact h

end All

/-! ## The precondition -/

variable [Cert.Pre_finite_inputs.Facts]

/-- The precondition holds: the ten float arrays hold real numbers, and the two index arrays hold node numbers. -/
theorem facts_of_pre (a0 : IVec S1195 32) (a1 : IVec S2x1048576 32) (a2 : IVec S805 32) (a3 : IVec S2x4096 32) (a4 : IVec S390 32) (a5 : IVec S2x4096 32)
    (a6 : FVec Ideal S16384x390 .f32) (a7 : FVec Ideal S1195x64 .f32) (a8 : FVec Ideal S64x64 .f32) (a9 : FVec Ideal S64 .f32) (a10 : FVec Ideal S64x64 .f32) (a11 : FVec Ideal S64 .f32)
    (a12 : FVec Ideal S64x64 .f32) (a13 : FVec Ideal S64 .f32) (a14 : FVec Ideal S64 .f32) (a15 : FVec Ideal S64 .f32)
    (h : Cert.Pre_finite_inputs.fn (F := Ideal) a0 a1 a2 a3 a4 a5 a6 a7 a8 a9 a10 a11 a12 a13 a14 a15 = (fun _ => 1#1)) :
    (∀ i, Cert.Spec.IsReal (a6 i)) ∧ (∀ i, Cert.Spec.IsReal (a7 i)) ∧ (∀ i, Cert.Spec.IsReal (a8 i)) ∧ (∀ i, Cert.Spec.IsReal (a9 i)) ∧ (∀ i, Cert.Spec.IsReal (a10 i))
    ∧ (∀ i, Cert.Spec.IsReal (a11 i)) ∧ (∀ i, Cert.Spec.IsReal (a12 i)) ∧ (∀ i, Cert.Spec.IsReal (a13 i)) ∧ (∀ i, Cert.Spec.IsReal (a14 i)) ∧ (∀ i, Cert.Spec.IsReal (a15 i))
    ∧ (∀ i, 0 ≤ (a0 i).toInt ∧ (a0 i).toInt < 1195) ∧ (∀ i, 0 ≤ (a1 i).toInt ∧ (a1 i).toInt < 1195) := by
  have e := congrFun h ix0
  dsimp only [fn, fn_part1, fn_part2, fn_part3] at e
  simp only [andi_apply_eq_one] at e
  obtain ⟨⟨⟨⟨⟨⟨⟨⟨⟨⟨⟨⟨⟨h6, h7⟩, h8⟩, h9⟩, h10⟩, h11⟩, h12⟩, h13⟩, h14⟩, h15⟩, h0lo⟩, h0hi⟩, h1lo⟩, h1hi⟩ := e
  exact ⟨allReal _ _ _ _ _ _ h6, allReal _ _ _ _ _ _ h7, allReal _ _ _ _ _ _ h8, allReal _ _ _ _ _ _ h9,
    allReal _ _ _ _ _ _ h10, allReal _ _ _ _ _ _ h11, allReal _ _ _ _ _ _ h12, allReal _ _ _ _ _ _ h13,
    allReal _ _ _ _ _ _ h14, allReal _ _ _ _ _ _ h15,
    fun i => ⟨allNonneg _ _ _ _ _ _ h0lo i, allBelow 1195 (by decide) _ _ _ _ _ _ h0hi i⟩,
    fun i => ⟨allNonneg _ _ _ _ _ _ h1lo i, allBelow 1195 (by decide) _ _ _ _ _ _ h1hi i⟩⟩

end Cert.PreFacts

end
-- ==== Proof.Bridge.lean ====
/-
  The algebraic claim: the idealized kernel program and the idealized reference, run from memories that agree on the
  sixteen arguments, end with equal result arrays.

  Under the precondition the float arguments are real numbers and the two index arguments lie in [0, 1195), which gives
  the lookup's index map and the edges' src and dst as functions into the 1195 nodes. Then, entry by entry: the two
  embedding lookups read the same rows; the kernel's two dense graph layers equal the reference's two edge-by-edge
  layers (real inputs; the first layer's tanh is real again); so both programs feed the SAME arrays to the shared
  normalisation chain, which is one function on both sides; so z, es and eh agree; and the kernel's moment form of the
  batch normalisation equals the reference's centred form for every z. The kernel's result array is read off its last
  segment boundary, the reference's off its run.
-/
import proofs.«406313_j19000935318034_3_alg».proof.Defs
import proofs.«406313_j19000935318034_3_alg».proof.Proof.KerValue
import proofs.«406313_j19000935318034_3_alg».proof.Proof.RefRun
import proofs.«406313_j19000935318034_3_alg».proof.Proof.RefHead
import proofs.«406313_j19000935318034_3_alg».proof.Proof.RefSpec
import proofs.«406313_j19000935318034_3_alg».proof.Proof.KerGraph
import proofs.«406313_j19000935318034_3_alg».proof.Proof.ChainEq
import proofs.«406313_j19000935318034_3_alg».proof.Proof.SpecBridge
import proofs.«406313_j19000935318034_3_alg».proof.Proof.PreFacts
import proofs.«406313_j19000935318034_3_alg».proof.Proof.Gen.Pre_finite_inputs
import Idealize.ShloMosaic.Lib.ValueIdx

noncomputable section

open Idealize.ShloMosaic Idealize.ShloMosaic.TcCoe Idealize.ShloMosaic.ValueIdx Idealize.ShloMosaic.StableHlo Idealize.SL.Sem
open scoped BigOperators

namespace Cert.Proof.Bridge

/-- An in-range 32-bit word as an index below 1195. -/
def finOf (x : BitVec 32) (h : 0 ≤ x.toInt ∧ x.toInt < 1195) : Fin 1195 := ⟨x.toInt.toNat, by omega⟩

theorem finOf_val (x : BitVec 32) (h : 0 ≤ x.toInt ∧ x.toInt < 1195) : x.toInt = ((finOf x h).val : Int) := by
  unfold finOf; simp only; omega

section
variable (m : (ℓ : Loc Cert.KernelIdeal.nD Cert.KernelIdeal.τ Cert.KernelIdeal.sig) → Buf (Elt Ideal) ℓ) (ρ : Dev Cert.KernelIdeal.nD → PrngReg)
variable (c : Dev Cert.KernelIdeal.nD)

/-- The kernel program's arguments at launch, at their literal types. -/
abbrev k0 : IVec Cert.KernelIdeal.S1195 32 := m ((c : Thread Cert.KernelIdeal.nD Cert.KernelIdeal.τ).loc Cert.KernelIdeal.main_arg0)
abbrev k1 : IVec Cert.KernelIdeal.S2x1048576 32 := m ((c : Thread Cert.KernelIdeal.nD Cert.KernelIdeal.τ).loc Cert.KernelIdeal.main_arg1)
abbrev k7 : FVec Ideal Cert.KernelIdeal.S1195x64 .f32 := m ((c : Thread Cert.KernelIdeal.nD Cert.KernelIdeal.τ).loc Cert.KernelIdeal.main_arg7)

end

section Value

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The two programs' result arrays are equal, entry by entry: the reference's through its run's composed term, the
    kernel's through what its second call leaves; both are the specification's result, the one in the centred form of
    the batch normalisation over edge-by-edge graph layers, the other in the moment form over dense ones. -/
theorem value_eq (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧       m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧       m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧       m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧       m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧       m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧       m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧       m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (c : Dev Cert.KernelIdeal.nD) :
    (after (Cert.ReferenceIdeal.RefRun.ops (F := Ideal)) (launchContents m' c) (Proc.devRef .tc Cert.ReferenceIdeal.main_v134) : Cert.ReferenceIdeal.S16384x805.Idx → EReal)
      = Cert.KernelIdeal.Gen.W5 m ρ c (Proc.devRef .tc Cert.KernelIdeal.main_v102) := by
  -- the decoded precondition: the float arguments are real, the two index arguments are in range
  obtain ⟨h6, h7, h8, h9, h10, h11, h12, h13, h14, h15, hr0, hr1⟩ :=
    Cert.PreFacts.facts_of_pre _ _ _ _ _ _ _ _ _ _ _ _ _ _ _ _ (hpre c)
  -- the index maps
  let xsF : Fin 1195 → Fin 1195 := fun i => finOf _ (hr0 (ix1 i))
  let src : Fin Cert.Spec.nE → Fin 1195 := fun e => finOf _ (hr1 (ix2 (0 : Fin 2) e))
  let dst : Fin Cert.Spec.nE → Fin 1195 := fun e => finOf _ (hr1 (ix2 (1 : Fin 2) e))
  -- the launch valuations
  set L' := launchContents m' c with hL'
  -- the reference's arguments are the kernel's
  have e0 : Cert.ReferenceIdeal.RefSpec.a0 L' = m ((c : Thread Cert.KernelIdeal.nD Cert.KernelIdeal.τ).loc Cert.KernelIdeal.main_arg0) := (hagree c).1
  have e1 : Cert.ReferenceIdeal.RefSpec.a1 L' = m ((c : Thread Cert.KernelIdeal.nD Cert.KernelIdeal.τ).loc Cert.KernelIdeal.main_arg1) := (hagree c).2.1
  have e6 : Cert.ReferenceIdeal.RefSpec.a6 L' = m ((c : Thread Cert.KernelIdeal.nD Cert.KernelIdeal.τ).loc Cert.KernelIdeal.main_arg6) := (hagree c).2.2.2.2.2.2.1
  have e7 : Cert.ReferenceIdeal.RefSpec.a7 L' = m ((c : Thread Cert.KernelIdeal.nD Cert.KernelIdeal.τ).loc Cert.KernelIdeal.main_arg7) := (hagree c).2.2.2.2.2.2.2.1
  have e8 : Cert.ReferenceIdeal.RefSpec.a8 L' = m ((c : Thread Cert.KernelIdeal.nD Cert.KernelIdeal.τ).loc Cert.KernelIdeal.main_arg8) := (hagree c).2.2.2.2.2.2.2.2.1
  have e9 : Cert.ReferenceIdeal.RefSpec.a9 L' = m ((c : Thread Cert.KernelIdeal.nD Cert.KernelIdeal.τ).loc Cert.KernelIdeal.main_arg9) := (hagree c).2.2.2.2.2.2.2.2.2.1
  have e10 : Cert.ReferenceIdeal.RefSpec.a10 L' = m ((c : Thread Cert.KernelIdeal.nD Cert.KernelIdeal.τ).loc Cert.KernelIdeal.main_arg10) := (hagree c).2.2.2.2.2.2.2.2.2.2.1
  have e11 : Cert.ReferenceIdeal.RefSpec.a11 L' = m ((c : Thread Cert.KernelIdeal.nD Cert.KernelIdeal.τ).loc Cert.KernelIdeal.main_arg11) := (hagree c).2.2.2.2.2.2.2.2.2.2.2.1
  have e12 : Cert.ReferenceIdeal.RefSpec.a12 L' = m ((c : Thread Cert.KernelIdeal.nD Cert.KernelIdeal.τ).loc Cert.KernelIdeal.main_arg12) := (hagree c).2.2.2.2.2.2.2.2.2.2.2.2.1
  have e13 : Cert.ReferenceIdeal.RefSpec.a13 L' = m ((c : Thread Cert.KernelIdeal.nD Cert.KernelIdeal.τ).loc Cert.KernelIdeal.main_arg13) := (hagree c).2.2.2.2.2.2.2.2.2.2.2.2.2.1
  have e14 : Cert.ReferenceIdeal.RefSpec.a14 L' = m ((c : Thread Cert.KernelIdeal.nD Cert.KernelIdeal.τ).loc Cert.KernelIdeal.main_arg14) := (hagree c).2.2.2.2.2.2.2.2.2.2.2.2.2.2.1
  have e15 : Cert.ReferenceIdeal.RefSpec.a15 L' = m ((c : Thread Cert.KernelIdeal.nD Cert.KernelIdeal.τ).loc Cert.KernelIdeal.main_arg15) := (hagree c).2.2.2.2.2.2.2.2.2.2.2.2.2.2.2
  -- the index hypotheses, on both sides
  have hxsK : ∀ i : Fin 1195, ((Cert.KernelIdeal.Gen.W0 m ρ c (Proc.devRef .tc Cert.KernelIdeal.main_arg0) : Cert.KernelIdeal.S1195.Idx → BitVec 32) (ix1 i)).toInt = ((xsF i).val : Int) :=
    fun i => finOf_val _ _
  have hsrcK : ∀ e : Fin Cert.Spec.nE, ((Cert.KernelIdeal.Gen.W0 m ρ c (Proc.devRef .tc Cert.KernelIdeal.main_arg1) : Cert.KernelIdeal.S2x1048576.Idx → BitVec 32) (ix2 (0 : Fin 2) e)).toInt = ((src e).val : Int) :=
    fun e => finOf_val _ _
  have hdstK : ∀ e : Fin Cert.Spec.nE, ((Cert.KernelIdeal.Gen.W0 m ρ c (Proc.devRef .tc Cert.KernelIdeal.main_arg1) : Cert.KernelIdeal.S2x1048576.Idx → BitVec 32) (ix2 (1 : Fin 2) e)).toInt = ((dst e).val : Int) :=
    fun e => finOf_val _ _
  have hxsR : ∀ i : Fin 1195, (Cert.ReferenceIdeal.RefSpec.a0 L' (ix1 i)).toInt = ((xsF i).val : Int) := fun i => by rw [e0]; exact finOf_val _ _
  have hsrcR : ∀ e : Fin Cert.Spec.nE, (Cert.ReferenceIdeal.RefSpec.a1 L' (ix2 (0 : Fin 2) e)).toInt = ((src e).val : Int) := fun e => by rw [e1]; exact finOf_val _ _
  have hdstR : ∀ e : Fin Cert.Spec.nE, (Cert.ReferenceIdeal.RefSpec.a1 L' (ix2 (1 : Fin 2) e)).toInt = ((dst e).val : Int) := fun e => by rw [e1]; exact finOf_val _ _
  -- the embedding lookups agree
  have hx1 : Cert.ReferenceIdeal.RefSpec.x1R L' = Cert.KernelIdeal.KerValue.x1K m ρ c := by
    funext y
    obtain ⟨i, d, rfl⟩ : ∃ (i : Fin 1195) (d : Fin 64), y = ix2 i d := ⟨y 0, y 1, eq_ix2 y⟩
    rw [Cert.ReferenceIdeal.RefSpec.x1R_apply L' xsF hxsR i d, e7]
    unfold Cert.KernelIdeal.KerValue.x1K
    rw [show Cert.KernelIdeal.Gen.W2 m ρ c (Proc.devRef .tc Cert.KernelIdeal.main_v0) = after Cert.KernelIdeal.Gen.hostOps0 (Cert.KernelIdeal.Gen.W0 m ρ c) (Proc.devRef .tc Cert.KernelIdeal.main_v0) from
      Cert.KernelIdeal.KerGraph.v0_kept (Cert.KernelIdeal.Gen.W0 m ρ c)]
    exact (Cert.KernelIdeal.KerGraph.take_apply (Cert.KernelIdeal.Gen.W0 m ρ c) xsF hxsK i d).symm
  -- the lookup's entries are real numbers
  have hxr : ∀ (j : Fin 1195) (k : Fin 64), Cert.Spec.IsReal ((m ((c : Thread Cert.KernelIdeal.nD Cert.KernelIdeal.τ).loc Cert.KernelIdeal.main_arg7) : Cert.KernelIdeal.S1195x64.Idx → EReal) (ix2 (xsF j) k)) := fun j k => h7 _
  -- the lookup, read through the index map, on both sides
  have hin1 : (fun (j : Fin 1195) (k : Fin 64) => (after Cert.KernelIdeal.Gen.hostOps0 (Cert.KernelIdeal.Gen.W0 m ρ c) (Proc.devRef .tc Cert.KernelIdeal.main_v0) : Cert.KernelIdeal.S1195x64.Idx → EReal) (ix2 j k))
      = fun j k => (m ((c : Thread Cert.KernelIdeal.nD Cert.KernelIdeal.τ).loc Cert.KernelIdeal.main_arg7) : Cert.KernelIdeal.S1195x64.Idx → EReal) (ix2 (xsF j) k) :=
    funext fun j => funext fun k => Cert.KernelIdeal.KerGraph.take_apply (Cert.KernelIdeal.Gen.W0 m ρ c) xsF hxsK j k
  have hinR : (fun (j : Fin 1195) (k : Fin 64) => Cert.ReferenceIdeal.RefSpec.x1R L' (ix2 j k))
      = fun j k => (m ((c : Thread Cert.KernelIdeal.nD Cert.KernelIdeal.τ).loc Cert.KernelIdeal.main_arg7) : Cert.KernelIdeal.S1195x64.Idx → EReal) (ix2 (xsF j) k) :=
    funext fun j => funext fun k => by rw [Cert.ReferenceIdeal.RefSpec.x1R_apply L' xsF hxsR j k, e7]
  -- the first layer's output on the kernel's side
  have hin2 : (fun (j : Fin 1195) (k : Fin 64) => (after Cert.KernelIdeal.Gen.hostOps0_1 (after Cert.KernelIdeal.Gen.hostOps0 (Cert.KernelIdeal.Gen.W0 m ρ c)) (Proc.devRef .tc Cert.KernelIdeal.main_v25) : Cert.KernelIdeal.S1195x64.Idx → EReal) (ix2 j k))
      = Cert.Spec.gcnDense src dst (fun j k => (after Cert.KernelIdeal.Gen.hostOps0 (Cert.KernelIdeal.Gen.W0 m ρ c) (Proc.devRef .tc Cert.KernelIdeal.main_v0) : Cert.KernelIdeal.S1195x64.Idx → EReal) (ix2 j k))
          (fun d k => (Cert.KernelIdeal.Gen.W0 m ρ c (Proc.devRef .tc Cert.KernelIdeal.main_arg8) : Cert.KernelIdeal.S64x64.Idx → EReal) (ix2 d k)) (fun d => (Cert.KernelIdeal.Gen.W0 m ρ c (Proc.devRef .tc Cert.KernelIdeal.main_arg9) : Cert.KernelIdeal.S64.Idx → EReal) (ix1 d)) :=
    funext fun j => funext fun k => Cert.KernelIdeal.KerGraph.layer1_apply (Cert.KernelIdeal.Gen.W0 m ρ c) src dst hsrcK hdstK j k
  -- the second layer's outputs agree
  have hh : Cert.ReferenceIdeal.RefSpec.hR L' = Cert.KernelIdeal.KerValue.hK m ρ c := by
    funext y
    obtain ⟨i, d, rfl⟩ : ∃ (i : Fin 1195) (d : Fin 64), y = ix2 i d := ⟨y 0, y 1, eq_ix2 y⟩
    rw [Cert.ReferenceIdeal.RefSpec.hR_apply L' src dst hsrcR hdstR i d, hinR, e8, e9, e10, e11]
    unfold Cert.KernelIdeal.KerValue.hK
    refine Eq.trans ?_ (Cert.KernelIdeal.KerGraph.layer2_apply (Cert.KernelIdeal.Gen.W0 m ρ c) src dst hsrcK hdstK i d).symm
    rw [hin2, hin1]
    exact (Cert.Spec.gcnDense2_eq_gcnScatter2 src dst hxr (fun d k => h8 _) (fun d => h9 _) (fun d k => h10 _) (fun d => h11 _) i d).symm
  -- the normalisation chains agree
  have hes : Cert.KernelIdeal.Chain.esK (F := Ideal) (Cert.KernelIdeal.KerValue.x1K m ρ c) (Cert.KernelIdeal.KerValue.hK m ρ c)
      = Cert.ReferenceIdeal.RefHead.esT (F := Ideal) (Cert.ReferenceIdeal.RefSpec.x1R L') (Cert.ReferenceIdeal.RefSpec.hR L') := by
    rw [hx1, hh]; exact Cert.ChainEq.esK_eq_esT _ _
  have heh : Cert.KernelIdeal.Chain.ehK (F := Ideal) (Cert.KernelIdeal.KerValue.x1K m ρ c) (Cert.KernelIdeal.KerValue.hK m ρ c)
      = Cert.ReferenceIdeal.RefHead.ehT (F := Ideal) (Cert.ReferenceIdeal.RefSpec.x1R L') (Cert.ReferenceIdeal.RefSpec.hR L') := by
    rw [hx1, hh]; exact Cert.ChainEq.ehK_eq_ehT _ _
  -- entry by entry
  rw [Cert.KernelIdeal.Run.result_eq m ρ c]
  funext y
  obtain ⟨r, u, rfl⟩ : ∃ (r : Fin 16384) (u : Fin 805), y = ix2 r u := ⟨y 0, y 1, eq_ix2 y⟩
  refine (Cert.ReferenceIdeal.RefSpec.out_apply L' r u).trans ?_
  refine Eq.trans ?_ (Cert.KernelIdeal.KerValue.result_apply m ρ c r u).symm
  rw [e6, e12, e13, e14, e15, ← hes, ← heh]
  unfold Cert.KernelIdeal.KerValue.zS
  exact (Cert.Spec.out_bnK_eq_out_bnR _ _ _ _ (fun d => h14 _) (fun d => h15 _) Cert.Spec.ofBits_eps_bn _ r u).symm

end Value

/-- The algebraic claim: from memories agreeing on the arguments both idealized programs run, their argument arrays end
    as launched, and their result arrays end equal — at the contents the kernel program's last segment boundary gives its
    result array. -/
theorem algebraic : Cert.algebraic_KernelIdeal_ReferenceIdeal := by
  intro m ρ m' ρ' hpre hagree
  refine ⟨fun c => Cert.KernelIdeal.Gen.W5 m ρ c (Proc.devRef .tc Cert.KernelIdeal.main_v102), Cert.KernelIdeal.Run.run_out m ρ, ?_⟩
  exact (θ_run Cert.ReferenceIdeal.defs _ _).mono (fun r h c =>
    ⟨(h c Cert.ReferenceIdeal.main_v134).trans (value_eq m ρ m' hpre hagree c),
      (h c Cert.ReferenceIdeal.main_arg0).trans (Cert.ReferenceIdeal.RefRun.kept_main_arg0 m' c),
      (h c Cert.ReferenceIdeal.main_arg1).trans (Cert.ReferenceIdeal.RefRun.kept_main_arg1 m' c),
      (h c Cert.ReferenceIdeal.main_arg2).trans (Cert.ReferenceIdeal.RefRun.kept_main_arg2 m' c),
      (h c Cert.ReferenceIdeal.main_arg3).trans (Cert.ReferenceIdeal.RefRun.kept_main_arg3 m' c),
      (h c Cert.ReferenceIdeal.main_arg4).trans (Cert.ReferenceIdeal.RefRun.kept_main_arg4 m' c),
      (h c Cert.ReferenceIdeal.main_arg5).trans (Cert.ReferenceIdeal.RefRun.kept_main_arg5 m' c),
      (h c Cert.ReferenceIdeal.main_arg6).trans (Cert.ReferenceIdeal.RefRun.kept_main_arg6 m' c),
      (h c Cert.ReferenceIdeal.main_arg7).trans (Cert.ReferenceIdeal.RefRun.kept_main_arg7 m' c),
      (h c Cert.ReferenceIdeal.main_arg8).trans (Cert.ReferenceIdeal.RefRun.kept_main_arg8 m' c),
      (h c Cert.ReferenceIdeal.main_arg9).trans (Cert.ReferenceIdeal.RefRun.kept_main_arg9 m' c),
      (h c Cert.ReferenceIdeal.main_arg10).trans (Cert.ReferenceIdeal.RefRun.kept_main_arg10 m' c),
      (h c Cert.ReferenceIdeal.main_arg11).trans (Cert.ReferenceIdeal.RefRun.kept_main_arg11 m' c),
      (h c Cert.ReferenceIdeal.main_arg12).trans (Cert.ReferenceIdeal.RefRun.kept_main_arg12 m' c),
      (h c Cert.ReferenceIdeal.main_arg13).trans (Cert.ReferenceIdeal.RefRun.kept_main_arg13 m' c),
      (h c Cert.ReferenceIdeal.main_arg14).trans (Cert.ReferenceIdeal.RefRun.kept_main_arg14 m' c),
      (h c Cert.ReferenceIdeal.main_arg15).trans (Cert.ReferenceIdeal.RefRun.kept_main_arg15 m' c)⟩)
    (Cert.ReferenceIdeal.RefRun.run_all (F := Ideal) m' ρ')

end Cert.Proof.Bridge

end
-- ==== Proof.lean ====
/-
  The certificate's claim: the three frames, the (empty) ledger of the ideal pass, and the equality of the two
  idealized programs' results over the extended reals.

  The kernel program is two pallas_calls among host operations: a graph part on the host (an embedding lookup and two
  mean-aggregating graph-convolution layers, done through a dense 1195 × 1195 edge-count matrix), a shared
  normalisation chain, a first call computing z = (P · es / rowsum P) · Wᵀ + b with per-block column sums of z and z²,
  host arithmetic turning those sums into a batch normalisation's scale and shift, and a second call computing
  max (z · scale + shift) 0 · ehᵀ. The reference does the graph layers edge by edge with scatter-adds and the batch
  normalisation in centred form. Over the extended reals the two agree wherever the two index arguments are in range
  (the precondition's added conjuncts); the float arguments' finiteness is what lets a factor move across the edge sums.
-/
import proofs.«406313_j19000935318034_3_alg».proof.Defs
import proofs.«406313_j19000935318034_3_alg».proof.Proof.Gen.Kernel
import proofs.«406313_j19000935318034_3_alg».proof.Proof.Gen.KernelIdeal
import proofs.«406313_j19000935318034_3_alg».proof.Proof.Gen.ReferenceIdeal
import proofs.«406313_j19000935318034_3_alg».proof.Proof.Gen.Pre_finite_inputs
import proofs.«406313_j19000935318034_3_alg».proof.Proof.Frames
import proofs.«406313_j19000935318034_3_alg».proof.Proof.Bridge

noncomputable section

namespace Cert.Proof

open Idealize.ShloMosaic Idealize.SL.Sem

/-- The ideal pass rewrote nothing in this kernel: its ledger is empty and the claim about it is `True`. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, preserves, Cert.Proof.Bridge.algebraic⟩

end Cert.Proof

end
